-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v179)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v179) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v282) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S640000x16 : Shape := ⟨2, ![640000, 16]⟩
abbrev S128x128 : Shape := ⟨2, ![128, 128]⟩
abbrev S128 : Shape := ⟨1, ![128]⟩
abbrev S3x16x128 : Shape := ⟨3, ![3, 16, 128]⟩
abbrev S3x128 : Shape := ⟨2, ![3, 128]⟩
abbrev S3x256x1 : Shape := ⟨3, ![3, 256, 1]⟩
abbrev S3x1 : Shape := ⟨2, ![3, 1]⟩
abbrev S3 : Shape := ⟨1, ![3]⟩
abbrev S3x128x256 : Shape := ⟨3, ![3, 128, 256]⟩
abbrev S3x256 : Shape := ⟨2, ![3, 256]⟩
abbrev S3x256x128 : Shape := ⟨3, ![3, 256, 128]⟩
abbrev S2x640000 : Shape := ⟨2, ![2, 640000]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S640000x16 : S_.BroadcastsInDim S640000x16 (![] : Fin 0 → Fin S640000x16.rank)
  reducesTo_S640000x16_S_d0_1 : S640000x16.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x16x128 : S_.BroadcastsInDim S3x16x128 (![] : Fin 0 → Fin S3x16x128.rank)
  reducesTo_S3x16x128_S_d0_1_2 : S3x16x128.ReducesTo [0, 1, 2] S_
  bcast_S_S3x128 : S_.BroadcastsInDim S3x128 (![] : Fin 0 → Fin S3x128.rank)
  reducesTo_S3x128_S_d0_1 : S3x128.ReducesTo [0, 1] S_
  bcast_S_S3x256x1 : S_.BroadcastsInDim S3x256x1 (![] : Fin 0 → Fin S3x256x1.rank)
  reducesTo_S3x256x1_S_d0_1_2 : S3x256x1.ReducesTo [0, 1, 2] S_
  bcast_S_S3x1 : S_.BroadcastsInDim S3x1 (![] : Fin 0 → Fin S3x1.rank)
  reducesTo_S3x1_S_d0_1 : S3x1.ReducesTo [0, 1] S_
  bcast_S_S3 : S_.BroadcastsInDim S3 (![] : Fin 0 → Fin S3.rank)
  reducesTo_S3_S_d0 : S3.ReducesTo [0] S_
  bcast_S_S3x128x256 : S_.BroadcastsInDim S3x128x256 (![] : Fin 0 → Fin S3x128x256.rank)
  reducesTo_S3x128x256_S_d0_1_2 : S3x128x256.ReducesTo [0, 1, 2] S_
  bcast_S_S3x256 : S_.BroadcastsInDim S3x256 (![] : Fin 0 → Fin S3x256.rank)
  reducesTo_S3x256_S_d0_1 : S3x256.ReducesTo [0, 1] S_
  bcast_S_S3x256x128 : S_.BroadcastsInDim S3x256x128 (![] : Fin 0 → Fin S3x256x128.rank)
  reducesTo_S3x256x128_S_d0_1_2 : S3x256x128.ReducesTo [0, 1, 2] S_
  bcast_S_S2x640000 : S_.BroadcastsInDim S2x640000 (![] : Fin 0 → Fin S2x640000.rank)
  reducesTo_S2x640000_S_d0_1 : S2x640000.ReducesTo [0, 1] S_

variable [Facts]

def fn_part5 {F : FTy → Type} [FloatOps F] (main_arg17 : IVec S2x640000 32) (main_v83 : IVec S_ 1) (main_v84 : IVec S2x640000 32) : IVec S_ 1 :=
  let main_v85 : IVec S2x640000 1 := cmpi .sge main_arg17 main_v84
  let main_c_33 : IVec S_ 1 := constantI S_ 1 1#1
  let main_v86 : IVec S_ 1 := (fun x v => Host.reduce IntOp.andi x v reducesTo_S2x640000_S_d0_1 h_S_) main_v85 main_c_33
  let main_v87 : IVec S_ 1 := andi main_v83 main_v86
  let main_c_34 : IVec S_ 32 := constantI S_ 32 40000#32
  let main_v88 : IVec S2x640000 32 := broadcastInDim S2x640000 ![] bcast_S_S2x640000 main_c_34
  let main_v89 : IVec S2x640000 1 := cmpi .slt main_arg17 main_v88
  let main_c_35 : IVec S_ 1 := constantI S_ 1 1#1
  let main_v90 : IVec S_ 1 := (fun x v => Host.reduce IntOp.andi x v reducesTo_S2x640000_S_d0_1 h_S_) main_v89 main_c_35
  let main_v91 : IVec S_ 1 := andi main_v87 main_v90
  main_v91

def fn_part4 {F : FTy → Type} [FloatOps F] (main_arg14 : FVec F S3x128 .f32) (main_arg15 : FVec F S3x128 .f32) (main_arg16 : FVec F S3x128 .f32) (main_arg17 : IVec S2x640000 32) (main_v63 : IVec S_ 1) (main_v67 : IVec S_ 1) : IVec S_ 1 :=
  let main_v68 : IVec S_ 1 := andi main_v63 main_v67
  let main_v69 : FVec F S3x128 .f32 := Host.absf main_arg14
  let main_cst_26 : FVec F S_ .f32 := constant S_ .f32 0x7F800000#32
  let main_v70 : FVec F S3x128 .f32 := broadcastInDim S3x128 ![] bcast_S_S3x128 main_cst_26
  let main_v71 : IVec S3x128 1 := cmpf .olt main_v69 main_v70
  let main_c_27 : IVec S_ 1 := constantI S_ 1 1#1
  let main_v72 : IVec S_ 1 := (fun x v => Host.reduce IntOp.andi x v reducesTo_S3x128_S_d0_1 h_S_) main_v71 main_c_27
  let main_v73 : IVec S_ 1 := andi main_v68 main_v72
  let main_v74 : FVec F S3x128 .f32 := Host.absf main_arg15
  let main_cst_28 : FVec F S_ .f32 := constant S_ .f32 0x7F800000#32
  let main_v75 : FVec F S3x128 .f32 := broadcastInDim S3x128 ![] bcast_S_S3x128 main_cst_28
  let main_v76 : IVec S3x128 1 := cmpf .olt main_v74 main_v75
  let main_c_29 : IVec S_ 1 := constantI S_ 1 1#1
  let main_v77 : IVec S_ 1 := (fun x v => Host.reduce IntOp.andi x v reducesTo_S3x128_S_d0_1 h_S_) main_v76 main_c_29
  let main_v78 : IVec S_ 1 := andi main_v73 main_v77
  let main_v79 : FVec F S3x128 .f32 := Host.absf main_arg16
  let main_cst_30 : FVec F S_ .f32 := constant S_ .f32 0x7F800000#32
  let main_v80 : FVec F S3x128 .f32 := broadcastInDim S3x128 ![] bcast_S_S3x128 main_cst_30
  let main_v81 : IVec S3x128 1 := cmpf .olt main_v79 main_v80
  let main_c_31 : IVec S_ 1 := constantI S_ 1 1#1
  let main_v82 : IVec S_ 1 := (fun x v => Host.reduce IntOp.andi x v reducesTo_S3x128_S_d0_1 h_S_) main_v81 main_c_31
  let main_v83 : IVec S_ 1 := andi main_v78 main_v82
  let main_c_32 : IVec S_ 32 := constantI S_ 32 0#32
  let main_v84 : IVec S2x640000 32 := broadcastInDim S2x640000 ![] bcast_S_S2x640000 main_c_32
  fn_part5 (F := F) main_arg17 main_v83 main_v84

def fn_part3 {F : FTy → Type} [FloatOps F] (main_arg11 : FVec F S3x256 .f32) (main_arg12 : FVec F S3x256 .f32) (main_arg13 : FVec F S3x256x128 .f32) (main_arg14 : FVec F S3x128 .f32) (main_arg15 : FVec F S3x128 .f32) (main_arg16 : FVec F S3x128 .f32) (main_arg17 : IVec S2x640000 32) (main_v48 : IVec S_ 1) (main_v49 : FVec F S3x256 .f32) (main_v50 : FVec F S3x256 .f32) : IVec S_ 1 :=
  let main_v51 : IVec S3x256 1 := cmpf .olt main_v49 main_v50
  let main_c_19 : IVec S_ 1 := constantI S_ 1 1#1
  let main_v52 : IVec S_ 1 := (fun x v => Host.reduce IntOp.andi x v reducesTo_S3x256_S_d0_1 h_S_) main_v51 main_c_19
  let main_v53 : IVec S_ 1 := andi main_v48 main_v52
  let main_v54 : FVec F S3x256 .f32 := Host.absf main_arg11
  let main_cst_20 : FVec F S_ .f32 := constant S_ .f32 0x7F800000#32
  let main_v55 : FVec F S3x256 .f32 := broadcastInDim S3x256 ![] bcast_S_S3x256 main_cst_20
  let main_v56 : IVec S3x256 1 := cmpf .olt main_v54 main_v55
  let main_c_21 : IVec S_ 1 := constantI S_ 1 1#1
  let main_v57 : IVec S_ 1 := (fun x v => Host.reduce IntOp.andi x v reducesTo_S3x256_S_d0_1 h_S_) main_v56 main_c_21
  let main_v58 : IVec S_ 1 := andi main_v53 main_v57
  let main_v59 : FVec F S3x256 .f32 := Host.absf main_arg12
  let main_cst_22 : FVec F S_ .f32 := constant S_ .f32 0x7F800000#32
  let main_v60 : FVec F S3x256 .f32 := broadcastInDim S3x256 ![] bcast_S_S3x256 main_cst_22
  let main_v61 : IVec S3x256 1 := cmpf .olt main_v59 main_v60
  let main_c_23 : IVec S_ 1 := constantI S_ 1 1#1
  let main_v62 : IVec S_ 1 := (fun x v => Host.reduce IntOp.andi x v reducesTo_S3x256_S_d0_1 h_S_) main_v61 main_c_23
  let main_v63 : IVec S_ 1 := andi main_v58 main_v62
  let main_v64 : FVec F S3x256x128 .f32 := Host.absf main_arg13
  let main_cst_24 : FVec F S_ .f32 := constant S_ .f32 0x7F800000#32
  let main_v65 : FVec F S3x256x128 .f32 := broadcastInDim S3x256x128 ![] bcast_S_S3x256x128 main_cst_24
  let main_v66 : IVec S3x256x128 1 := cmpf .olt main_v64 main_v65
  let main_c_25 : IVec S_ 1 := constantI S_ 1 1#1
  let main_v67 : IVec S_ 1 := (fun x v => Host.reduce IntOp.andi x v reducesTo_S3x256x128_S_d0_1_2 h_S_) main_v66 main_c_25
  fn_part4 (F := F) main_arg14 main_arg15 main_arg16 main_arg17 main_v63 main_v67

def fn_part2 {F : FTy → Type} [FloatOps F] (main_arg7 : FVec F S3x1 .f32) (main_arg8 : FVec F S3 .f32) (main_arg9 : FVec F S3x128x256 .f32) (main_arg10 : FVec F S3x256 .f32) (main_arg11 : FVec F S3x256 .f32) (main_arg12 : FVec F S3x256 .f32) (main_arg13 : FVec F S3x256x128 .f32) (main_arg14 : FVec F S3x128 .f32) (main_arg15 : FVec F S3x128 .f32) (main_arg16 : FVec F S3x128 .f32) (main_arg17 : IVec S2x640000 32) (main_v33 : IVec S_ 1) : IVec S_ 1 :=
  let main_v34 : FVec F S3x1 .f32 := Host.absf main_arg7
  let main_cst_12 : FVec F S_ .f32 := constant S_ .f32 0x7F800000#32
  let main_v35 : FVec F S3x1 .f32 := broadcastInDim S3x1 ![] bcast_S_S3x1 main_cst_12
  let main_v36 : IVec S3x1 1 := cmpf .olt main_v34 main_v35
  let main_c_13 : IVec S_ 1 := constantI S_ 1 1#1
  let main_v37 : IVec S_ 1 := (fun x v => Host.reduce IntOp.andi x v reducesTo_S3x1_S_d0_1 h_S_) main_v36 main_c_13
  let main_v38 : IVec S_ 1 := andi main_v33 main_v37
  let main_v39 : FVec F S3 .f32 := Host.absf main_arg8
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  let main_v44 : FVec F S3x128x256 .f32 := Host.absf main_arg9
  let main_cst_16 : FVec F S_ .f32 := constant S_ .f32 0x7F800000#32
  let main_v45 : FVec F S3x128x256 .f32 := broadcastInDim S3x128x256 ![] bcast_S_S3x128x256 main_cst_16
  let main_v46 : IVec S3x128x256 1 := cmpf .olt main_v44 main_v45
  let main_c_17 : IVec S_ 1 := constantI S_ 1 1#1
  let main_v47 : IVec S_ 1 := (fun x v => Host.reduce IntOp.andi x v reducesTo_S3x128x256_S_d0_1_2 h_S_) main_v46 main_c_17
  let main_v48 : IVec S_ 1 := andi main_v43 main_v47
  let main_v49 : FVec F S3x256 .f32 := Host.absf main_arg10
  let main_cst_18 : FVec F S_ .f32 := constant S_ .f32 0x7F800000#32
  let main_v50 : FVec F S3x256 .f32 := broadcastInDim S3x256 ![] bcast_S_S3x256 main_cst_18
  fn_part3 (F := F) main_arg11 main_arg12 main_arg13 main_arg14 main_arg15 main_arg16 main_arg17 main_v48 main_v49 main_v50

def fn_part1 {F : FTy → Type} [FloatOps F] (main_arg4 : FVec F S3x16x128 .f32) (main_arg5 : FVec F S3x128 .f32) (main_arg6 : FVec F S3x256x1 .f32) (main_arg7 : FVec F S3x1 .f32) (main_arg8 : FVec F S3 .f32) (main_arg9 : FVec F S3x128x256 .f32) (main_arg10 : FVec F S3x256 .f32) (main_arg11 : FVec F S3x256 .f32) (main_arg12 : FVec F S3x256 .f32) (main_arg13 : FVec F S3x256x128 .f32) (main_arg14 : FVec F S3x128 .f32) (main_arg15 : FVec F S3x128 .f32) (main_arg16 : FVec F S3x128 .f32) (main_arg17 : IVec S2x640000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S3x16x128 .f32 := Host.absf main_arg4
  let main_cst_6 : FVec F S_ .f32 := constant S_ .f32 0x7F800000#32
  let main_v20 : FVec F S3x16x128 .f32 := broadcastInDim S3x16x128 ![] bcast_S_S3x16x128 main_cst_6
  let main_v21 : IVec S3x16x128 1 := cmpf .olt main_v19 main_v20
  let main_c_7 : IVec S_ 1 := constantI S_ 1 1#1
  let main_v22 : IVec S_ 1 := (fun x v => Host.reduce IntOp.andi x v reducesTo_S3x16x128_S_d0_1_2 h_S_) main_v21 main_c_7
  let main_v23 : IVec S_ 1 := andi main_v18 main_v22
  let main_v24 : FVec F S3x128 .f32 := Host.absf main_arg5
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x256x1 .f32 := Host.absf main_arg6
  let main_cst_10 : FVec F S_ .f32 := constant S_ .f32 0x7F800000#32
  let main_v30 : FVec F S3x256x1 .f32 := broadcastInDim S3x256x1 ![] bcast_S_S3x256x1 main_cst_10
  let main_v31 : IVec S3x256x1 1 := cmpf .olt main_v29 main_v30
  let main_c_11 : IVec S_ 1 := constantI S_ 1 1#1
  let main_v32 : IVec S_ 1 := (fun x v => Host.reduce IntOp.andi x v reducesTo_S3x256x1_S_d0_1_2 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S40000x128 .f32) (main_arg1 : FVec F S640000x16 .f32) (main_arg2 : FVec F S128x128 .f32) (main_arg3 : FVec F S128 .f32) (main_arg4 : FVec F S3x16x128 .f32) (main_arg5 : FVec F S3x128 .f32) (main_arg6 : FVec F S3x256x1 .f32) (main_arg7 : FVec F S3x1 .f32) (main_arg8 : FVec F S3 .f32) (main_arg9 : FVec F S3x128x256 .f32) (main_arg10 : FVec F S3x256 .f32) (main_arg11 : FVec F S3x256 .f32) (main_arg12 : FVec F S3x256 .f32) (main_arg13 : FVec F S3x256x128 .f32) (main_arg14 : FVec F S3x128 .f32) (main_arg15 : FVec F S3x128 .f32) (main_arg16 : FVec F S3x128 .f32) (main_arg17 : IVec S2x640000 32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S640000x16 .f32 := Host.absf main_arg1
  let main_cst_0 : FVec F S_ .f32 := constant S_ .f32 0x7F800000#32
  let main_v5 : FVec F S640000x16 .f32 := broadcastInDim S640000x16 ![] bcast_S_S640000x16 main_cst_0
  let main_v6 : IVec S640000x16 1 := cmpf .olt main_v4 main_v5
  let main_c_1 : IVec S_ 1 := constantI S_ 1 1#1
  let main_v7 : IVec S_ 1 := (fun x v => Host.reduce IntOp.andi x v reducesTo_S640000x16_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S40000x128 : Shape := ⟨2, ![40000, 128]⟩
abbrev S640000x16 : Shape := ⟨2, ![640000, 16]⟩
abbrev S128x128 : Shape := ⟨2, ![128, 128]⟩
abbrev S128 : Shape := ⟨1, ![128]⟩
abbrev S3x16x128 : Shape := ⟨3, ![3, 16, 128]⟩
abbrev S3x128 : Shape := ⟨2, ![3, 128]⟩
abbrev S3x256x1 : Shape := ⟨3, ![3, 256, 1]⟩
abbrev S3x1 : Shape := ⟨2, ![3, 1]⟩
abbrev S3 : Shape := ⟨1, ![3]⟩
abbrev S3x128x256 : Shape := ⟨3, ![3, 128, 256]⟩
abbrev S3x256 : Shape := ⟨2, ![3, 256]⟩
abbrev S3x256x128 : Shape := ⟨3, ![3, 256, 128]⟩
abbrev S2x640000 : Shape := ⟨2, ![2, 640000]⟩
abbrev S1x640000 : Shape := ⟨2, ![1, 640000]⟩
abbrev S640000 : Shape := ⟨1, ![640000]⟩
abbrev S_ : Shape := ⟨0, ![]⟩
abbrev S1x128 : Shape := ⟨2, ![1, 128]⟩
abbrev S2000x128 : Shape := ⟨2, ![2000, 128]⟩
abbrev S640000x1 : Shape := ⟨2, ![640000, 1]⟩
abbrev S640000x128 : Shape := ⟨2, ![640000, 128]⟩
abbrev S1x16x128 : Shape := ⟨3, ![1, 16, 128]⟩
abbrev S16x128 : Shape := ⟨2, ![16, 128]⟩
abbrev S1x128x1 : Shape := ⟨3, ![1, 128, 1]⟩
abbrev S128x1 : Shape := ⟨2, ![128, 1]⟩
abbrev S1x1 : Shape := ⟨2, ![1, 1]⟩
abbrev S1 : Shape := ⟨1, ![1]⟩
abbrev S2560x128 : Shape := ⟨2, ![2560, 128]⟩
abbrev S2560x16 : Shape := ⟨2, ![2560, 16]⟩
abbrev S2560 : Shape := ⟨1, ![2560]⟩
abbrev S2560x1 : Shape := ⟨2, ![2560, 1]⟩
abbrev S40960x128 : Shape := ⟨2, ![40960, 128]⟩
abbrev S1x2560 : Shape := ⟨2, ![1, 2560]⟩
abbrev S2560x2560 : Shape := ⟨2, ![2560, 2560]⟩
abbrev S1x128x256 : Shape := ⟨3, ![1, 128, 256]⟩
abbrev S128x256 : Shape := ⟨2, ![128, 256]⟩
abbrev S1x256 : Shape := ⟨2, ![1, 256]⟩
abbrev S256 : Shape := ⟨1, ![256]⟩
abbrev S1x256x128 : Shape := ⟨3, ![1, 256, 128]⟩
abbrev S256x128 : Shape := ⟨2, ![256, 128]⟩
abbrev S2000x256 : Shape := ⟨2, ![2000, 256]⟩

abbrev nBuf : Space → Nat
  | .hbm => 224
  | .vmem => 111
  | .smem => 0
  | _ => 0

abbrev hbmTy0_0 (i : Nat) : BufTy := match i % 128 with
  | 0 => ⟨S40000x128, .f32⟩
  | 1 => ⟨S640000x16, .f32⟩
  | 2 => ⟨S128x128, .f32⟩
  | 3 => ⟨S128, .f32⟩
  | 4 => ⟨S3x16x128, .f32⟩
  | 5 => ⟨S3x128, .f32⟩
  | 6 => ⟨S3x256x1, .f32⟩
  | 7 => ⟨S3x1, .f32⟩
  | 8 => ⟨S3, .f32⟩
  | 9 => ⟨S3x128x256, .f32⟩
  | 10 => ⟨S3x256, .f32⟩
  | 11 => ⟨S3x256, .f32⟩
  | 12 => ⟨S3x256, .f32⟩
  | 13 => ⟨S3x256x128, .f32⟩
  | 14 => ⟨S3x128, .f32⟩
  | 15 => ⟨S3x128, .f32⟩
  | 16 => ⟨S3x128, .f32⟩
  | 17 => ⟨S2x640000, .i32⟩
  | 18 => ⟨S1x640000, .i32⟩
  | 19 => ⟨S640000, .i32⟩
  | 20 => ⟨S_, .i32⟩
  | 21 => ⟨S_, .i32⟩
  | 22 => ⟨S_, .i32⟩
  | 23 => ⟨S640000, .i32⟩
  | 24 => ⟨S640000, .i32⟩
  | 25 => ⟨S_, .i32⟩
  | 26 => ⟨S640000, .i32⟩
  | 27 => ⟨S640000, .i32⟩
  | 28 => ⟨S1x640000, .i32⟩
  | 29 => ⟨S640000, .i32⟩
  | 30 => ⟨S_, .i32⟩
  | 31 => ⟨S_, .i32⟩
  | 32 => ⟨S_, .i32⟩
  | 33 => ⟨S640000, .i32⟩
  | 34 => ⟨S640000, .i32⟩
  | 35 => ⟨S_, .i32⟩
  | 36 => ⟨S640000, .i32⟩
  | 37 => ⟨S640000, .i32⟩
  | 38 => ⟨S1x640000, .i32⟩
  | 39 => ⟨S1x128, .f32⟩
  | 40 => ⟨S40000x128, .f32⟩
  | 41 => ⟨S_, .i32⟩
  | 42 => ⟨S640000, .i32⟩
  | 43 => ⟨S640000, .i1⟩
  | 44 => ⟨S_, .i32⟩
  | 45 => ⟨S640000, .i32⟩
  | 46 => ⟨S640000, .i32⟩
  | 47 => ⟨S640000, .i32⟩
  | 48 => ⟨S640000x1, .i32⟩
  | 49 => ⟨S640000x128, .f32⟩
  | 50 => ⟨S_, .i32⟩
  | 51 => ⟨S640000, .i32⟩
  | 52 => ⟨S640000, .i1⟩
  | 53 => ⟨S_, .i32⟩
  | 54 => ⟨S640000, .i32⟩
  | 55 => ⟨S640000, .i32⟩
  | 56 => ⟨S640000, .i32⟩
  | 57 => ⟨S640000x1, .i32⟩
  | 58 => ⟨S640000x128, .f32⟩
  | 59 => ⟨S1x16x128, .f32⟩
  | 60 => ⟨S16x128, .f32⟩
  | 61 => ⟨S1x128, .f32⟩
  | 62 => ⟨S128, .f32⟩
  | 63 => ⟨S1x128, .f32⟩
  | 64 => ⟨S1x128x1, .f32⟩
  | 65 => ⟨S128x1, .f32⟩
  | 66 => ⟨S1x128, .f32⟩
  | 67 => ⟨S1x128x1, .f32⟩
  | 68 => ⟨S128x1, .f32⟩
  | 69 => ⟨S1x128, .f32⟩
  | 70 => ⟨S1x1, .f32⟩
  | 71 => ⟨S1, .f32⟩
  | 72 => ⟨S1x1, .f32⟩
  | 73 => ⟨S640000x128, .bf16⟩
  | 74 => ⟨S40960x128, .f32⟩
  | 75 => ⟨S40000x128, .f32⟩
  | 76 => ⟨S1, .f32⟩
  | 77 => ⟨S_, .f32⟩
  | 78 => ⟨S1x1, .f32⟩
  | 79 => ⟨S1x128x256, .f32⟩
  | 80 => ⟨S128x256, .f32⟩
  | 81 => ⟨S1x256, .f32⟩
  | 82 => ⟨S256, .f32⟩
  | 83 => ⟨S1x256, .f32⟩
  | 84 => ⟨S1x256, .f32⟩
  | 85 => ⟨S256, .f32⟩
  | 86 => ⟨S1x256, .f32⟩
  | 87 => ⟨S1x256, .f32⟩
  | 88 => ⟨S256, .f32⟩
  | 89 => ⟨S1x256, .f32⟩
  | 90 => ⟨S1x256x128, .f32⟩
  | 91 => ⟨S256x128, .f32⟩
  | 92 => ⟨S1x128, .f32⟩
  | 93 => ⟨S128, .f32⟩
  | 94 => ⟨S1x128, .f32⟩
  | 95 => ⟨S1x128, .f32⟩
  | 96 => ⟨S128, .f32⟩
  | 97 => ⟨S1x128, .f32⟩
  | 98 => ⟨S1x128, .f32⟩
  | 99 => ⟨S128, .f32⟩
  | 100 => ⟨S1x128, .f32⟩
  | 101 => ⟨S40000x128, .f32⟩
  | 102 => ⟨S_, .i32⟩
  | 103 => ⟨S640000, .i32⟩
  | 104 => ⟨S640000, .i1⟩
  | 105 => ⟨S_, .i32⟩
  | 106 => ⟨S640000, .i32⟩
  | 107 => ⟨S640000, .i32⟩
  | 108 => ⟨S640000, .i32⟩
  | 109 => ⟨S640000x1, .i32⟩
  | 110 => ⟨S640000x128, .f32⟩
  | 111 => ⟨S_, .i32⟩
  | 112 => ⟨S640000, .i32⟩
  | 113 => ⟨S640000, .i1⟩
  | 114 => ⟨S_, .i32⟩
  | 115 => ⟨S640000, .i32⟩
  | 116 => ⟨S640000, .i32⟩
  | 117 => ⟨S640000, .i32⟩
  | 118 => ⟨S640000x1, .i32⟩
  | 119 => ⟨S640000x128, .f32⟩
  | 120 => ⟨S1x16x128, .f32⟩
  | 121 => ⟨S16x128, .f32⟩
  | 122 => ⟨S1x128, .f32⟩
  | 123 => ⟨S128, .f32⟩
  | 124 => ⟨S1x128, .f32⟩
  | 125 => ⟨S1x128x1, .f32⟩
  | 126 => ⟨S128x1, .f32⟩
  | 127 => ⟨S1x128, .f32⟩
  | _ => ⟨S40000x128, .f32⟩

abbrev hbmTy0_1 (i : Nat) : BufTy := match i % 128 with
  | 0 => ⟨S1x128x1, .f32⟩
  | 1 => ⟨S128x1, .f32⟩
  | 2 => ⟨S1x128, .f32⟩
  | 3 => ⟨S1x1, .f32⟩
  | 4 => ⟨S1, .f32⟩
  | 5 => ⟨S1x1, .f32⟩
  | 6 => ⟨S640000x128, .bf16⟩
  | 7 => ⟨S40960x128, .f32⟩
  | 8 => ⟨S40000x128, .f32⟩
  | 9 => ⟨S1, .f32⟩
  | 10 => ⟨S_, .f32⟩
  | 11 => ⟨S1x1, .f32⟩
  | 12 => ⟨S1x128x256, .f32⟩
  | 13 => ⟨S128x256, .f32⟩
  | 14 => ⟨S1x256, .f32⟩
  | 15 => ⟨S256, .f32⟩
  | 16 => ⟨S1x256, .f32⟩
  | 17 => ⟨S1x256, .f32⟩
  | 18 => ⟨S256, .f32⟩
  | 19 => ⟨S1x256, .f32⟩
  | 20 => ⟨S1x256, .f32⟩
  | 21 => ⟨S256, .f32⟩
  | 22 => ⟨S1x256, .f32⟩
  | 23 => ⟨S1x256x128, .f32⟩
  | 24 => ⟨S256x128, .f32⟩
  | 25 => ⟨S1x128, .f32⟩
  | 26 => ⟨S128, .f32⟩
  | 27 => ⟨S1x128, .f32⟩
  | 28 => ⟨S1x128, .f32⟩
  | 29 => ⟨S128, .f32⟩
  | 30 => ⟨S1x128, .f32⟩
  | 31 => ⟨S1x128, .f32⟩
  | 32 => ⟨S128, .f32⟩
  | 33 => ⟨S1x128, .f32⟩
  | 34 => ⟨S40000x128, .f32⟩
  | 35 => ⟨S_, .i32⟩
  | 36 => ⟨S640000, .i32⟩
  | 37 => ⟨S640000, .i1⟩
  | 38 => ⟨S_, .i32⟩
  | 39 => ⟨S640000, .i32⟩
  | 40 => ⟨S640000, .i32⟩
  | 41 => ⟨S640000, .i32⟩
  | 42 => ⟨S640000x1, .i32⟩
  | 43 => ⟨S640000x128, .f32⟩
  | 44 => ⟨S_, .i32⟩
  | 45 => ⟨S640000, .i32⟩
  | 46 => ⟨S640000, .i1⟩
  | 47 => ⟨S_, .i32⟩
  | 48 => ⟨S640000, .i32⟩
  | 49 => ⟨S640000, .i32⟩
  | 50 => ⟨S640000, .i32⟩
  | 51 => ⟨S640000x1, .i32⟩
  | 52 => ⟨S640000x128, .f32⟩
  | 53 => ⟨S1x16x128, .f32⟩
  | 54 => ⟨S16x128, .f32⟩
  | 55 => ⟨S1x128, .f32⟩
  | 56 => ⟨S128, .f32⟩
  | 57 => ⟨S1x128, .f32⟩
  | 58 => ⟨S1x128x1, .f32⟩
  | 59 => ⟨S128x1, .f32⟩
  | 60 => ⟨S1x128, .f32⟩
  | 61 => ⟨S1x128x1, .f32⟩
  | 62 => ⟨S128x1, .f32⟩
  | 63 => ⟨S1x128, .f32⟩
  | 64 => ⟨S1x1, .f32⟩
  | 65 => ⟨S1, .f32⟩
  | 66 => ⟨S1x1, .f32⟩
  | 67 => ⟨S640000x128, .bf16⟩
  | 68 => ⟨S40960x128, .f32⟩
  | 69 => ⟨S40000x128, .f32⟩
  | 70 => ⟨S1, .f32⟩
  | 71 => ⟨S_, .f32⟩
  | 72 => ⟨S1x1, .f32⟩
  | 73 => ⟨S1x128x256, .f32⟩
  | 74 => ⟨S128x256, .f32⟩
  | 75 => ⟨S1x256, .f32⟩
  | 76 => ⟨S256, .f32⟩
  | 77 => ⟨S1x256, .f32⟩
  | 78 => ⟨S1x256, .f32⟩
  | 79 => ⟨S256, .f32⟩
  | 80 => ⟨S1x256, .f32⟩
  | 81 => ⟨S1x256, .f32⟩
  | 82 => ⟨S256, .f32⟩
  | 83 => ⟨S1x256, .f32⟩
  | 84 => ⟨S1x256x128, .f32⟩
  | 85 => ⟨S256x128, .f32⟩
  | 86 => ⟨S1x128, .f32⟩
  | 87 => ⟨S128, .f32⟩
  | 88 => ⟨S1x128, .f32⟩
  | 89 => ⟨S1x128, .f32⟩
  | 90 => ⟨S128, .f32⟩
  | 91 => ⟨S1x128, .f32⟩
  | 92 => ⟨S1x128, .f32⟩
  | 93 => ⟨S128, .f32⟩
  | 94 => ⟨S1x128, .f32⟩
  | 95 => ⟨S40000x128, .f32⟩
  | _ => ⟨S40000x128, .f32⟩

abbrev hbmTy (i : Nat) : BufTy := match i / 128 with
  | 0 => hbmTy0_0 i
  | 1 => hbmTy0_1 i
  | _ => ⟨S40000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2560x128, .f32⟩
  | .local _ .vmem, ⟨7, _⟩ => ⟨S2560x128, .f32⟩
  | .local _ .vmem, ⟨8, _⟩ => ⟨S2560x128, .f32⟩
  | .local _ .vmem, ⟨9, _⟩ => ⟨S2560x128, .f32⟩
  | .local _ .vmem, ⟨10, _⟩ => ⟨S2560x16, .f32⟩
  | .local _ .vmem, ⟨11, _⟩ => ⟨S2560x16, .f32⟩
  | .local _ .vmem, ⟨12, _⟩ => ⟨S16x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x1, .f32⟩
  | .local _ .vmem, ⟨17, _⟩ => ⟨S2560x128, .bf16⟩
  | .local _ .vmem, ⟨18, _⟩ => ⟨S2560x128, .bf16⟩
  | .local _ .vmem, ⟨19, _⟩ => ⟨S1x2560, .i32⟩
  | .local _ .vmem, ⟨20, _⟩ => ⟨S1x2560, .i32⟩
  | .local _ .vmem, ⟨21, _⟩ => ⟨S2560x128, .bf16⟩
  | .local _ .vmem, ⟨22, _⟩ => ⟨S2560x128, .bf16⟩
  | .local _ .vmem, ⟨23, _⟩ => ⟨S2560x128, .f32⟩
  | .local _ .vmem, ⟨24, _⟩ => ⟨S2560x128, .f32⟩
  | .local _ .vmem, ⟨25, _⟩ => ⟨S2560x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S1x1, .f32⟩
  | .local _ .vmem, ⟨31, _⟩ => ⟨S128x256, .f32⟩
  | .local _ .vmem, ⟨32, _⟩ => ⟨S1x256, .f32⟩
  | .local _ .vmem, ⟨33, _⟩ => ⟨S1x256, .f32⟩
  | .local _ .vmem, ⟨34, _⟩ => ⟨S1x256, .f32⟩
  | .local _ .vmem, ⟨35, _⟩ => ⟨S256x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S2000x128, .f32⟩
  | .local _ .vmem, ⟨40, _⟩ => ⟨S2000x128, .f32⟩
  | .local _ .vmem, ⟨41, _⟩ => ⟨S2560x128, .f32⟩
  | .local _ .vmem, ⟨42, _⟩ => ⟨S2560x128, .f32⟩
  | .local _ .vmem, ⟨43, _⟩ => ⟨S2560x128, .f32⟩
  | .local _ .vmem, ⟨44, _⟩ => ⟨S2560x128, .f32⟩
  | .local _ .vmem, ⟨45, _⟩ => ⟨S2560x16, .f32⟩
  | .local _ .vmem, ⟨46, _⟩ => ⟨S2560x16, .f32⟩
  | .local _ .vmem, ⟨47, _⟩ => ⟨S16x128, .f32⟩
  | .local _ .vmem, ⟨48, _⟩ => ⟨S1x128, .f32⟩
  | .local _ .vmem, ⟨49, _⟩ => ⟨S1x128, .f32⟩
  | .local _ .vmem, ⟨50, _⟩ => ⟨S1x128, .f32⟩
  | .local _ .vmem, ⟨51, _⟩ => ⟨S1x1, .f32⟩
  | .local _ .vmem, ⟨52, _⟩ => ⟨S2560x128, .bf16⟩
  | .local _ .vmem, ⟨53, _⟩ => ⟨S2560x128, .bf16⟩
  | .local _ .vmem, ⟨54, _⟩ => ⟨S1x2560, .i32⟩
  | .local _ .vmem, ⟨55, _⟩ => ⟨S1x2560, .i32⟩
  | .local _ .vmem, ⟨56, _⟩ => ⟨S2560x128, .bf16⟩
  | .local _ .vmem, ⟨57, _⟩ => ⟨S2560x128, .bf16⟩
  | .local _ .vmem, ⟨58, _⟩ => ⟨S2560x128, .f32⟩
  | .local _ .vmem, ⟨59, _⟩ => ⟨S2560x128, .f32⟩
  | .local _ .vmem, ⟨60, _⟩ => ⟨S2560x128, .f32⟩
  | .local _ .vmem, ⟨61, _⟩ => ⟨S2000x128, .f32⟩
  | .local _ .vmem, ⟨62, _⟩ => ⟨S2000x128, .f32⟩
  | .local _ .vmem, ⟨63, _⟩ => ⟨S2000x128, .f32⟩
  | .local _ .vmem, ⟨64, _⟩ => ⟨S2000x128, .f32⟩
  | .local _ .vmem, ⟨65, _⟩ => ⟨S1x1, .f32⟩
  | .local _ .vmem, ⟨66, _⟩ => ⟨S128x256, .f32⟩
  | .local _ .vmem, ⟨67, _⟩ => ⟨S1x256, .f32⟩
  | .local _ .vmem, ⟨68, _⟩ => ⟨S1x256, .f32⟩
  | .local _ .vmem, ⟨69, _⟩ => ⟨S1x256, .f32⟩
  | .local _ .vmem, ⟨70, _⟩ => ⟨S256x128, .f32⟩
  | .local _ .vmem, ⟨71, _⟩ => ⟨S1x128, .f32⟩
  | .local _ .vmem, ⟨72, _⟩ => ⟨S1x128, .f32⟩
  | .local _ .vmem, ⟨73, _⟩ => ⟨S1x128, .f32⟩
  | .local _ .vmem, ⟨74, _⟩ => ⟨S2000x128, .f32⟩
  | .local _ .vmem, ⟨75, _⟩ => ⟨S2000x128, .f32⟩
  | .local _ .vmem, ⟨76, _⟩ => ⟨S2560x128, .f32⟩
  | .local _ .vmem, ⟨77, _⟩ => ⟨S2560x128, .f32⟩
  | .local _ .vmem, ⟨78, _⟩ => ⟨S2560x128, .f32⟩
  | .local _ .vmem, ⟨79, _⟩ => ⟨S2560x128, .f32⟩
  | .local _ .vmem, ⟨80, _⟩ => ⟨S2560x16, .f32⟩
  | .local _ .vmem, ⟨81, _⟩ => ⟨S2560x16, .f32⟩
  | .local _ .vmem, ⟨82, _⟩ => ⟨S16x128, .f32⟩
  | .local _ .vmem, ⟨83, _⟩ => ⟨S1x128, .f32⟩
  | .local _ .vmem, ⟨84, _⟩ => ⟨S1x128, .f32⟩
  | .local _ .vmem, ⟨85, _⟩ => ⟨S1x128, .f32⟩
  | .local _ .vmem, ⟨86, _⟩ => ⟨S1x1, .f32⟩
  | .local _ .vmem, ⟨87, _⟩ => ⟨S2560x128, .bf16⟩
  | .local _ .vmem, ⟨88, _⟩ => ⟨S2560x128, .bf16⟩
  | .local _ .vmem, ⟨89, _⟩ => ⟨S1x2560, .i32⟩
  | .local _ .vmem, ⟨90, _⟩ => ⟨S1x2560, .i32⟩
  | .local _ .vmem, ⟨91, _⟩ => ⟨S2560x128, .bf16⟩
  | .local _ .vmem, ⟨92, _⟩ => ⟨S2560x128, .bf16⟩
  | .local _ .vmem, ⟨93, _⟩ => ⟨S2560x128, .f32⟩
  | .local _ .vmem, ⟨94, _⟩ => ⟨S2560x128, .f32⟩
  | .local _ .vmem, ⟨95, _⟩ => ⟨S2560x128, .f32⟩
  | .local _ .vmem, ⟨96, _⟩ => ⟨S2000x128, .f32⟩
  | .local _ .vmem, ⟨97, _⟩ => ⟨S2000x128, .f32⟩
  | .local _ .vmem, ⟨98, _⟩ => ⟨S2000x128, .f32⟩
  | .local _ .vmem, ⟨99, _⟩ => ⟨S2000x128, .f32⟩
  | .local _ .vmem, ⟨100, _⟩ => ⟨S1x1, .f32⟩
  | .local _ .vmem, ⟨101, _⟩ => ⟨S128x256, .f32⟩
  | .local _ .vmem, ⟨102, _⟩ => ⟨S1x256, .f32⟩
  | .local _ .vmem, ⟨103, _⟩ => ⟨S1x256, .f32⟩
  | .local _ .vmem, ⟨104, _⟩ => ⟨S1x256, .f32⟩
  | .local _ .vmem, ⟨105, _⟩ => ⟨S256x128, .f32⟩
  | .local _ .vmem, ⟨106, _⟩ => ⟨S1x128, .f32⟩
  | .local _ .vmem, ⟨107, _⟩ => ⟨S1x128, .f32⟩
  | .local _ .vmem, ⟨108, _⟩ => ⟨S1x128, .f32⟩
  | .local _ .vmem, ⟨109, _⟩ => ⟨S2000x128, .f32⟩
  | .local _ .vmem, ⟨110, _⟩ => ⟨S2000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | _, _ => false

abbrev semScoped : Fin 0 → Bool
  | ⟨_, h⟩ => absurd h (Nat.not_lt_zero _)

abbrev dmaSemScoped : Fin 108 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | _ => false

abbrev sig : RefSig :=
  ofTc nBuf bufTy 0 108 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_c : Ref sig .tc := ⟨.hbm, 20, rfl⟩
abbrev main_c_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_c_1 : Ref sig .tc := ⟨.hbm, 30, rfl⟩
abbrev main_c_2 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_c_3 : Ref sig .tc := ⟨.hbm, 41, rfl⟩
abbrev main_v9 : Ref sig .tc := ⟨.hbm, 42, rfl⟩
abbrev main_v10 : Ref sig .tc := ⟨.hbm, 43, rfl⟩
abbrev main_c_4 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_c_5 : Ref sig .tc := ⟨.hbm, 50, rfl⟩
abbrev main_v16 : Ref sig .tc := ⟨.hbm, 51, rfl⟩
abbrev main_v17 : Ref sig .tc := ⟨.hbm, 52, rfl⟩
abbrev main_c_6 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_c_7 : Ref sig .tc := ⟨.hbm, 102, rfl⟩
abbrev main_v66 : Ref sig .tc := ⟨.hbm, 103, rfl⟩
abbrev main_v67 : Ref sig .tc := ⟨.hbm, 104, rfl⟩
abbrev main_c_8 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_c_9 : Ref sig .tc := ⟨.hbm, 111, rfl⟩
abbrev main_v73 : Ref sig .tc := ⟨.hbm, 112, rfl⟩
abbrev main_v74 : Ref sig .tc := ⟨.hbm, 113, rfl⟩
abbrev main_c_10 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_c_11 : Ref sig .tc := ⟨.hbm, 163, rfl⟩
abbrev main_v123 : Ref sig .tc := ⟨.hbm, 164, rfl⟩
abbrev main_v124 : Ref sig .tc := ⟨.hbm, 165, rfl⟩
abbrev main_c_12 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_c_13 : Ref sig .tc := ⟨.hbm, 172, rfl⟩
abbrev main_v130 : Ref sig .tc := ⟨.hbm, 173, rfl⟩
abbrev main_v131 : Ref sig .tc := ⟨.hbm, 174, rfl⟩
abbrev main_c_14 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg8_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_scratch0 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg7_0 : Ref sig .tc := ⟨.vmem, 35, rfl⟩
abbrev cc3_stg8_0 : Ref sig .tc := ⟨.vmem, 36, rfl⟩
abbrev cc3_stg9_0 : Ref sig .tc := ⟨.vmem, 37, rfl⟩
abbrev cc3_stg10_0 : Ref sig .tc := ⟨.vmem, 38, rfl⟩
abbrev cc3_stg11_0 : Ref sig .tc := ⟨.vmem, 39, rfl⟩
abbrev cc3_stg11_1 : Ref sig .tc := ⟨.vmem, 40, rfl⟩
abbrev cc4_stg0_0 : Ref sig .tc := ⟨.vmem, 41, rfl⟩
abbrev cc4_stg0_1 : Ref sig .tc := ⟨.vmem, 42, rfl⟩
abbrev cc4_stg1_0 : Ref sig .tc := ⟨.vmem, 43, rfl⟩
abbrev cc4_stg1_1 : Ref sig .tc := ⟨.vmem, 44, rfl⟩
abbrev cc4_stg2_0 : Ref sig .tc := ⟨.vmem, 45, rfl⟩
abbrev cc4_stg2_1 : Ref sig .tc := ⟨.vmem, 46, rfl⟩
abbrev cc4_stg3_0 : Ref sig .tc := ⟨.vmem, 47, rfl⟩
abbrev cc4_stg4_0 : Ref sig .tc := ⟨.vmem, 48, rfl⟩
abbrev cc4_stg5_0 : Ref sig .tc := ⟨.vmem, 49, rfl⟩
abbrev cc4_stg6_0 : Ref sig .tc := ⟨.vmem, 50, rfl⟩
abbrev cc4_stg7_0 : Ref sig .tc := ⟨.vmem, 51, rfl⟩
abbrev cc4_stg8_0 : Ref sig .tc := ⟨.vmem, 52, rfl⟩
abbrev cc4_stg8_1 : Ref sig .tc := ⟨.vmem, 53, rfl⟩
abbrev cc5_stg0_0 : Ref sig .tc := ⟨.vmem, 54, rfl⟩
abbrev cc5_stg0_1 : Ref sig .tc := ⟨.vmem, 55, rfl⟩
abbrev cc5_stg1_0 : Ref sig .tc := ⟨.vmem, 56, rfl⟩
abbrev cc5_stg1_1 : Ref sig .tc := ⟨.vmem, 57, rfl⟩
abbrev cc5_stg2_0 : Ref sig .tc := ⟨.vmem, 58, rfl⟩
abbrev cc5_stg2_1 : Ref sig .tc := ⟨.vmem, 59, rfl⟩
abbrev cc5_scratch0 : Ref sig .tc := ⟨.vmem, 60, rfl⟩
abbrev cc6_stg0_0 : Ref sig .tc := ⟨.vmem, 61, rfl⟩
abbrev cc6_stg0_1 : Ref sig .tc := ⟨.vmem, 62, rfl⟩
abbrev cc6_stg1_0 : Ref sig .tc := ⟨.vmem, 63, rfl⟩
abbrev cc6_stg1_1 : Ref sig .tc := ⟨.vmem, 64, rfl⟩
abbrev cc6_stg2_0 : Ref sig .tc := ⟨.vmem, 65, rfl⟩
abbrev cc6_stg3_0 : Ref sig .tc := ⟨.vmem, 66, rfl⟩
abbrev cc6_stg4_0 : Ref sig .tc := ⟨.vmem, 67, rfl⟩
abbrev cc6_stg5_0 : Ref sig .tc := ⟨.vmem, 68, rfl⟩
abbrev cc6_stg6_0 : Ref sig .tc := ⟨.vmem, 69, rfl⟩
abbrev cc6_stg7_0 : Ref sig .tc := ⟨.vmem, 70, rfl⟩
abbrev cc6_stg8_0 : Ref sig .tc := ⟨.vmem, 71, rfl⟩
abbrev cc6_stg9_0 : Ref sig .tc := ⟨.vmem, 72, rfl⟩
abbrev cc6_stg10_0 : Ref sig .tc := ⟨.vmem, 73, rfl⟩
abbrev cc6_stg11_0 : Ref sig .tc := ⟨.vmem, 74, rfl⟩
abbrev cc6_stg11_1 : Ref sig .tc := ⟨.vmem, 75, rfl⟩
abbrev cc7_stg0_0 : Ref sig .tc := ⟨.vmem, 76, rfl⟩
abbrev cc7_stg0_1 : Ref sig .tc := ⟨.vmem, 77, rfl⟩
abbrev cc7_stg1_0 : Ref sig .tc := ⟨.vmem, 78, rfl⟩
abbrev cc7_stg1_1 : Ref sig .tc := ⟨.vmem, 79, rfl⟩
abbrev cc7_stg2_0 : Ref sig .tc := ⟨.vmem, 80, rfl⟩
abbrev cc7_stg2_1 : Ref sig .tc := ⟨.vmem, 81, rfl⟩
abbrev cc7_stg3_0 : Ref sig .tc := ⟨.vmem, 82, rfl⟩
abbrev cc7_stg4_0 : Ref sig .tc := ⟨.vmem, 83, rfl⟩
abbrev cc7_stg5_0 : Ref sig .tc := ⟨.vmem, 84, rfl⟩
abbrev cc7_stg6_0 : Ref sig .tc := ⟨.vmem, 85, rfl⟩
abbrev cc7_stg7_0 : Ref sig .tc := ⟨.vmem, 86, rfl⟩
abbrev cc7_stg8_0 : Ref sig .tc := ⟨.vmem, 87, rfl⟩
abbrev cc7_stg8_1 : Ref sig .tc := ⟨.vmem, 88, rfl⟩
abbrev cc8_stg0_0 : Ref sig .tc := ⟨.vmem, 89, rfl⟩
abbrev cc8_stg0_1 : Ref sig .tc := ⟨.vmem, 90, rfl⟩
abbrev cc8_stg1_0 : Ref sig .tc := ⟨.vmem, 91, rfl⟩
abbrev cc8_stg1_1 : Ref sig .tc := ⟨.vmem, 92, rfl⟩
abbrev cc8_stg2_0 : Ref sig .tc := ⟨.vmem, 93, rfl⟩
abbrev cc8_stg2_1 : Ref sig .tc := ⟨.vmem, 94, rfl⟩
abbrev cc8_scratch0 : Ref sig .tc := ⟨.vmem, 95, rfl⟩
abbrev cc9_stg0_0 : Ref sig .tc := ⟨.vmem, 96, rfl⟩
abbrev cc9_stg0_1 : Ref sig .tc := ⟨.vmem, 97, rfl⟩
abbrev cc9_stg1_0 : Ref sig .tc := ⟨.vmem, 98, rfl⟩
abbrev cc9_stg1_1 : Ref sig .tc := ⟨.vmem, 99, rfl⟩
abbrev cc9_stg2_0 : Ref sig .tc := ⟨.vmem, 100, rfl⟩
abbrev cc9_stg3_0 : Ref sig .tc := ⟨.vmem, 101, rfl⟩
abbrev cc9_stg4_0 : Ref sig .tc := ⟨.vmem, 102, rfl⟩
abbrev cc9_stg5_0 : Ref sig .tc := ⟨.vmem, 103, rfl⟩
abbrev cc9_stg6_0 : Ref sig .tc := ⟨.vmem, 104, rfl⟩
abbrev cc9_stg7_0 : Ref sig .tc := ⟨.vmem, 105, rfl⟩
abbrev cc9_stg8_0 : Ref sig .tc := ⟨.vmem, 106, rfl⟩
abbrev cc9_stg9_0 : Ref sig .tc := ⟨.vmem, 107, rfl⟩
abbrev cc9_stg10_0 : Ref sig .tc := ⟨.vmem, 108, rfl⟩
abbrev cc9_stg11_0 : Ref sig .tc := ⟨.vmem, 109, rfl⟩
abbrev cc9_stg11_1 : Ref sig .tc := ⟨.vmem, 110, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem8_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem6_0 : DmaSem sig := 33
abbrev cc3_sem7_0 : DmaSem sig := 34
abbrev cc3_sem8_0 : DmaSem sig := 35
abbrev cc3_sem9_0 : DmaSem sig := 36
abbrev cc3_sem10_0 : DmaSem sig := 37
abbrev cc3_sem11_0 : DmaSem sig := 38
abbrev cc3_sem11_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem2_1 : DmaSem sig := 45
abbrev cc4_sem3_0 : DmaSem sig := 46
abbrev cc4_sem4_0 : DmaSem sig := 47
abbrev cc4_sem5_0 : DmaSem sig := 48
abbrev cc4_sem6_0 : DmaSem sig := 49
abbrev cc4_sem7_0 : DmaSem sig := 50
abbrev cc4_sem8_0 : DmaSem sig := 51
abbrev cc4_sem8_1 : DmaSem sig := 52
abbrev cc5_sem0_0 : DmaSem sig := 53
abbrev cc5_sem0_1 : DmaSem sig := 54
abbrev cc5_sem1_0 : DmaSem sig := 55
abbrev cc5_sem1_1 : DmaSem sig := 56
abbrev cc5_sem2_0 : DmaSem sig := 57
abbrev cc5_sem2_1 : DmaSem sig := 58
abbrev cc6_sem0_0 : DmaSem sig := 59
abbrev cc6_sem0_1 : DmaSem sig := 60
abbrev cc6_sem1_0 : DmaSem sig := 61
abbrev cc6_sem1_1 : DmaSem sig := 62
abbrev cc6_sem2_0 : DmaSem sig := 63
abbrev cc6_sem3_0 : DmaSem sig := 64
abbrev cc6_sem4_0 : DmaSem sig := 65
abbrev cc6_sem5_0 : DmaSem sig := 66
abbrev cc6_sem6_0 : DmaSem sig := 67
abbrev cc6_sem7_0 : DmaSem sig := 68
abbrev cc6_sem8_0 : DmaSem sig := 69
abbrev cc6_sem9_0 : DmaSem sig := 70
abbrev cc6_sem10_0 : DmaSem sig := 71
abbrev cc6_sem11_0 : DmaSem sig := 72
abbrev cc6_sem11_1 : DmaSem sig := 73
abbrev cc7_sem0_0 : DmaSem sig := 74
abbrev cc7_sem0_1 : DmaSem sig := 75
abbrev cc7_sem1_0 : DmaSem sig := 76
abbrev cc7_sem1_1 : DmaSem sig := 77
abbrev cc7_sem2_0 : DmaSem sig := 78
abbrev cc7_sem2_1 : DmaSem sig := 79
abbrev cc7_sem3_0 : DmaSem sig := 80
abbrev cc7_sem4_0 : DmaSem sig := 81
abbrev cc7_sem5_0 : DmaSem sig := 82
abbrev cc7_sem6_0 : DmaSem sig := 83
abbrev cc7_sem7_0 : DmaSem sig := 84
abbrev cc7_sem8_0 : DmaSem sig := 85
abbrev cc7_sem8_1 : DmaSem sig := 86
abbrev cc8_sem0_0 : DmaSem sig := 87
abbrev cc8_sem0_1 : DmaSem sig := 88
abbrev cc8_sem1_0 : DmaSem sig := 89
abbrev cc8_sem1_1 : DmaSem sig := 90
abbrev cc8_sem2_0 : DmaSem sig := 91
abbrev cc8_sem2_1 : DmaSem sig := 92
abbrev cc9_sem0_0 : DmaSem sig := 93
abbrev cc9_sem0_1 : DmaSem sig := 94
abbrev cc9_sem1_0 : DmaSem sig := 95
abbrev cc9_sem1_1 : DmaSem sig := 96
abbrev cc9_sem2_0 : DmaSem sig := 97
abbrev cc9_sem3_0 : DmaSem sig := 98
abbrev cc9_sem4_0 : DmaSem sig := 99
abbrev cc9_sem5_0 : DmaSem sig := 100
abbrev cc9_sem6_0 : DmaSem sig := 101
abbrev cc9_sem7_0 : DmaSem sig := 102
abbrev cc9_sem8_0 : DmaSem sig := 103
abbrev cc9_sem9_0 : DmaSem sig := 104
abbrev cc9_sem10_0 : DmaSem sig := 105
abbrev cc9_sem11_0 : DmaSem sig := 106
abbrev cc9_sem11_1 : DmaSem sig := 107

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2560x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2560x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2560x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2560x128 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨2, ![16, 250], ![false, false]⟩

def k2_cond2 (i : grid2.Coords) : BitVec 1 :=
  let arg1 : BitVec 32 := BitVec.ofNat 32 (i 1).val
  let c249_i32 : BitVec 32 := 249#32
  let v23 : BitVec 1 := Scalar.cmpi .eq arg1 c249_i32
  let v24 : BitVec 32 := Scalar.extui v23
  let c0_i32_8 : BitVec 32 := 0#32
  let v25 : BitVec 1 := Scalar.cmpi .ne v24 c0_i32_8
  v25

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1x2560 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S2560x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2560x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S256x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 2 → Memref sig .tc .vmem S2000x128 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev grid4 : Pipeline.Grid := ⟨1, ![250], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2560x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2560x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2560x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S16x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x1 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S2560x128 .bf16 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨2, ![16, 250], ![false, false]⟩

def k5_cond2 (i : grid5.Coords) : BitVec 1 :=
  let arg1 : BitVec 32 := BitVec.ofNat 32 (i 1).val
  let c249_i32 : BitVec 32 := 249#32
  let v23 : BitVec 1 := Scalar.cmpi .eq arg1 c249_i32
  let v24 : BitVec 32 := Scalar.extui v23
  let c0_i32_8 : BitVec 32 := 0#32
  let v25 : BitVec 1 := Scalar.cmpi .ne v24 c0_i32_8
  v25

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1x2560 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S2560x128 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S2560x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_11 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x256 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x256 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S256x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x128 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S1x128 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 1 → Memref sig .tc .vmem S1x128 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

abbrev stage6_11 : Fin 2 → Memref sig .tc .vmem S2000x128 .f32 := fun | 0 => Memref.whole cc6_stg11_0 | 1 => Memref.whole cc6_stg11_1 | ⟨_ + 2, h⟩ => absurd h (Nat.not_lt.2 (Nat.le_add_left _ _))
abbrev sem6_11 : Fin 2 → DmaSem sig := fun | 0 => cc6_sem11_0 | 1 => cc6_sem11_1 | ⟨_ + 2, h⟩ => absurd h (Nat.not_lt.2 (Nat.le_add_left _ _))
abbrev reads6_11 : Fin grid6.rank → Bool := ![true]

abbrev grid7 : Pipeline.Grid := ⟨1, ![250], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2560x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2560x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2560x16 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S16x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S1x1 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 2 → Memref sig .tc .vmem S2560x128 .bf16 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![true]

abbrev grid8 : Pipeline.Grid := ⟨2, ![16, 250], ![false, false]⟩

def k8_cond2 (i : grid8.Coords) : BitVec 1 :=
  let arg1 : BitVec 32 := BitVec.ofNat 32 (i 1).val
  let c249_i32 : BitVec 32 := 249#32
  let v23 : BitVec 1 := Scalar.cmpi .eq arg1 c249_i32
  let v24 : BitVec 32 := Scalar.extui v23
  let c0_i32_8 : BitVec 32 := 0#32
  let v25 : BitVec 1 := Scalar.cmpi .ne v24 c0_i32_8
  v25

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage8_0 : Fin 2 → Memref sig .tc .vmem S1x2560 .i32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![false, true]

abbrev stage8_1 : Fin 2 → Memref sig .tc .vmem S2560x128 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S2560x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, false]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_8 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_9 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_10 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_11 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S1x1 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S128x256 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x256 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1x256 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x256 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 1 → Memref sig .tc .vmem S256x128 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

abbrev stage9_8 : Fin 1 → Memref sig .tc .vmem S1x128 .f32 := fun | 0 => Memref.whole cc9_stg8_0 | ⟨_ + 1, h⟩ => absurd h (Nat.not_lt.2 (Nat.le_add_left _ _))
abbrev sem9_8 : Fin 1 → DmaSem sig := fun | 0 => cc9_sem8_0 | ⟨_ + 1, h⟩ => absurd h (Nat.not_lt.2 (Nat.le_add_left _ _))
abbrev reads9_8 : Fin grid9.rank → Bool := ![false]

abbrev stage9_9 : Fin 1 → Memref sig .tc .vmem S1x128 .f32 := fun | 0 => Memref.whole cc9_stg9_0 | ⟨_ + 1, h⟩ => absurd h (Nat.not_lt.2 (Nat.le_add_left _ _))
abbrev sem9_9 : Fin 1 → DmaSem sig := fun | 0 => cc9_sem9_0 | ⟨_ + 1, h⟩ => absurd h (Nat.not_lt.2 (Nat.le_add_left _ _))
abbrev reads9_9 : Fin grid9.rank → Bool := ![false]

abbrev stage9_10 : Fin 1 → Memref sig .tc .vmem S1x128 .f32 := fun | 0 => Memref.whole cc9_stg10_0 | ⟨_ + 1, h⟩ => absurd h (Nat.not_lt.2 (Nat.le_add_left _ _))
abbrev sem9_10 : Fin 1 → DmaSem sig := fun | 0 => cc9_sem10_0 | ⟨_ + 1, h⟩ => absurd h (Nat.not_lt.2 (Nat.le_add_left _ _))
abbrev reads9_10 : Fin grid9.rank → Bool := ![false]

abbrev stage9_11 : Fin 2 → Memref sig .tc .vmem S2000x128 .f32 := fun | 0 => Memref.whole cc9_stg11_0 | 1 => Memref.whole cc9_stg11_1 | ⟨_ + 2, h⟩ => absurd h (Nat.not_lt.2 (Nat.le_add_left _ _))
abbrev sem9_11 : Fin 2 → DmaSem sig := fun | 0 => cc9_sem11_0 | 1 => cc9_sem11_1 | ⟨_ + 2, h⟩ => absurd h (Nat.not_lt.2 (Nat.le_add_left _ _))
abbrev reads9_11 : Fin grid9.rank → Bool := ![true]

class Facts₀ : Prop where
  slices_S2x640000_S1x640000_0_0 : S2x640000.Slices ![0, 0] S1x640000
  shapeCasts_S1x640000_S640000 : S1x640000.ShapeCasts S640000
  bcast_S_S640000 : S_.BroadcastsInDim S640000 (![] : Fin 0 → Fin S640000.rank)
  slices_S2x640000_S1x640000_1_0 : S2x640000.Slices ![1, 0] S1x640000
  shapeCasts_S640000_S1x640000 : S640000.ShapeCasts S1x640000
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S640000_S640000x1_0 : S640000.BroadcastsInDim S640000x1 (![0] : Fin 1 → Fin S640000x1.rank)
  slices_S3x16x128_S1x16x128_0_0_0 : S3x16x128.Slices ![0, 0, 0] S1x16x128
  shapeCasts_S1x16x128_S16x128 : S1x16x128.ShapeCasts S16x128
  slices_S3x128_S1x128_0_0 : S3x128.Slices ![0, 0] S1x128
  shapeCasts_S1x128_S128 : S1x128.ShapeCasts S128
  slices_S3x256x1_S1x128x1_0_0_0 : S3x256x1.Slices ![0, 0, 0] S1x128x1
  shapeCasts_S1x128x1_S128x1 : S1x128x1.ShapeCasts S128x1
  shapeCasts_S128x1_S1x128 : S128x1.ShapeCasts S1x128
  slices_S3x256x1_S1x128x1_0_128_0 : S3x256x1.Slices ![0, 128, 0] S1x128x1
  slices_S3x1_S1x1_0_0 : S3x1.Slices ![0, 0] S1x1
  shapeCasts_S1x1_S1 : S1x1.ShapeCasts S1
  shapeCasts_S1_S1x1 : S1.ShapeCasts S1x1
  inb_S2560x16_S2560x16_0_0 : ∀ a, (![0, 0] : Fin 2 → Nat) a + S2560x16.size a ≤ S2560x16.size a
  h_S2560x16 : 0 < S2560x16.numel
  inb_S16x128_S16x128_0_0 : ∀ a, (![0, 0] : Fin 2 → Nat) a + S16x128.size a ≤ S16x128.size a
  h_S16x128 : 0 < S16x128.numel
  shapeCasts_S16x128_S16x128 : S16x128.ShapeCasts S16x128
  broadcasts_S1x128_S2560x128 : S1x128.Broadcasts S2560x128
  inb_S2560x128_S2560x128_0_0 : ∀ a, (![0, 0] : Fin 2 → Nat) a + S2560x128.size a ≤ S2560x128.size a
  h_S2560x128 : 0 < S2560x128.numel
  shapeCasts_S2560x128_S2560x128 : S2560x128.ShapeCasts S2560x128
  reduces_S2560x128_S2560 : S2560x128.Reduces [1] S2560
  shapeCasts_S2560_S2560x1 : S2560.ShapeCasts S2560x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2560x1 : S1x1.Broadcasts S2560x1
  broadcasts_S2560x1_S2560x128 : S2560x1.Broadcasts S2560x128
  packedbf16_S2560x128_S2560x128_0_0 : (Rect.unit (s := S2560x128) ![0, 0] S2560x128.size inb_S2560x128_S2560x128_0_0).PackedRows (EltTy.packing .bf16)
  iota_S2560x1_d0_w32 : S2560x1.Iotas .tc 32 [0]
  inb_S1x2560_S1x2560_0_0 : ∀ a, (![0, 0] : Fin 2 → Nat) a + S1x2560.size a ≤ S1x2560.size a
  h_S1x2560 : 0 < S1x2560.numel
  shapeCasts_S1x2560_S1x2560 : S1x2560.ShapeCasts S1x2560
  broadcasts_S2560x1_S2560x2560 : S2560x1.Broadcasts S2560x2560
  broadcasts_S1x2560_S2560x2560 : S1x2560.Broadcasts S2560x2560
  natLt_1_32 : 1 < 32
  slices_S40960x128_S40000x128_0_0 : S40960x128.Slices ![0, 0] S40000x128
  slices_S3_S1_0 : S3.Slices ![0] S1
  shapeCasts_S1_S_ : S1.ShapeCasts S_
  shapeCasts_S_S1x1 : S_.ShapeCasts S1x1
  slices_S3x128x256_S1x128x256_0_0_0 : S3x128x256.Slices ![0, 0, 0] S1x128x256
  shapeCasts_S1x128x256_S128x256 : S1x128x256.ShapeCasts S128x256
  slices_S3x256_S1x256_0_0 : S3x256.Slices ![0, 0] S1x256
  shapeCasts_S1x256_S256 : S1x256.ShapeCasts S256
  shapeCasts_S256_S1x256 : S256.ShapeCasts S1x256
  slices_S3x256x128_S1x256x128_0_0_0 : S3x256x128.Slices ![0, 0, 0] S1x256x128
  shapeCasts_S1x256x128_S256x128 : S1x256x128.ShapeCasts S256x128
  shapeCasts_S2000x128_S2000x128 : S2000x128.ShapeCasts S2000x128
  broadcasts_S1x1_S2000x128 : S1x1.Broadcasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  slices_S3x16x128_S1x16x128_1_0_0 : S3x16x128.Slices ![1, 0, 0] S1x16x128
  slices_S3x128_S1x128_1_0 : S3x128.Slices ![1, 0] S1x128
  slices_S3x256x1_S1x128x1_1_0_0 : S3x256x1.Slices ![1, 0, 0] S1x128x1
  slices_S3x256x1_S1x128x1_1_128_0 : S3x256x1.Slices ![1, 128, 0] S1x128x1
  slices_S3x1_S1x1_1_0 : S3x1.Slices ![1, 0] S1x1
  slices_S3_S1_1 : S3.Slices ![1] S1
  slices_S3x128x256_S1x128x256_1_0_0 : S3x128x256.Slices ![1, 0, 0] S1x128x256
  slices_S3x256_S1x256_1_0 : S3x256.Slices ![1, 0] S1x256
  slices_S3x256x128_S1x256x128_1_0_0 : S3x256x128.Slices ![1, 0, 0] S1x256x128
  slices_S3x16x128_S1x16x128_2_0_0 : S3x16x128.Slices ![2, 0, 0] S1x16x128
  slices_S3x128_S1x128_2_0 : S3x128.Slices ![2, 0] S1x128
  slices_S3x256x1_S1x128x1_2_0_0 : S3x256x1.Slices ![2, 0, 0] S1x128x1
  slices_S3x256x1_S1x128x1_2_128_0 : S3x256x1.Slices ![2, 128, 0] S1x128x1
  slices_S3x1_S1x1_2_0 : S3x1.Slices ![2, 0] S1x1
  slices_S3_S1_2 : S3.Slices ![2] S1
  slices_S3x128x256_S1x128x256_2_0_0 : S3x128x256.Slices ![2, 0, 0] S1x128x256
  slices_S3x256_S1x256_2_0 : S3x256.Slices ![2, 0] S1x256
  slices_S3x256x128_S1x256x128_2_0_0 : S3x256x128.Slices ![2, 0, 0] S1x256x128
  dot_S2000x128_S128x128_S2000x128_1_0_0_1_n_n_wf : DotDims.WF S2000x128 S128x128 S2000x128 [1] [0] [0] [1] [] []
  gather_S40000x128_S640000x1_S640000x128_1_0_n_n_0_1_1128_wf : GatherDims.WF S40000x128 S640000x1 S640000x128 [1] [0] [] [0] [] 1 ![1, 128]
  dot_S2560x16_S16x128_S2560x128_1_0_0_1_n_n_wf : DotDims.WF S2560x16 S16x128 S2560x128 [1] [0] [0] [1] [] []
  dot_S2560x2560_S2560x128_S2560x128_1_0_0_1_n_n_wf : DotDims.WF S2560x2560 S2560x128 S2560x128 [1] [0] [0] [1] [] []
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S40000x128.size a
  hwx0_0 : ∀ i : grid0.Coords, EltTy.bits .f32 = 32 ∨ (Rect.block (s := S40000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S40000x128.size a
  hwx0_3 : ∀ i : grid0.Coords, EltTy.bits .f32 = 32 ∨ (Rect.block (s := S40000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2560x128.size a ≤ S640000x128.size a
  hwx1_0 : ∀ i : grid1.Coords, EltTy.bits .f32 = 32 ∨ (Rect.block (s := S640000x128) S2560x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2560x128.size a ≤ S640000x128.size a
  hwx1_1 : ∀ i : grid1.Coords, EltTy.bits .f32 = 32 ∨ (Rect.block (s := S640000x128) S2560x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2560x16.size a ≤ S640000x16.size a
  hwx1_2 : ∀ i : grid1.Coords, EltTy.bits .f32 = 32 ∨ (Rect.block (s := S640000x16) S2560x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x128.size a ≤ S16x128.size a
  hwx1_3 : ∀ i : grid1.Coords, EltTy.bits .f32 = 32 ∨ (Rect.block (s := S16x128) S16x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1.size a ≤ S1x1.size a
  hwx1_7 : ∀ i : grid1.Coords, EltTy.bits .f32 = 32 ∨ (Rect.block (s := S1x1) S1x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2560x128.size a ≤ S640000x128.size a
  hwx1_8 : ∀ i : grid1.Coords, EltTy.bits .bf16 = 32 ∨ (Rect.block (s := S640000x128) S2560x128.size (cc1_transform_8 i) (hinb1_8 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x2560.size a ≤ S1x640000.size a
  hwx2_0 : ∀ i : grid2.Coords, EltTy.bits .i32 = 32 ∨ (Rect.block (s := S1x640000) S1x2560.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2560x128.size a ≤ S640000x128.size a
  hwx2_1 : ∀ i : grid2.Coords, EltTy.bits .bf16 = 32 ∨ (Rect.block (s := S640000x128) S2560x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2560x128.size a ≤ S40960x128.size a
  hwx2_2 : ∀ i : grid2.Coords, EltTy.bits .f32 = 32 ∨ (Rect.block (s := S40960x128) S2560x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S40000x128.size a
  hwx3_0 : ∀ i : grid3.Coords, EltTy.bits .f32 = 32 ∨ (Rect.block (s := S40000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S40000x128.size a
  hwx3_1 : ∀ i : grid3.Coords, EltTy.bits .f32 = 32 ∨ (Rect.block (s := S40000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x256.size a ≤ S128x256.size a
  hwx3_3 : ∀ i : grid3.Coords, EltTy.bits .f32 = 32 ∨ (Rect.block (s := S128x256) S128x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S256x128.size a ≤ S256x128.size a
  hwx3_7 : ∀ i : grid3.Coords, EltTy.bits .f32 = 32 ∨ (Rect.block (s := S256x128) S256x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x128.size a ≤ S1x128.size a
  hwx3_9 : ∀ i : grid3.Coords, EltTy.bits .f32 = 32 ∨ (Rect.block (s := S1x128) S1x128.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x128.size a ≤ S1x128.size a
  hwx3_10 : ∀ i : grid3.Coords, EltTy.bits .f32 = 32 ∨ (Rect.block (s := S1x128) S1x128.size (cc3_transform_10 i) (hinb3_10 i)).WholeWords (EltTy.packing .f32)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S2000x128.size a ≤ S40000x128.size a
  hwx3_11 : ∀ i : grid3.Coords, EltTy.bits .f32 = 32 ∨ (Rect.block (s := S40000x128) S2000x128.size (cc3_transform_11 i) (hinb3_11 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2560x128.size a ≤ S640000x128.size a
  hwx4_0 : ∀ i : grid4.Coords, EltTy.bits .f32 = 32 ∨ (Rect.block (s := S640000x128) S2560x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2560x128.size a ≤ S640000x128.size a
  hwx4_1 : ∀ i : grid4.Coords, EltTy.bits .f32 = 32 ∨ (Rect.block (s := S640000x128) S2560x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2560x16.size a ≤ S640000x16.size a
  hwx4_2 : ∀ i : grid4.Coords, EltTy.bits .f32 = 32 ∨ (Rect.block (s := S640000x16) S2560x16.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S16x128.size a ≤ S16x128.size a
  hwx4_3 : ∀ i : grid4.Coords, EltTy.bits .f32 = 32 ∨ (Rect.block (s := S16x128) S16x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x1.size a ≤ S1x1.size a
  hwx4_7 : ∀ i : grid4.Coords, EltTy.bits .f32 = 32 ∨ (Rect.block (s := S1x1) S1x1.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S2560x128.size a ≤ S640000x128.size a
  hwx4_8 : ∀ i : grid4.Coords, EltTy.bits .bf16 = 32 ∨ (Rect.block (s := S640000x128) S2560x128.size (cc4_transform_8 i) (hinb4_8 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x2560.size a ≤ S1x640000.size a
  hwx5_0 : ∀ i : grid5.Coords, EltTy.bits .i32 = 32 ∨ (Rect.block (s := S1x640000) S1x2560.size (cc5_transform_0 i) (hinb5_0 i)).WholeWords (EltTy.packing .i32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2560x128.size a ≤ S640000x128.size a
  hwx5_1 : ∀ i : grid5.Coords, EltTy.bits .bf16 = 32 ∨ (Rect.block (s := S640000x128) S2560x128.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2560x128.size a ≤ S40960x128.size a
  hwx5_2 : ∀ i : grid5.Coords, EltTy.bits .f32 = 32 ∨ (Rect.block (s := S40960x128) S2560x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S40000x128.size a
  hwx6_0 : ∀ i : grid6.Coords, EltTy.bits .f32 = 32 ∨ (Rect.block (s := S40000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x128.size a ≤ S40000x128.size a
  hwx6_1 : ∀ i : grid6.Coords, EltTy.bits .f32 = 32 ∨ (Rect.block (s := S40000x128) S2000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1.size a ≤ S1x1.size a
  hwx6_2 : ∀ i : grid6.Coords, EltTy.bits .f32 = 32 ∨ (Rect.block (s := S1x1) S1x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x256.size a ≤ S128x256.size a
  hwx6_3 : ∀ i : grid6.Coords, EltTy.bits .f32 = 32 ∨ (Rect.block (s := S128x256) S128x256.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x256.size a ≤ S1x256.size a
  hwx6_4 : ∀ i : grid6.Coords, EltTy.bits .f32 = 32 ∨ (Rect.block (s := S1x256) S1x256.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x256.size a ≤ S1x256.size a
  hwx6_5 : ∀ i : grid6.Coords, EltTy.bits .f32 = 32 ∨ (Rect.block (s := S1x256) S1x256.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x256.size a ≤ S1x256.size a
  hwx6_6 : ∀ i : grid6.Coords, EltTy.bits .f32 = 32 ∨ (Rect.block (s := S1x256) S1x256.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S256x128.size a ≤ S256x128.size a
  hwx6_7 : ∀ i : grid6.Coords, EltTy.bits .f32 = 32 ∨ (Rect.block (s := S256x128) S256x128.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x128.size a ≤ S1x128.size a
  hwx6_8 : ∀ i : grid6.Coords, EltTy.bits .f32 = 32 ∨ (Rect.block (s := S1x128) S1x128.size (cc6_transform_8 i) (hinb6_8 i)).WholeWords (EltTy.packing .f32)
  hstage6_9 : ∀ j, (stage6_9 j).IsWhole
  nbuf6_9 : grid6.bufCount reads6_9 true = 1
  hreads6_9 : ∀ i i' : grid6.Coords, (∀ a, reads6_9 a = true → i a = i' a) → cc6_transform_9 i = cc6_transform_9 i'
  hinb6_9 : ∀ (i : grid6.Coords) a, (cc6_transform_9 i a + 1) * S1x128.size a ≤ S1x128.size a
  hwx6_9 : ∀ i : grid6.Coords, EltTy.bits .f32 = 32 ∨ (Rect.block (s := S1x128) S1x128.size (cc6_transform_9 i) (hinb6_9 i)).WholeWords (EltTy.packing .f32)
  hstage6_10 : ∀ j, (stage6_10 j).IsWhole
  nbuf6_10 : grid6.bufCount reads6_10 true = 1
  hreads6_10 : ∀ i i' : grid6.Coords, (∀ a, reads6_10 a = true → i a = i' a) → cc6_transform_10 i = cc6_transform_10 i'
  hinb6_10 : ∀ (i : grid6.Coords) a, (cc6_transform_10 i a + 1) * S1x128.size a ≤ S1x128.size a
  hwx6_10 : ∀ i : grid6.Coords, EltTy.bits .f32 = 32 ∨ (Rect.block (s := S1x128) S1x128.size (cc6_transform_10 i) (hinb6_10 i)).WholeWords (EltTy.packing .f32)
  hstage6_11 : ∀ j, (stage6_11 j).IsWhole
  nbuf6_11 : grid6.bufCount reads6_11 false = 2
  hreads6_11 : ∀ i i' : grid6.Coords, (∀ a, reads6_11 a = true → i a = i' a) → cc6_transform_11 i = cc6_transform_11 i'
  hinb6_11 : ∀ (i : grid6.Coords) a, (cc6_transform_11 i a + 1) * S2000x128.size a ≤ S40000x128.size a
  hwx6_11 : ∀ i : grid6.Coords, EltTy.bits .f32 = 32 ∨ (Rect.block (s := S40000x128) S2000x128.size (cc6_transform_11 i) (hinb6_11 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2560x128.size a ≤ S640000x128.size a
  hwx7_0 : ∀ i : grid7.Coords, EltTy.bits .f32 = 32 ∨ (Rect.block (s := S640000x128) S2560x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2560x128.size a ≤ S640000x128.size a
  hwx7_1 : ∀ i : grid7.Coords, EltTy.bits .f32 = 32 ∨ (Rect.block (s := S640000x128) S2560x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2560x16.size a ≤ S640000x16.size a
  hwx7_2 : ∀ i : grid7.Coords, EltTy.bits .f32 = 32 ∨ (Rect.block (s := S640000x16) S2560x16.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S16x128.size a ≤ S16x128.size a
  hwx7_3 : ∀ i : grid7.Coords, EltTy.bits .f32 = 32 ∨ (Rect.block (s := S16x128) S16x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S1x1.size a ≤ S1x1.size a
  hwx7_7 : ∀ i : grid7.Coords, EltTy.bits .f32 = 32 ∨ (Rect.block (s := S1x1) S1x1.size (cc7_transform_7 i) (hinb7_7 i)).WholeWords (EltTy.packing .f32)
  hstage7_8 : ∀ j, (stage7_8 j).IsWhole
  nbuf7_8 : grid7.bufCount reads7_8 false = 2
  hreads7_8 : ∀ i i' : grid7.Coords, (∀ a, reads7_8 a = true → i a = i' a) → cc7_transform_8 i = cc7_transform_8 i'
  hinb7_8 : ∀ (i : grid7.Coords) a, (cc7_transform_8 i a + 1) * S2560x128.size a ≤ S640000x128.size a
  hwx7_8 : ∀ i : grid7.Coords, EltTy.bits .bf16 = 32 ∨ (Rect.block (s := S640000x128) S2560x128.size (cc7_transform_8 i) (hinb7_8 i)).WholeWords (EltTy.packing .bf16)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1x2560.size a ≤ S1x640000.size a
  hwx8_0 : ∀ i : grid8.Coords, EltTy.bits .i32 = 32 ∨ (Rect.block (s := S1x640000) S1x2560.size (cc8_transform_0 i) (hinb8_0 i)).WholeWords (EltTy.packing .i32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2560x128.size a ≤ S640000x128.size a
  hwx8_1 : ∀ i : grid8.Coords, EltTy.bits .bf16 = 32 ∨ (Rect.block (s := S640000x128) S2560x128.size (cc8_transform_1 i) (hinb8_1 i)).WholeWords (EltTy.packing .bf16)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2560x128.size a ≤ S40960x128.size a
  hwx8_2 : ∀ i : grid8.Coords, EltTy.bits .f32 = 32 ∨ (Rect.block (s := S40960x128) S2560x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S40000x128.size a
  hwx9_0 : ∀ i : grid9.Coords, EltTy.bits .f32 = 32 ∨ (Rect.block (s := S40000x128) S2000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2000x128.size a ≤ S40000x128.size a
  hwx9_1 : ∀ i : grid9.Coords, EltTy.bits .f32 = 32 ∨ (Rect.block (s := S40000x128) S2000x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x1.size a ≤ S1x1.size a
  hwx9_2 : ∀ i : grid9.Coords, EltTy.bits .f32 = 32 ∨ (Rect.block (s := S1x1) S1x1.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S128x256.size a ≤ S128x256.size a
  hwx9_3 : ∀ i : grid9.Coords, EltTy.bits .f32 = 32 ∨ (Rect.block (s := S128x256) S128x256.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x256.size a ≤ S1x256.size a
  hwx9_4 : ∀ i : grid9.Coords, EltTy.bits .f32 = 32 ∨ (Rect.block (s := S1x256) S1x256.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1x256.size a ≤ S1x256.size a
  hwx9_5 : ∀ i : grid9.Coords, EltTy.bits .f32 = 32 ∨ (Rect.block (s := S1x256) S1x256.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x256.size a ≤ S1x256.size a
  hwx9_6 : ∀ i : grid9.Coords, EltTy.bits .f32 = 32 ∨ (Rect.block (s := S1x256) S1x256.size (cc9_transform_6 i) (hinb9_6 i)).WholeWords (EltTy.packing .f32)
  hstage9_7 : ∀ j, (stage9_7 j).IsWhole
  nbuf9_7 : grid9.bufCount reads9_7 true = 1
  hreads9_7 : ∀ i i' : grid9.Coords, (∀ a, reads9_7 a = true → i a = i' a) → cc9_transform_7 i = cc9_transform_7 i'
  hinb9_7 : ∀ (i : grid9.Coords) a, (cc9_transform_7 i a + 1) * S256x128.size a ≤ S256x128.size a
  hwx9_7 : ∀ i : grid9.Coords, EltTy.bits .f32 = 32 ∨ (Rect.block (s := S256x128) S256x128.size (cc9_transform_7 i) (hinb9_7 i)).WholeWords (EltTy.packing .f32)
  hstage9_8 : ∀ j, (stage9_8 j).IsWhole
  nbuf9_8 : grid9.bufCount reads9_8 true = 1
  hreads9_8 : ∀ i i' : grid9.Coords, (∀ a, reads9_8 a = true → i a = i' a) → cc9_transform_8 i = cc9_transform_8 i'
  hinb9_8 : ∀ (i : grid9.Coords) a, (cc9_transform_8 i a + 1) * S1x128.size a ≤ S1x128.size a
  hwx9_8 : ∀ i : grid9.Coords, EltTy.bits .f32 = 32 ∨ (Rect.block (s := S1x128) S1x128.size (cc9_transform_8 i) (hinb9_8 i)).WholeWords (EltTy.packing .f32)
  hstage9_9 : ∀ j, (stage9_9 j).IsWhole
  nbuf9_9 : grid9.bufCount reads9_9 true = 1
  hreads9_9 : ∀ i i' : grid9.Coords, (∀ a, reads9_9 a = true → i a = i' a) → cc9_transform_9 i = cc9_transform_9 i'
  hinb9_9 : ∀ (i : grid9.Coords) a, (cc9_transform_9 i a + 1) * S1x128.size a ≤ S1x128.size a
  hwx9_9 : ∀ i : grid9.Coords, EltTy.bits .f32 = 32 ∨ (Rect.block (s := S1x128) S1x128.size (cc9_transform_9 i) (hinb9_9 i)).WholeWords (EltTy.packing .f32)
  hstage9_10 : ∀ j, (stage9_10 j).IsWhole
  nbuf9_10 : grid9.bufCount reads9_10 true = 1
  hreads9_10 : ∀ i i' : grid9.Coords, (∀ a, reads9_10 a = true → i a = i' a) → cc9_transform_10 i = cc9_transform_10 i'
  hinb9_10 : ∀ (i : grid9.Coords) a, (cc9_transform_10 i a + 1) * S1x128.size a ≤ S1x128.size a
  hwx9_10 : ∀ i : grid9.Coords, EltTy.bits .f32 = 32 ∨ (Rect.block (s := S1x128) S1x128.size (cc9_transform_10 i) (hinb9_10 i)).WholeWords (EltTy.packing .f32)
  hstage9_11 : ∀ j, (stage9_11 j).IsWhole
  nbuf9_11 : grid9.bufCount reads9_11 false = 2
  hreads9_11 : ∀ i i' : grid9.Coords, (∀ a, reads9_11 a = true → i a = i' a) → cc9_transform_11 i = cc9_transform_11 i'
  hinb9_11 : ∀ (i : grid9.Coords) a, (cc9_transform_11 i a + 1) * S2000x128.size a ≤ S40000x128.size a
  hwx9_11 : ∀ i : grid9.Coords, EltTy.bits .f32 = 32 ∨ (Rect.block (s := S40000x128) S2000x128.size (cc9_transform_11 i) (hinb9_11 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def dot_S2560x16_S16x128_S2560x128_1_0_0_1_n_n : DotDims S2560x16 S16x128 S2560x128 where
  lhsContracting := [1]
  rhsContracting := [0]
  lhsNonContracting := [0]
  rhsNonContracting := [1]
  lhsBatch := []
  rhsBatch := []
  wf := dot_S2560x16_S16x128_S2560x128_1_0_0_1_n_n_wf
def dot_S2560x2560_S2560x128_S2560x128_1_0_0_1_n_n : DotDims S2560x2560 S2560x128 S2560x128 where
  lhsContracting := [1]
  rhsContracting := [0]
  lhsNonContracting := [0]
  rhsNonContracting := [1]
  lhsBatch := []
  rhsBatch := []
  wf := dot_S2560x2560_S2560x128_S2560x128_1_0_0_1_n_n_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S2560x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2560x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S2560x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24) S16x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v36) S1x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v37) S2560x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v6) S1x2560.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S2560x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S2560x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v8) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v42) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v44) S128x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v47) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v50) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v53) S1x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v55) S256x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v58) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v61) S1x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v64) S1x128.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v65) S2000x128.size cc3_transform_11 reads3_11 true false 2 stage3_11 sem3_11
    hrank3 hreads3_11 hinb3_11 nbuf3_11 (Memref.isWhole_whole _) hwx3_11 hstage3_11

abbrev win3 : Fin 12 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | ⟨_ + 12, h⟩ => absurd h (Nat.not_lt.2 (Nat.le_add_left _ _))
abbrev spec3 : Fin 12 → Pipeline.WinSpec sig grid3.rank := fun w => (win3 w).toWinSpec

abbrev win4_0 : Pipeline.Window sig grid4 :=
  Pipeline.Window.ofSpec (Memref.whole main_v79) S2560x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v72) S2560x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg1) S2560x16.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v81) S16x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v84) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v87) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v90) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v93) S1x1.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v94) S2560x128.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v6) S1x2560.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v94) S2560x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v95) S2560x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

abbrev win6_0 : Pipeline.Window sig grid6 :=
  Pipeline.Window.ofSpec (Memref.whole main_v65) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v96) S2000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v99) S1x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v101) S128x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v104) S1x256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v107) S1x256.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v110) S1x256.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v112) S256x128.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v115) S1x128.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v118) S1x128.size cc6_transform_9 reads6_9 false true 1 stage6_9 sem6_9
    hrank6 hreads6_9 hinb6_9 nbuf6_9 (Memref.isWhole_whole _) hwx6_9 hstage6_9

abbrev win6_10 : Pipeline.Window sig grid6 :=
  Pipeline.Window.ofSpec (Memref.whole main_v121) S1x128.size cc6_transform_10 reads6_10 false true 1 stage6_10 sem6_10
    hrank6 hreads6_10 hinb6_10 nbuf6_10 (Memref.isWhole_whole _) hwx6_10 hstage6_10

abbrev win6_11 : Pipeline.Window sig grid6 :=
  Pipeline.Window.ofSpec (Memref.whole main_v122) S2000x128.size cc6_transform_11 reads6_11 true false 2 stage6_11 sem6_11
    hrank6 hreads6_11 hinb6_11 nbuf6_11 (Memref.isWhole_whole _) hwx6_11 hstage6_11

abbrev win6 : Fin 12 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | 11 => win6_11 | ⟨_ + 12, h⟩ => absurd h (Nat.not_lt.2 (Nat.le_add_left _ _))
abbrev spec6 : Fin 12 → Pipeline.WinSpec sig grid6.rank := fun w => (win6 w).toWinSpec

abbrev win7_0 : Pipeline.Window sig grid7 :=
  Pipeline.Window.ofSpec (Memref.whole main_v136) S2560x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v129) S2560x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_arg1) S2560x16.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v138) S16x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v141) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v144) S1x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v147) S1x128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v150) S1x1.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v151) S2560x128.size cc7_transform_8 reads7_8 true false 2 stage7_8 sem7_8
    hrank7 hreads7_8 hinb7_8 nbuf7_8 (Memref.isWhole_whole _) hwx7_8 hstage7_8

abbrev win7 : Fin 9 → Pipeline.Window sig grid7 := fun | 0 => win7_0 | 1 => win7_1 | 2 => win7_2 | 3 => win7_3 | 4 => win7_4 | 5 => win7_5 | 6 => win7_6 | 7 => win7_7 | 8 => win7_8 | ⟨_ + 9, h⟩ => absurd h (Nat.not_lt.2 (Nat.le_add_left _ _))
abbrev spec7 : Fin 9 → Pipeline.WinSpec sig grid7.rank := fun w => (win7 w).toWinSpec

abbrev win8_0 : Pipeline.Window sig grid8 :=
  Pipeline.Window.ofSpec (Memref.whole main_v6) S1x2560.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v151) S2560x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v152) S2560x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev idle8 : Fin 3 → grid8.Coords → Bool := fun | 0 => fun _ => false | 1 => fun _ => false | 2 => fun i => !(k8_cond2 i == 1#1) | ⟨_ + 3, h⟩ => absurd h (Nat.not_lt.2 (Nat.le_add_left _ _))

abbrev win9_0 : Pipeline.Window sig grid9 :=
  Pipeline.Window.ofSpec (Memref.whole main_v122) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v153) S2000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v156) S1x1.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v158) S128x256.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v161) S1x256.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v164) S1x256.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v167) S1x256.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v169) S256x128.size cc9_transform_7 reads9_7 false true 1 stage9_7 sem9_7
    hrank9 hreads9_7 hinb9_7 nbuf9_7 (Memref.isWhole_whole _) hwx9_7 hstage9_7

abbrev win9_8 : Pipeline.Window sig grid9 :=
  Pipeline.Window.ofSpec (Memref.whole main_v172) S1x128.size cc9_transform_8 reads9_8 false true 1 stage9_8 sem9_8
    hrank9 hreads9_8 hinb9_8 nbuf9_8 (Memref.isWhole_whole _) hwx9_8 hstage9_8

abbrev win9_9 : Pipeline.Window sig grid9 :=
  Pipeline.Window.ofSpec (Memref.whole main_v175) S1x128.size cc9_transform_9 reads9_9 false true 1 stage9_9 sem9_9
    hrank9 hreads9_9 hinb9_9 nbuf9_9 (Memref.isWhole_whole _) hwx9_9 hstage9_9

abbrev win9_10 : Pipeline.Window sig grid9 :=
  Pipeline.Window.ofSpec (Memref.whole main_v178) S1x128.size cc9_transform_10 reads9_10 false true 1 stage9_10 sem9_10
    hrank9 hreads9_10 hinb9_10 nbuf9_10 (Memref.isWhole_whole _) hwx9_10 hstage9_10

abbrev win9_11 : Pipeline.Window sig grid9 :=
  Pipeline.Window.ofSpec (Memref.whole main_v179) S2000x128.size cc9_transform_11 reads9_11 true false 2 stage9_11 sem9_11
    hrank9 hreads9_11 hinb9_11 nbuf9_11 (Memref.isWhole_whole _) hwx9_11 hstage9_11

abbrev win9 : Fin 12 → Pipeline.Window sig grid9 := fun | 0 => win9_0 | 1 => win9_1 | 2 => win9_2 | 3 => win9_3 | 4 => win9_4 | 5 => win9_5 | 6 => win9_6 | 7 => win9_7 | 8 => win9_8 | 9 => win9_9 | 10 => win9_10 | 11 => win9_11 | ⟨_ + 12, h⟩ => absurd h (Nat.not_lt.2 (Nat.le_add_left _ _))
abbrev spec9 : Fin 12 → Pipeline.WinSpec sig grid9.rank := fun w => (win9 w).toWinSpec

class Facts : Prop extends Facts₀ where

variable [Facts]
-- ==== ReferenceIdeal.lean ====
abbrev S40000x128 : Shape := ⟨2, ![40000, 128]⟩
abbrev S640000x16 : Shape := ⟨2, ![640000, 16]⟩
abbrev S128x128 : Shape := ⟨2, ![128, 128]⟩
abbrev S128 : Shape := ⟨1, ![128]⟩
abbrev S3x16x128 : Shape := ⟨3, ![3, 16, 128]⟩
abbrev S3x128 : Shape := ⟨2, ![3, 128]⟩
abbrev S3x256x1 : Shape := ⟨3, ![3, 256, 1]⟩
abbrev S3x1 : Shape := ⟨2, ![3, 1]⟩
abbrev S3 : Shape := ⟨1, ![3]⟩
abbrev S3x128x256 : Shape := ⟨3, ![3, 128, 256]⟩
abbrev S3x256 : Shape := ⟨2, ![3, 256]⟩
abbrev S3x256x128 : Shape := ⟨3, ![3, 256, 128]⟩
abbrev S2x640000 : Shape := ⟨2, ![2, 640000]⟩
abbrev S1x640000 : Shape := ⟨2, ![1, 640000]⟩
abbrev S640000 : Shape := ⟨1, ![640000]⟩
abbrev S1x128 : Shape := ⟨2, ![1, 128]⟩
abbrev S1x16x128 : Shape := ⟨3, ![1, 16, 128]⟩
abbrev S16x128 : Shape := ⟨2, ![16, 128]⟩
abbrev S640000x128 : Shape := ⟨2, ![640000, 128]⟩
abbrev S_ : Shape := ⟨0, ![]⟩
abbrev S640000x1 : Shape := ⟨2, ![640000, 1]⟩
abbrev S640000x256 : Shape := ⟨2, ![640000, 256]⟩
abbrev S1x256x1 : Shape := ⟨3, ![1, 256, 1]⟩
abbrev S256x1 : Shape := ⟨2, ![256, 1]⟩
abbrev S1x1 : Shape := ⟨2, ![1, 1]⟩
abbrev S1 : Shape := ⟨1, ![1]⟩
abbrev S1x128x256 : Shape := ⟨3, ![1, 128, 256]⟩
abbrev S128x256 : Shape := ⟨2, ![128, 256]⟩
abbrev S40000x256 : Shape := ⟨2, ![40000, 256]⟩
abbrev S1x256 : Shape := ⟨2, ![1, 256]⟩
abbrev S256 : Shape := ⟨1, ![256]⟩
abbrev S1x256x128 : Shape := ⟨3, ![1, 256, 128]⟩
abbrev S256x128 : Shape := ⟨2, ![256, 128]⟩

abbrev nBuf : Space → Nat
  | .hbm => 347
  | .vmem => 0
  | .smem => 0
  | _ => 0

abbrev hbmTy0_0 (i : Nat) : BufTy := match i % 128 with
  | 0 => ⟨S40000x128, .f32⟩
  | 1 => ⟨S640000x16, .f32⟩
  | 2 => ⟨S128x128, .f32⟩
  | 3 => ⟨S128, .f32⟩
  | 4 => ⟨S3x16x128, .f32⟩
  | 5 => ⟨S3x128, .f32⟩
  | 6 => ⟨S3x256x1, .f32⟩
  | 7 => ⟨S3x1, .f32⟩
  | 8 => ⟨S3, .f32⟩
  | 9 => ⟨S3x128x256, .f32⟩
  | 10 => ⟨S3x256, .f32⟩
  | 11 => ⟨S3x256, .f32⟩
  | 12 => ⟨S3x256, .f32⟩
  | 13 => ⟨S3x256x128, .f32⟩
  | 14 => ⟨S3x128, .f32⟩
  | 15 => ⟨S3x128, .f32⟩
  | 16 => ⟨S3x128, .f32⟩
  | 17 => ⟨S2x640000, .i32⟩
  | 18 => ⟨S1x640000, .i32⟩
  | 19 => ⟨S640000, .i32⟩
  | 20 => ⟨S1x640000, .i32⟩
  | 21 => ⟨S640000, .i32⟩
  | 22 => ⟨S40000x128, .f32⟩
  | 23 => ⟨S1x128, .f32⟩
  | 24 => ⟨S40000x128, .f32⟩
  | 25 => ⟨S40000x128, .f32⟩
  | 26 => ⟨S1x16x128, .f32⟩
  | 27 => ⟨S16x128, .f32⟩
  | 28 => ⟨S640000x128, .f32⟩
  | 29 => ⟨S1x128, .f32⟩
  | 30 => ⟨S128, .f32⟩
  | 31 => ⟨S1x128, .f32⟩
  | 32 => ⟨S640000x128, .f32⟩
  | 33 => ⟨S640000x128, .f32⟩
  | 34 => ⟨S_, .i32⟩
  | 35 => ⟨S640000, .i32⟩
  | 36 => ⟨S640000, .i1⟩
  | 37 => ⟨S_, .i32⟩
  | 38 => ⟨S640000, .i32⟩
  | 39 => ⟨S640000, .i32⟩
  | 40 => ⟨S640000, .i32⟩
  | 41 => ⟨S640000x1, .i32⟩
  | 42 => ⟨S640000x128, .f32⟩
  | 43 => ⟨S_, .i32⟩
  | 44 => ⟨S640000, .i32⟩
  | 45 => ⟨S640000, .i1⟩
  | 46 => ⟨S_, .i32⟩
  | 47 => ⟨S640000, .i32⟩
  | 48 => ⟨S640000, .i32⟩
  | 49 => ⟨S640000, .i32⟩
  | 50 => ⟨S640000x1, .i32⟩
  | 51 => ⟨S640000x128, .f32⟩
  | 52 => ⟨S640000x256, .f32⟩
  | 53 => ⟨S1x256x1, .f32⟩
  | 54 => ⟨S256x1, .f32⟩
  | 55 => ⟨S640000x1, .f32⟩
  | 56 => ⟨S1x1, .f32⟩
  | 57 => ⟨S1, .f32⟩
  | 58 => ⟨S1x1, .f32⟩
  | 59 => ⟨S640000x1, .f32⟩
  | 60 => ⟨S640000x1, .f32⟩
  | 61 => ⟨S640000x1, .f32⟩
  | 62 => ⟨S640000x1, .f32⟩
  | 63 => ⟨S_, .f32⟩
  | 64 => ⟨S640000x1, .f32⟩
  | 65 => ⟨S640000x1, .f32⟩
  | 66 => ⟨S_, .f32⟩
  | 67 => ⟨S640000x1, .f32⟩
  | 68 => ⟨S640000x1, .f32⟩
  | 69 => ⟨S640000x128, .f32⟩
  | 70 => ⟨S640000x128, .f32⟩
  | 71 => ⟨S640000x128, .f32⟩
  | 72 => ⟨S_, .f32⟩
  | 73 => ⟨S640000x128, .f32⟩
  | 74 => ⟨S640000x128, .f32⟩
  | 75 => ⟨S_, .f32⟩
  | 76 => ⟨S40000x128, .f32⟩
  | 77 => ⟨S640000x1, .i32⟩
  | 78 => ⟨S40000x128, .f32⟩
  | 79 => ⟨S1, .f32⟩
  | 80 => ⟨S_, .f32⟩
  | 81 => ⟨S_, .f32⟩
  | 82 => ⟨S_, .f32⟩
  | 83 => ⟨S40000x128, .f32⟩
  | 84 => ⟨S40000x128, .f32⟩
  | 85 => ⟨S40000x128, .f32⟩
  | 86 => ⟨S1x128x256, .f32⟩
  | 87 => ⟨S128x256, .f32⟩
  | 88 => ⟨S40000x256, .f32⟩
  | 89 => ⟨S1x256, .f32⟩
  | 90 => ⟨S256, .f32⟩
  | 91 => ⟨S1x256, .f32⟩
  | 92 => ⟨S40000x256, .f32⟩
  | 93 => ⟨S40000x256, .f32⟩
  | 94 => ⟨S1x256, .f32⟩
  | 95 => ⟨S256, .f32⟩
  | 96 => ⟨S1x256, .f32⟩
  | 97 => ⟨S256, .f32⟩
  | 98 => ⟨S1x256, .f32⟩
  | 99 => ⟨S40000x256, .f32⟩
  | 100 => ⟨S40000x256, .f32⟩
  | 101 => ⟨S_, .f32⟩
  | 102 => ⟨S40000x256, .f32⟩
  | 103 => ⟨S40000x256, .f32⟩
  | 104 => ⟨S1x256, .f32⟩
  | 105 => ⟨S40000x256, .f32⟩
  | 106 => ⟨S40000x256, .f32⟩
  | 107 => ⟨S_, .f32⟩
  | 108 => ⟨S40000x256, .f32⟩
  | 109 => ⟨S40000x256, .f32⟩
  | 110 => ⟨S1x256x128, .f32⟩
  | 111 => ⟨S256x128, .f32⟩
  | 112 => ⟨S40000x128, .f32⟩
  | 113 => ⟨S1x128, .f32⟩
  | 114 => ⟨S128, .f32⟩
  | 115 => ⟨S1x128, .f32⟩
  | 116 => ⟨S40000x128, .f32⟩
  | 117 => ⟨S40000x128, .f32⟩
  | 118 => ⟨S1x128, .f32⟩
  | 119 => ⟨S128, .f32⟩
  | 120 => ⟨S1x128, .f32⟩
  | 121 => ⟨S128, .f32⟩
  | 122 => ⟨S1x128, .f32⟩
  | 123 => ⟨S40000x128, .f32⟩
  | 124 => ⟨S40000x128, .f32⟩
  | 125 => ⟨S_, .f32⟩
  | 126 => ⟨S40000x128, .f32⟩
  | 127 => ⟨S40000x128, .f32⟩
  | _ => ⟨S40000x128, .f32⟩

abbrev hbmTy0_1 (i : Nat) : BufTy := match i % 128 with
  | 0 => ⟨S1x128, .f32⟩
  | 1 => ⟨S40000x128, .f32⟩
  | 2 => ⟨S40000x128, .f32⟩
  | 3 => ⟨S_, .f32⟩
  | 4 => ⟨S40000x128, .f32⟩
  | 5 => ⟨S40000x128, .f32⟩
  | 6 => ⟨S1x16x128, .f32⟩
  | 7 => ⟨S16x128, .f32⟩
  | 8 => ⟨S640000x128, .f32⟩
  | 9 => ⟨S1x128, .f32⟩
  | 10 => ⟨S128, .f32⟩
  | 11 => ⟨S1x128, .f32⟩
  | 12 => ⟨S640000x128, .f32⟩
  | 13 => ⟨S640000x128, .f32⟩
  | 14 => ⟨S_, .i32⟩
  | 15 => ⟨S640000, .i32⟩
  | 16 => ⟨S640000, .i1⟩
  | 17 => ⟨S_, .i32⟩
  | 18 => ⟨S640000, .i32⟩
  | 19 => ⟨S640000, .i32⟩
  | 20 => ⟨S640000, .i32⟩
  | 21 => ⟨S640000x1, .i32⟩
  | 22 => ⟨S640000x128, .f32⟩
  | 23 => ⟨S_, .i32⟩
  | 24 => ⟨S640000, .i32⟩
  | 25 => ⟨S640000, .i1⟩
  | 26 => ⟨S_, .i32⟩
  | 27 => ⟨S640000, .i32⟩
  | 28 => ⟨S640000, .i32⟩
  | 29 => ⟨S640000, .i32⟩
  | 30 => ⟨S640000x1, .i32⟩
  | 31 => ⟨S640000x128, .f32⟩
  | 32 => ⟨S640000x256, .f32⟩
  | 33 => ⟨S1x256x1, .f32⟩
  | 34 => ⟨S256x1, .f32⟩
  | 35 => ⟨S640000x1, .f32⟩
  | 36 => ⟨S1x1, .f32⟩
  | 37 => ⟨S1, .f32⟩
  | 38 => ⟨S1x1, .f32⟩
  | 39 => ⟨S640000x1, .f32⟩
  | 40 => ⟨S640000x1, .f32⟩
  | 41 => ⟨S640000x1, .f32⟩
  | 42 => ⟨S640000x1, .f32⟩
  | 43 => ⟨S_, .f32⟩
  | 44 => ⟨S640000x1, .f32⟩
  | 45 => ⟨S640000x1, .f32⟩
  | 46 => ⟨S_, .f32⟩
  | 47 => ⟨S640000x1, .f32⟩
  | 48 => ⟨S640000x1, .f32⟩
  | 49 => ⟨S640000x128, .f32⟩
  | 50 => ⟨S640000x128, .f32⟩
  | 51 => ⟨S640000x128, .f32⟩
  | 52 => ⟨S_, .f32⟩
  | 53 => ⟨S640000x128, .f32⟩
  | 54 => ⟨S640000x128, .f32⟩
  | 55 => ⟨S_, .f32⟩
  | 56 => ⟨S40000x128, .f32⟩
  | 57 => ⟨S640000x1, .i32⟩
  | 58 => ⟨S40000x128, .f32⟩
  | 59 => ⟨S1, .f32⟩
  | 60 => ⟨S_, .f32⟩
  | 61 => ⟨S_, .f32⟩
  | 62 => ⟨S_, .f32⟩
  | 63 => ⟨S40000x128, .f32⟩
  | 64 => ⟨S40000x128, .f32⟩
  | 65 => ⟨S40000x128, .f32⟩
  | 66 => ⟨S1x128x256, .f32⟩
  | 67 => ⟨S128x256, .f32⟩
  | 68 => ⟨S40000x256, .f32⟩
  | 69 => ⟨S1x256, .f32⟩
  | 70 => ⟨S256, .f32⟩
  | 71 => ⟨S1x256, .f32⟩
  | 72 => ⟨S40000x256, .f32⟩
  | 73 => ⟨S40000x256, .f32⟩
  | 74 => ⟨S1x256, .f32⟩
  | 75 => ⟨S256, .f32⟩
  | 76 => ⟨S1x256, .f32⟩
  | 77 => ⟨S256, .f32⟩
  | 78 => ⟨S1x256, .f32⟩
  | 79 => ⟨S40000x256, .f32⟩
  | 80 => ⟨S40000x256, .f32⟩
  | 81 => ⟨S_, .f32⟩
  | 82 => ⟨S40000x256, .f32⟩
  | 83 => ⟨S40000x256, .f32⟩
  | 84 => ⟨S1x256, .f32⟩
  | 85 => ⟨S40000x256, .f32⟩
  | 86 => ⟨S40000x256, .f32⟩
  | 87 => ⟨S_, .f32⟩
  | 88 => ⟨S40000x256, .f32⟩
  | 89 => ⟨S40000x256, .f32⟩
  | 90 => ⟨S1x256x128, .f32⟩
  | 91 => ⟨S256x128, .f32⟩
  | 92 => ⟨S40000x128, .f32⟩
  | 93 => ⟨S1x128, .f32⟩
  | 94 => ⟨S128, .f32⟩
  | 95 => ⟨S1x128, .f32⟩
  | 96 => ⟨S40000x128, .f32⟩
  | 97 => ⟨S40000x128, .f32⟩
  | 98 => ⟨S1x128, .f32⟩
  | 99 => ⟨S128, .f32⟩
  | 100 => ⟨S1x128, .f32⟩
  | 101 => ⟨S128, .f32⟩
  | 102 => ⟨S1x128, .f32⟩
  | 103 => ⟨S40000x128, .f32⟩
  | 104 => ⟨S40000x128, .f32⟩
  | 105 => ⟨S_, .f32⟩
  | 106 => ⟨S40000x128, .f32⟩
  | 107 => ⟨S40000x128, .f32⟩
  | 108 => ⟨S1x128, .f32⟩
  | 109 => ⟨S40000x128, .f32⟩
  | 110 => ⟨S40000x128, .f32⟩
  | 111 => ⟨S_, .f32⟩
  | 112 => ⟨S40000x128, .f32⟩
  | 113 => ⟨S40000x128, .f32⟩
  | 114 => ⟨S1x16x128, .f32⟩
  | 115 => ⟨S16x128, .f32⟩
  | 116 => ⟨S640000x128, .f32⟩
  | 117 => ⟨S1x128, .f32⟩
  | 118 => ⟨S128, .f32⟩
  | 119 => ⟨S1x128, .f32⟩
  | 120 => ⟨S640000x128, .f32⟩
  | 121 => ⟨S640000x128, .f32⟩
  | 122 => ⟨S_, .i32⟩
  | 123 => ⟨S640000, .i32⟩
  | 124 => ⟨S640000, .i1⟩
  | 125 => ⟨S_, .i32⟩
  | 126 => ⟨S640000, .i32⟩
  | 127 => ⟨S640000, .i32⟩
  | _ => ⟨S40000x128, .f32⟩

abbrev hbmTy0_2 (i : Nat) : BufTy := match i % 128 with
  | 0 => ⟨S640000, .i32⟩
  | 1 => ⟨S640000x1, .i32⟩
  | 2 => ⟨S640000x128, .f32⟩
  | 3 => ⟨S_, .i32⟩
  | 4 => ⟨S640000, .i32⟩
  | 5 => ⟨S640000, .i1⟩
  | 6 => ⟨S_, .i32⟩
  | 7 => ⟨S640000, .i32⟩
  | 8 => ⟨S640000, .i32⟩
  | 9 => ⟨S640000, .i32⟩
  | 10 => ⟨S640000x1, .i32⟩
  | 11 => ⟨S640000x128, .f32⟩
  | 12 => ⟨S640000x256, .f32⟩
  | 13 => ⟨S1x256x1, .f32⟩
  | 14 => ⟨S256x1, .f32⟩
  | 15 => ⟨S640000x1, .f32⟩
  | 16 => ⟨S1x1, .f32⟩
  | 17 => ⟨S1, .f32⟩
  | 18 => ⟨S1x1, .f32⟩
  | 19 => ⟨S640000x1, .f32⟩
  | 20 => ⟨S640000x1, .f32⟩
  | 21 => ⟨S640000x1, .f32⟩
  | 22 => ⟨S640000x1, .f32⟩
  | 23 => ⟨S_, .f32⟩
  | 24 => ⟨S640000x1, .f32⟩
  | 25 => ⟨S640000x1, .f32⟩
  | 26 => ⟨S_, .f32⟩
  | 27 => ⟨S640000x1, .f32⟩
  | 28 => ⟨S640000x1, .f32⟩
  | 29 => ⟨S640000x128, .f32⟩
  | 30 => ⟨S640000x128, .f32⟩
  | 31 => ⟨S640000x128, .f32⟩
  | 32 => ⟨S_, .f32⟩
  | 33 => ⟨S640000x128, .f32⟩
  | 34 => ⟨S640000x128, .f32⟩
  | 35 => ⟨S_, .f32⟩
  | 36 => ⟨S40000x128, .f32⟩
  | 37 => ⟨S640000x1, .i32⟩
  | 38 => ⟨S40000x128, .f32⟩
  | 39 => ⟨S1, .f32⟩
  | 40 => ⟨S_, .f32⟩
  | 41 => ⟨S_, .f32⟩
  | 42 => ⟨S_, .f32⟩
  | 43 => ⟨S40000x128, .f32⟩
  | 44 => ⟨S40000x128, .f32⟩
  | 45 => ⟨S40000x128, .f32⟩
  | 46 => ⟨S1x128x256, .f32⟩
  | 47 => ⟨S128x256, .f32⟩
  | 48 => ⟨S40000x256, .f32⟩
  | 49 => ⟨S1x256, .f32⟩
  | 50 => ⟨S256, .f32⟩
  | 51 => ⟨S1x256, .f32⟩
  | 52 => ⟨S40000x256, .f32⟩
  | 53 => ⟨S40000x256, .f32⟩
  | 54 => ⟨S1x256, .f32⟩
  | 55 => ⟨S256, .f32⟩
  | 56 => ⟨S1x256, .f32⟩
  | 57 => ⟨S256, .f32⟩
  | 58 => ⟨S1x256, .f32⟩
  | 59 => ⟨S40000x256, .f32⟩
  | 60 => ⟨S40000x256, .f32⟩
  | 61 => ⟨S_, .f32⟩
  | 62 => ⟨S40000x256, .f32⟩
  | 63 => ⟨S40000x256, .f32⟩
  | 64 => ⟨S1x256, .f32⟩
  | 65 => ⟨S40000x256, .f32⟩
  | 66 => ⟨S40000x256, .f32⟩
  | 67 => ⟨S_, .f32⟩
  | 68 => ⟨S40000x256, .f32⟩
  | 69 => ⟨S40000x256, .f32⟩
  | 70 => ⟨S1x256x128, .f32⟩
  | 71 => ⟨S256x128, .f32⟩
  | 72 => ⟨S40000x128, .f32⟩
  | 73 => ⟨S1x128, .f32⟩
  | 74 => ⟨S128, .f32⟩
  | 75 => ⟨S1x128, .f32⟩
  | 76 => ⟨S40000x128, .f32⟩
  | 77 => ⟨S40000x128, .f32⟩
  | 78 => ⟨S1x128, .f32⟩
  | 79 => ⟨S128, .f32⟩
  | 80 => ⟨S1x128, .f32⟩
  | 81 => ⟨S128, .f32⟩
  | 82 => ⟨S1x128, .f32⟩
  | 83 => ⟨S40000x128, .f32⟩
  | 84 => ⟨S40000x128, .f32⟩
  | 85 => ⟨S_, .f32⟩
  | 86 => ⟨S40000x128, .f32⟩
  | 87 => ⟨S40000x128, .f32⟩
  | 88 => ⟨S1x128, .f32⟩
  | 89 => ⟨S40000x128, .f32⟩
  | 90 => ⟨S40000x128, .f32⟩
  | _ => ⟨S40000x128, .f32⟩

abbrev hbmTy (i : Nat) : BufTy := match i / 128 with
  | 0 => hbmTy0_0 i
  | 1 => hbmTy0_1 i
  | 2 => hbmTy0_2 i
  | _ => ⟨S40000x128, .f32⟩

abbrev bufTy : (tb : Table) → Fin (tcTables nBuf tb) → BufTy
  | .hbm, ⟨i, _⟩ => hbmTy i
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_0 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_1 : Ref sig .tc := ⟨.hbm, 43, rfl⟩
abbrev main_v23 : Ref sig .tc := ⟨.hbm, 44, rfl⟩
abbrev main_v24 : Ref sig .tc := ⟨.hbm, 45, rfl⟩
abbrev main_c_2 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst : Ref sig .tc := ⟨.hbm, 63, rfl⟩
abbrev main_v41 : Ref sig .tc := ⟨.hbm, 64, rfl⟩
abbrev main_v42 : Ref sig .tc := ⟨.hbm, 65, rfl⟩
abbrev main_cst_3 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_call0_cst : Ref sig .tc := ⟨.hbm, 72, rfl⟩
abbrev main_call0_v0 : Ref sig .tc := ⟨.hbm, 73, rfl⟩
abbrev main_v48 : Ref sig .tc := ⟨.hbm, 74, rfl⟩
abbrev main_cst_4 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_5 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_6 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_call1_cst : Ref sig .tc := ⟨.hbm, 107, rfl⟩
abbrev main_call1_v0 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_7 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_call2_cst : Ref sig .tc := ⟨.hbm, 131, rfl⟩
abbrev main_call2_v0 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_c_8 : Ref sig .tc := ⟨.hbm, 142, rfl⟩
abbrev main_v108 : Ref sig .tc := ⟨.hbm, 143, rfl⟩
abbrev main_v109 : Ref sig .tc := ⟨.hbm, 144, rfl⟩
abbrev main_c_9 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_c_10 : Ref sig .tc := ⟨.hbm, 151, rfl⟩
abbrev main_v115 : Ref sig .tc := ⟨.hbm, 152, rfl⟩
abbrev main_v116 : Ref sig .tc := ⟨.hbm, 153, rfl⟩
abbrev main_c_11 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_cst_12 : Ref sig .tc := ⟨.hbm, 171, rfl⟩
abbrev main_v133 : Ref sig .tc := ⟨.hbm, 172, rfl⟩
abbrev main_v134 : Ref sig .tc := ⟨.hbm, 173, rfl⟩
abbrev main_cst_13 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_call3_cst : Ref sig .tc := ⟨.hbm, 180, rfl⟩
abbrev main_call3_v0 : Ref sig .tc := ⟨.hbm, 181, rfl⟩
abbrev main_v140 : Ref sig .tc := ⟨.hbm, 182, rfl⟩
abbrev main_cst_14 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_cst_15 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_cst_16 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_call4_cst : Ref sig .tc := ⟨.hbm, 215, rfl⟩
abbrev main_call4_v0 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_cst_17 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_call5_cst : Ref sig .tc := ⟨.hbm, 239, rfl⟩
abbrev main_call5_v0 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_c_18 : Ref sig .tc := ⟨.hbm, 250, rfl⟩
abbrev main_v200 : Ref sig .tc := ⟨.hbm, 251, rfl⟩
abbrev main_v201 : Ref sig .tc := ⟨.hbm, 252, rfl⟩
abbrev main_c_19 : Ref sig .tc := ⟨.hbm, 253, rfl⟩
abbrev main_v202 : Ref sig .tc := ⟨.hbm, 254, rfl⟩
abbrev main_v203 : Ref sig .tc := ⟨.hbm, 255, rfl⟩
abbrev main_v204 : Ref sig .tc := ⟨.hbm, 256, rfl⟩
abbrev main_v205 : Ref sig .tc := ⟨.hbm, 257, rfl⟩
abbrev main_v206 : Ref sig .tc := ⟨.hbm, 258, rfl⟩
abbrev main_c_20 : Ref sig .tc := ⟨.hbm, 259, rfl⟩
abbrev main_v207 : Ref sig .tc := ⟨.hbm, 260, rfl⟩
abbrev main_v208 : Ref sig .tc := ⟨.hbm, 261, rfl⟩
abbrev main_c_21 : Ref sig .tc := ⟨.hbm, 262, rfl⟩
abbrev main_v209 : Ref sig .tc := ⟨.hbm, 263, rfl⟩
abbrev main_v210 : Ref sig .tc := ⟨.hbm, 264, rfl⟩
abbrev main_v211 : Ref sig .tc := ⟨.hbm, 265, rfl⟩
abbrev main_v212 : Ref sig .tc := ⟨.hbm, 266, rfl⟩
abbrev main_v213 : Ref sig .tc := ⟨.hbm, 267, rfl⟩
abbrev main_v214 : Ref sig .tc := ⟨.hbm, 268, rfl⟩
abbrev main_v215 : Ref sig .tc := ⟨.hbm, 269, rfl⟩
abbrev main_v216 : Ref sig .tc := ⟨.hbm, 270, rfl⟩
abbrev main_v217 : Ref sig .tc := ⟨.hbm, 271, rfl⟩
abbrev main_v218 : Ref sig .tc := ⟨.hbm, 272, rfl⟩
abbrev main_v219 : Ref sig .tc := ⟨.hbm, 273, rfl⟩
abbrev main_v220 : Ref sig .tc := ⟨.hbm, 274, rfl⟩
abbrev main_v221 : Ref sig .tc := ⟨.hbm, 275, rfl⟩
abbrev main_v222 : Ref sig .tc := ⟨.hbm, 276, rfl⟩
abbrev main_v223 : Ref sig .tc := ⟨.hbm, 277, rfl⟩
abbrev main_v224 : Ref sig .tc := ⟨.hbm, 278, rfl⟩
abbrev main_cst_22 : Ref sig .tc := ⟨.hbm, 279, rfl⟩
abbrev main_v225 : Ref sig .tc := ⟨.hbm, 280, rfl⟩
abbrev main_v226 : Ref sig .tc := ⟨.hbm, 281, rfl⟩
abbrev main_cst_23 : Ref sig .tc := ⟨.hbm, 282, rfl⟩
abbrev main_v227 : Ref sig .tc := ⟨.hbm, 283, rfl⟩
abbrev main_v228 : Ref sig .tc := ⟨.hbm, 284, rfl⟩
abbrev main_v229 : Ref sig .tc := ⟨.hbm, 285, rfl⟩
abbrev main_v230 : Ref sig .tc := ⟨.hbm, 286, rfl⟩
abbrev main_v231 : Ref sig .tc := ⟨.hbm, 287, rfl⟩
abbrev main_call6_cst : Ref sig .tc := ⟨.hbm, 288, rfl⟩
abbrev main_call6_v0 : Ref sig .tc := ⟨.hbm, 289, rfl⟩
abbrev main_v232 : Ref sig .tc := ⟨.hbm, 290, rfl⟩
abbrev main_cst_24 : Ref sig .tc := ⟨.hbm, 291, rfl⟩
abbrev main_v233 : Ref sig .tc := ⟨.hbm, 292, rfl⟩
abbrev main_v234 : Ref sig .tc := ⟨.hbm, 293, rfl⟩
abbrev main_v235 : Ref sig .tc := ⟨.hbm, 294, rfl⟩
abbrev main_v236 : Ref sig .tc := ⟨.hbm, 295, rfl⟩
abbrev main_v237 : Ref sig .tc := ⟨.hbm, 296, rfl⟩
abbrev main_cst_25 : Ref sig .tc := ⟨.hbm, 297, rfl⟩
abbrev main_v238 : Ref sig .tc := ⟨.hbm, 298, rfl⟩
abbrev main_v239 : Ref sig .tc := ⟨.hbm, 299, rfl⟩
abbrev main_v240 : Ref sig .tc := ⟨.hbm, 300, rfl⟩
abbrev main_v241 : Ref sig .tc := ⟨.hbm, 301, rfl⟩
abbrev main_v242 : Ref sig .tc := ⟨.hbm, 302, rfl⟩
abbrev main_v243 : Ref sig .tc := ⟨.hbm, 303, rfl⟩
abbrev main_v244 : Ref sig .tc := ⟨.hbm, 304, rfl⟩
abbrev main_v245 : Ref sig .tc := ⟨.hbm, 305, rfl⟩
abbrev main_v246 : Ref sig .tc := ⟨.hbm, 306, rfl⟩
abbrev main_v247 : Ref sig .tc := ⟨.hbm, 307, rfl⟩
abbrev main_v248 : Ref sig .tc := ⟨.hbm, 308, rfl⟩
abbrev main_v249 : Ref sig .tc := ⟨.hbm, 309, rfl⟩
abbrev main_v250 : Ref sig .tc := ⟨.hbm, 310, rfl⟩
abbrev main_v251 : Ref sig .tc := ⟨.hbm, 311, rfl⟩
abbrev main_v252 : Ref sig .tc := ⟨.hbm, 312, rfl⟩
abbrev main_v253 : Ref sig .tc := ⟨.hbm, 313, rfl⟩
abbrev main_v254 : Ref sig .tc := ⟨.hbm, 314, rfl⟩
abbrev main_v255 : Ref sig .tc := ⟨.hbm, 315, rfl⟩
abbrev main_v256 : Ref sig .tc := ⟨.hbm, 316, rfl⟩
abbrev main_cst_26 : Ref sig .tc := ⟨.hbm, 317, rfl⟩
abbrev main_v257 : Ref sig .tc := ⟨.hbm, 318, rfl⟩
abbrev main_v258 : Ref sig .tc := ⟨.hbm, 319, rfl⟩
abbrev main_v259 : Ref sig .tc := ⟨.hbm, 320, rfl⟩
abbrev main_v260 : Ref sig .tc := ⟨.hbm, 321, rfl⟩
abbrev main_v261 : Ref sig .tc := ⟨.hbm, 322, rfl⟩
abbrev main_call7_cst : Ref sig .tc := ⟨.hbm, 323, rfl⟩
abbrev main_call7_v0 : Ref sig .tc := ⟨.hbm, 324, rfl⟩
abbrev main_v262 : Ref sig .tc := ⟨.hbm, 325, rfl⟩
abbrev main_v263 : Ref sig .tc := ⟨.hbm, 326, rfl⟩
abbrev main_v264 : Ref sig .tc := ⟨.hbm, 327, rfl⟩
abbrev main_v265 : Ref sig .tc := ⟨.hbm, 328, rfl⟩
abbrev main_v266 : Ref sig .tc := ⟨.hbm, 329, rfl⟩
abbrev main_v267 : Ref sig .tc := ⟨.hbm, 330, rfl⟩
abbrev main_v268 : Ref sig .tc := ⟨.hbm, 331, rfl⟩
abbrev main_v269 : Ref sig .tc := ⟨.hbm, 332, rfl⟩
abbrev main_v270 : Ref sig .tc := ⟨.hbm, 333, rfl⟩
abbrev main_v271 : Ref sig .tc := ⟨.hbm, 334, rfl⟩
abbrev main_v272 : Ref sig .tc := ⟨.hbm, 335, rfl⟩
abbrev main_v273 : Ref sig .tc := ⟨.hbm, 336, rfl⟩
abbrev main_v274 : Ref sig .tc := ⟨.hbm, 337, rfl⟩
abbrev main_v275 : Ref sig .tc := ⟨.hbm, 338, rfl⟩
abbrev main_v276 : Ref sig .tc := ⟨.hbm, 339, rfl⟩
abbrev main_v277 : Ref sig .tc := ⟨.hbm, 340, rfl⟩
abbrev main_cst_27 : Ref sig .tc := ⟨.hbm, 341, rfl⟩
abbrev main_v278 : Ref sig .tc := ⟨.hbm, 342, rfl⟩
abbrev main_v279 : Ref sig .tc := ⟨.hbm, 343, rfl⟩
abbrev main_v280 : Ref sig .tc := ⟨.hbm, 344, rfl⟩
abbrev main_v281 : Ref sig .tc := ⟨.hbm, 345, rfl⟩
abbrev main_v282 : Ref sig .tc := ⟨.hbm, 346, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  slices_S3x16x128_S1x16x128_0_0_0 : S3x16x128.Slices ![0, 0, 0] S1x16x128
  shapeCasts_S1x16x128_S16x128 : S1x16x128.ShapeCasts S16x128
  slices_S3x128_S1x128_0_0 : S3x128.Slices ![0, 0] S1x128
  shapeCasts_S1x128_S128 : S1x128.ShapeCasts S128
  bcast_S1x128_S640000x128_0_1 : S1x128.BroadcastsInDim S640000x128 (![0, 1] : Fin 2 → Fin S640000x128.rank)
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x256_d1 : Shape.Concatenates [S640000x128, S640000x128] S640000x256 1
  slices_S3x256x1_S1x256x1_0_0_0 : S3x256x1.Slices ![0, 0, 0] S1x256x1
  shapeCasts_S1x256x1_S256x1 : S1x256x1.ShapeCasts S256x1
  slices_S3x1_S1x1_0_0 : S3x1.Slices ![0, 0] S1x1
  shapeCasts_S1x1_S1 : S1x1.ShapeCasts S1
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  bcast_S_S640000x1 : S_.BroadcastsInDim S640000x1 (![] : Fin 0 → Fin S640000x1.rank)
  bcast_S640000x1_S640000x128_0_1 : S640000x1.BroadcastsInDim S640000x128 (![0, 1] : Fin 2 → Fin S640000x128.rank)
  bcast_S_S640000x128 : S_.BroadcastsInDim S640000x128 (![] : Fin 0 → Fin S640000x128.rank)
  bcast_S_S40000x128 : S_.BroadcastsInDim S40000x128 (![] : Fin 0 → Fin S40000x128.rank)
  slices_S3_S1_0 : S3.Slices ![0] S1
  shapeCasts_S1_S_ : S1.ShapeCasts S_
  slices_S3x128x256_S1x128x256_0_0_0 : S3x128x256.Slices ![0, 0, 0] S1x128x256
  shapeCasts_S1x128x256_S128x256 : S1x128x256.ShapeCasts S128x256
  slices_S3x256_S1x256_0_0 : S3x256.Slices ![0, 0] S1x256
  shapeCasts_S1x256_S256 : S1x256.ShapeCasts S256
  bcast_S256_S1x256_1 : S256.BroadcastsInDim S1x256 (![1] : Fin 1 → Fin S1x256.rank)
  bcast_S1x256_S40000x256_0_1 : S1x256.BroadcastsInDim S40000x256 (![0, 1] : Fin 2 → Fin S40000x256.rank)
  bcast_S_S40000x256 : S_.BroadcastsInDim S40000x256 (![] : Fin 0 → Fin S40000x256.rank)
  slices_S3x256x128_S1x256x128_0_0_0 : S3x256x128.Slices ![0, 0, 0] S1x256x128
  shapeCasts_S1x256x128_S256x128 : S1x256x128.ShapeCasts S256x128
  slices_S3x16x128_S1x16x128_1_0_0 : S3x16x128.Slices ![1, 0, 0] S1x16x128
  slices_S3x128_S1x128_1_0 : S3x128.Slices ![1, 0] S1x128
  slices_S3x256x1_S1x256x1_1_0_0 : S3x256x1.Slices ![1, 0, 0] S1x256x1
  slices_S3x1_S1x1_1_0 : S3x1.Slices ![1, 0] S1x1
  slices_S3_S1_1 : S3.Slices ![1] S1
  slices_S3x128x256_S1x128x256_1_0_0 : S3x128x256.Slices ![1, 0, 0] S1x128x256
  slices_S3x256_S1x256_1_0 : S3x256.Slices ![1, 0] S1x256
  slices_S3x256x128_S1x256x128_1_0_0 : S3x256x128.Slices ![1, 0, 0] S1x256x128
  slices_S3x16x128_S1x16x128_2_0_0 : S3x16x128.Slices ![2, 0, 0] S1x16x128
  slices_S3x128_S1x128_2_0 : S3x128.Slices ![2, 0] S1x128
  slices_S3x256x1_S1x256x1_2_0_0 : S3x256x1.Slices ![2, 0, 0] S1x256x1
  slices_S3x1_S1x1_2_0 : S3x1.Slices ![2, 0] S1x1
  slices_S3_S1_2 : S3.Slices ![2] S1
  slices_S3x128x256_S1x128x256_2_0_0 : S3x128x256.Slices ![2, 0, 0] S1x128x256
  slices_S3x256_S1x256_2_0 : S3x256.Slices ![2, 0] S1x256
  slices_S3x256x128_S1x256x128_2_0_0 : S3x256x128.Slices ![2, 0, 0] S1x256x128
  dot_S40000x128_S128x128_S40000x128_1_0_0_1_n_n_wf : DotDims.WF S40000x128 S128x128 S40000x128 [1] [0] [0] [1] [] []
  dot_S640000x16_S16x128_S640000x128_1_0_0_1_n_n_wf : DotDims.WF S640000x16 S16x128 S640000x128 [1] [0] [0] [1] [] []
  gather_S40000x128_S640000x1_S640000x128_1_0_n_n_0_1_1128_wf : GatherDims.WF S40000x128 S640000x1 S640000x128 [1] [0] [] [0] [] 1 ![1, 128]
  dot_S640000x256_S256x1_S640000x1_1_0_0_1_n_n_wf : DotDims.WF S640000x256 S256x1 S640000x1 [1] [0] [0] [1] [] []
  scatter_S40000x128_S640000x1_S640000x128_1_0_0_1_wf : ScatterDims.WF S40000x128 S640000x1 S640000x128 [1] [0] [0] 1
  dot_S40000x128_S128x256_S40000x256_1_0_0_1_n_n_wf : DotDims.WF S40000x128 S128x256 S40000x256 [1] [0] [0] [1] [] []
  dot_S40000x256_S256x128_S40000x128_1_0_0_1_n_n_wf : DotDims.WF S40000x256 S256x128 S40000x128 [1] [0] [0] [1] [] []

variable [Facts₀]

def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def dot_S640000x16_S16x128_S640000x128_1_0_0_1_n_n : DotDims S640000x16 S16x128 S640000x128 where
  lhsContracting := [1]
  rhsContracting := [0]
  lhsNonContracting := [0]
  rhsNonContracting := [1]
  lhsBatch := []
  rhsBatch := []
  wf := dot_S640000x16_S16x128_S640000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def dot_S640000x256_S256x1_S640000x1_1_0_0_1_n_n : DotDims S640000x256 S256x1 S640000x1 where
  lhsContracting := [1]
  rhsContracting := [0]
  lhsNonContracting := [0]
  rhsNonContracting := [1]
  lhsBatch := []
  rhsBatch := []
  wf := dot_S640000x256_S256x1_S640000x1_1_0_0_1_n_n_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x128_S128x256_S40000x256_1_0_0_1_n_n : DotDims S40000x128 S128x256 S40000x256 where
  lhsContracting := [1]
  rhsContracting := [0]
  lhsNonContracting := [0]
  rhsNonContracting := [1]
  lhsBatch := []
  rhsBatch := []
  wf := dot_S40000x128_S128x256_S40000x256_1_0_0_1_n_n_wf
def dot_S40000x256_S256x128_S40000x128_1_0_0_1_n_n : DotDims S40000x256 S256x128 S40000x128 where
  lhsContracting := [1]
  rhsContracting := [0]
  lhsNonContracting := [0]
  rhsNonContracting := [1]
  lhsBatch := []
  rhsBatch := []
  wf := dot_S40000x256_S256x128_S40000x128_1_0_0_1_n_n_wf

class Facts : Prop extends Facts₀ where

variable [Facts]
-- ==== Proof.KI.R0.lean ====
/- The frame half of region 0 of the printed kernel program (the node encoder, one grid axis of 20 points): at the
   buffer contents V found when the region is entered, each window's block at a grid point, what the body leaves in
   the output window's staging buffer as a function of the three input blocks, the body's triple, the pipeline's
   proof data and the body obligation at every point. Generic in the float model. -/
import proofs.«417300_j83468394430632_3_alg».proof.Proof.Gen.KernelIdeal.Launch
import proofs.«417300_j83468394430632_3_alg».proof.Proof.Gen.KernelIdeal.Skeleton
import proofs.«417300_j83468394430632_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! # REGION 0: the node encoder, at the entry contents V -/

/-! ## The windows' blocks -/

/-- Window w's block at grid point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (a 2000-row block of the node features, a new block at every point): its current staging buffer
    holds its block at every point, for any proof data whose array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the whole weight matrix, fetched once): at a point where it is not fetched its block index has
    not moved, so the buffer still holds the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the bias row, fetched once): likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is a whole staging buffer -/

abbrev r0_0 : Rect S2000x128 := Rect.unit (s := S2000x128) ![0, 0] S2000x128.size inb_S2000x128_S2000x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0

/-! ## What the body leaves in the output window's buffer -/

/-- Window 3's staging buffer after the body, from the input windows' blocks: its one store, of the payload
    (features times weights plus the bias row) over the three blocks as loaded. -/
def out0_3 (x0 : Vec F S2000x128 .f32) (x1 : Vec F S128x128 .f32) (x2 : Vec F S1x128 .f32) : Vec F S2000x128 .f32 :=
  View.canon [⟨r0_0, k0_pay1 (View.ld x0 r0_0) (View.ld x1 r0_1) (View.ld x2 r0_2)⟩]

/-- The one store is of the whole buffer, so it covers it. -/
theorem cover0_3 (p0 : Vec F S2000x128 .f32) (y : S2000x128.Idx) :
    ∃ pc ∈ ([⟨r0_0, p0⟩] : List (View.Piece (Elt F) S2000x128 .f32)), y ∈ pc.1.set :=
  View.cover_of_tiled [⟨r0_0, p0⟩] S2000x128.size (by rfl) y

/-! ## The body's triple -/

set_option maxHeartbeats 1000000 in
/-- The kernel body on whole staging memrefs, the inputs' at contents x0 x1 x2 and the output's at anything, runs to
    the continuation holding the inputs' as they were and the output's at out0_3 of the inputs': the printed function
    is its skeleton of memory operations, which is run operation by operation. -/
theorem sound_kernel0 (c : Dev nD) (E : Set ℕ) (i : grid0.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__encode_kernel i arg1 harg1 arg2 harg2 arg3 harg3 arg4 harg4) K := by
  simp only [cc0__encode_kernel_eq_skeleton]; unfold cc0__encode_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core c: the arrays as the region finds them; after the body at point t each
    input's buffer at its block and the output's at out0_3 of the input blocks; the invariant is the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's owed amounts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
import proofs.«417300_j83468394430632_3_alg».proof.Proof.Gen.KernelIdeal.Launch
import proofs.«417300_j83468394430632_3_alg».proof.Proof.Gen.KernelIdeal.Skeleton
import proofs.«417300_j83468394430632_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The message kernel's region, as proof data for its pipeline

At a parameter `V` (the TensorCore's buffer contents when the region is entered): each window's block at a grid
point, what the body leaves in the output window's staging buffer as a closed function of the input blocks, the
body's triple, the pipeline's proof data, and the body obligation at every point.
-/

-- membership in a rectangle of the block's extents recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place: unfetched, the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s and whose body leaves the block in place: unfetched, the block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof
    data whose array is `V`'s and whose body leaves the block in place: unfetched, the block index has not moved. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not, for any proof
    data whose array is `V`'s and whose body leaves the block in place: unfetched, the block index has not moved. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each staging buffer whole -/

abbrev r1_0 : Rect S2560x16 := Rect.unit (s := S2560x16) ![0, 0] S2560x16.size inb_S2560x16_S2560x16_0_0
abbrev r1_1 : Rect S16x128 := Rect.unit (s := S16x128) ![0, 0] S16x128.size inb_S16x128_S16x128_0_0
abbrev r1_2 : Rect S1x128 := Rect.unit (s := S1x128) ![0, 0] S1x128.size inb_S1x128_S1x128_0_0
abbrev r1_3 : Rect S2560x128 := Rect.unit (s := S2560x128) ![0, 0] S2560x128.size inb_S2560x128_S2560x128_0_0
abbrev r1_4 : Rect S1x1 := Rect.unit (s := S1x1) ![0, 0] S1x1.size inb_S1x1_S1x1_0_0

/-! ## What the body leaves in the output window's buffer -/

/-- Window 8's staging buffer after the body, from the input windows' blocks: its one store as a piece
    (the payload is the skeleton's, over what each load reads of its block). -/
def out1_8 (x0 : Vec F S2560x128 .f32) (x1 : Vec F S2560x128 .f32) (x2 : Vec F S2560x16 .f32) (x3 : Vec F S16x128 .f32) (x4 : Vec F S1x128 .f32) (x5 : Vec F S1x128 .f32) (x6 : Vec F S1x128 .f32) (x7 : Vec F S1x1 .f32) : Vec F S2560x128 .bf16 :=
  View.canon [⟨r1_3, k1_pay1 (View.ld x2 r1_0) (View.ld x3 r1_1) (View.ld x4 r1_2) (View.ld x0 r1_3) (View.ld x1 r1_3) (View.ld x5 r1_2) (View.ld x6 r1_2) (View.ld x7 r1_4)⟩]

/-- The store fills the buffer (checked by evaluation), so it covers it. -/
theorem cover1_8 (p0 : Vec F S2560x128 .bf16) (y : S2560x128.Idx) :
    ∃ pc ∈ ([⟨r1_3, p0⟩] : List (View.Piece (Elt F) S2560x128 .bf16)), y ∈ pc.1.set :=
  View.cover_of_tiled [⟨r1_3, p0⟩] S2560x128.size (by rfl) y

/-! ## The body's triple -/

set_option maxHeartbeats 4000000 in
/-- The kernel body on whole staging memrefs, the inputs' at read contents `xW` and the output's at anything, runs to
    the continuation holding the inputs' as they were and the output's at `out1_8` of the inputs': the printed
    functions are their skeletons, run operation by operation through the part call. -/
theorem sound_kernel1 (c : Dev nD) (E : Set ℕ) (i : grid1.Coords) (arg1 : Memref sig .tc .vmem S2560x128 .f32) (harg1 : arg1.IsWhole) (arg2 : Memref sig .tc .vmem S2560x128 .f32) (harg2 : arg2.IsWhole) (arg3 : Memref sig .tc .vmem S2560x16 .f32) (harg3 : arg3.IsWhole) (arg4 : Memref sig .tc .vmem S16x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S2560x128 .bf16) (harg9 : arg9.IsWhole)
    (x0 : Vec F S2560x128 .f32) (x1 : Vec F S2560x128 .f32) (x2 : Vec F S2560x16 .f32) (x3 : Vec F S16x128 .f32) (x4 : Vec F S1x128 .f32) (x5 : Vec F S1x128 .f32) (x6 : Vec F S1x128 .f32) (x7 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out1_8 x0 x1 x2 x3 x4 x5 x6 x7)) -∗ K ⟨⟩))
      ⊢ wp frame (wpE (defs₀ (F := F)) Variants.none c none) E (cc1__msg_kernel i arg1 harg1 arg2 harg2 arg3 harg3 arg4 harg4 arg5 harg5 arg6 harg6 arg7 harg7 arg8 harg8 arg9 harg9) K := by
  simp only [cc1__msg_kernel_eq_skeleton]; unfold cc1__msg_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover1_8 _)

/-! ## The pipeline's proof data -/

/-- The proof data of the region's pipeline on core `c`: the arrays as the region finds them (`V`); after the body at
    point `t` each input's buffer at its block and the output's at `out1_8` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand
-- ==== Proof.KI.R2Runs.lean ====
/- Region 2 of the printed kernel program, the scatter of edge messages to their destination nodes (grid 16 × 250,
   the edge axis innermost): what the three control cases of its body share. The windows' blocks at the contents V
   found when the region is entered; the body's two conditions on the grid point in closed form (the edge-block
   coordinate is the position modulo 250: the accumulator is reset where it is 0, the output block is stored where
   it is 249); where the output window is idle; the staging memrefs and the accumulator the body is called with; the
   region invariant with the accumulator taken out of the core's scoped buffers. Generic in the float model. -/
import proofs.«417300_j83468394430632_3_alg».proof.Proof.Gen.KernelIdeal.Launch
import proofs.«417300_j83468394430632_3_alg».proof.Proof.Gen.KernelIdeal.Skeleton
import proofs.«417300_j83468394430632_3_alg».proof.Proof.Gen.KernelIdeal.Points
import Idealize.ShloMosaic.Lib.Pipeline.FrameBody
import Idealize.ShloMosaic.Lib.Ring
import Idealize.ShloMosaic.Lib.Tactic

-- membership in a rectangle of full block extents recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! # REGION 2: the scatter, what its cases share -/

/-! ## The windows' blocks -/

/-- Window w's block at grid point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (a block of 2560 destination ids, a new block at every point): its current staging buffer holds
    its block at every point, for any proof data whose array is V's and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (a block of 2560 message rows, a new block at every point): likewise. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions on the grid point -/

/-- The first condition: the edge-block coordinate is 0 (the accumulator is reset). -/
abbrev cond2_0 (i : grid2.Coords) : Prop := (Scalar.cmpi .ne (Scalar.extui (Scalar.cmpi .eq (BitVec.ofNat 32 (i 1).val) 0#32)) 0#32) = 1#1
/-- It holds exactly at the positions ≡ 0 (mod 250): decided over the grid's 4000 points. -/
theorem hcond2_0 : ∀ t : Fin cfg2.N, cond2_0 (grid2.coords t) ↔ t.val % 250 = 0 :=
  (by decide +kernel : ∀ t : Fin grid2.N, cond2_0 (grid2.coords t) ↔ t.val % 250 = 0)

/-- The second condition: the edge-block coordinate is 249 (the accumulator is copied to the output block). -/
abbrev cond2_1 (i : grid2.Coords) : Prop := k2_cond2 i = 1#1
/-- It holds exactly at the positions ≡ 249 (mod 250). -/
theorem hcond2_1 : ∀ t : Fin cfg2.N, cond2_1 (grid2.coords t) ↔ t.val % 250 = 249 :=
  (by decide +kernel : ∀ t : Fin grid2.N, cond2_1 (grid2.coords t) ↔ t.val % 250 = 249)

/-! ## Where the windows are idle -/

/-- The inputs are never idle. -/
theorem liveAt2_0 : ∀ t : Fin cfg2.N, cfg2.idle 0 (grid2.coords t) = false := by decide +kernel
theorem liveAt2_1 : ∀ t : Fin cfg2.N, cfg2.idle 1 (grid2.coords t) = false := by decide +kernel
/-- Where the second condition fails the output window is idle and its block is not written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
/-- Where it holds the output window is live. -/
theorem liveAt2_2 : ∀ t : Fin cfg2.N, cond2_1 (grid2.coords t) → cfg2.idle 2 (grid2.coords t) = false := by decide +kernel

/-! ## The memrefs the body is called with -/

/-- Each window's current staging memref at point t, spelled as the pipeline passes it, and its wholeness. -/
abbrev ms2_0 (t : Fin cfg2.N) : Memref sig .tc .vmem S1x2560 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2560x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2560x128 .f32 := win2_2.stage (cfg2.slots t 2)
abbrev hs2_2 (t : Fin cfg2.N) : (ms2_2 t).IsWhole := hstage2_2 ((cfg2.slots t 2).cast nbuf2_2)
/-- The accumulator: a whole scoped buffer of the kernel's own, passed beside the windows and carried from point to point. -/
abbrev scM2_0 : Memref sig .tc .vmem S2560x128 .f32 := Memref.whole cc2_scratch0
/-- The accumulator and the output window's staging buffer as views: what they hold is stated through these. -/
abbrev VS2_0 : View sig .tc .vmem S2560x128 .f32 := scM2_0.view
abbrev VO2_2 : View sig .tc .vmem S2560x128 .f32 := (Memref.whole cc2_stg2_0 : Memref sig .tc .vmem S2560x128 .f32).view

/-- The core's other scoped buffers (every one but the staging buffers of this region and the accumulator), each at
    some contents: carried through the region unopened. -/
abbrev restBut2 (c : Dev nD) : sProp 𝕄 :=
  Pipeline.scopedRestBut (Ix := Unit) (Name := ℕ) (U := UR sig nD τ) (Lvl := ℕ) (Val := Elt F) spec2 c [cc2_scratch0]

/-- The region invariant as the launch hands it over, with the accumulator as a memref owned at some contents, the
    other scoped buffers unopened, and the generator register at some state. -/
theorem PhiA2_eq (c : Dev nD) :
    (Pipeline.ΦA spec2 c : sProp 𝕄)
      = iprop(iprop(iprop((∃ d, owns (c : Thread nD τ) scM2_0 fullShare d)) ∗ restBut2 (F := F) c) ∗ (∃ r, prngReg c r)) := by
  unfold Pipeline.ΦA; rw [scopedRest2_split]; simp only [scM2_0, owns_whole]; try rfl

end Cert.KernelIdeal.Hand

end
-- ==== Proof.KI.R2Run.lean ====
/- Region 2 of the printed kernel program (the scatter): the body run whole, in each of its three control cases, on
   any whole staging memrefs, with what every buffer holds afterwards in closed form. Case A (the edge-block
   coordinate is 0): the accumulator is stored whole with zeros, then with the zero block updated by this point's
   scattered messages; the output buffer is handed back untouched. Case B (neither 0 nor 249): the accumulator is
   stored with what it held updated by this point's scattered messages; the output buffer is handed back untouched.
   Case C (249): as B, and then the output buffer is stored whole with the accumulator. Every access is of a whole
   buffer, so a store leaves exactly its payload and a load after a store reads that payload. -/
import proofs.«417300_j83468394430632_3_alg».proof.Proof.KI.R2Runs
import Idealize.ShloMosaic.Lib.Pipeline.Value

-- membership in a rectangle of full block extents recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # REGION 2: the body's three runs -/

/-- The zero offsets of a whole-buffer access, however they are spelt. -/
theorem hz2 : (![0, 0] : Fin 2 → Nat) = fun _ => 0 := funext fun a => by fin_cases a <;> rfl

set_option maxHeartbeats 1000000 in
/-- CASE A, the reset (first condition true, second false). On whole memrefs, the inputs at their blocks x0
    (destination ids) and x1 (messages), the output buffer at any contents xi2, the accumulator at anything: the body
    runs to the continuation holding the inputs and the output buffer as they were and the accumulator at the update of
    the zero block by this point's scattered messages. The accumulator is stored twice, each time whole: the later
    store is what it holds, and the load between them reads the zeros of the earlier one. -/
theorem sound_kernel2_A (c : Dev nD) (E : Set ℕ) (i : grid2.Coords) (arg2 : Memref sig .tc .vmem S1x2560 .i32) (harg2 : arg2.IsWhole) (arg3 : Memref sig .tc .vmem S2560x128 .bf16) (harg3 : arg3.IsWhole) (arg4 : Memref sig .tc .vmem S2560x128 .f32) (harg4 : arg4.IsWhole) (arg5 : Memref sig .tc .vmem S2560x128 .f32) (harg5 : arg5.IsWhole) (hc0 : cond2_0 i) (hc1 : ¬cond2_1 i)
    (x0 : Vec F S1x2560 .i32) (x1 : Vec F S2560x128 .bf16) (xi2 : Vec F S2560x128 .f32) (K : PUnit → sProp 𝕄) :
    iprop(owns (c : Thread nD τ) arg2 fullShare x0 ∗ owns (c : Thread nD τ) arg3 fullShare x1 ∗ owns (c : Thread nD τ) arg4 fullShare xi2 ∗ (∃ d, owns (c : Thread nD τ) arg5 fullShare d)
        ∗ (iprop(owns (c : Thread nD τ) arg2 fullShare x0 ∗ owns (c : Thread nD τ) arg3 fullShare x1 ∗ owns (c : Thread nD τ) arg4 fullShare xi2 ∗ owns (c : Thread nD τ) arg5 fullShare (k2_pay2 i x0 k2_pay1 x1)) -∗ K ⟨⟩))
      ⊢ wp frame (wpE (defs₀ (F := F)) Variants.none c none) E (cc2__scatter_kernel i arg2 harg2 arg3 harg3 arg4 harg4 arg5 harg5) K := by
    simp only [cc2__scatter_kernel_eq_skeleton]; unfold cc2__scatter_kernel_skel
    unfold owns
    iintro ⟨⟨%f0, %hf0, H0⟩, ⟨%f1, %hf1, H1⟩, ⟨%f2, %hf2, H2⟩, ⟨%ds0, %fs0, -, HS0⟩, Hk⟩
    subst hf0 hf1 hf2
    sl_exec (disch := first | exact hc0 | exact hc1)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    iexists _; isplitr
    swap; · iexact HS0
    ipureintro
    try sl_unfold_words
    refine (View.read_writes_eq_canon _ _ _ (fun y => ⟨_, List.mem_cons.mpr (Or.inl rfl), View.mem_set_unit_zero hz2 inb_S2560x128_S2560x128_0_0 y⟩)).trans ?_
    rw [View.canon_cons_unit_zero hz2]
    simp only [View.readAt_eq_ld, View.ld_unit_zero (S := S1x2560) hz2, View.ld_unit_zero (S := S2560x128) hz2, View.readCov_unit_zero (S := S2560x128) _ hz2]

set_option maxHeartbeats 1000000 in
/-- CASE B, the middle (both conditions false). The accumulator at the contents xs0 the point before left: it ends
    at their update by this point's scattered messages; the output buffer is handed back as found. -/
theorem sound_kernel2_B (c : Dev nD) (E : Set ℕ) (i : grid2.Coords) (arg2 : Memref sig .tc .vmem S1x2560 .i32) (harg2 : arg2.IsWhole) (arg3 : Memref sig .tc .vmem S2560x128 .bf16) (harg3 : arg3.IsWhole) (arg4 : Memref sig .tc .vmem S2560x128 .f32) (harg4 : arg4.IsWhole) (arg5 : Memref sig .tc .vmem S2560x128 .f32) (harg5 : arg5.IsWhole) (hc0 : ¬cond2_0 i) (hc1 : ¬cond2_1 i)
    (x0 : Vec F S1x2560 .i32) (x1 : Vec F S2560x128 .bf16) (xi2 : Vec F S2560x128 .f32) (xs0 : Vec F S2560x128 .f32) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xs0
        ∗ (iprop(owns (c : Thread nD τ) arg2 fullShare x0 ∗ owns (c : Thread nD τ) arg3 fullShare x1 ∗ owns (c : Thread nD τ) arg4 fullShare xi2 ∗ owns (c : Thread nD τ) arg5 fullShare (k2_pay2 i x0 xs0 x1)) -∗ K ⟨⟩))
      ⊢ wp frame (wpE (defs₀ (F := F)) Variants.none c none) E (cc2__scatter_kernel i arg2 harg2 arg3 harg3 arg4 harg4 arg5 harg5) K := by
    simp only [cc2__scatter_kernel_eq_skeleton]; unfold cc2__scatter_kernel_skel
    unfold owns
    iintro ⟨⟨%f0, %hf0, H0⟩, ⟨%f1, %hf1, H1⟩, ⟨%f2, %hf2, H2⟩, ⟨%fs0, %hfs0, HS0⟩, Hk⟩
    subst hf0 hf1 hf2 hfs0
    sl_exec (disch := first | exact hc0 | exact hc1)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    iexists _; isplitr
    swap; · iexact HS0
    ipureintro
    try sl_unfold_words
    refine (View.read_writes_eq_canon _ _ _ (fun y => ⟨_, List.mem_cons.mpr (Or.inl rfl), View.mem_set_unit_zero hz2 inb_S2560x128_S2560x128_0_0 y⟩)).trans ?_
    rw [View.canon_cons_unit_zero hz2]
    simp only [View.readAt_eq_ld, View.ld_unit_zero (S := S1x2560) hz2, View.ld_unit_zero (S := S2560x128) hz2, View.readCov_unit_zero (S := S2560x128) _ hz2]

set_option maxHeartbeats 1000000 in
/-- CASE C, the flush (first condition false, second true). As the middle case, and then the output buffer, found at
    anything, is stored whole with what the accumulator now holds. -/
theorem sound_kernel2_C (c : Dev nD) (E : Set ℕ) (i : grid2.Coords) (arg2 : Memref sig .tc .vmem S1x2560 .i32) (harg2 : arg2.IsWhole) (arg3 : Memref sig .tc .vmem S2560x128 .bf16) (harg3 : arg3.IsWhole) (arg4 : Memref sig .tc .vmem S2560x128 .f32) (harg4 : arg4.IsWhole) (arg5 : Memref sig .tc .vmem S2560x128 .f32) (harg5 : arg5.IsWhole) (hc0 : ¬cond2_0 i) (hc1 : cond2_1 i)
    (x0 : Vec F S1x2560 .i32) (x1 : Vec F S2560x128 .bf16) (xs0 : Vec F S2560x128 .f32) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs0
        ∗ (iprop(owns (c : Thread nD τ) arg2 fullShare x0 ∗ owns (c : Thread nD τ) arg3 fullShare x1 ∗ owns (c : Thread nD τ) arg4 fullShare (k2_pay2 i x0 xs0 x1) ∗ owns (c : Thread nD τ) arg5 fullShare (k2_pay2 i x0 xs0 x1)) -∗ K ⟨⟩))
      ⊢ wp frame (wpE (defs₀ (F := F)) Variants.none c none) E (cc2__scatter_kernel i arg2 harg2 arg3 harg3 arg4 harg4 arg5 harg5) K := by
    simp only [cc2__scatter_kernel_eq_skeleton]; unfold cc2__scatter_kernel_skel
    unfold owns
    iintro ⟨⟨%f0, %hf0, H0⟩, ⟨%f1, %hf1, H1⟩, ⟨%d2, %f2, -, H2⟩, ⟨%fs0, %hfs0, HS0⟩, Hk⟩
    subst hf0 hf1 hfs0
    sl_exec (disch := first | exact hc0 | exact hc1)
    sl_step
    iapply Hk
    isplitl [H0]
    · iexists f0; isplitr; · ipureintro; rfl
      iexact H0
    isplitl [H1]
    · iexists f1; isplitr; · ipureintro; rfl
      iexact H1
    isplitl [H2]
    · iexists _; isplitr
      swap; · iexact H2
      ipureintro
      try sl_unfold_words
      refine (View.read_writes_eq_canon _ _ _ (fun y => ⟨_, List.mem_cons.mpr (Or.inl rfl), View.mem_set_unit_zero hz2 inb_S2560x128_S2560x128_0_0 y⟩)).trans ?_
      rw [View.canon_cons_unit_zero hz2]
      simp only [View.readAt_eq_ld, View.ld_unit_zero (S := S1x2560) hz2, View.ld_unit_zero (S := S2560x128) hz2, View.readCov_unit_zero (S := S2560x128) _ hz2]
    iexists _; isplitr
    swap; · iexact HS0
    ipureintro
    try sl_unfold_words
    refine (View.read_writes_eq_canon _ _ _ (fun y => ⟨_, List.mem_cons.mpr (Or.inl rfl), View.mem_set_unit_zero hz2 inb_S2560x128_S2560x128_0_0 y⟩)).trans ?_
    rw [View.canon_cons_unit_zero hz2]
    simp only [View.readAt_eq_ld, View.ld_unit_zero (S := S1x2560) hz2, View.ld_unit_zero (S := S2560x128) hz2, View.readCov_unit_zero (S := S2560x128) _ hz2]

end Cert.KernelIdeal.Hand

end
-- ==== Proof.KI.R2.lean ====
/- Region 2 of the printed kernel program, the scatter of edge messages to their destination nodes (grid 16 × 250, the
   edge axis innermost), at the buffer contents V found when the region is entered: what the output window's staging
   buffer and the carried accumulator hold after each grid point, as a recursion over the position with one equation
   per control case (reset where the position is ≡ 0 mod 250, flush where it is ≡ 249, middle otherwise); the region
   invariant (before the first point the launch's; afterwards the accumulator at what the point before left, the
   core's other scoped buffers unopened, the generator register at some state); the pipeline's proof data; the body
   obligation at every point; and the invariant's two ends. Generic in the float model. -/
import proofs.«417300_j83468394430632_3_alg».proof.Proof.KI.R2Run

-- membership in a rectangle of full block extents recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! # REGION 2: the scatter, at the entry contents V -/

/-! ## What the output buffer and the accumulator hold after each point -/

/-- THE ACCUMULATION. The pair (the output window's staging buffer, the accumulator) after the body at position n.
    The accumulator: the update, by the point's destination-id block and message block, of the zero block where the
    position is ≡ 0 (mod 250) and of what the point before left elsewhere. The output buffer: the accumulator where
    the position is ≡ 249 (mod 250), elsewhere what it held after the point before (before the first flush a
    placeholder nobody reads: the window is idle there and is not written back). -/
def outsAt2 (c : Dev nD) : (n : ℕ) → n < cfg2.N → Vec F S2560x128 .f32 × Vec F S2560x128 .f32
  | 0, hn => (k2_pay1, k2_pay2 (grid2.coords ⟨0, hn⟩) (iblk2 V c 0 ⟨0, hn⟩) k2_pay1 (iblk2 V c 1 ⟨0, hn⟩))
  | n + 1, hn =>
    if h0 : (n + 1) % 250 = 0 then
      ((outsAt2 c n (Nat.lt_of_succ_lt hn)).1, k2_pay2 (grid2.coords ⟨n + 1, hn⟩) (iblk2 V c 0 ⟨n + 1, hn⟩) k2_pay1 (iblk2 V c 1 ⟨n + 1, hn⟩))
    else
      if h1 : (n + 1) % 250 = 249 then
        (k2_pay2 (grid2.coords ⟨n + 1, hn⟩) (iblk2 V c 0 ⟨n + 1, hn⟩) (outsAt2 c n (Nat.lt_of_succ_lt hn)).2 (iblk2 V c 1 ⟨n + 1, hn⟩),
          k2_pay2 (grid2.coords ⟨n + 1, hn⟩) (iblk2 V c 0 ⟨n + 1, hn⟩) (outsAt2 c n (Nat.lt_of_succ_lt hn)).2 (iblk2 V c 1 ⟨n + 1, hn⟩))
      else
        ((outsAt2 c n (Nat.lt_of_succ_lt hn)).1, k2_pay2 (grid2.coords ⟨n + 1, hn⟩) (iblk2 V c 0 ⟨n + 1, hn⟩) (outsAt2 c n (Nat.lt_of_succ_lt hn)).2 (iblk2 V c 1 ⟨n + 1, hn⟩))

/-- At a reset point (position ≡ 0 mod 250): the accumulator is the zero block updated by the point's blocks; the
    output buffer is as the point before left it. -/
theorem outsAt2_A (c : Dev nD) (t : Fin cfg2.N) (h0 : t.val % 250 = 0) :
    outsAt2 V c t.val t.isLt = ((outsAt2 V c (t.val - 1) (Nat.lt_of_le_of_lt (Nat.sub_le _ _) t.isLt)).1,
      k2_pay2 (grid2.coords t) (iblk2 V c 0 t) k2_pay1 (iblk2 V c 1 t)) := by
  obtain ⟨n, hn⟩ := t
  cases n with
  | zero => exact rfl
  | succ n => exact (dif_pos h0).trans rfl

/-- At a middle point: the accumulator is what the point before left updated by the point's blocks; the output buffer
    is as the point before left it. -/
theorem outsAt2_B (c : Dev nD) (t : Fin cfg2.N) (h0 : ¬t.val % 250 = 0) (h1 : ¬t.val % 250 = 249) :
    outsAt2 V c t.val t.isLt = ((outsAt2 V c (t.val - 1) (Nat.lt_of_le_of_lt (Nat.sub_le _ _) t.isLt)).1,
      k2_pay2 (grid2.coords t) (iblk2 V c 0 t) (outsAt2 V c (t.val - 1) (Nat.lt_of_le_of_lt (Nat.sub_le _ _) t.isLt)).2 (iblk2 V c 1 t)) := by
  obtain ⟨n, hn⟩ := t
  cases n with
  | zero => exact absurd (Nat.zero_mod _) h0
  | succ n => exact (dif_neg h0).trans ((dif_neg h1).trans rfl)

/-- At a flush point (position ≡ 249 mod 250): the accumulator is what the point before left updated by the point's
    blocks, and the output buffer holds the same. -/
theorem outsAt2_C (c : Dev nD) (t : Fin cfg2.N) (h1 : t.val % 250 = 249) :
    outsAt2 V c t.val t.isLt = (k2_pay2 (grid2.coords t) (iblk2 V c 0 t) (outsAt2 V c (t.val - 1) (Nat.lt_of_le_of_lt (Nat.sub_le _ _) t.isLt)).2 (iblk2 V c 1 t),
      k2_pay2 (grid2.coords t) (iblk2 V c 0 t) (outsAt2 V c (t.val - 1) (Nat.lt_of_le_of_lt (Nat.sub_le _ _) t.isLt)).2 (iblk2 V c 1 t)) := by
  obtain ⟨n, hn⟩ := t
  cases n with
  | zero => exact absurd (show (0 : ℕ) % 250 = 249 from h1) (by decide)
  | succ n =>
    have h1' : (n + 1) % 250 = 249 := h1
    exact (dif_neg (fun h => by omega)).trans ((dif_pos h1).trans rfl)

/-! ## The region invariant -/

/-- The invariant before position n: before the first point what the launch hands over (every scoped buffer that is
    no staging buffer at anything, the generator register at some state); afterwards the accumulator at what the point
    before left in it, the core's other scoped buffers unopened, the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ restBut2 (F := F) c) ∗ (∃ r, prngReg c r))

theorem PhiS2_zero (c : Dev nD) (n : ℕ) (h : n ≤ cfg2.N) (hz : n = 0) : PhiS2 V c n h = Pipeline.ΦA spec2 c := by
  subst hz; rfl

/-- After point n (before point n + 1): the accumulator at that point's contents. -/
theorem PhiS2_succ (c : Dev nD) (n : ℕ) (hn : n < cfg2.N) :
    PhiS2 V c (n + 1) hn = iprop(iprop(owns (c : Thread nD τ) scM2_0 fullShare ((outsAt2 V c n hn).2) ∗ restBut2 (F := F) c) ∗ (∃ r, prngReg c r)) := rfl

/-- Before a point that is not the first: the accumulator at what the point before left. -/
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ restBut2 (F := F) c) ∗ (∃ r, prngReg c r)) := by
  cases n with
  | zero => exact absurd rfl hz
  | succ n => rfl

/-! ## The pipeline's proof data -/

/-- The proof data of pipeline 2 on core c: the arrays as the region finds them; after the body at point t each
    input's buffer at its block and the output's at the accumulation's first component; the invariant above; nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point t (the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point. The inputs' memrefs hold their blocks; the position modulo 250 says which case the point
    is in, and that case's run applies. The invariant hands the body the accumulator — at anything at the first
    point, else at what the point before left — and takes it back at this point's contents; the core's other scoped
    buffers, the generator register and what the core owes pass through. Where the output window is idle (every point
    but the flush points) its buffer is handed back as found; at a flush point it is left at the accumulator. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h1 : t.val % 250 = 249
  · have h0 : ¬t.val % 250 = 0 := by omega
    have hz : t.val ≠ 0 := by omega
    rw [show (dat2 V c).leavesExact 2 t = owns (c : Thread nD τ) (ms2_2 t) fullShare ((dat2 V c).after 2 t) from by
      unfold Dat.leavesExact; rw [liveAt2_2 t ((hcond2_1 t).mpr h1)], after2_2]
    rw [outsAt2_C V c t h1]; dsimp only
    rw [PhiS2_castSucc V c t, PhiS2_pos V c _ _ hz]
    iintro ⟨⟨⟨HS0, Hr⟩, Hg⟩, Ho, ⟨%d0, H0⟩, ⟨%d1, H1⟩, ⟨%d2, H2⟩⟩
    iapply (sound_kernel2_C c Set.univ (grid2.coords t) _ _ _ _ _ _ _ _ (fun h => h0 ((hcond2_0 t).mp h)) ((hcond2_1 t).mpr h1) (iblk2 V c 0 t) (iblk2 V c 1 t) _ _)
    isplitl [H0]; · iexact H0
    isplitl [H1]; · iexact H1
    isplitl [H2]; · iexists _; iexact H2
    isplitl [HS0]; · iexact HS0
    iintro ⟨H0, H1, H2, HS0⟩
    isplitl [HS0 Hr Hg]
    · isplitl [HS0 Hr]
      · isplitl [HS0]; · iexact HS0
        iexact Hr
      iexact Hg
    isplitl [Ho]; · iexact Ho
    isplitl [H0]; · iexact H0
    isplitl [H1]; · iexact H1
    iexact H2
  · rw [Dat.leavesExact_idle (dat2 V c) 2 t (idleAt2_2 t (fun h => h1 ((hcond2_1 t).mp h))) (noFlush2_2 t (fun h => h1 ((hcond2_1 t).mp h)))]
    by_cases h0 : t.val % 250 = 0
    · rw [outsAt2_A V c t h0]; dsimp only
      by_cases hz : t.val = 0
      · rw [PhiS2_castSucc V c t, PhiS2_zero V c _ _ hz, PhiA2_eq]
        iintro ⟨⟨⟨HS0, Hr⟩, Hg⟩, Ho, ⟨%d0, H0⟩, ⟨%d1, H1⟩, ⟨%d2, H2⟩⟩
        iapply (sound_kernel2_A c Set.univ (grid2.coords t) _ _ _ _ _ _ _ _ ((hcond2_0 t).mpr h0) (fun h => h1 ((hcond2_1 t).mp h)) (iblk2 V c 0 t) (iblk2 V c 1 t) _ _)
        isplitl [H0]; · iexact H0
        isplitl [H1]; · iexact H1
        isplitl [H2]; · iexact H2
        isplitl [HS0]; · iexact HS0
        iintro ⟨H0, H1, H2, HS0⟩
        isplitl [HS0 Hr Hg]
        · isplitl [HS0 Hr]
          · isplitl [HS0]; · iexact HS0
            iexact Hr
          iexact Hg
        isplitl [Ho]; · iexact Ho
        isplitl [H0]; · iexact H0
        isplitl [H1]; · iexact H1
        iexists _; iexact H2
      · rw [PhiS2_castSucc V c t, PhiS2_pos V c _ _ hz]
        iintro ⟨⟨⟨HS0, Hr⟩, Hg⟩, Ho, ⟨%d0, H0⟩, ⟨%d1, H1⟩, ⟨%d2, H2⟩⟩
        iapply (sound_kernel2_A c Set.univ (grid2.coords t) _ _ _ _ _ _ _ _ ((hcond2_0 t).mpr h0) (fun h => h1 ((hcond2_1 t).mp h)) (iblk2 V c 0 t) (iblk2 V c 1 t) _ _)
        isplitl [H0]; · iexact H0
        isplitl [H1]; · iexact H1
        isplitl [H2]; · iexact H2
        isplitl [HS0]; · iexists _; iexact HS0
        iintro ⟨H0, H1, H2, HS0⟩
        isplitl [HS0 Hr Hg]
        · isplitl [HS0 Hr]
          · isplitl [HS0]; · iexact HS0
            iexact Hr
          iexact Hg
        isplitl [Ho]; · iexact Ho
        isplitl [H0]; · iexact H0
        isplitl [H1]; · iexact H1
        iexists _; iexact H2
    · have hz : t.val ≠ 0 := by omega
      rw [outsAt2_B V c t h0 h1]; dsimp only
      rw [PhiS2_castSucc V c t, PhiS2_pos V c _ _ hz]
      iintro ⟨⟨⟨HS0, Hr⟩, Hg⟩, Ho, ⟨%d0, H0⟩, ⟨%d1, H1⟩, ⟨%d2, H2⟩⟩
      iapply (sound_kernel2_B c Set.univ (grid2.coords t) _ _ _ _ _ _ _ _ (fun h => h0 ((hcond2_0 t).mp h)) (fun h => h1 ((hcond2_1 t).mp h)) (iblk2 V c 0 t) (iblk2 V c 1 t) _ _ _)
      isplitl [H0]; · iexact H0
      isplitl [H1]; · iexact H1
      isplitl [H2]; · iexact H2
      isplitl [HS0]; · iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The invariant's two ends -/

/-- Before the first point the invariant is what the launch hands the region. -/
theorem Phi2_zero (c : Dev nD) : (dat2 V c).Φ 0 = Pipeline.ΦA spec2 c := by
  rw [show (dat2 V c).Φ 0 = PhiS2 V c 0 (Nat.zero_le _) from rfl, PhiS2_zero V c 0 _ rfl]

/-- After any point but the first position the invariant gives the launch's back: the accumulator's named contents
    are forgotten. -/
theorem Phi2_pos_out (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hr⟩, Hg⟩
  isplitl [HS0 Hr]
  · isplitl [HS0]
    · iexists _; iexact HS0
    iexact Hr
  iexact Hg

/-- The same after the last point. -/
theorem Phi2_out (c : Dev nD) : (dat2 V c).Φ (Fin.last cfg2.N) ⊢ Pipeline.ΦA spec2 c :=
  Phi2_pos_out V c _ (by rw [Fin.val_last]; have : cfg2.N = 4000 := N_2; omega)

end Cert.KernelIdeal.Hand

end
-- ==== Proof.KI.R3.lean ====
import proofs.«417300_j83468394430632_3_alg».proof.Proof.Gen.KernelIdeal.Launch
import proofs.«417300_j83468394430632_3_alg».proof.Proof.Gen.KernelIdeal.Skeleton
import proofs.«417300_j83468394430632_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The node-update launch, as a pipeline region entered at arbitrary buffer contents

The launch walks a grid of twenty points. At each point the pipeline hands the body one block of node features, one
block of aggregated messages, and the whole of nine small parameter arrays; the body writes one block of updated node
features. This module fixes, for ANY contents `V` of the core's buffers at entry, the proof data of that pipeline —
what each window's staging buffer holds after the body at each point — and proves the body's obligation against
them: the inputs are left as found, and the output buffer holds the body's one store, whose payload is a function of
the input blocks alone. Nothing here depends on the float model. -/

-- membership in a rectangle of full extents: the structural check recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: everything below is stated at this parameter
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): where the window is not
    fetched its block index has not moved, so the block of the point before is this point's; the window is never cut
    and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for any proof
    data whose array is `V`'s (`hA`) and whose body leaves the block in place (`hafter`): where the window is not
    fetched its block index has not moved, so the block of the point before is this point's; the window is never cut
    and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for any proof
    data whose array is `V`'s (`hA`) and whose body leaves the block in place (`hafter`): where the window is not
    fetched its block index has not moved, so the block of the point before is this point's; the window is never cut
    and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for any proof
    data whose array is `V`'s (`hA`) and whose body leaves the block in place (`hafter`): where the window is not
    fetched its block index has not moved, so the block of the point before is this point's; the window is never cut
    and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not, for any proof
    data whose array is `V`'s (`hA`) and whose body leaves the block in place (`hafter`): where the window is not
    fetched its block index has not moved, so the block of the point before is this point's; the window is never cut
    and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's current staging buffer holds its block at every point, fetched there or not, for any proof
    data whose array is `V`'s (`hA`) and whose body leaves the block in place (`hafter`): where the window is not
    fetched its block index has not moved, so the block of the point before is this point's; the window is never cut
    and never idle. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- Input window 6's current staging buffer holds its block at every point, fetched there or not, for any proof
    data whose array is `V`'s (`hA`) and whose body leaves the block in place (`hafter`): where the window is not
    fetched its block index has not moved, so the block of the point before is this point's; the window is never cut
    and never idle. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
/-- Input window 7's current staging buffer holds its block at every point, fetched there or not, for any proof
    data whose array is `V`'s (`hA`) and whose body leaves the block in place (`hafter`): where the window is not
    fetched its block index has not moved, so the block of the point before is this point's; the window is never cut
    and never idle. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
/-- Input window 8's current staging buffer holds its block at every point, fetched there or not, for any proof
    data whose array is `V`'s (`hA`) and whose body leaves the block in place (`hafter`): where the window is not
    fetched its block index has not moved, so the block of the point before is this point's; the window is never cut
    and never idle. -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)
/-- Input window 9's current staging buffer holds its block at every point, fetched there or not, for any proof
    data whose array is `V`'s (`hA`) and whose body leaves the block in place (`hafter`): where the window is not
    fetched its block index has not moved, so the block of the point before is this point's; the window is never cut
    and never idle. -/
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)
/-- Input window 10's current staging buffer holds its block at every point, fetched there or not, for any proof
    data whose array is `V`'s (`hA`) and whose body leaves the block in place (`hafter`): where the window is not
    fetched its block index has not moved, so the block of the point before is this point's; the window is never cut
    and never idle. -/
theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S1x1 := Rect.unit (s := S1x1) ![0, 0] S1x1.size inb_S1x1_S1x1_0_0
abbrev r3_1 : Rect S2000x128 := Rect.unit (s := S2000x128) ![0, 0] S2000x128.size inb_S2000x128_S2000x128_0_0
abbrev r3_2 : Rect S128x256 := Rect.unit (s := S128x256) ![0, 0] S128x256.size inb_S128x256_S128x256_0_0
abbrev r3_3 : Rect S1x256 := Rect.unit (s := S1x256) ![0, 0] S1x256.size inb_S1x256_S1x256_0_0
abbrev r3_4 : Rect S256x128 := Rect.unit (s := S256x128) ![0, 0] S256x128.size inb_S256x128_S256x128_0_0
abbrev r3_5 : Rect S1x128 := Rect.unit (s := S1x128) ![0, 0] S1x128.size inb_S1x128_S1x128_0_0

/-! ## What the body leaves in the output window's buffer -/

/-- Window 11's staging buffer after the body, from the input windows' blocks: its one store, a whole-buffer
    rectangle, whose payload is the second affine map, normalisation and cut-off at zero (`k3_pay1`) applied to the
    hidden layer's product (`k3_pay2`, computed in the body's first part) of the loaded input blocks. -/
def out3_11 (x0 : Vec F S2000x128 .f32) (x1 : Vec F S2000x128 .f32) (x2 : Vec F S1x1 .f32) (x3 : Vec F S128x256 .f32) (x4 : Vec F S1x256 .f32) (x5 : Vec F S1x256 .f32) (x6 : Vec F S1x256 .f32) (x7 : Vec F S256x128 .f32) (x8 : Vec F S1x128 .f32) (x9 : Vec F S1x128 .f32) (x10 : Vec F S1x128 .f32) : Vec F S2000x128 .f32 :=
  View.canon [⟨r3_1, k3_pay1 (k3_pay2 (View.ld x2 r3_0) (View.ld x0 r3_1) (View.ld x1 r3_1) (View.ld x3 r3_2) (View.ld x4 r3_3) (View.ld x5 r3_3) (View.ld x6 r3_3) (View.ld x7 r3_4)) (View.ld x8 r3_5) (View.ld x9 r3_5) (View.ld x10 r3_5)⟩]

/-- The one store is the whole buffer, so it covers it. -/
theorem cover3_11 (p0 : Vec F S2000x128 .f32) (y : S2000x128.Idx) :
    ∃ pc ∈ ([⟨r3_1, p0⟩] : List (View.Piece (Elt F) S2000x128 .f32)), y ∈ pc.1.set :=
  View.cover_of_tiled [⟨r3_1, p0⟩] S2000x128.size (by rfl) y

/-! ## The body's triple -/

set_option maxHeartbeats 4000000 in
/-- The kernel body on whole staging memrefs, the inputs' at read contents `xW` and the output's at anything, runs to
    the continuation holding the inputs' as they were and the output's at `out3_11` of the inputs': the body is its
    sequence of loads and one store over named payloads, run operation by operation, through its first part. -/
theorem sound_kernel3 (c : Dev nD) (E : Set ℕ) (i : grid3.Coords) (arg1 : Memref sig .tc .vmem S2000x128 .f32) (harg1 : arg1.IsWhole) (arg2 : Memref sig .tc .vmem S2000x128 .f32) (harg2 : arg2.IsWhole) (arg3 : Memref sig .tc .vmem S1x1 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S2000x128 .f32) (harg12 : arg12.IsWhole)
    (x0 : Vec F S2000x128 .f32) (x1 : Vec F S2000x128 .f32) (x2 : Vec F S1x1 .f32) (x3 : Vec F S128x256 .f32) (x4 : Vec F S1x256 .f32) (x5 : Vec F S1x256 .f32) (x6 : Vec F S1x256 .f32) (x7 : Vec F S256x128 .f32) (x8 : Vec F S1x128 .f32) (x9 : Vec F S1x128 .f32) (x10 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out3_11 x0 x1 x2 x3 x4 x5 x6 x7 x8 x9 x10)) -∗ K ⟨⟩))
      ⊢ wp frame (wpE (defs₀ (F := F)) Variants.none c none) E (cc3__update_kernel i arg1 harg1 arg2 harg2 arg3 harg3 arg4 harg4 arg5 harg5 arg6 harg6 arg7 harg7 arg8 harg8 arg9 harg9 arg10 harg10 arg11 harg11 arg12 harg12) K := by
  simp only [cc3__update_kernel_eq_skeleton]; unfold cc3__update_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (cover3_11 _)

/-! ## The pipeline's proof data -/

/-- The proof data of the pipeline on core `c`: the arrays as the region finds them (`V`); after the body at point
    `t` each input's buffer at its block and the output's at `out3_11` of the input blocks; the invariant keeps the
    scoped rest and the generator register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => out3_11 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = out3_11 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t))

set_option maxHeartbeats 1000000 in
/-- The body at any point: the inputs' memrefs hold their blocks, so the body's triple applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel3 c Set.univ _ _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Chain.lean ====
/-
  THE CHAIN OF BUFFER CONTENTS through @main's ten kernel regions, from a launch memory `m`: region K is entered from a
  valuation of the TensorCore's unscoped buffers and left at that valuation updated, at the one array the region writes, to
  what its pipeline's write-backs leave there; host stretches carry the contents from one region's exit to the next one's
  entry. Stated stratified (each region's result a function of the valuation before it), then read as ONE family `outs`
  at which the conditional frame's valuations are exactly these. With it: every pipeline's proof data at its region's entry
  contents (`pdats`), and per region the two facts its exit needs — each window's final array is the exit valuation at
  its reference (`hFK`), every other buffer is as entered (`hrestK`).
-/
import proofs.«417300_j83468394430632_3_alg».proof.Proof.Gen.KernelIdeal.Regions
import proofs.«417300_j83468394430632_3_alg».proof.Proof.KI.R0
import proofs.«417300_j83468394430632_3_alg».proof.Proof.KI.R1
import proofs.«417300_j83468394430632_3_alg».proof.Proof.KI.R2
import proofs.«417300_j83468394430632_3_alg».proof.Proof.KI.R3
import proofs.«417300_j83468394430632_3_alg».proof.Proof.KI.R4
import proofs.«417300_j83468394430632_3_alg».proof.Proof.KI.R5
import proofs.«417300_j83468394430632_3_alg».proof.Proof.KI.R6
import proofs.«417300_j83468394430632_3_alg».proof.Proof.KI.R7
import proofs.«417300_j83468394430632_3_alg».proof.Proof.KI.R8
import proofs.«417300_j83468394430632_3_alg».proof.Proof.KI.R9
import Idealize.ShloMosaic.Lib.Pipeline.RegionsLoop
import Idealize.ShloMosaic.Lib.Pipeline.Frame
import Idealize.ShloMosaic.Lib.Pipeline.Kit
import Idealize.ShloMosaic.Lib.Tactic

-- decided inequalities of references among the program's 335 recurse past the default depth
set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents from region to region

Region K is entered from the valuation `WiK` and left at `WoK`: `WiK` updated at the one array the region writes, to what
its pipeline's write-backs leave there (`Dat.arrAt … N` of the region's proof data taken at `WiK`). A host stretch between
two regions carries `WoK` to the next entry by `StableHlo.after`; two regions with no stretch between share the valuation. -/

/-- Core `c`'s unscoped buffers when region 0 is entered, -/
abbrev Wi0 (c : Dev nD) : Valuation τ sig (Elt F) := Gen.V5 m c
/-- the same read at the TensorCore's references (what region 0's proof data take), -/
abbrev Vi0 : (c : Dev nD) → (b : Ref sig .tc) → Buf (Elt F) ((c : Thread nD τ).loc b) := fun c b => Wi0 m c b
/-- what region 0 leaves in `main_v8`: its window 3's array after every point's write-back, -/
def o6 (c : Dev nD) : Buf (Elt F) ((c : Thread nD τ).loc main_v8) := (dat0 (Vi0 m) c).arrAt 3 cfg0.N
/-- and the unscoped buffers when region 0 is left: the entry contents, `main_v8` at `o6`. -/
def Wo0 (c : Dev nD) : Valuation τ sig (Elt F) := Function.update (Wi0 m c) main_v8 (o6 m c)
abbrev Vo0 : (c : Dev nD) → (b : Ref sig .tc) → Buf (Elt F) ((c : Thread nD τ).loc b) := fun c b => Wo0 m c b
theorem Wo0_out (c : Dev nD) : Wo0 m c main_v8 = o6 m c := by
  unfold Wo0; exact Function.update_self _ _ _
theorem Wo0_of_ne (c : Dev nD) (b : Ref sig .tc) (h : b ≠ main_v8) : Wo0 m c b = Wi0 m c b := by
  unfold Wo0; exact Function.update_of_ne (StableHlo.devRef_ne_of_ne h) _ _
set_option maxHeartbeats 2000000 in
/-- At region 0's exit each of its arrays holds what the pipeline leaves — an input array its entry contents, which the
    exit valuation keeps; the output array `o6` — -/
theorem hF0 (c : Dev nD) (w : Fin cfg0.W) : (dat0 (Vi0 m) c).arrAt w cfg0.N = Vo0 m c (Pipeline.arrRef spec0 w) := by
  fin_cases w <;> first
    | exact ((dat0 (Vi0 m) c).arrAt_in _ rfl _).trans ((A_eq0 (Vi0 m) c _).trans (Wo0_of_ne m c _ (by decide)).symm)
    | exact (Wo0_out m c).symm
/-- and every buffer that is none of its arrays what it held at entry. -/
theorem hrest0 (c : Dev nD) : ∀ b, b ∉ Finset.univ.image (Pipeline.arrRef spec0) → Vo0 m c b = Vi0 m c b :=
  fun b hb => Wo0_of_ne m c b fun h => hb (h ▸ Finset.mem_image.mpr ⟨3, Finset.mem_univ _, rfl⟩)

/-- Core `c`'s unscoped buffers when region 1 is entered, -/
abbrev Wi1 (c : Dev nD) : Valuation τ sig (Elt F) := StableHlo.after hostOps1 (Wo0 m c)
/-- the same read at the TensorCore's references (what region 1's proof data take), -/
abbrev Vi1 : (c : Dev nD) → (b : Ref sig .tc) → Buf (Elt F) ((c : Thread nD τ).loc b) := fun c b => Wi1 m c b
/-- what region 1 leaves in `main_v37`: its window 8's array after every point's write-back, -/
def o8 (c : Dev nD) : Buf (Elt F) ((c : Thread nD τ).loc main_v37) := (dat1 (Vi1 m) c).arrAt 8 cfg1.N
/-- and the unscoped buffers when region 1 is left: the entry contents, `main_v37` at `o8`. -/
def Wo1 (c : Dev nD) : Valuation τ sig (Elt F) := Function.update (Wi1 m c) main_v37 (o8 m c)
abbrev Vo1 : (c : Dev nD) → (b : Ref sig .tc) → Buf (Elt F) ((c : Thread nD τ).loc b) := fun c b => Wo1 m c b
theorem Wo1_out (c : Dev nD) : Wo1 m c main_v37 = o8 m c := by
  unfold Wo1; exact Function.update_self _ _ _
theorem Wo1_of_ne (c : Dev nD) (b : Ref sig .tc) (h : b ≠ main_v37) : Wo1 m c b = Wi1 m c b := by
  unfold Wo1; exact Function.update_of_ne (StableHlo.devRef_ne_of_ne h) _ _
set_option maxHeartbeats 2000000 in
/-- At region 1's exit each of its arrays holds what the pipeline leaves — an input array its entry contents, which the
    exit valuation keeps; the output array `o8` — -/
theorem hF1 (c : Dev nD) (w : Fin cfg1.W) : (dat1 (Vi1 m) c).arrAt w cfg1.N = Vo1 m c (Pipeline.arrRef spec1 w) := by
  fin_cases w <;> first
    | exact ((dat1 (Vi1 m) c).arrAt_in _ rfl _).trans ((A_eq1 (Vi1 m) c _).trans (Wo1_of_ne m c _ (by decide)).symm)
    | exact (Wo1_out m c).symm
/-- and every buffer that is none of its arrays what it held at entry. -/
theorem hrest1 (c : Dev nD) : ∀ b, b ∉ Finset.univ.image (Pipeline.arrRef spec1) → Vo1 m c b = Vi1 m c b :=
  fun b hb => Wo1_of_ne m c b fun h => hb (h ▸ Finset.mem_image.mpr ⟨8, Finset.mem_univ _, rfl⟩)

/-- Core `c`'s unscoped buffers when region 2 is entered, -/
abbrev Wi2 (c : Dev nD) : Valuation τ sig (Elt F) := Wo1 m c
/-- the same read at the TensorCore's references (what region 2's proof data take), -/
abbrev Vi2 : (c : Dev nD) → (b : Ref sig .tc) → Buf (Elt F) ((c : Thread nD τ).loc b) := fun c b => Wi2 m c b
/-- what region 2 leaves in `main_v38`: its window 2's array after every point's write-back, -/
def o9 (c : Dev nD) : Buf (Elt F) ((c : Thread nD τ).loc main_v38) := (dat2 (Vi2 m) c).arrAt 2 cfg2.N
/-- and the unscoped buffers when region 2 is left: the entry contents, `main_v38` at `o9`. -/
def Wo2 (c : Dev nD) : Valuation τ sig (Elt F) := Function.update (Wi2 m c) main_v38 (o9 m c)
abbrev Vo2 : (c : Dev nD) → (b : Ref sig .tc) → Buf (Elt F) ((c : Thread nD τ).loc b) := fun c b => Wo2 m c b
theorem Wo2_out (c : Dev nD) : Wo2 m c main_v38 = o9 m c := by
  unfold Wo2; exact Function.update_self _ _ _
theorem Wo2_of_ne (c : Dev nD) (b : Ref sig .tc) (h : b ≠ main_v38) : Wo2 m c b = Wi2 m c b := by
  unfold Wo2; exact Function.update_of_ne (StableHlo.devRef_ne_of_ne h) _ _
set_option maxHeartbeats 2000000 in
/-- At region 2's exit each of its arrays holds what the pipeline leaves — an input array its entry contents, which the
    exit valuation keeps; the output array `o9` — -/
theorem hF2 (c : Dev nD) (w : Fin cfg2.W) : (dat2 (Vi2 m) c).arrAt w cfg2.N = Vo2 m c (Pipeline.arrRef spec2 w) := by
  fin_cases w <;> first
    | exact ((dat2 (Vi2 m) c).arrAt_in _ rfl _).trans ((A_eq2 (Vi2 m) c _).trans (Wo2_of_ne m c _ (by decide)).symm)
    | exact (Wo2_out m c).symm
/-- and every buffer that is none of its arrays what it held at entry. -/
theorem hrest2 (c : Dev nD) : ∀ b, b ∉ Finset.univ.image (Pipeline.arrRef spec2) → Vo2 m c b = Vi2 m c b :=
  fun b hb => Wo2_of_ne m c b fun h => hb (h ▸ Finset.mem_image.mpr ⟨2, Finset.mem_univ _, rfl⟩)

/-- Core `c`'s unscoped buffers when region 3 is entered, -/
abbrev Wi3 (c : Dev nD) : Valuation τ sig (Elt F) := StableHlo.after hostOps3 (Wo2 m c)
/-- the same read at the TensorCore's references (what region 3's proof data take), -/
abbrev Vi3 : (c : Dev nD) → (b : Ref sig .tc) → Buf (Elt F) ((c : Thread nD τ).loc b) := fun c b => Wi3 m c b
/-- what region 3 leaves in `main_v65`: its window 11's array after every point's write-back, -/
def o11 (c : Dev nD) : Buf (Elt F) ((c : Thread nD τ).loc main_v65) := (dat3 (Vi3 m) c).arrAt 11 cfg3.N
/-- and the unscoped buffers when region 3 is left: the entry contents, `main_v65` at `o11`. -/
def Wo3 (c : Dev nD) : Valuation τ sig (Elt F) := Function.update (Wi3 m c) main_v65 (o11 m c)
abbrev Vo3 : (c : Dev nD) → (b : Ref sig .tc) → Buf (Elt F) ((c : Thread nD τ).loc b) := fun c b => Wo3 m c b
theorem Wo3_out (c : Dev nD) : Wo3 m c main_v65 = o11 m c := by
  unfold Wo3; exact Function.update_self _ _ _
theorem Wo3_of_ne (c : Dev nD) (b : Ref sig .tc) (h : b ≠ main_v65) : Wo3 m c b = Wi3 m c b := by
  unfold Wo3; exact Function.update_of_ne (StableHlo.devRef_ne_of_ne h) _ _
set_option maxHeartbeats 2000000 in
/-- At region 3's exit each of its arrays holds what the pipeline leaves — an input array its entry contents, which the
    exit valuation keeps; the output array `o11` — -/
theorem hF3 (c : Dev nD) (w : Fin cfg3.W) : (dat3 (Vi3 m) c).arrAt w cfg3.N = Vo3 m c (Pipeline.arrRef spec3 w) := by
  fin_cases w <;> first
    | exact ((dat3 (Vi3 m) c).arrAt_in _ rfl _).trans ((A_eq3 (Vi3 m) c _).trans (Wo3_of_ne m c _ (by decide)).symm)
    | exact (Wo3_out m c).symm
/-- and every buffer that is none of its arrays what it held at entry. -/
theorem hrest3 (c : Dev nD) : ∀ b, b ∉ Finset.univ.image (Pipeline.arrRef spec3) → Vo3 m c b = Vi3 m c b :=
  fun b hb => Wo3_of_ne m c b fun h => hb (h ▸ Finset.mem_image.mpr ⟨11, Finset.mem_univ _, rfl⟩)

/-- Core `c`'s unscoped buffers when region 4 is entered, -/
abbrev Wi4 (c : Dev nD) : Valuation τ sig (Elt F) := StableHlo.after hostOps4 (Wo3 m c)
/-- the same read at the TensorCore's references (what region 4's proof data take), -/
abbrev Vi4 : (c : Dev nD) → (b : Ref sig .tc) → Buf (Elt F) ((c : Thread nD τ).loc b) := fun c b => Wi4 m c b
/-- what region 4 leaves in `main_v94`: its window 8's array after every point's write-back, -/
def o13 (c : Dev nD) : Buf (Elt F) ((c : Thread nD τ).loc main_v94) := (dat4 (Vi4 m) c).arrAt 8 cfg4.N
/-- and the unscoped buffers when region 4 is left: the entry contents, `main_v94` at `o13`. -/
def Wo4 (c : Dev nD) : Valuation τ sig (Elt F) := Function.update (Wi4 m c) main_v94 (o13 m c)
abbrev Vo4 : (c : Dev nD) → (b : Ref sig .tc) → Buf (Elt F) ((c : Thread nD τ).loc b) := fun c b => Wo4 m c b
theorem Wo4_out (c : Dev nD) : Wo4 m c main_v94 = o13 m c := by
  unfold Wo4; exact Function.update_self _ _ _
theorem Wo4_of_ne (c : Dev nD) (b : Ref sig .tc) (h : b ≠ main_v94) : Wo4 m c b = Wi4 m c b := by
  unfold Wo4; exact Function.update_of_ne (StableHlo.devRef_ne_of_ne h) _ _
set_option maxHeartbeats 2000000 in
/-- At region 4's exit each of its arrays holds what the pipeline leaves — an input array its entry contents, which the
    exit valuation keeps; the output array `o13` — -/
theorem hF4 (c : Dev nD) (w : Fin cfg4.W) : (dat4 (Vi4 m) c).arrAt w cfg4.N = Vo4 m c (Pipeline.arrRef spec4 w) := by
  fin_cases w <;> first
    | exact ((dat4 (Vi4 m) c).arrAt_in _ rfl _).trans ((A_eq4 (Vi4 m) c _).trans (Wo4_of_ne m c _ (by decide)).symm)
    | exact (Wo4_out m c).symm
/-- and every buffer that is none of its arrays what it held at entry. -/
theorem hrest4 (c : Dev nD) : ∀ b, b ∉ Finset.univ.image (Pipeline.arrRef spec4) → Vo4 m c b = Vi4 m c b :=
  fun b hb => Wo4_of_ne m c b fun h => hb (h ▸ Finset.mem_image.mpr ⟨8, Finset.mem_univ _, rfl⟩)

/-- Core `c`'s unscoped buffers when region 5 is entered, -/
abbrev Wi5 (c : Dev nD) : Valuation τ sig (Elt F) := Wo4 m c
/-- the same read at the TensorCore's references (what region 5's proof data take), -/
abbrev Vi5 : (c : Dev nD) → (b : Ref sig .tc) → Buf (Elt F) ((c : Thread nD τ).loc b) := fun c b => Wi5 m c b
/-- what region 5 leaves in `main_v95`: its window 2's array after every point's write-back, -/
def o14 (c : Dev nD) : Buf (Elt F) ((c : Thread nD τ).loc main_v95) := (dat5 (Vi5 m) c).arrAt 2 cfg5.N
/-- and the unscoped buffers when region 5 is left: the entry contents, `main_v95` at `o14`. -/
def Wo5 (c : Dev nD) : Valuation τ sig (Elt F) := Function.update (Wi5 m c) main_v95 (o14 m c)
abbrev Vo5 : (c : Dev nD) → (b : Ref sig .tc) → Buf (Elt F) ((c : Thread nD τ).loc b) := fun c b => Wo5 m c b
theorem Wo5_out (c : Dev nD) : Wo5 m c main_v95 = o14 m c := by
  unfold Wo5; exact Function.update_self _ _ _
theorem Wo5_of_ne (c : Dev nD) (b : Ref sig .tc) (h : b ≠ main_v95) : Wo5 m c b = Wi5 m c b := by
  unfold Wo5; exact Function.update_of_ne (StableHlo.devRef_ne_of_ne h) _ _
set_option maxHeartbeats 2000000 in
/-- At region 5's exit each of its arrays holds what the pipeline leaves — an input array its entry contents, which the
    exit valuation keeps; the output array `o14` — -/
theorem hF5 (c : Dev nD) (w : Fin cfg5.W) : (dat5 (Vi5 m) c).arrAt w cfg5.N = Vo5 m c (Pipeline.arrRef spec5 w) := by
  fin_cases w <;> first
    | exact ((dat5 (Vi5 m) c).arrAt_in _ rfl _).trans ((A_eq5 (Vi5 m) c _).trans (Wo5_of_ne m c _ (by decide)).symm)
    | exact (Wo5_out m c).symm
/-- and every buffer that is none of its arrays what it held at entry. -/
theorem hrest5 (c : Dev nD) : ∀ b, b ∉ Finset.univ.image (Pipeline.arrRef spec5) → Vo5 m c b = Vi5 m c b :=
  fun b hb => Wo5_of_ne m c b fun h => hb (h ▸ Finset.mem_image.mpr ⟨2, Finset.mem_univ _, rfl⟩)

/-- Core `c`'s unscoped buffers when region 6 is entered, -/
abbrev Wi6 (c : Dev nD) : Valuation τ sig (Elt F) := StableHlo.after hostOps6 (Wo5 m c)
/-- the same read at the TensorCore's references (what region 6's proof data take), -/
abbrev Vi6 : (c : Dev nD) → (b : Ref sig .tc) → Buf (Elt F) ((c : Thread nD τ).loc b) := fun c b => Wi6 m c b
/-- what region 6 leaves in `main_v122`: its window 11's array after every point's write-back, -/
def o16 (c : Dev nD) : Buf (Elt F) ((c : Thread nD τ).loc main_v122) := (dat6 (Vi6 m) c).arrAt 11 cfg6.N
/-- and the unscoped buffers when region 6 is left: the entry contents, `main_v122` at `o16`. -/
def Wo6 (c : Dev nD) : Valuation τ sig (Elt F) := Function.update (Wi6 m c) main_v122 (o16 m c)
abbrev Vo6 : (c : Dev nD) → (b : Ref sig .tc) → Buf (Elt F) ((c : Thread nD τ).loc b) := fun c b => Wo6 m c b
theorem Wo6_out (c : Dev nD) : Wo6 m c main_v122 = o16 m c := by
  unfold Wo6; exact Function.update_self _ _ _
theorem Wo6_of_ne (c : Dev nD) (b : Ref sig .tc) (h : b ≠ main_v122) : Wo6 m c b = Wi6 m c b := by
  unfold Wo6; exact Function.update_of_ne (StableHlo.devRef_ne_of_ne h) _ _
set_option maxHeartbeats 2000000 in
/-- At region 6's exit each of its arrays holds what the pipeline leaves — an input array its entry contents, which the
    exit valuation keeps; the output array `o16` — -/
theorem hF6 (c : Dev nD) (w : Fin cfg6.W) : (dat6 (Vi6 m) c).arrAt w cfg6.N = Vo6 m c (Pipeline.arrRef spec6 w) := by
  fin_cases w <;> first
    | exact ((dat6 (Vi6 m) c).arrAt_in _ rfl _).trans ((A_eq6 (Vi6 m) c _).trans (Wo6_of_ne m c _ (by decide)).symm)
    | exact (Wo6_out m c).symm
/-- and every buffer that is none of its arrays what it held at entry. -/
theorem hrest6 (c : Dev nD) : ∀ b, b ∉ Finset.univ.image (Pipeline.arrRef spec6) → Vo6 m c b = Vi6 m c b :=
  fun b hb => Wo6_of_ne m c b fun h => hb (h ▸ Finset.mem_image.mpr ⟨11, Finset.mem_univ _, rfl⟩)

/-- Core `c`'s unscoped buffers when region 7 is entered, -/
abbrev Wi7 (c : Dev nD) : Valuation τ sig (Elt F) := StableHlo.after hostOps7 (Wo6 m c)
/-- the same read at the TensorCore's references (what region 7's proof data take), -/
abbrev Vi7 : (c : Dev nD) → (b : Ref sig .tc) → Buf (Elt F) ((c : Thread nD τ).loc b) := fun c b => Wi7 m c b
/-- what region 7 leaves in `main_v151`: its window 8's array after every point's write-back, -/
def o18 (c : Dev nD) : Buf (Elt F) ((c : Thread nD τ).loc main_v151) := (dat7 (Vi7 m) c).arrAt 8 cfg7.N
/-- and the unscoped buffers when region 7 is left: the entry contents, `main_v151` at `o18`. -/
def Wo7 (c : Dev nD) : Valuation τ sig (Elt F) := Function.update (Wi7 m c) main_v151 (o18 m c)
abbrev Vo7 : (c : Dev nD) → (b : Ref sig .tc) → Buf (Elt F) ((c : Thread nD τ).loc b) := fun c b => Wo7 m c b
theorem Wo7_out (c : Dev nD) : Wo7 m c main_v151 = o18 m c := by
  unfold Wo7; exact Function.update_self _ _ _
theorem Wo7_of_ne (c : Dev nD) (b : Ref sig .tc) (h : b ≠ main_v151) : Wo7 m c b = Wi7 m c b := by
  unfold Wo7; exact Function.update_of_ne (StableHlo.devRef_ne_of_ne h) _ _
set_option maxHeartbeats 2000000 in
/-- At region 7's exit each of its arrays holds what the pipeline leaves — an input array its entry contents, which the
    exit valuation keeps; the output array `o18` — -/
theorem hF7 (c : Dev nD) (w : Fin cfg7.W) : (dat7 (Vi7 m) c).arrAt w cfg7.N = Vo7 m c (Pipeline.arrRef spec7 w) := by
  fin_cases w <;> first
    | exact ((dat7 (Vi7 m) c).arrAt_in _ rfl _).trans ((A_eq7 (Vi7 m) c _).trans (Wo7_of_ne m c _ (by decide)).symm)
    | exact (Wo7_out m c).symm
/-- and every buffer that is none of its arrays what it held at entry. -/
theorem hrest7 (c : Dev nD) : ∀ b, b ∉ Finset.univ.image (Pipeline.arrRef spec7) → Vo7 m c b = Vi7 m c b :=
  fun b hb => Wo7_of_ne m c b fun h => hb (h ▸ Finset.mem_image.mpr ⟨8, Finset.mem_univ _, rfl⟩)

/-- Core `c`'s unscoped buffers when region 8 is entered, -/
abbrev Wi8 (c : Dev nD) : Valuation τ sig (Elt F) := Wo7 m c
/-- the same read at the TensorCore's references (what region 8's proof data take), -/
abbrev Vi8 : (c : Dev nD) → (b : Ref sig .tc) → Buf (Elt F) ((c : Thread nD τ).loc b) := fun c b => Wi8 m c b
/-- what region 8 leaves in `main_v152`: its window 2's array after every point's write-back, -/
def o19 (c : Dev nD) : Buf (Elt F) ((c : Thread nD τ).loc main_v152) := (dat8 (Vi8 m) c).arrAt 2 cfg8.N
/-- and the unscoped buffers when region 8 is left: the entry contents, `main_v152` at `o19`. -/
def Wo8 (c : Dev nD) : Valuation τ sig (Elt F) := Function.update (Wi8 m c) main_v152 (o19 m c)
abbrev Vo8 : (c : Dev nD) → (b : Ref sig .tc) → Buf (Elt F) ((c : Thread nD τ).loc b) := fun c b => Wo8 m c b
theorem Wo8_out (c : Dev nD) : Wo8 m c main_v152 = o19 m c := by
  unfold Wo8; exact Function.update_self _ _ _
theorem Wo8_of_ne (c : Dev nD) (b : Ref sig .tc) (h : b ≠ main_v152) : Wo8 m c b = Wi8 m c b := by
  unfold Wo8; exact Function.update_of_ne (StableHlo.devRef_ne_of_ne h) _ _
set_option maxHeartbeats 2000000 in
/-- At region 8's exit each of its arrays holds what the pipeline leaves — an input array its entry contents, which the
    exit valuation keeps; the output array `o19` — -/
theorem hF8 (c : Dev nD) (w : Fin cfg8.W) : (dat8 (Vi8 m) c).arrAt w cfg8.N = Vo8 m c (Pipeline.arrRef spec8 w) := by
  fin_cases w <;> first
    | exact ((dat8 (Vi8 m) c).arrAt_in _ rfl _).trans ((A_eq8 (Vi8 m) c _).trans (Wo8_of_ne m c _ (by decide)).symm)
    | exact (Wo8_out m c).symm
/-- and every buffer that is none of its arrays what it held at entry. -/
theorem hrest8 (c : Dev nD) : ∀ b, b ∉ Finset.univ.image (Pipeline.arrRef spec8) → Vo8 m c b = Vi8 m c b :=
  fun b hb => Wo8_of_ne m c b fun h => hb (h ▸ Finset.mem_image.mpr ⟨2, Finset.mem_univ _, rfl⟩)

/-- Core `c`'s unscoped buffers when region 9 is entered, -/
abbrev Wi9 (c : Dev nD) : Valuation τ sig (Elt F) := StableHlo.after hostOps9 (Wo8 m c)
/-- the same read at the TensorCore's references (what region 9's proof data take), -/
abbrev Vi9 : (c : Dev nD) → (b : Ref sig .tc) → Buf (Elt F) ((c : Thread nD τ).loc b) := fun c b => Wi9 m c b
/-- what region 9 leaves in `main_v179`: its window 11's array after every point's write-back, -/
def o21 (c : Dev nD) : Buf (Elt F) ((c : Thread nD τ).loc main_v179) := (dat9 (Vi9 m) c).arrAt 11 cfg9.N
/-- and the unscoped buffers when region 9 is left: the entry contents, `main_v179` at `o21`. -/
def Wo9 (c : Dev nD) : Valuation τ sig (Elt F) := Function.update (Wi9 m c) main_v179 (o21 m c)
abbrev Vo9 : (c : Dev nD) → (b : Ref sig .tc) → Buf (Elt F) ((c : Thread nD τ).loc b) := fun c b => Wo9 m c b
theorem Wo9_out (c : Dev nD) : Wo9 m c main_v179 = o21 m c := by
  unfold Wo9; exact Function.update_self _ _ _
theorem Wo9_of_ne (c : Dev nD) (b : Ref sig .tc) (h : b ≠ main_v179) : Wo9 m c b = Wi9 m c b := by
  unfold Wo9; exact Function.update_of_ne (StableHlo.devRef_ne_of_ne h) _ _
set_option maxHeartbeats 2000000 in
/-- At region 9's exit each of its arrays holds what the pipeline leaves — an input array its entry contents, which the
    exit valuation keeps; the output array `o21` — -/
theorem hF9 (c : Dev nD) (w : Fin cfg9.W) : (dat9 (Vi9 m) c).arrAt w cfg9.N = Vo9 m c (Pipeline.arrRef spec9 w) := by
  fin_cases w <;> first
    | exact ((dat9 (Vi9 m) c).arrAt_in _ rfl _).trans ((A_eq9 (Vi9 m) c _).trans (Wo9_of_ne m c _ (by decide)).symm)
    | exact (Wo9_out m c).symm
/-- and every buffer that is none of its arrays what it held at entry. -/
theorem hrest9 (c : Dev nD) : ∀ b, b ∉ Finset.univ.image (Pipeline.arrRef spec9) → Vo9 m c b = Vi9 m c b :=
  fun b hb => Wo9_of_ne m c b fun h => hb (h ▸ Finset.mem_image.mpr ⟨11, Finset.mem_univ _, rfl⟩)

/-! ## The regions' results as one family, and the conditional frame's valuations -/

/-- What the regions leave, as the family the conditional frame is stated over: at item `J` the exit valuation of the
    region that is item `J - 1` (the frame reads it there at that region's output array only). -/
def outs : Gen.Outs (F := F) := fun J r c =>
  match J with
  | 6 => Wo0 m c r
  | 8 => Wo1 m c r
  | 9 => Wo2 m c r
  | 11 => Wo3 m c r
  | 13 => Wo4 m c r
  | 14 => Wo5 m c r
  | 16 => Wo6 m c r
  | 18 => Wo7 m c r
  | 19 => Wo8 m c r
  | _ => Wo9 m c r

theorem outs_6 (c : Dev nD) : outs m 6 main_v8 c = o6 m c := Wo0_out m c
theorem outs_8 (c : Dev nD) : outs m 8 main_v37 c = o8 m c := Wo1_out m c
theorem outs_9 (c : Dev nD) : outs m 9 main_v38 c = o9 m c := Wo2_out m c
theorem outs_11 (c : Dev nD) : outs m 11 main_v65 c = o11 m c := Wo3_out m c
theorem outs_13 (c : Dev nD) : outs m 13 main_v94 c = o13 m c := Wo4_out m c
theorem outs_14 (c : Dev nD) : outs m 14 main_v95 c = o14 m c := Wo5_out m c
theorem outs_16 (c : Dev nD) : outs m 16 main_v122 c = o16 m c := Wo6_out m c
theorem outs_18 (c : Dev nD) : outs m 18 main_v151 c = o18 m c := Wo7_out m c
theorem outs_19 (c : Dev nD) : outs m 19 main_v152 c = o19 m c := Wo8_out m c
theorem outs_21 (c : Dev nD) : outs m 21 main_v179 c = o21 m c := Wo9_out m c

/-- The conditional frame's valuations at this family are the chain's: item by item, an update at the region's result or
    the same host stretch from equal contents. -/
theorem V6_eq (c : Dev nD) : Gen.V6 m (outs m) c = Wo0 m c := by
  show Function.update (Gen.V5 m c) main_v8 (outs m 6 main_v8 c) = _
  rw [outs_6]; rfl
theorem V7_eq (c : Dev nD) : Gen.V7 m (outs m) c = Wi1 m c := by
  show StableHlo.after hostOps1 (Gen.V6 m (outs m) c) = _
  rw [V6_eq]
theorem V8_eq (c : Dev nD) : Gen.V8 m (outs m) c = Wo1 m c := by
  show Function.update (Gen.V7 m (outs m) c) main_v37 (outs m 8 main_v37 c) = _
  rw [V7_eq, outs_8]; rfl
theorem V9_eq (c : Dev nD) : Gen.V9 m (outs m) c = Wo2 m c := by
  show Function.update (Gen.V8 m (outs m) c) main_v38 (outs m 9 main_v38 c) = _
  rw [V8_eq, outs_9]; rfl
theorem V10_eq (c : Dev nD) : Gen.V10 m (outs m) c = Wi3 m c := by
  show StableHlo.after hostOps3 (Gen.V9 m (outs m) c) = _
  rw [V9_eq]
theorem V11_eq (c : Dev nD) : Gen.V11 m (outs m) c = Wo3 m c := by
  show Function.update (Gen.V10 m (outs m) c) main_v65 (outs m 11 main_v65 c) = _
  rw [V10_eq, outs_11]; rfl
theorem V12_eq (c : Dev nD) : Gen.V12 m (outs m) c = Wi4 m c := by
  show StableHlo.after hostOps4 (Gen.V11 m (outs m) c) = _
  rw [V11_eq]
theorem V13_eq (c : Dev nD) : Gen.V13 m (outs m) c = Wo4 m c := by
  show Function.update (Gen.V12 m (outs m) c) main_v94 (outs m 13 main_v94 c) = _
  rw [V12_eq, outs_13]; rfl
theorem V14_eq (c : Dev nD) : Gen.V14 m (outs m) c = Wo5 m c := by
  show Function.update (Gen.V13 m (outs m) c) main_v95 (outs m 14 main_v95 c) = _
  rw [V13_eq, outs_14]; rfl
theorem V15_eq (c : Dev nD) : Gen.V15 m (outs m) c = Wi6 m c := by
  show StableHlo.after hostOps6 (Gen.V14 m (outs m) c) = _
  rw [V14_eq]
theorem V16_eq (c : Dev nD) : Gen.V16 m (outs m) c = Wo6 m c := by
  show Function.update (Gen.V15 m (outs m) c) main_v122 (outs m 16 main_v122 c) = _
  rw [V15_eq, outs_16]; rfl
theorem V17_eq (c : Dev nD) : Gen.V17 m (outs m) c = Wi7 m c := by
  show StableHlo.after hostOps7 (Gen.V16 m (outs m) c) = _
  rw [V16_eq]
theorem V18_eq (c : Dev nD) : Gen.V18 m (outs m) c = Wo7 m c := by
  show Function.update (Gen.V17 m (outs m) c) main_v151 (outs m 18 main_v151 c) = _
  rw [V17_eq, outs_18]; rfl
theorem V19_eq (c : Dev nD) : Gen.V19 m (outs m) c = Wo8 m c := by
  show Function.update (Gen.V18 m (outs m) c) main_v152 (outs m 19 main_v152 c) = _
  rw [V18_eq, outs_19]; rfl
theorem V20_eq (c : Dev nD) : Gen.V20 m (outs m) c = Wi9 m c := by
  show StableHlo.after hostOps9 (Gen.V19 m (outs m) c) = _
  rw [V19_eq]
theorem V21_eq (c : Dev nD) : Gen.V21 m (outs m) c = Wo9 m c := by
  show Function.update (Gen.V20 m (outs m) c) main_v179 (outs m 21 main_v179 c) = _
  rw [V20_eq, outs_21]; rfl

/-! ## The proof data family and the thread state -/

/-- Every pipeline's proof data, each at its region's entry contents — a literal `match`, so that the family at a numeral
    reduces to that region's data. -/
def pdats : (p : Fin 10) → (c : Dev nD) → Dat τ (Elt F) Unit ℕ (UR sig nD τ) ℕ (cfgs p) c
  | ⟨0, _⟩ => fun c => dat0 (Vi0 m) c
  | ⟨1, _⟩ => fun c => dat1 (Vi1 m) c
  | ⟨2, _⟩ => fun c => dat2 (Vi2 m) c
  | ⟨3, _⟩ => fun c => dat3 (Vi3 m) c
  | ⟨4, _⟩ => fun c => dat4 (Vi4 m) c
  | ⟨5, _⟩ => fun c => dat5 (Vi5 m) c
  | ⟨6, _⟩ => fun c => dat6 (Vi6 m) c
  | ⟨7, _⟩ => fun c => dat7 (Vi7 m) c
  | ⟨8, _⟩ => fun c => dat8 (Vi8 m) c
  | ⟨9, _⟩ => fun c => dat9 (Vi9 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a region's invariant
    takes it in and gives it back) and the core owing nothing. -/
abbrev R (c : Dev nD) : sProp 𝕄 := iprop((∃ r, prngReg c r) ∗ ∃ W, owes (c : Thread nD τ) (0 : CellTallies nD τ sig Unit) W)

/-! ## Each region's invariant at its two ends

At the first point the invariant is the class's (the scoped buffers no window stages, the generator register); at the last
it gives that back. For a region whose invariant is the class's at every point both are by definition; a region that
carries a scratch accumulator between points states them with its proof data. -/

section Ends
variable (V : (c : Dev nD) → (b : Ref sig .tc) → Buf (Elt F) ((c : Thread nD τ).loc b))
theorem hPhiIn0 (c : Dev nD) : (dat0 V c).Φ 0 = Pipeline.ΦA spec0 c := rfl
theorem hPhiOut0 (c : Dev nD) : (dat0 V c).Φ (Fin.last cfg0.N) ⊢ Pipeline.ΦA spec0 c :=
  show Pipeline.ΦA spec0 c ⊢ Pipeline.ΦA spec0 c from .rfl
theorem hPhiIn1 (c : Dev nD) : (dat1 V c).Φ 0 = Pipeline.ΦA spec1 c := rfl
theorem hPhiOut1 (c : Dev nD) : (dat1 V c).Φ (Fin.last cfg1.N) ⊢ Pipeline.ΦA spec1 c :=
  show Pipeline.ΦA spec1 c ⊢ Pipeline.ΦA spec1 c from .rfl
theorem hPhiIn2 (c : Dev nD) : (dat2 V c).Φ 0 = Pipeline.ΦA spec2 c := Phi2_zero V c
theorem hPhiOut2 (c : Dev nD) : (dat2 V c).Φ (Fin.last cfg2.N) ⊢ Pipeline.ΦA spec2 c := Phi2_out V c
theorem hPhiIn3 (c : Dev nD) : (dat3 V c).Φ 0 = Pipeline.ΦA spec3 c := rfl
theorem hPhiOut3 (c : Dev nD) : (dat3 V c).Φ (Fin.last cfg3.N) ⊢ Pipeline.ΦA spec3 c :=
  show Pipeline.ΦA spec3 c ⊢ Pipeline.ΦA spec3 c from .rfl
theorem hPhiIn4 (c : Dev nD) : (dat4 V c).Φ 0 = Pipeline.ΦA spec4 c := rfl
theorem hPhiOut4 (c : Dev nD) : (dat4 V c).Φ (Fin.last cfg4.N) ⊢ Pipeline.ΦA spec4 c :=
  show Pipeline.ΦA spec4 c ⊢ Pipeline.ΦA spec4 c from .rfl
theorem hPhiIn5 (c : Dev nD) : (dat5 V c).Φ 0 = Pipeline.ΦA spec5 c := Phi5_zero V c
theorem hPhiOut5 (c : Dev nD) : (dat5 V c).Φ (Fin.last cfg5.N) ⊢ Pipeline.ΦA spec5 c := Phi5_out V c
theorem hPhiIn6 (c : Dev nD) : (dat6 V c).Φ 0 = Pipeline.ΦA spec6 c := rfl
theorem hPhiOut6 (c : Dev nD) : (dat6 V c).Φ (Fin.last cfg6.N) ⊢ Pipeline.ΦA spec6 c :=
  show Pipeline.ΦA spec6 c ⊢ Pipeline.ΦA spec6 c from .rfl
theorem hPhiIn7 (c : Dev nD) : (dat7 V c).Φ 0 = Pipeline.ΦA spec7 c := rfl
theorem hPhiOut7 (c : Dev nD) : (dat7 V c).Φ (Fin.last cfg7.N) ⊢ Pipeline.ΦA spec7 c :=
  show Pipeline.ΦA spec7 c ⊢ Pipeline.ΦA spec7 c from .rfl
theorem hPhiIn8 (c : Dev nD) : (dat8 V c).Φ 0 = Pipeline.ΦA spec8 c := Phi8_zero V c
theorem hPhiOut8 (c : Dev nD) : (dat8 V c).Φ (Fin.last cfg8.N) ⊢ Pipeline.ΦA spec8 c := Phi8_out V c
theorem hPhiIn9 (c : Dev nD) : (dat9 V c).Φ 0 = Pipeline.ΦA spec9 c := rfl
theorem hPhiOut9 (c : Dev nD) : (dat9 V c).Φ (Fin.last cfg9.N) ⊢ Pipeline.ΦA spec9 c :=
  show Pipeline.ΦA spec9 c ⊢ Pipeline.ΦA spec9 c from .rfl
end Ends

end Cert.KernelIdeal.Hand

end
-- ==== Proof.KI.Seg0.lean ====
/-
  REGION 0 of @main as a segment of the run: its record over the thread state "every unscoped buffer of the core at a
  valuation, the generator register at some state, nothing owed" — entered from the chain's entry valuation, left at its
  exit valuation.
-/
import proofs.«417300_j83468394430632_3_alg».proof.Proof.KI.Chain

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 0 over the thread state: entered from every unscoped buffer at `Wi0` beside `R`, left at `Wo0` beside `R`.
    Its arrays are split out of the unscoped buffers at entry and put back at the exit contents (each array at what the
    pipeline leaves, every other buffer as entered: `hF0`, `hrest0`); the generator register goes into the region's
    invariant and comes back; nothing is owed; the kernel has no semaphore of its own. -/
def reg0 : Pipeline.RegionSeg (pcfgs (F := F)) adm (pdats m) () defs₀ 𝒱₀ L lv (0 : Fin 10) where
  win := launch0.win.to₀
  block_pos := launch0.block_pos
  stage_whole := launch0.stage_whole
  K := PEmpty
  osem k := k.elim
  ho := Pipeline.OwnSemFacts.none _
  hbody c := (body_obligation0 (Vi0 m) c).loose
  hwaits := Pipeline.hwaits_of_owed_zero _ _ _ _ L lv (0 : Fin 10) fun _ _ => rfl
  pre c := iprop(StableHlo.held (c : Thread nD τ) (Pipeline.ucRefs τ sig) (Wi0 m c) ∗ R c)
  post c := iprop(StableHlo.held (c : Thread nD τ) (Pipeline.ucRefs τ sig) (Wo0 m c) ∗ R c)
  X c := iprop(∃ r, prngReg c r)
  Y c := iprop(∃ r, prngReg c r)
  Z c := Pipeline.unscopedRest (Ix := Unit) (Name := ℕ) (U := UR sig nD τ) (Lvl := ℕ) spec0 c (Vi0 m c)
  hentry c := by
    rw [Pipeline.ownSems0_none]
    have hsplit := Pipeline.arrays_of_unscopedBufs (p := (0 : Fin 10)) (pcfgs (F := F)) adm (pdats m) launch0.win launch0.arr_whole c
      ((pdats m (0 : Fin 10) c).share_full fun _ => rfl) (Vi0 m c) fun w => A_eq0 (Vi0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m (0 : Fin 10) c).Φ 0 = Pipeline.ΦA spec0 c from hPhiIn0 (Vi0 m) c]; unfold Pipeline.ΦA
    iintro ⟨Hp, -, Hr⟩
    isplitl [Hr]; · iexact Hr
    iexact Hp
  hout c := by
    rw [Pipeline.ownSems0_none]
    refine (show (pdats m (0 : Fin 10) c).Φ (Fin.last _) ⊢ Pipeline.ΦA spec0 c from hPhiOut0 (Vi0 m) c).trans ?_
    unfold Pipeline.ΦA
    iintro ⟨Hr, Hp⟩
    isplitl [Hp]; · iexact Hp
    isplitr; · iempintro
    iexact Hr
  hexit c := by
    have hjoin := Pipeline.unscopedBufs_of_arrays (p := (0 : Fin 10)) (pcfgs (F := F)) adm (Ix := Unit) (Name := ℕ) (U := UR sig nD τ) (Lvl := ℕ)
      launch0.win launch0.arr_whole c (pdats m) ((pdats m (0 : Fin 10) c).share_full fun _ => rfl)
      (Vi0 m c) (Vo0 m c) ((pdats m (0 : Fin 10) c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Segs.lean ====
/-
  The ten kernel regions' records, one module each (region 0's written out; regions 1 to 9 laid out from it with the
  region's number substituted).
-/
import proofs.«417300_j83468394430632_3_alg».proof.Proof.KI.Seg0
import proofs.«417300_j83468394430632_3_alg».proof.Proof.KI.Seg1
import proofs.«417300_j83468394430632_3_alg».proof.Proof.KI.Seg2
import proofs.«417300_j83468394430632_3_alg».proof.Proof.KI.Seg3
import proofs.«417300_j83468394430632_3_alg».proof.Proof.KI.Seg4
import proofs.«417300_j83468394430632_3_alg».proof.Proof.KI.Seg5
import proofs.«417300_j83468394430632_3_alg».proof.Proof.KI.Seg6
import proofs.«417300_j83468394430632_3_alg».proof.Proof.KI.Seg7
import proofs.«417300_j83468394430632_3_alg».proof.Proof.KI.Seg8
import proofs.«417300_j83468394430632_3_alg».proof.Proof.KI.Seg9
-- ==== Proof.KI.Frame.lean ====
/-
  THE FRAME of the idealized program at any float instance: the conditional frame (one hypothesis per kernel region: its
  record entered from, and left at, the thread state between items) at the chain's family of region results, the ten
  regions' records, and one rest state between all items — the generator register at some state, the core owing nothing.
-/
import proofs.«417300_j83468394430632_3_alg».proof.Proof.KI.Segs

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch and the end -/

/-- The launch's user element is the pipeline library's own at every pipeline's staging cells; no core gets a ghost
    resource besides. -/
theorem hu₀ : (ownU (initOf (Pipeline.cells cfgs cellOf_inj) (Pipeline.launchToks cfgs cellOf_inj)) : sProp 𝕄)
    ⊢ |={Set.univ}=> iprop(BI.own ((emb₁ : Emb (UR sig nD τ) 𝕄) (initOf (Pipeline.cells cfgs cellOf_inj) (Pipeline.launchToks cfgs cellOf_inj)))
        ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own ((emb₁ : Emb (UR sig nD τ) 𝕄) (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core beside its buffers makes the rest state `R` on every core: the generator register
    as launched, the core owing nothing with no wait recorded. -/
theorem hE0 : iprop((bigSep Finset.univ fun c : Dev nD => iprop(unscopedSems0 c ∗ owes (c : Thread nD τ) (0 : CellTallies nD τ sig Unit) ∅
        ∗ Pipeline.launchCred (fun _ : Dev nD => (0 : CellTallies nD τ sig Unit)) c ∗ prngReg c (ρ c) ∗ (BI.emp : sProp 𝕄))) ∗ levAts L lv)
      ⊢ (|={Set.univ}=> bigSep Finset.univ (fun c : Dev nD => R c) : sProp 𝕄) := by
  refine Pipeline.initEach L lv fun c => ?_
  iintro ⟨⟨-, HO, -, Hp, -⟩, -⟩
  imodintro
  isplitl [Hp]; · iexists _; iexact Hp
  iexists ∅; iexact HO

/-- The rest state ends owing nothing. -/
theorem hE10 (c : Dev nD) : R c ⊢ (iprop(∃ W, owes (c : Thread nD τ) (0 : CellTallies nD τ sig Unit) W) : sProp 𝕄) := by
  iintro ⟨-, H⟩; iexact H

/-! ## Each region's record is entered from, and left at, the conditional frame's thread states

The record's states are over the chain's valuations; the conditional frame's are over its own at the family `outs`:
the same valuations (`VJ_eq`). -/

theorem hpre0 (c : Dev nD) : iprop(StableHlo.held (c : Thread nD τ) (Pipeline.ucRefs τ sig) (Gen.V5 m c) ∗ R c) ⊢ (reg0 m).pre c := by
  exact .rfl
theorem hpost0 (c : Dev nD) : (reg0 m).post c ⊢ iprop(StableHlo.held (c : Thread nD τ) (Pipeline.ucRefs τ sig) (Gen.V6 m (outs m) c) ∗ R c) := by
  rw [V6_eq]; exact .rfl
theorem hpre1 (c : Dev nD) : iprop(StableHlo.held (c : Thread nD τ) (Pipeline.ucRefs τ sig) (Gen.V7 m (outs m) c) ∗ R c) ⊢ (reg1 m).pre c := by
  rw [V7_eq]; exact .rfl
theorem hpost1 (c : Dev nD) : (reg1 m).post c ⊢ iprop(StableHlo.held (c : Thread nD τ) (Pipeline.ucRefs τ sig) (Gen.V8 m (outs m) c) ∗ R c) := by
  rw [V8_eq]; exact .rfl
theorem hpre2 (c : Dev nD) : iprop(StableHlo.held (c : Thread nD τ) (Pipeline.ucRefs τ sig) (Gen.V8 m (outs m) c) ∗ R c) ⊢ (reg2 m).pre c := by
  rw [V8_eq]; exact .rfl
theorem hpost2 (c : Dev nD) : (reg2 m).post c ⊢ iprop(StableHlo.held (c : Thread nD τ) (Pipeline.ucRefs τ sig) (Gen.V9 m (outs m) c) ∗ R c) := by
  rw [V9_eq]; exact .rfl
theorem hpre3 (c : Dev nD) : iprop(StableHlo.held (c : Thread nD τ) (Pipeline.ucRefs τ sig) (Gen.V10 m (outs m) c) ∗ R c) ⊢ (reg3 m).pre c := by
  rw [V10_eq]; exact .rfl
theorem hpost3 (c : Dev nD) : (reg3 m).post c ⊢ iprop(StableHlo.held (c : Thread nD τ) (Pipeline.ucRefs τ sig) (Gen.V11 m (outs m) c) ∗ R c) := by
  rw [V11_eq]; exact .rfl
theorem hpre4 (c : Dev nD) : iprop(StableHlo.held (c : Thread nD τ) (Pipeline.ucRefs τ sig) (Gen.V12 m (outs m) c) ∗ R c) ⊢ (reg4 m).pre c := by
  rw [V12_eq]; exact .rfl
theorem hpost4 (c : Dev nD) : (reg4 m).post c ⊢ iprop(StableHlo.held (c : Thread nD τ) (Pipeline.ucRefs τ sig) (Gen.V13 m (outs m) c) ∗ R c) := by
  rw [V13_eq]; exact .rfl
theorem hpre5 (c : Dev nD) : iprop(StableHlo.held (c : Thread nD τ) (Pipeline.ucRefs τ sig) (Gen.V13 m (outs m) c) ∗ R c) ⊢ (reg5 m).pre c := by
  rw [V13_eq]; exact .rfl
theorem hpost5 (c : Dev nD) : (reg5 m).post c ⊢ iprop(StableHlo.held (c : Thread nD τ) (Pipeline.ucRefs τ sig) (Gen.V14 m (outs m) c) ∗ R c) := by
  rw [V14_eq]; exact .rfl
theorem hpre6 (c : Dev nD) : iprop(StableHlo.held (c : Thread nD τ) (Pipeline.ucRefs τ sig) (Gen.V15 m (outs m) c) ∗ R c) ⊢ (reg6 m).pre c := by
  rw [V15_eq]; exact .rfl
theorem hpost6 (c : Dev nD) : (reg6 m).post c ⊢ iprop(StableHlo.held (c : Thread nD τ) (Pipeline.ucRefs τ sig) (Gen.V16 m (outs m) c) ∗ R c) := by
  rw [V16_eq]; exact .rfl
theorem hpre7 (c : Dev nD) : iprop(StableHlo.held (c : Thread nD τ) (Pipeline.ucRefs τ sig) (Gen.V17 m (outs m) c) ∗ R c) ⊢ (reg7 m).pre c := by
  rw [V17_eq]; exact .rfl
theorem hpost7 (c : Dev nD) : (reg7 m).post c ⊢ iprop(StableHlo.held (c : Thread nD τ) (Pipeline.ucRefs τ sig) (Gen.V18 m (outs m) c) ∗ R c) := by
  rw [V18_eq]; exact .rfl
theorem hpre8 (c : Dev nD) : iprop(StableHlo.held (c : Thread nD τ) (Pipeline.ucRefs τ sig) (Gen.V18 m (outs m) c) ∗ R c) ⊢ (reg8 m).pre c := by
  rw [V18_eq]; exact .rfl
theorem hpost8 (c : Dev nD) : (reg8 m).post c ⊢ iprop(StableHlo.held (c : Thread nD τ) (Pipeline.ucRefs τ sig) (Gen.V19 m (outs m) c) ∗ R c) := by
  rw [V19_eq]; exact .rfl
theorem hpre9 (c : Dev nD) : iprop(StableHlo.held (c : Thread nD τ) (Pipeline.ucRefs τ sig) (Gen.V20 m (outs m) c) ∗ R c) ⊢ (reg9 m).pre c := by
  rw [V20_eq]; exact .rfl
theorem hpost9 (c : Dev nD) : (reg9 m).post c ⊢ iprop(StableHlo.held (c : Thread nD τ) (Pipeline.ucRefs τ sig) (Gen.V21 m (outs m) c) ∗ R c) := by
  rw [V21_eq]; exact .rfl

/-! ## The frame -/

-- the conditional frame's implicit arguments are found by unifying its hypotheses' types with these records', which takes
-- unfolding plain definitions in a metavariable's type
set_option backward.isDefEq.respectTransparency.types false in
/-- THE FRAME, at any float instance: at the compiled mesh, from any memory with zero counters, every weakly fair execution
    of @main on the TensorCores terminates, nothing faulting, and every final state has the eighteen argument arrays as
    launched — the conditional frame at the chain's family `outs`, the ten regions' records, the rest state `R` between
    all items. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Gen.frame_cond m (emb₁ : Emb (UR sig nD τ) 𝕄) () 𝒱₀ L lv (fun _ _ => rfl) ρ (outs m) (pdats m) (fun _ => 0) (fun _ => BI.emp)
    (initOf (Pipeline.cells cfgs cellOf_inj) (Pipeline.launchToks cfgs cellOf_inj)) hu₀ (fun _ c => R c) (hE0 ρ) hE10
    (reg0 m) (hpre0 m) (hpost0 m)
    (reg1 m) (hpre1 m) (hpost1 m)
    (reg2 m) (hpre2 m) (hpost2 m)
    (reg3 m) (hpre3 m) (hpost3 m)
    (reg4 m) (hpre4 m) (hpost4 m)
    (reg5 m) (hpre5 m) (hpost5 m)
    (reg6 m) (hpre6 m) (hpost6 m)
    (reg7 m) (hpre7 m) (hpost7 m)
    (reg8 m) (hpre8 m) (hpost8 m)
    (reg9 m) (hpre9 m) (hpost9 m)

end Cert.KernelIdeal.Hand

end
-- ==== Proof.KI.RunVal.lean ====
/-
  The kernel program's run with its result named. Every weakly fair execution of @main from any memory with zero
  counters terminates, faults nowhere, leaves the eighteen argument arrays as launched, and leaves in the result
  buffer what the last launch wrote there: the conditional run of the ten launches (the frame's, with the result
  buffer read off the last valuation too), given each launch's record over the chain of valuations, where the last
  valuation is the one before it updated at the result buffer with the last launch's output array.
-/
import proofs.«417300_j83468394430632_3_alg».proof.Proof.KI.CondVal
import proofs.«417300_j83468394430632_3_alg».proof.Proof.KI.Frame

set_option maxRecDepth 1852

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

set_option maxRecDepth 16384 in
set_option backward.isDefEq.respectTransparency.types false in
/-- THE RUN WITH THE RESULT NAMED, at any float instance: every weakly fair execution of @main from memory `m` with zero
    counters terminates, and every final memory holds in the result buffer `main_v179` what the chain's last region
    leaves there (`outs m 21 main_v179 c`, which is `o21 m c`), beside the eighteen argument arrays as launched. -/
theorem run_val (ρ : Dev nD → PrngReg) : θ_run defs (onTc (τ := τ) (main (F := F))) ⟨m, fun _ => 0, ρ⟩ (fun r => ∀ c : Dev nD,
      r.2.mem ((c.tc : Thread nD τ).loc main_v179) = outs m 21 main_v179 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨(h c).1.trans (Function.update_self _ _ _), (h c).2⟩)
    (frame_cond_val m (emb₁ : Emb (UR sig nD τ) 𝕄) () 𝒱₀ L lv (fun _ _ => rfl) ρ (outs m) (pdats m) (fun _ => 0) (fun _ => BI.emp)
      (initOf (Pipeline.cells cfgs cellOf_inj) (Pipeline.launchToks cfgs cellOf_inj)) hu₀ (fun _ c => R c) (hE0 ρ) hE10
      (reg0 m) (hpre0 m) (hpost0 m)
      (reg1 m) (hpre1 m) (hpost1 m)
      (reg2 m) (hpre2 m) (hpost2 m)
      (reg3 m) (hpre3 m) (hpost3 m)
      (reg4 m) (hpre4 m) (hpost4 m)
      (reg5 m) (hpre5 m) (hpost5 m)
      (reg6 m) (hpre6 m) (hpost6 m)
      (reg7 m) (hpre7 m) (hpost7 m)
      (reg8 m) (hpre8 m) (hpost8 m)
      (reg9 m) (hpre9 m) (hpost9 m))

end Cert.KernelIdeal.Hand

end
-- ==== Proof.LibSeg.lean ====
/-
  The host's accumulating scatter by a column of group ids and the host's gather of a table row by a column of ids, each
  read at one element.

  The scatter takes an operand of G rows and C columns, a column of N integer words (one id per update row) and N update
  rows of C columns. Update element (n, c) is added to operand element (id n, c), the id read as a signed integer;
  a row whose id is negative or at least G is added nowhere. So element (g, f) of the result is the operand's element
  plus the sum, over the rows n whose id is g, of update element (n, f); the same without the column axis for a vector
  of N numbers scattered into a vector of G. A signed 32-bit word equals a natural number below 2^31 exactly when it
  is that number's word, which turns the condition on the id into an equation of words. The gather of rows reads, for
  row n, the table's row at n's start index read signed and clamped into the table; a start index that is the word of a
  row number below G is that row. An index that is not negative read signed is left as it is by the normalisation that
  adds the extent to negative indices.
-/
import Idealize.ShloMosaic.PureOps.Dims
import Idealize.ShloMosaic.PureOps.Ideal
import Idealize.ShloMosaic.PureOps.Ideal.Laws
import Idealize.ShloMosaic.Lib.ValueIdx
import Idealize.ShloMosaic.Lib.ValueIdxRank1
import Idealize.ShloMosaic.Lib.Pipeline.Value
import Idealize.ShloMosaic.Lib.StableHlo.Predicate
import Mathlib.Algebra.BigOperators.Group.Finset.Basic
import Mathlib.Algebra.BigOperators.Group.Finset.Piecewise
import Mathlib.Data.Fintype.BigOperators

noncomputable section

open scoped BigOperators

namespace Cert.LibSeg

open Idealize.ShloMosaic Idealize.ShloMosaic.ValueIdx

/-! ## The dimension numbers of a scatter of rows by one column of ids -/

/-- The dimension numbers of a scatter into G rows of C columns from N update rows of C columns, the row's id in a
    column of N words: the updates' column axis is the window, the operand's row axis is the inserted one and the one
    the id addresses, and the id is the whole index vector. -/
abbrev segDims (G N C : Nat) (wf : ScatterDims.WF ⟨2, ![G, C]⟩ ⟨2, ![N, 1]⟩ ⟨2, ![N, C]⟩ [1] [0] [0] 1) :
    ScatterDims ⟨2, ![G, C]⟩ ⟨2, ![N, 1]⟩ ⟨2, ![N, C]⟩ where
  updateWindowDims := [1]
  insertedWindowDims := [0]
  scatterDimsToOperandDims := [0]
  indexVectorDim := 1
  wf := wf

section Rows
variable {G N C : Nat} (wf : ScatterDims.WF ⟨2, ![G, C]⟩ ⟨2, ![N, 1]⟩ ⟨2, ![N, C]⟩ [1] [0] [0] 1)

/-- Update element (n, c) reads its id at row n of the id column. -/
theorem seg_siIdx (j : (⟨2, ![N, C]⟩ : Shape).Idx) (c : Fin (segDims G N C wf).scatterDimsToOperandDims.length) :
    (segDims G N C wf).siIdx j c = ix2 (j 0) 0 := by
  funext b
  match b with
  | ⟨0, _⟩ => rfl
  | ⟨1, _⟩ =>
    have hc : c.val = 0 := by have := c.isLt; change c.val < 1 at this; omega
    exact Fin.ext hc

/-- On the row axis the window of update element (n, c) starts at the id of row n, read signed. -/
theorem seg_start0 {w : Nat} (j : (⟨2, ![N, C]⟩ : Shape).Idx) (idx : IVec ⟨2, ![N, 1]⟩ w) :
    (segDims G N C wf).start j idx 0 = (idx (ix2 (j 0) 0)).toInt := by
  unfold ScatterDims.start
  rw [dif_pos (show (0 : Fin 2) ∈ [(0 : Fin 2)] by decide), seg_siIdx]
  rfl

/-- On the column axis the window starts at 0. -/
theorem seg_start1 {w : Nat} (j : (⟨2, ![N, C]⟩ : Shape).Idx) (idx : IVec ⟨2, ![N, 1]⟩ w) :
    (segDims G N C wf).start j idx 1 = 0 := by
  unfold ScatterDims.start
  rw [dif_neg (show (1 : Fin 2) ∉ [(0 : Fin 2)] by decide)]

/-- The row axis is inserted: the window has no extent along it. -/
theorem seg_window0 (j : (⟨2, ![N, C]⟩ : Shape).Idx) : (segDims G N C wf).window j 0 = 0 := by
  have h : (0 : Fin 2) ∉ (List.finRange 2).filter (· ∉ [(0 : Fin 2)]) := by decide
  exact dif_neg h

/-- Along the column axis the window coordinate of update element (n, c) is c. -/
theorem seg_window1 (j : (⟨2, ![N, C]⟩ : Shape).Idx) : (segDims G N C wf).window j 1 = (j 1).val := by
  have h : (1 : Fin 2) ∈ (List.finRange 2).filter (· ∉ [(0 : Fin 2)]) := by decide
  exact (dif_pos h).trans rfl

/-- Update element (n, c) lands on operand element (g, f) exactly when the id of row n, read signed, is g and c is f. -/
theorem seg_resultIdx?_iff {w : Nat} (j : (⟨2, ![N, C]⟩ : Shape).Idx) (idx : IVec ⟨2, ![N, 1]⟩ w) (g : Fin G) (f : Fin C) :
    (segDims G N C wf).resultIdx? j idx = some (ix2 g f) ↔ (idx (ix2 (j 0) 0)).toInt = (g.val : Int) ∧ j 1 = f := by
  have hg := g.isLt
  have hf := f.isLt
  have hj1 := idx2_lt1 j
  unfold ScatterDims.resultIdx?
  split
  · rename_i h
    rw [Option.some.injEq]
    constructor
    · intro he
      have h0 : ((segDims G N C wf).start j idx 0 + ((segDims G N C wf).window j 0 : ℕ)).toNat = g.val :=
        congrArg (fun i : (⟨2, ![G, C]⟩ : Shape).Idx => (i 0).val) he
      have h1 : ((segDims G N C wf).start j idx 1 + ((segDims G N C wf).window j 1 : ℕ)).toNat = f.val :=
        congrArg (fun i : (⟨2, ![G, C]⟩ : Shape).Idx => (i 1).val) he
      have hb : 0 ≤ (segDims G N C wf).start j idx 0 + ((segDims G N C wf).window j 0 : ℕ) := (h 0).1
      rw [seg_start0, seg_window0] at h0 hb
      rw [seg_start1, seg_window1] at h1
      exact ⟨by omega, Fin.ext (by omega)⟩
    · rintro ⟨h0, h1⟩
      have h1' : (j 1).val = f.val := congrArg Fin.val h1
      funext a
      match a with
      | ⟨0, _⟩ =>
        apply Fin.ext
        show ((segDims G N C wf).start j idx 0 + ((segDims G N C wf).window j 0 : ℕ)).toNat = g.val
        rw [seg_start0, seg_window0]; omega
      | ⟨1, _⟩ =>
        apply Fin.ext
        show ((segDims G N C wf).start j idx 1 + ((segDims G N C wf).window j 1 : ℕ)).toNat = f.val
        rw [seg_start1, seg_window1]; omega
  · rename_i h
    constructor
    · intro he; cases he
    · rintro ⟨h0, h1⟩
      have h1' : (j 1).val = f.val := congrArg Fin.val h1
      exfalso; apply h; intro a
      match a with
      | ⟨0, _⟩ =>
        show 0 ≤ (segDims G N C wf).start j idx 0 + ((segDims G N C wf).window j 0 : ℕ) ∧
          (segDims G N C wf).start j idx 0 + ((segDims G N C wf).window j 0 : ℕ) < ((G : ℕ) : Int)
        rw [seg_start0, seg_window0]; omega
      | ⟨1, _⟩ =>
        show 0 ≤ (segDims G N C wf).start j idx 1 + ((segDims G N C wf).window j 1 : ℕ) ∧
          (segDims G N C wf).start j idx 1 + ((segDims G N C wf).window j 1 : ℕ) < ((C : ℕ) : Int)
        rw [seg_start1, seg_window1]; omega

/-- Element (g, f) of the accumulating scatter is the operand's element plus the sum, over the rows whose id read
    signed is g, of the update's element in column f. -/
theorem seg_scatterAdd {w : Nat} (x : (⟨2, ![G, C]⟩ : Shape).Idx → EReal) (idx : IVec ⟨2, ![N, 1]⟩ w)
    (upd : (⟨2, ![N, C]⟩ : Shape).Idx → EReal) (g : Fin G) (f : Fin C) :
    Ideal.hostScatterAdd (segDims G N C wf) x idx upd (ix2 g f) =
      x (ix2 g f) + ∑ n : Fin N, if (idx (ix2 n 0)).toInt = (g.val : Int) then upd (ix2 n f) else 0 := by
  unfold Ideal.hostScatterAdd
  congr 1
  rw [Finset.sum_filter, sum_idx2]
  refine Finset.sum_congr rfl fun n _ => ?_
  calc _ = ∑ c : Fin C, (if c = f then (if (idx (ix2 n 0)).toInt = (g.val : Int) then upd (ix2 n c) else 0) else 0) :=
        Finset.sum_congr rfl fun c _ => by
          have hiff := seg_resultIdx?_iff wf (ix2 n c) idx g f
          by_cases hc : c = f
          · subst hc
            rw [if_pos rfl]
            exact if_congr (hiff.trans ⟨fun h => h.1, fun h => ⟨h, rfl⟩⟩) rfl rfl
          · rw [if_neg hc]
            exact if_neg (fun h => hc (hiff.1 h).2)
    _ = _ := by rw [Finset.sum_ite_eq' Finset.univ f, if_pos (Finset.mem_univ f)]

end Rows

/-! ## A scatter of single numbers by one column of ids -/

/-- The dimension numbers of a scatter into a vector of G numbers from a vector of N updates, update n's id in a
    column of N words: the updates have no window axis, the operand's one axis is inserted and is the one the id
    addresses. -/
abbrev cntDims (G N : Nat) (wf : ScatterDims.WF ⟨1, ![G]⟩ ⟨2, ![N, 1]⟩ ⟨1, ![N]⟩ [] [0] [0] 1) :
    ScatterDims ⟨1, ![G]⟩ ⟨2, ![N, 1]⟩ ⟨1, ![N]⟩ where
  updateWindowDims := []
  insertedWindowDims := [0]
  scatterDimsToOperandDims := [0]
  indexVectorDim := 1
  wf := wf

section Numbers
variable {G N : Nat} (wf : ScatterDims.WF ⟨1, ![G]⟩ ⟨2, ![N, 1]⟩ ⟨1, ![N]⟩ [] [0] [0] 1)

/-- Update n reads its id at row n of the id column. -/
theorem cnt_siIdx (j : (⟨1, ![N]⟩ : Shape).Idx) (c : Fin (cntDims G N wf).scatterDimsToOperandDims.length) :
    (cntDims G N wf).siIdx j c = ix2 (j 0) 0 := by
  funext b
  match b with
  | ⟨0, _⟩ => rfl
  | ⟨1, _⟩ =>
    have hc : c.val = 0 := by have := c.isLt; change c.val < 1 at this; omega
    exact Fin.ext hc

/-- Update n starts at its id, read signed. -/
theorem cnt_start0 {w : Nat} (j : (⟨1, ![N]⟩ : Shape).Idx) (idx : IVec ⟨2, ![N, 1]⟩ w) :
    (cntDims G N wf).start j idx 0 = (idx (ix2 (j 0) 0)).toInt := by
  unfold ScatterDims.start
  rw [dif_pos (show (0 : Fin 1) ∈ [(0 : Fin 1)] by decide), cnt_siIdx]
  rfl

/-- The operand's axis is inserted: no window extent. -/
theorem cnt_window0 (j : (⟨1, ![N]⟩ : Shape).Idx) : (cntDims G N wf).window j 0 = 0 := by
  have h : (0 : Fin 1) ∉ (List.finRange 1).filter (· ∉ [(0 : Fin 1)]) := by decide
  exact dif_neg h

/-- Update n lands on operand element g exactly when its id, read signed, is g. -/
theorem cnt_resultIdx?_iff {w : Nat} (j : (⟨1, ![N]⟩ : Shape).Idx) (idx : IVec ⟨2, ![N, 1]⟩ w) (g : Fin G) :
    (cntDims G N wf).resultIdx? j idx = some (ix1 g) ↔ (idx (ix2 (j 0) 0)).toInt = (g.val : Int) := by
  have hg := g.isLt
  unfold ScatterDims.resultIdx?
  split
  · rename_i h
    rw [Option.some.injEq]
    constructor
    · intro he
      have h0 : ((cntDims G N wf).start j idx 0 + ((cntDims G N wf).window j 0 : ℕ)).toNat = g.val :=
        congrArg (fun i : (⟨1, ![G]⟩ : Shape).Idx => (i 0).val) he
      have hb : 0 ≤ (cntDims G N wf).start j idx 0 + ((cntDims G N wf).window j 0 : ℕ) := (h 0).1
      rw [cnt_start0, cnt_window0] at h0 hb
      omega
    · intro h0
      funext a
      match a with
      | ⟨0, _⟩ =>
        apply Fin.ext
        show ((cntDims G N wf).start j idx 0 + ((cntDims G N wf).window j 0 : ℕ)).toNat = g.val
        rw [cnt_start0, cnt_window0]; omega
  · rename_i h
    constructor
    · intro he; cases he
    · intro h0
      exfalso; apply h; intro a
      match a with
      | ⟨0, _⟩ =>
        show 0 ≤ (cntDims G N wf).start j idx 0 + ((cntDims G N wf).window j 0 : ℕ) ∧
          (cntDims G N wf).start j idx 0 + ((cntDims G N wf).window j 0 : ℕ) < ((G : ℕ) : Int)
        rw [cnt_start0, cnt_window0]; omega

/-- Element g of the accumulating scatter is the operand's element plus the sum, over the updates whose id read
    signed is g, of the update. -/
theorem cnt_scatterAdd {w : Nat} (x : (⟨1, ![G]⟩ : Shape).Idx → EReal) (idx : IVec ⟨2, ![N, 1]⟩ w)
    (upd : (⟨1, ![N]⟩ : Shape).Idx → EReal) (g : Fin G) :
    Ideal.hostScatterAdd (cntDims G N wf) x idx upd (ix1 g) =
      x (ix1 g) + ∑ n : Fin N, if (idx (ix2 n 0)).toInt = (g.val : Int) then upd (ix1 n) else 0 := by
  unfold Ideal.hostScatterAdd
  congr 1
  rw [Finset.sum_filter, ← idxEquiv1.symm.sum_comp]
  refine Finset.sum_congr rfl fun n _ => ?_
  exact if_congr (cnt_resultIdx?_iff wf (ix1 n) idx g) rfl rfl

end Numbers

/-- A signed 32-bit word equals a natural number below 2^31 exactly when it is that number's word. -/
theorem toInt_eq_natCast_iff (x : BitVec 32) (g : ℕ) (hg : g < 2 ^ 31) : x.toInt = (g : Int) ↔ x = BitVec.ofNat 32 g := by
  have hx := x.isLt
  constructor
  · intro h
    apply BitVec.eq_of_toNat_eq
    rw [BitVec.toNat_ofNat]
    rw [BitVec.toInt_eq_toNat_cond] at h
    split at h <;> omega
  · rintro rfl
    rw [BitVec.toInt_eq_toNat_cond, BitVec.toNat_ofNat]
    split <;> omega

/-! ## The gather of a row by a column of ids -/

/-- The dimension numbers of a gather of N rows of C columns out of a table of G rows, row n's start index in a column
    of N words: the result's column axis is the offset, the table's row axis is collapsed and is the one the start
    index addresses, one row of C columns is sliced. -/
abbrev rowDims (G N C : Nat) (wf : GatherDims.WF ⟨2, ![G, C]⟩ ⟨2, ![N, 1]⟩ ⟨2, ![N, C]⟩ [1] [0] [] [0] [] 1 ![1, C]) :
    GatherDims ⟨2, ![G, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

/-- Element (n, c) of the gather is the table's element in column c of the row that row n's start index names: the
    index read signed and clamped into the table's rows. -/
theorem row_gather {α : Type} {G N C w : Nat} (hG : 0 < G)
    (wf : GatherDims.WF ⟨2, ![G, C]⟩ ⟨2, ![N, 1]⟩ ⟨2, ![N, C]⟩ [1] [0] [] [0] [] 1 ![1, C])
    (x : (⟨2, ![G, C]⟩ : Shape).Idx → α) (idx : IVec ⟨2, ![N, 1]⟩ w) (n : Fin N) (c : Fin C) :
    Host.gather (rowDims G N C wf) x idx (ix2 n c) =
      x (ix2 ⟨min (idx (ix2 n 0)).toInt.toNat (G - 1), by omega⟩ c) := by
  unfold Host.gather
  congr 1
  funext a
  refine Fin.ext ?_
  match a with
  | ⟨0, _⟩ =>
    show (rowDims G N C wf).start (ix2 n c) idx 0 + (rowDims G N C wf).batchCoord (ix2 n c) 0
      + (rowDims G N C wf).offCoord (ix2 n c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims G N C wf).startIndexMap from List.mem_singleton.mpr rfl)]
    have hsi : (rowDims G N C wf).siIdx (ix2 n c) ⟨List.idxOf (0 : Fin 2) (rowDims G N C wf).startIndexMap,
        List.idxOf_lt_length_iff.2 (List.mem_singleton.mpr rfl)⟩ = ix2 n 0 := by
      funext b; refine Fin.ext ?_
      match b with
      | ⟨0, _⟩ => rfl
      | ⟨1, _⟩ => rfl
    rw [hsi]
    rfl
  | ⟨1, _⟩ =>
    show (rowDims G N C wf).start (ix2 n c) idx 1 + (rowDims G N C wf).batchCoord (ix2 n c) 1
      + (rowDims G N C wf).offCoord (ix2 n c) 1 = c.val
    rw [GatherDims.batchCoord_eq_zero _ _ _ List.not_mem_nil]
    have hs : (rowDims G N C wf).start (ix2 n c) idx 1 = 0 := by
      unfold GatherDims.start
      rw [dif_neg (show (1 : Fin 2) ∉ [(0 : Fin 2)] by decide)]
    have ho : (rowDims G N C wf).offCoord (ix2 n c) 1 = c.val := by
      have h : (1 : Fin 2) ∈ (rowDims G N C wf).sKept :=
        (GatherDims.mem_sKept _ _).2 ⟨show (1 : Fin 2) ∉ [(0 : Fin 2)] by decide, List.not_mem_nil⟩
      unfold GatherDims.offCoord
      exact (dif_pos h).trans rfl
    simp only [hs, ho, Nat.zero_add]

/-- A word of a natural number below 2^31, read signed and clamped into G rows, is the number when it is below G. -/
theorem clamp_ofNat (g G : ℕ) (hg : g < G) (hG : G ≤ 2 ^ 31) : min (BitVec.ofNat 32 g).toInt.toNat (G - 1) = g := by
  have h : (BitVec.ofNat 32 g).toInt = (g : Int) := (toInt_eq_natCast_iff _ g (by omega)).2 rfl
  rw [h]
  omega

/-- The binary32 word 0x3F800000 is the number one. -/
theorem ofBits_one_f32 : Ideal.ofBits .f32 0x3F800000#32 = 1 := by
  simp [Ideal.ofBits, Ideal.ieee, -EReal.coe_mul]; norm_num

/-- Two row indices with equal rows and the same column are equal. -/
theorem ix2_congr {n0 n1 : Nat} {a a' : Fin n0} (b : Fin n1) (h : a = a') : ix2 a b = ix2 a' b := by rw [h]

/-- When row n's start index is the word of a row number below G, the gather reads that row. -/
theorem row_gather_ofNat {α : Type} {G N C : Nat} (hG : G ≤ 2 ^ 31)
    (wf : GatherDims.WF ⟨2, ![G, C]⟩ ⟨2, ![N, 1]⟩ ⟨2, ![N, C]⟩ [1] [0] [] [0] [] 1 ![1, C])
    (x : (⟨2, ![G, C]⟩ : Shape).Idx → α) (idx : IVec ⟨2, ![N, 1]⟩ 32) (n : Fin N) (c : Fin C) (g : Fin G)
    (h : idx (ix2 n 0) = BitVec.ofNat 32 g.val) :
    Host.gather (rowDims G N C wf) x idx (ix2 n c) = x (ix2 g c) := by
  rw [row_gather (Nat.lt_of_le_of_lt (Nat.zero_le _) g.isLt) wf]
  refine congrArg x (ix2_congr c (Fin.ext ?_))
  show min (idx (ix2 n 0)).toInt.toNat (G - 1) = g.val
  rw [h]
  exact clamp_ofNat g.val G g.isLt hG

/-- jnp's normalisation of an index, the index plus the extent when it is negative, leaves a word that is not negative
    read signed as it is. -/
theorem select_slt_zero (w a : BitVec 32) (hw : w.toNat < 2 ^ 31) :
    Scalar.select (IntOp.cmpi .slt w 0#32) a w = w := by
  unfold Scalar.select
  rw [if_neg]
  intro h
  have h1 := (StableHlo.Predicate.slt_iff_toNat hw (by decide)).1 h
  have h0 : (0#32 : BitVec 32).toNat = 0 := rfl
  omega

end Cert.LibSeg

end
-- ==== Proof.Val.Spec.lean ====
/-
  What the network computes, element by element, over the extended reals.

  A node table h of 40000 rows and 128 columns is first the affine image of the inputs: row n of x times the
  encoder matrix, plus the bias. Then three layers. In a layer every edge e, with source node src e and target
  node dst e, makes a message: the source's row scaled by a gate, plus the edge's own affine embedding, cut off
  below at zero. The gate is the logistic function of a score that is linear in the target's row and the
  source's row: the first 128 attention weights meet the target's row, the last 128 the source's row, and a bias
  is added. A node's aggregate is the sum of the messages of the edges whose target it is. The node's new row is
  a two-layer perceptron of (1 + eps) times its old row plus its aggregate; after each linear map comes a scale
  by a learnt factor and by the fixed factor c (the binary32 number nearest 1/sqrt(1 + 1e-5)) and a shift; a
  cut-off at zero follows the first map, and also the second one except in the last layer.

  All sums are finite sums in the extended reals, where addition is commutative and associative and zero times
  anything is zero, so neither the order of a sum nor a zero factor matters.
-/
import Idealize.ShloMosaic.PureOps.Ideal
import Mathlib.Algebra.BigOperators.Group.Finset.Basic
import Mathlib.Data.Fintype.BigOperators

noncomputable section

open scoped BigOperators

namespace Cert.Spec

open Idealize.ShloMosaic

/-- A table of A rows and B columns of extended reals. -/
abbrev Mat (A B : ℕ) := Fin A → Fin B → EReal

/-- The fixed factor of the evaluation-mode normalisation: the binary32 number nearest 1/sqrt(1 + 1e-5). -/
def c : EReal := Ideal.ofBits .f32 0x3F7FFFAC#32

/-- The number one, as the binary32 word both programs carry. -/
def one : EReal := Ideal.ofBits .f32 0x3F800000#32

/-- Row n of x times W, plus b: the affine map. -/
def lin {A K D : ℕ} (x : Mat A K) (W : Mat K D) (b : Fin D → EReal) : Mat A D :=
  fun n d => (∑ k, x n k * W k d) + b d

/-- The gate's score for an edge: the first 128 weights against the target's row, the last 128 against the
    source's row, plus the bias. -/
def score (hi hj : Fin 128 → EReal) (aw : Fin 256 → EReal) (ab : EReal) : EReal :=
  ((∑ k : Fin 128, hi k * aw (Fin.castAdd 128 k)) + (∑ k : Fin 128, hj k * aw (Fin.natAdd 128 k))) + ab

/-- The message of edge e in column d. -/
def msg (h : Mat 40000 128) (src dst : Fin 640000 → Fin 40000) (ea : Mat 640000 16) (eW : Mat 16 128)
    (eb : Fin 128 → EReal) (aw : Fin 256 → EReal) (ab : EReal) : Mat 640000 128 :=
  fun e d => max (h (src e) d * Ideal.logistic (score (h (dst e)) (h (src e)) aw ab) + lin ea eW eb e d) 0

/-- The aggregate of node n in column d: the sum of the messages of the edges whose target is n. -/
def agg (m : Mat 640000 128) (dst : Fin 640000 → Fin 40000) : Mat 40000 128 :=
  fun n d => ∑ e, if dst e = n then m e d else 0

/-- The hidden row of node n: the first linear map of (1 + eps) h + a, scaled, shifted, cut off at zero. -/
def hid (h a : Mat 40000 128) (eps : EReal) (W1 : Mat 128 256) (b1 g1 s1 : Fin 256 → EReal) : Mat 40000 256 :=
  fun n j => max (g1 j * ((∑ k, ((one + eps) * h n k + a n k) * W1 k j) + b1 j) * c + s1 j) 0

/-- The node's new row before the last cut-off: the second linear map of the hidden row, scaled and shifted. -/
def upd0 (y : Mat 40000 256) (W2 : Mat 256 128) (b2 g s : Fin 128 → EReal) : Mat 40000 128 :=
  fun n d => g d * ((∑ j, y n j * W2 j d) + b2 d) * c + s d

/-- The node's new row: with the cut-off at zero in every layer but the last. -/
def upd (r : Bool) (h a : Mat 40000 128) (eps : EReal) (W1 : Mat 128 256) (b1 g1 s1 : Fin 256 → EReal)
    (W2 : Mat 256 128) (b2 g s : Fin 128 → EReal) : Mat 40000 128 :=
  fun n d => if r then max (upd0 (hid h a eps W1 b1 g1 s1) W2 b2 g s n d) 0 else upd0 (hid h a eps W1 b1 g1 s1) W2 b2 g s n d

/-- One layer. -/
def layer (r : Bool) (h : Mat 40000 128) (src dst : Fin 640000 → Fin 40000) (ea : Mat 640000 16) (eW : Mat 16 128)
    (eb : Fin 128 → EReal) (aw : Fin 256 → EReal) (ab eps : EReal) (W1 : Mat 128 256) (b1 g1 s1 : Fin 256 → EReal)
    (W2 : Mat 256 128) (b2 g s : Fin 128 → EReal) : Mat 40000 128 :=
  upd r h (agg (msg h src dst ea eW eb aw ab) dst) eps W1 b1 g1 s1 W2 b2 g s

/-- The node with the given 32-bit word as its number (meaningful for words below 40000). -/
def nodeOf (w : BitVec 32) : Fin 40000 := ⟨w.toNat % 40000, Nat.mod_lt _ (by decide)⟩

/-- A word below 40000 is the word of its node's number. -/
theorem word_nodeOf (w : BitVec 32) (h : w.toNat < 40000) : w = BitVec.ofNat 32 (nodeOf w).val := by
  apply BitVec.eq_of_toNat_eq
  show w.toNat = (BitVec.ofNat 32 (w.toNat % 40000)).toNat
  rw [BitVec.toNat_ofNat, Nat.mod_eq_of_lt h, Nat.mod_eq_of_lt (by omega)]

end Cert.Spec

end
-- ==== Proof.Val.RegionFns.lean ====
/-
  What each kernel launch leaves in its output array, as one function of the arrays it reads, element by element
  over the extended reals. Arrays are functions of multi-indices of literal shapes; a 32-bit integer array holds words.

  encode: row n of x times W plus the bias row.
  message: for edge e, the source row scaled by the logistic gate of the two 128-term scores plus the bias,
    plus the edge's affine embedding, cut off at zero.
  aggregate: for node n (of 40960 padded rows), the sum over all 640000 edges of the message row of the edges
    whose target word is n's word.
  update: the two-layer perceptron of (1 + eps) h + a with its scalings and shifts.
-/
import Idealize.ShloMosaic.PureOps.Ideal
import Idealize.ShloMosaic.Lib.ValueIdx
import proofs.«417300_j83468394430632_3_alg».proof.Proof.Val.Spec

noncomputable section

open scoped BigOperators

namespace Cert.RegionFns

open Idealize.ShloMosaic Idealize.ShloMosaic.ValueIdx

/-- Arrays of extended reals and of 32-bit words over a literal two-axis shape. -/
abbrev RArr (a b : ℕ) := (⟨2, ![a, b]⟩ : Shape).Idx → EReal
abbrev WArr (a b : ℕ) := (⟨2, ![a, b]⟩ : Shape).Idx → BitVec 32

/-- The encoder launch: x [40000,128], W [128,128], the bias as a row [1,128]. -/
def EncF (x : RArr 40000 128) (W : RArr 128 128) (b : RArr 1 128) : RArr 40000 128 :=
  fun i => (∑ k : Fin 128, x (ix2 (i 0) k) * W (ix2 k (i 1))) + b (ix2 0 (i 1))

/-- The message launch: xi and xj [640000,128] (target and source rows per edge), the edge attributes
    [640000,16], the edge matrix [16,128] and bias row, the two attention rows [1,128], the attention bias [1,1]. -/
def MsgF (xi xj : RArr 640000 128) (ea : RArr 640000 16) (eW : RArr 16 128) (eb w1 w2 : RArr 1 128) (ab : RArr 1 1) :
    RArr 640000 128 :=
  fun i => max (xj i * Ideal.logistic (((∑ k : Fin 128, xi (ix2 (i 0) k) * w1 (ix2 0 k))
      + (∑ k : Fin 128, xj (ix2 (i 0) k) * w2 (ix2 0 k))) + ab (ix2 0 0))
    + ((∑ k : Fin 16, ea (ix2 (i 0) k) * eW (ix2 k (i 1))) + eb (ix2 0 (i 1)))) 0

/-- The aggregation launch: the target words as a row [1,640000], the messages [640000,128]; 40960 padded rows. -/
def AggF (dst : WArr 1 640000) (m : RArr 640000 128) : RArr 40960 128 :=
  fun i => ∑ e : Fin 640000, if dst (ix2 0 e) = BitVec.ofNat 32 (i 0).val then m (ix2 e (i 1)) else 0

/-- The update launch (r says whether the last cut-off at zero is there): h and a [40000,128], eps [1,1],
    W1 [128,256] with its bias, scale and shift rows [1,256], W2 [256,128] with its rows [1,128]. -/
def UpdF (r : Bool) (h a : RArr 40000 128) (eps : RArr 1 1) (W1 : RArr 128 256) (b1 g1 s1 : RArr 1 256)
    (W2 : RArr 256 128) (b2 g s : RArr 1 128) : RArr 40000 128 :=
  fun i =>
    let y : Fin 256 → EReal := fun j =>
      max (g1 (ix2 0 j) * ((∑ k : Fin 128, ((Cert.Spec.one + eps (ix2 0 0)) * h (ix2 (i 0) k) + a (ix2 (i 0) k)) * W1 (ix2 k j))
        + b1 (ix2 0 j)) * Cert.Spec.c + s1 (ix2 0 j)) 0
    let z : EReal := g (ix2 0 (i 1)) * ((∑ j : Fin 256, y j * W2 (ix2 j (i 1))) + b2 (ix2 0 (i 1))) * Cert.Spec.c + s (ix2 0 (i 1))
    if r then max z 0 else z

end Cert.RegionFns

end
-- ==== Proof.Val.Params.lean ====
/-
  The whole network as one function, and its parameters read off the argument arrays.

  The parameters are the node features, the edge attributes, the encoder's matrix and bias, and per layer
  (three layers) the edge matrix and bias, the 256 attention weights and their bias, eps, and the two
  linear maps of the update with their bias, scale and shift rows. The network is the encoder followed by the
  three layers, the last without its final cut-off at zero.
-/
import proofs.«417300_j83468394430632_3_alg».proof.Proof.Val.RegionFns

noncomputable section

namespace Cert.Spec

open Idealize.ShloMosaic Idealize.ShloMosaic.ValueIdx

/-- The network's parameters. -/
structure Params where
  x : Mat 40000 128
  ea : Mat 640000 16
  nW : Mat 128 128
  nb : Fin 128 → EReal
  eW : Fin 3 → Mat 16 128
  eb : Fin 3 → Fin 128 → EReal
  aw : Fin 3 → Fin 256 → EReal
  ab : Fin 3 → EReal
  eps : Fin 3 → EReal
  W1 : Fin 3 → Mat 128 256
  b1 : Fin 3 → Fin 256 → EReal
  g1 : Fin 3 → Fin 256 → EReal
  s1 : Fin 3 → Fin 256 → EReal
  W2 : Fin 3 → Mat 256 128
  b2 : Fin 3 → Fin 128 → EReal
  g : Fin 3 → Fin 128 → EReal
  s : Fin 3 → Fin 128 → EReal

/-- Layer l of the network on the node table h. -/
def layerP (P : Params) (src dst : Fin 640000 → Fin 40000) (l : Fin 3) (r : Bool) (h : Mat 40000 128) : Mat 40000 128 :=
  layer r h src dst P.ea (P.eW l) (P.eb l) (P.aw l) (P.ab l) (P.eps l) (P.W1 l) (P.b1 l) (P.g1 l) (P.s1 l)
    (P.W2 l) (P.b2 l) (P.g l) (P.s l)

/-- The encoder's node table. -/
def enc (P : Params) : Mat 40000 128 := lin P.x P.nW P.nb

/-- The network: the encoder, two layers with the final cut-off, one without. -/
def net (P : Params) (src dst : Fin 640000 → Fin 40000) : Mat 40000 128 :=
  layerP P src dst 2 false (layerP P src dst 1 true (layerP P src dst 0 true (enc P)))

/-- The parameters read off the seventeen float argument arrays, in the entry point's order. -/
def paramsOf (a0 : (⟨2, ![40000, 128]⟩ : Shape).Idx → EReal) (a1 : (⟨2, ![640000, 16]⟩ : Shape).Idx → EReal)
    (a2 : (⟨2, ![128, 128]⟩ : Shape).Idx → EReal) (a3 : (⟨1, ![128]⟩ : Shape).Idx → EReal)
    (a4 : (⟨3, ![3, 16, 128]⟩ : Shape).Idx → EReal) (a5 : (⟨2, ![3, 128]⟩ : Shape).Idx → EReal)
    (a6 : (⟨3, ![3, 256, 1]⟩ : Shape).Idx → EReal) (a7 : (⟨2, ![3, 1]⟩ : Shape).Idx → EReal)
    (a8 : (⟨1, ![3]⟩ : Shape).Idx → EReal) (a9 : (⟨3, ![3, 128, 256]⟩ : Shape).Idx → EReal)
    (a10 a11 a12 : (⟨2, ![3, 256]⟩ : Shape).Idx → EReal) (a13 : (⟨3, ![3, 256, 128]⟩ : Shape).Idx → EReal)
    (a14 a15 a16 : (⟨2, ![3, 128]⟩ : Shape).Idx → EReal) : Params where
  x := fun n d => a0 (ix2 n d)
  ea := fun e k => a1 (ix2 e k)
  nW := fun k d => a2 (ix2 k d)
  nb := fun d => a3 (ix1 d)
  eW := fun l k d => a4 (ix3 l k d)
  eb := fun l d => a5 (ix2 l d)
  aw := fun l k => a6 (ix3 l k 0)
  ab := fun l => a7 (ix2 l 0)
  eps := fun l => a8 (ix1 l)
  W1 := fun l k j => a9 (ix3 l k j)
  b1 := fun l j => a10 (ix2 l j)
  g1 := fun l j => a11 (ix2 l j)
  s1 := fun l j => a12 (ix2 l j)
  W2 := fun l j d => a13 (ix3 l j d)
  b2 := fun l d => a14 (ix2 l d)
  g := fun l d => a15 (ix2 l d)
  s := fun l d => a16 (ix2 l d)

end Cert.Spec

end
-- ==== Proof.KI.LayerFn.lean ====
/-
  The four launches' output functions against the network's specification: with each window array read as the
  specification's table or vector, the encoder launch gives the affine map, the message launch the message, the
  aggregation launch (whose rows past 40000 are padding) the aggregate, and the update launch the new node table.
  The aggregation compares target WORDS; two node numbers below 40000 have equal words exactly when they are equal.
-/
import proofs.«417300_j83468394430632_3_alg».proof.Proof.Val.RegionFns
import Mathlib.Algebra.BigOperators.Group.Finset.Basic

noncomputable section

open scoped BigOperators

namespace Cert.KernelIdeal.HandVal

open Idealize.ShloMosaic Idealize.ShloMosaic.ValueIdx
open Cert.Spec Cert.RegionFns

/-- The words of two node numbers are equal exactly when the nodes are. -/
theorem ofNat_inj_node (a b : Fin 40000) : BitVec.ofNat 32 a.val = BitVec.ofNat 32 b.val ↔ a = b := by
  constructor
  · intro h
    have := congrArg BitVec.toNat h
    rw [BitVec.toNat_ofNat, BitVec.toNat_ofNat] at this
    have ha := a.isLt
    have hb := b.isLt
    exact Fin.ext (by omega)
  · rintro rfl; rfl

/-- The encoder launch's output is the affine map of the specification. -/
theorem enc_eq (x : Mat 40000 128) (W : Mat 128 128) (b : Fin 128 → EReal)
    (X : RArr 40000 128) (WA : RArr 128 128) (BA : RArr 1 128)
    (hX : ∀ n k, X (ix2 n k) = x n k) (hW : ∀ k d, WA (ix2 k d) = W k d) (hB : ∀ d, BA (ix2 0 d) = b d)
    (n : Fin 40000) (d : Fin 128) :
    EncF X WA BA (ix2 n d) = lin x W b n d := by
  unfold EncF lin
  show (∑ k : Fin 128, X (ix2 n k) * WA (ix2 k d)) + BA (ix2 0 d) = _
  simp only [hX, hW, hB]

/-- The message launch's output is the specification's message, when its first window holds the targets' rows and
    its second the sources' rows. -/
theorem msg_eq (h : Mat 40000 128) (src dst : Fin 640000 → Fin 40000) (ea : Mat 640000 16) (eW : Mat 16 128)
    (eb : Fin 128 → EReal) (aw : Fin 256 → EReal) (ab : EReal)
    (XI XJ : RArr 640000 128) (EA : RArr 640000 16) (EW : RArr 16 128) (EB A1 A2 : RArr 1 128) (AB : RArr 1 1)
    (hXI : ∀ e k, XI (ix2 e k) = h (dst e) k) (hXJ : ∀ e k, XJ (ix2 e k) = h (src e) k)
    (hEA : ∀ e k, EA (ix2 e k) = ea e k) (hEW : ∀ k d, EW (ix2 k d) = eW k d) (hEB : ∀ d, EB (ix2 0 d) = eb d)
    (hA1 : ∀ k : Fin 128, A1 (ix2 0 k) = aw (Fin.castAdd 128 k)) (hA2 : ∀ k : Fin 128, A2 (ix2 0 k) = aw (Fin.natAdd 128 k))
    (hAB : AB (ix2 0 0) = ab) (e : Fin 640000) (d : Fin 128) :
    MsgF XI XJ EA EW EB A1 A2 AB (ix2 e d) = msg h src dst ea eW eb aw ab e d := by
  unfold MsgF msg score lin
  show max (XJ (ix2 e d) * Ideal.logistic (((∑ k : Fin 128, XI (ix2 e k) * A1 (ix2 0 k))
      + (∑ k : Fin 128, XJ (ix2 e k) * A2 (ix2 0 k))) + AB (ix2 0 0))
    + ((∑ k : Fin 16, EA (ix2 e k) * EW (ix2 k d)) + EB (ix2 0 d))) 0 = _
  simp only [hXI, hXJ, hEA, hEW, hEB, hA1, hA2, hAB]

/-- The aggregation launch's output, at a row below 40000, is the specification's aggregate. -/
theorem agg_eq (M : Mat 640000 128) (dst : Fin 640000 → Fin 40000) (DST : WArr 1 640000) (MA : RArr 640000 128)
    (hD : ∀ e, DST (ix2 0 e) = BitVec.ofNat 32 (dst e).val) (hM : ∀ e d, MA (ix2 e d) = M e d)
    (n : Fin 40000) (n' : Fin 40960) (hn : n'.val = n.val) (d : Fin 128) :
    AggF DST MA (ix2 n' d) = agg M dst n d := by
  unfold AggF agg
  show (∑ e : Fin 640000, if DST (ix2 0 e) = BitVec.ofNat 32 n'.val then MA (ix2 e d) else 0) = _
  refine Finset.sum_congr rfl fun e _ => ?_
  rw [hD, hM, hn]
  exact if_congr (ofNat_inj_node (dst e) n) rfl rfl

/-- The update launch's output is the specification's new node table. -/
theorem upd_eq (r : Bool) (h a : Mat 40000 128) (eps : EReal) (W1 : Mat 128 256) (b1 g1 s1 : Fin 256 → EReal)
    (W2 : Mat 256 128) (b2 g s : Fin 128 → EReal)
    (H A : RArr 40000 128) (EPS : RArr 1 1) (W1A : RArr 128 256) (B1 G1 S1 : RArr 1 256) (W2A : RArr 256 128)
    (B2 G S : RArr 1 128)
    (hH : ∀ n k, H (ix2 n k) = h n k) (hA : ∀ n k, A (ix2 n k) = a n k) (hEPS : EPS (ix2 0 0) = eps)
    (hW1 : ∀ k j, W1A (ix2 k j) = W1 k j) (hB1 : ∀ j, B1 (ix2 0 j) = b1 j) (hG1 : ∀ j, G1 (ix2 0 j) = g1 j)
    (hS1 : ∀ j, S1 (ix2 0 j) = s1 j) (hW2 : ∀ j d, W2A (ix2 j d) = W2 j d) (hB2 : ∀ d, B2 (ix2 0 d) = b2 d)
    (hG : ∀ d, G (ix2 0 d) = g d) (hS : ∀ d, S (ix2 0 d) = s d) (n : Fin 40000) (d : Fin 128) :
    UpdF r H A EPS W1A B1 G1 S1 W2A B2 G S (ix2 n d) = upd r h a eps W1 b1 g1 s1 W2 b2 g s n d := by
  unfold UpdF upd upd0 hid
  show (if r then max (G (ix2 0 d) * ((∑ j : Fin 256, max (G1 (ix2 0 j) * ((∑ k : Fin 128,
        ((Cert.Spec.one + EPS (ix2 0 0)) * H (ix2 n k) + A (ix2 n k)) * W1A (ix2 k j)) + B1 (ix2 0 j)) * Cert.Spec.c + S1 (ix2 0 j)) 0
        * W2A (ix2 j d)) + B2 (ix2 0 d)) * Cert.Spec.c + S (ix2 0 d)) 0
      else G (ix2 0 d) * ((∑ j : Fin 256, max (G1 (ix2 0 j) * ((∑ k : Fin 128,
        ((Cert.Spec.one + EPS (ix2 0 0)) * H (ix2 n k) + A (ix2 n k)) * W1A (ix2 k j)) + B1 (ix2 0 j)) * Cert.Spec.c + S1 (ix2 0 j)) 0
        * W2A (ix2 j d)) + B2 (ix2 0 d)) * Cert.Spec.c + S (ix2 0 d)) = _
  simp only [hH, hA, hEPS, hW1, hB1, hG1, hS1, hW2, hB2, hG, hS]

end Cert.KernelIdeal.HandVal

end
-- ==== Proof.KI.Glue.lean ====
/-
  The kernel program's host glue, read at one element, and the walk of a buffer back through the items of the
  entry point that do not write it.

  The edge table's two rows are sliced out and flattened, clipped into [0, 39999] (the word of a node number is left
  as it is), and kept for the whole run: the source row feeds the gathers of source rows, the target row the
  gathers of target rows and, viewed as one row [1, 640000], the aggregation launches. Before a gather the row is
  normalised (the extent is added to negative indices: none here) and set up as a column. A layer's parameters are
  slab l of each stacked argument, viewed as the two-axis arrays the launches' windows take; the attention vector's
  256 entries are split into the first and the last 128.
-/
import proofs.«417300_j83468394430632_3_alg».proof.Proof.Gen.KernelIdeal.Regions
import proofs.«417300_j83468394430632_3_alg».proof.Proof.LibSeg
import proofs.«417300_j83468394430632_3_alg».proof.Proof.Val.Params
import proofs.«417300_j83468394430632_3_alg».proof.Proof.KI.LayerFn
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate
import Idealize.ShloMosaic.PureOps.Ideal.Laws

set_option maxRecDepth 4000

noncomputable section

namespace Cert.KernelIdeal.HandVal

open Idealize.ShloMosaic Idealize.ShloMosaic.ValueIdx Idealize.ShloMosaic.StableHlo Idealize.ShloMosaic.TcCoe
open Cert.KernelIdeal Cert.KernelIdeal.Gen

/-! ## Words -/

/-- The clip of a word into [0, 39999] (the larger of 0 and the word, then the smaller of 39999 and that, both signed)
    leaves the word of a number below 40000 as it is. -/
theorem clip_word (k : ℕ) (hk : k < 40000) :
    IntOp.minsi 39999#32 (IntOp.maxsi 0#32 (BitVec.ofNat 32 k)) = BitVec.ofNat 32 k := by
  have hn : (BitVec.ofNat 32 k).toNat = k := by rw [BitVec.toNat_ofNat]; omega
  have hti : (BitVec.ofNat 32 k).toInt = (k : Int) := by
    rw [StableHlo.Predicate.toInt_eq_toNat_of_lt (by omega), hn]
  have h0 : (0#32 : BitVec 32).toInt = 0 := by decide
  have h9 : (39999#32 : BitVec 32).toInt = 39999 := by decide
  have hmax : IntOp.maxsi 0#32 (BitVec.ofNat 32 k) = BitVec.ofNat 32 k := by
    unfold IntOp.maxsi
    rw [if_neg]
    simp only [BitVec.slt, hti, h0, decide_eq_true_eq]
    omega
  rw [hmax]
  unfold IntOp.minsi
  rw [if_neg]
  simp only [BitVec.slt, hti, h9, decide_eq_true_eq]
  omega

/-- The word of a number below 40000 is not negative read signed: the normalisation that adds the extent to negative
    indices leaves it. -/
theorem norm_word (k : ℕ) (hk : k < 40000) (a : BitVec 32) :
    Scalar.select (IntOp.cmpi .slt (BitVec.ofNat 32 k) 0#32) a (BitVec.ofNat 32 k) = BitVec.ofNat 32 k := by
  unfold Scalar.select
  rw [if_neg]
  intro h
  have hn : (BitVec.ofNat 32 k).toNat = k := by rw [BitVec.toNat_ofNat]; omega
  have h1 := (StableHlo.Predicate.slt_iff_toNat (a := BitVec.ofNat 32 k) (b := 0#32) (by omega) (by decide)).1 h
  have h0 : (0#32 : BitVec 32).toNat = 0 := rfl
  omega

/-! ## Layout chains read at an index -/

section Reads
variable {α : Type}

/-- Slab l of a [3, A, B] table, sliced out and viewed [A, B], read at (a, b): the table at (l, a, b). -/
theorem slab3 {A B : ℕ} (l : Fin 3) (o : ℕ) (ho : l.val = o) (x : (⟨3, ![3, A, B]⟩ : Shape).Idx → α)
    (h1 : (⟨3, ![3, A, B]⟩ : Shape).Slices ![o, 0, 0] ⟨3, ![1, A, B]⟩) (h2 : (⟨3, ![1, A, B]⟩ : Shape).ShapeCasts ⟨2, ![A, B]⟩)
    (a : Fin A) (b : Fin B) :
    shapeCast ⟨2, ![A, B]⟩ (extractStridedSlice ⟨3, ![1, A, B]⟩ ![o, 0, 0] x h1) h2 (ix2 a b) = x (ix3 l a b) := by
  refine (shapeCast_apply _ h2 (ix2 a b) (ix3 0 a b) ?_).trans ?_
  · rw [Shape.rowMajor_val_three, Shape.rowMajor_val_two]
    show ((0 : ℕ) * A + a.val) * B + b.val = a.val * B + b.val
    rw [Nat.zero_mul, Nat.zero_add]
  · refine extractStridedSlice_apply _ x h1 (ix3 0 a b) (ix3 l a b) fun q => ?_
    match q with
    | ⟨0, _⟩ => show l.val = o + 0; omega
    | ⟨1, _⟩ => show a.val = 0 + a.val; omega
    | ⟨2, _⟩ => show b.val = 0 + b.val; omega

/-- A vector of B numbers viewed as one row [1, B], read at (0, b): the vector at b. -/
theorem asRow {B : ℕ} (x : (⟨1, ![B]⟩ : Shape).Idx → α) (h : (⟨1, ![B]⟩ : Shape).ShapeCasts ⟨2, ![1, B]⟩) (b : Fin B) :
    shapeCast ⟨2, ![1, B]⟩ x h (ix2 0 b) = x (ix1 b) := by
  refine shapeCast_apply x h (ix2 0 b) (ix1 b) ?_
  rw [Shape.rowMajor_val_one, Shape.rowMajor_val_two]
  show b.val = (0 : ℕ) * B + b.val
  rw [Nat.zero_mul, Nat.zero_add]

/-- Row l of a [R, B] table, sliced out as [1, B] and flattened to [B], read at b: the table at (l, b). -/
theorem flatRow {R B : ℕ} (l : Fin R) (o : ℕ) (ho : l.val = o) (x : (⟨2, ![R, B]⟩ : Shape).Idx → α)
    (h1 : (⟨2, ![R, B]⟩ : Shape).Slices ![o, 0] ⟨2, ![1, B]⟩) (h2 : (⟨2, ![1, B]⟩ : Shape).ShapeCasts ⟨1, ![B]⟩) (b : Fin B) :
    shapeCast ⟨1, ![B]⟩ (extractStridedSlice ⟨2, ![1, B]⟩ ![o, 0] x h1) h2 (ix1 b) = x (ix2 l b) := by
  refine (shapeCast_apply _ h2 (ix1 b) (ix2 0 b) ?_).trans ?_
  · rw [Shape.rowMajor_val_one, Shape.rowMajor_val_two]
    show (0 : ℕ) * B + b.val = b.val
    rw [Nat.zero_mul, Nat.zero_add]
  · refine extractStridedSlice_apply _ x h1 (ix2 0 b) (ix2 l b) fun q => ?_
    match q with
    | ⟨0, _⟩ => show l.val = o + 0; omega
    | ⟨1, _⟩ => show b.val = 0 + b.val; omega

/-- Row l of a [3, B] table, sliced out as [1, B], flattened and viewed as one row again, read at (0, b). -/
theorem row2 {B : ℕ} (l : Fin 3) (o : ℕ) (ho : l.val = o) (x : (⟨2, ![3, B]⟩ : Shape).Idx → α)
    (h1 : (⟨2, ![3, B]⟩ : Shape).Slices ![o, 0] ⟨2, ![1, B]⟩) (h2 : (⟨2, ![1, B]⟩ : Shape).ShapeCasts ⟨1, ![B]⟩)
    (h3 : (⟨1, ![B]⟩ : Shape).ShapeCasts ⟨2, ![1, B]⟩) (b : Fin B) :
    shapeCast ⟨2, ![1, B]⟩ (shapeCast ⟨1, ![B]⟩ (extractStridedSlice ⟨2, ![1, B]⟩ ![o, 0] x h1) h2) h3 (ix2 0 b) = x (ix2 l b) :=
  (asRow _ h3 b).trans (flatRow l o ho x h1 h2 b)

/-- 128 consecutive entries, from p on, of column vector l of a [3, 256, 1] table, sliced out as [1, 128, 1], viewed
    [128, 1] and then as one row [1, 128], read at (0, k): the table at (l, p + k, 0). -/
theorem attRow (l : Fin 3) (o p : ℕ) (ho : l.val = o) (x : (⟨3, ![3, 256, 1]⟩ : Shape).Idx → α)
    (h1 : (⟨3, ![3, 256, 1]⟩ : Shape).Slices ![o, p, 0] ⟨3, ![1, 128, 1]⟩) (h2 : (⟨3, ![1, 128, 1]⟩ : Shape).ShapeCasts ⟨2, ![128, 1]⟩)
    (h3 : (⟨2, ![128, 1]⟩ : Shape).ShapeCasts ⟨2, ![1, 128]⟩) (k : Fin 128) (j : Fin 256) (hj : j.val = p + k.val) :
    shapeCast ⟨2, ![1, 128]⟩ (shapeCast ⟨2, ![128, 1]⟩ (extractStridedSlice ⟨3, ![1, 128, 1]⟩ ![o, p, 0] x h1) h2) h3 (ix2 0 k)
      = x (ix3 l j 0) := by
  refine (shapeCast_apply _ h3 (ix2 0 k) (ix2 k 0) ?_).trans ?_
  · rw [Shape.rowMajor_val_two, Shape.rowMajor_val_two]
    show k.val * 1 + 0 = (0 : ℕ) * 128 + k.val
    omega
  refine (shapeCast_apply _ h2 (ix2 k 0) (ix3 0 k 0) ?_).trans ?_
  · rw [Shape.rowMajor_val_three, Shape.rowMajor_val_two]
    show ((0 : ℕ) * 128 + k.val) * 1 + 0 = k.val * 1 + 0
    omega
  · refine extractStridedSlice_apply _ x h1 (ix3 0 k 0) (ix3 l j 0) fun q => ?_
    match q with
    | ⟨0, _⟩ => show l.val = o + 0; omega
    | ⟨1, _⟩ => show j.val = p + k.val; omega
    | ⟨2, _⟩ => show (0 : ℕ) = 0 + 0; omega

/-- Entry l of a vector of 3 numbers, sliced out, viewed as a scalar and then as a [1, 1] table, read at (0, 0). -/
theorem scal1 (l : Fin 3) (o : ℕ) (ho : l.val = o) (x : (⟨1, ![3]⟩ : Shape).Idx → α)
    (h1 : (⟨1, ![3]⟩ : Shape).Slices ![o] ⟨1, ![1]⟩) (h2 : (⟨1, ![1]⟩ : Shape).ShapeCasts ⟨0, ![]⟩)
    (h3 : (⟨0, ![]⟩ : Shape).ShapeCasts ⟨2, ![1, 1]⟩) :
    shapeCast ⟨2, ![1, 1]⟩ (shapeCast ⟨0, ![]⟩ (extractStridedSlice ⟨1, ![1]⟩ ![o] x h1) h2) h3 (ix2 0 0) = x (ix1 l) := by
  refine (shapeCast_apply _ h3 (ix2 0 0) ix0 ?_).trans ?_
  · rw [Shape.rowMajor_val_two]
    have := ((⟨0, ![]⟩ : Shape).rowMajor ix0).isLt
    show ((⟨0, ![]⟩ : Shape).rowMajor ix0).val = (0 : ℕ) * 1 + 0
    change _ < 1 at this
    omega
  refine (shapeCast_apply _ h2 ix0 (ix1 0) ?_).trans ?_
  · rw [Shape.rowMajor_val_one]
    have := ((⟨0, ![]⟩ : Shape).rowMajor ix0).isLt
    change _ < 1 at this
    show (0 : ℕ) = _
    omega
  · refine extractStridedSlice_apply _ x h1 (ix1 0) (ix1 l) fun q => ?_
    match q with
    | ⟨0, _⟩ => show l.val = o + 0; omega

/-- The first 40000 rows of a table of 40960 rows, read at (n, d). -/
theorem headRows (x : (⟨2, ![40960, 128]⟩ : Shape).Idx → α)
    (h1 : (⟨2, ![40960, 128]⟩ : Shape).Slices ![0, 0] ⟨2, ![40000, 128]⟩) (n : Fin 40000) (d : Fin 128) (n' : Fin 40960)
    (hn : n'.val = n.val) :
    extractStridedSlice ⟨2, ![40000, 128]⟩ ![0, 0] x h1 (ix2 n d) = x (ix2 n' d) := by
  refine extractStridedSlice_apply _ x h1 (ix2 n d) (ix2 n' d) fun q => ?_
  match q with
  | ⟨0, _⟩ => show n'.val = 0 + n.val; omega
  | ⟨1, _⟩ => show d.val = 0 + d.val; omega

/-- A scalar spread over a vector reads the scalar everywhere. -/
theorem spread0 {N : ℕ} (x : (⟨0, ![]⟩ : Shape).Idx → α) (h : (⟨0, ![]⟩ : Shape).BroadcastsInDim ⟨1, ![N]⟩ (![] : Fin 0 → Fin 1))
    (i : (⟨1, ![N]⟩ : Shape).Idx) : broadcastInDim ⟨1, ![N]⟩ ![] h x i = x ix0 :=
  broadcastInDim_apply _ h x i ix0 fun a => a.elim0

/-- A vector of N numbers as a column [N, 1], read at (e, 0): the vector at e. -/
theorem asCol {N : ℕ} (hN : N ≠ 1) (x : (⟨1, ![N]⟩ : Shape).Idx → α)
    (h : (⟨1, ![N]⟩ : Shape).BroadcastsInDim ⟨2, ![N, 1]⟩ (![0] : Fin 1 → Fin 2)) (e : Fin N) :
    broadcastInDim ⟨2, ![N, 1]⟩ ![0] h x (ix2 e 0) = x (ix1 e) := by
  refine broadcastInDim_apply _ h x (ix2 e 0) (ix1 e) fun a => ?_
  match a with
  | ⟨0, _⟩ =>
    show e.val = if N = 1 then 0 else e.val
    rw [if_neg hN]

end Reads

/-! ## Index columns and gathers -/

/-- The index column a gather takes: the row of words normalised (the extent added to the negative ones) and set up
    as a column [640000, 1]. -/
abbrev normCol (w : S640000.Idx → BitVec 32) : S640000x1.Idx → BitVec 32 :=
  broadcastInDim S640000x1 ![0] bcast_S640000_S640000x1_0
    (select (cmpi .slt w (broadcastInDim S640000 ![] bcast_S_S640000 (constantI S_ 32 0#32)))
      (addi w (broadcastInDim S640000 ![] bcast_S_S640000 (constantI S_ 32 40000#32))) w)

/-- The normalised index column at (e, 0), when entry e of the row is the word of a node number: that word. -/
theorem normCol_apply (w : S640000.Idx → BitVec 32) (e : Fin 640000) (k : ℕ) (hk : k < 40000)
    (hw : w (ix1 e) = BitVec.ofNat 32 k) : normCol w (ix2 e 0) = BitVec.ofNat 32 k := by
  refine (asCol (by decide) _ bcast_S640000_S640000x1_0 e).trans ?_
  show Scalar.select (IntOp.cmpi .slt (w (ix1 e)) (broadcastInDim S640000 ![] bcast_S_S640000 (constantI S_ 32 0#32) (ix1 e)))
    (IntOp.addi (w (ix1 e)) (broadcastInDim S640000 ![] bcast_S_S640000 (constantI S_ 32 40000#32) (ix1 e))) (w (ix1 e)) = _
  rw [spread0, hw]
  exact norm_word k hk _

/-- The gather of node rows by an index column whose entry (e, 0) is the word of node g reads row g. -/
theorem gatherRow (x : S40000x128.Idx → EReal) (idx : S640000x1.Idx → BitVec 32) (e : Fin 640000) (k : Fin 128) (g : Fin 40000)
    (h : idx (ix2 e 0) = BitVec.ofNat 32 g.val) :
    Host.gather gather_S40000x128_S640000x1_S640000x128_1_0_n_n_0_1_1128 x idx (ix2 e k) = x (ix2 g k) := by
  have hd : gather_S40000x128_S640000x1_S640000x128_1_0_n_n_0_1_1128
      = Cert.LibSeg.rowDims 40000 640000 128 gather_S40000x128_S640000x1_S640000x128_1_0_n_n_0_1_1128_wf := rfl
  rw [hd]
  exact Cert.LibSeg.row_gather_ofNat (by decide) _ x idx e k g h

/-! ## Walking a reference back through the items that do not write it -/

section Walk
variable (m : (ℓ : Loc nD τ sig) → Buf (Elt Ideal) ℓ) (outs : Gen.Outs (F := Ideal)) (c : Dev nD)

/-- The references written up to each item, from the first launch on. -/
abbrev W6 : List (Ref sig .tc) := [main_v8]
abbrev W7 : List (Ref sig .tc) := hostOps1_W ++ W6
abbrev W8 : List (Ref sig .tc) := main_v37 :: W7
abbrev W9 : List (Ref sig .tc) := main_v38 :: W8
abbrev W10 : List (Ref sig .tc) := hostOps3_W ++ W9
abbrev W11 : List (Ref sig .tc) := main_v65 :: W10
abbrev W12 : List (Ref sig .tc) := hostOps4_W ++ W11
abbrev W13 : List (Ref sig .tc) := main_v94 :: W12
abbrev W14 : List (Ref sig .tc) := main_v95 :: W13
abbrev W15 : List (Ref sig .tc) := hostOps6_W ++ W14
abbrev W16 : List (Ref sig .tc) := main_v122 :: W15
abbrev W17 : List (Ref sig .tc) := hostOps7_W ++ W16
abbrev W18 : List (Ref sig .tc) := main_v151 :: W17
abbrev W19 : List (Ref sig .tc) := main_v152 :: W18
/-- The references the host stretches before the first launch write. -/
abbrev W5 : List (Ref sig .tc) := hostOps0_4_W ++ (hostOps0_3_W ++ (hostOps0_2_W ++ (hostOps0_1_W ++ hostOps0_W)))

private theorem nm_head {r a : Ref sig .tc} {l : List (Ref sig .tc)} (h : r ∉ a :: l) : r ∉ ([a] : List (Ref sig .tc)) :=
  fun hr => h (List.mem_cons.2 (Or.inl (List.mem_singleton.1 hr)))
private theorem nm_tail {r a : Ref sig .tc} {l : List (Ref sig .tc)} (h : r ∉ a :: l) : r ∉ l :=
  fun hr => h (List.mem_cons_of_mem _ hr)
private theorem nm_left {r : Ref sig .tc} {l l' : List (Ref sig .tc)} (h : r ∉ l ++ l') : r ∉ l :=
  fun hr => h (List.mem_append_left _ hr)
private theorem nm_right {r : Ref sig .tc} {l l' : List (Ref sig .tc)} (h : r ∉ l ++ l') : r ∉ l' :=
  fun hr => h (List.mem_append_right _ hr)

/-- A reference no host stretch before the first launch writes holds its launch contents there. -/
theorem V5_arg (r : Ref sig .tc) (h : r ∉ W5) : V5 m c r = m ((c : Thread nD τ).loc r) :=
  (V5_of m c r (nm_left h)).trans <| (V4_of m c r (nm_left (nm_right h))).trans <|
    (V3_of m c r (nm_left (nm_right (nm_right h)))).trans <| (V2_of m c r (nm_left (nm_right (nm_right (nm_right h))))).trans <|
      V1_of m c r (nm_right (nm_right (nm_right (nm_right h))))

theorem V6_eq5 (r : Ref sig .tc) (h : r ∉ W6) : V6 m outs c r = V5 m c r := V6_of m outs c r h
theorem V7_eq5 (r : Ref sig .tc) (h : r ∉ W7) : V7 m outs c r = V5 m c r :=
  (V7_of m outs c r (nm_left h)).trans (V6_eq5 m outs c r (nm_right h))
theorem V8_eq5 (r : Ref sig .tc) (h : r ∉ W8) : V8 m outs c r = V5 m c r :=
  (V8_of m outs c r (nm_head h)).trans (V7_eq5 m outs c r (nm_tail h))
theorem V9_eq5 (r : Ref sig .tc) (h : r ∉ W9) : V9 m outs c r = V5 m c r :=
  (V9_of m outs c r (nm_head h)).trans (V8_eq5 m outs c r (nm_tail h))
theorem V10_eq5 (r : Ref sig .tc) (h : r ∉ W10) : V10 m outs c r = V5 m c r :=
  (V10_of m outs c r (nm_left h)).trans (V9_eq5 m outs c r (nm_right h))
theorem V11_eq5 (r : Ref sig .tc) (h : r ∉ W11) : V11 m outs c r = V5 m c r :=
  (V11_of m outs c r (nm_head h)).trans (V10_eq5 m outs c r (nm_tail h))
theorem V12_eq5 (r : Ref sig .tc) (h : r ∉ W12) : V12 m outs c r = V5 m c r :=
  (V12_of m outs c r (nm_left h)).trans (V11_eq5 m outs c r (nm_right h))
theorem V13_eq5 (r : Ref sig .tc) (h : r ∉ W13) : V13 m outs c r = V5 m c r :=
  (V13_of m outs c r (nm_head h)).trans (V12_eq5 m outs c r (nm_tail h))
theorem V14_eq5 (r : Ref sig .tc) (h : r ∉ W14) : V14 m outs c r = V5 m c r :=
  (V14_of m outs c r (nm_head h)).trans (V13_eq5 m outs c r (nm_tail h))
theorem V15_eq5 (r : Ref sig .tc) (h : r ∉ W15) : V15 m outs c r = V5 m c r :=
  (V15_of m outs c r (nm_left h)).trans (V14_eq5 m outs c r (nm_right h))
theorem V16_eq5 (r : Ref sig .tc) (h : r ∉ W16) : V16 m outs c r = V5 m c r :=
  (V16_of m outs c r (nm_head h)).trans (V15_eq5 m outs c r (nm_tail h))
theorem V17_eq5 (r : Ref sig .tc) (h : r ∉ W17) : V17 m outs c r = V5 m c r :=
  (V17_of m outs c r (nm_left h)).trans (V16_eq5 m outs c r (nm_right h))
theorem V18_eq5 (r : Ref sig .tc) (h : r ∉ W18) : V18 m outs c r = V5 m c r :=
  (V18_of m outs c r (nm_head h)).trans (V17_eq5 m outs c r (nm_tail h))
theorem V19_eq5 (r : Ref sig .tc) (h : r ∉ W19) : V19 m outs c r = V5 m c r :=
  (V19_of m outs c r (nm_head h)).trans (V18_eq5 m outs c r (nm_tail h))

end Walk

/-! ## The edge table's rows, the encoder's bias row, and the encoder -/

section Words
variable (m : (ℓ : Loc nD τ sig) → Buf (Elt Ideal) ℓ) (outs : Gen.Outs (F := Ideal)) (c : Dev nD)

theorem v1_eq : (V1 m c main_v1 : S640000.Idx → BitVec 32) =
    shapeCast S640000 (extractStridedSlice S1x640000 ![0, 0] (m ((c : Thread nD τ).loc main_arg17)) slices_S2x640000_S1x640000_0_0)
      shapeCasts_S1x640000_S640000 := by
  dsimp only [Gen.V1, Gen.V0, Gen.hostOps0]
  after_results
  rfl

theorem c_eq : (V1 m c main_c : S_.Idx → BitVec 32) = constantI S_ 32 0#32 := by
  dsimp only [Gen.V1, Gen.V0, Gen.hostOps0]
  after_results

theorem c0_eq : (V1 m c main_c_0 : S_.Idx → BitVec 32) = constantI S_ 32 39999#32 := by
  dsimp only [Gen.V1, Gen.V0, Gen.hostOps0]
  after_results

theorem v2_eq : (V2 m c main_v2 : S640000.Idx → BitVec 32) =
    minsi (broadcastInDim S640000 ![] bcast_S_S640000 (V1 m c main_c_0))
      (maxsi (broadcastInDim S640000 ![] bcast_S_S640000 (V1 m c main_c)) (V1 m c main_v1)) := by
  dsimp only [Gen.V2, Gen.hostOps0_1]
  after_results
  rfl

theorem v4_eq : (V3 m c main_v4 : S640000.Idx → BitVec 32) =
    shapeCast S640000 (extractStridedSlice S1x640000 ![1, 0] (V2 m c main_arg17) slices_S2x640000_S1x640000_1_0)
      shapeCasts_S1x640000_S640000 := by
  dsimp only [Gen.V3, Gen.hostOps0_2]
  after_results
  rfl

theorem c1_eq : (V3 m c main_c_1 : S_.Idx → BitVec 32) = constantI S_ 32 0#32 := by
  dsimp only [Gen.V3, Gen.hostOps0_2]
  after_results

theorem c2_eq : (V3 m c main_c_2 : S_.Idx → BitVec 32) = constantI S_ 32 39999#32 := by
  dsimp only [Gen.V3, Gen.hostOps0_2]
  after_results

theorem v5_eq : (V4 m c main_v5 : S640000.Idx → BitVec 32) =
    minsi (broadcastInDim S640000 ![] bcast_S_S640000 (V3 m c main_c_2))
      (maxsi (broadcastInDim S640000 ![] bcast_S_S640000 (V3 m c main_c_1)) (V3 m c main_v4)) := by
  dsimp only [Gen.V4, Gen.hostOps0_3]
  after_results
  rfl

theorem v6_eq : (V5 m c main_v6 : S1x640000.Idx → BitVec 32) = shapeCast S1x640000 (V4 m c main_v5) shapeCasts_S640000_S1x640000 := by
  dsimp only [Gen.V5, Gen.hostOps0_4]
  after_results
  rfl

theorem v7_eq : (V5 m c main_v7 : S1x128.Idx → EReal) = shapeCast S1x128 (V4 m c main_arg3) shapeCasts_S128_S1x128 := by
  dsimp only [Gen.V5, Gen.hostOps0_4]
  after_results
  rfl

variable (src dst : Fin 640000 → Fin 40000)

/-- Entry e of the clipped source row is the word of edge e's source node. -/
theorem src_word (hsrc : ∀ e, m ((c : Thread nD τ).loc main_arg17) (ix2 0 e) = BitVec.ofNat 32 (src e).val) (e : Fin 640000) :
    (V5 m c main_v2 : S640000.Idx → BitVec 32) (ix1 e) = BitVec.ofNat 32 (src e).val := by
  have e5 : V5 m c main_v2 = V2 m c main_v2 :=
    (V5_of m c main_v2 (by decide)).trans <| (V4_of m c main_v2 (by decide)).trans (V3_of m c main_v2 (by decide))
  rw [e5, v2_eq]
  show IntOp.minsi (broadcastInDim S640000 ![] bcast_S_S640000 (V1 m c main_c_0) (ix1 e))
    (IntOp.maxsi (broadcastInDim S640000 ![] bcast_S_S640000 (V1 m c main_c) (ix1 e))
      ((V1 m c main_v1 : S640000.Idx → BitVec 32) (ix1 e))) = _
  rw [spread0, spread0, c0_eq, c_eq, v1_eq, flatRow (0 : Fin 2) 0 rfl, hsrc]
  exact clip_word _ (src e).isLt

/-- Entry e of the clipped target row is the word of edge e's target node. -/
theorem dst_word (hdst : ∀ e, m ((c : Thread nD τ).loc main_arg17) (ix2 1 e) = BitVec.ofNat 32 (dst e).val) (e : Fin 640000) :
    (V5 m c main_v5 : S640000.Idx → BitVec 32) (ix1 e) = BitVec.ofNat 32 (dst e).val := by
  have e5 : V5 m c main_v5 = V4 m c main_v5 := V5_of m c main_v5 (by decide)
  have a17 : V2 m c main_arg17 = m ((c : Thread nD τ).loc main_arg17) :=
    (V2_of m c main_arg17 (by decide)).trans (V1_of m c main_arg17 (by decide))
  rw [e5, v5_eq]
  show IntOp.minsi (broadcastInDim S640000 ![] bcast_S_S640000 (V3 m c main_c_2) (ix1 e))
    (IntOp.maxsi (broadcastInDim S640000 ![] bcast_S_S640000 (V3 m c main_c_1) (ix1 e))
      ((V3 m c main_v4 : S640000.Idx → BitVec 32) (ix1 e))) = _
  rw [spread0, spread0, c2_eq, c1_eq, v4_eq, flatRow (1 : Fin 2) 1 rfl, a17, hdst]
  exact clip_word _ (dst e).isLt

/-- Entry (0, e) of the target row the aggregation launches read is the word of edge e's target node. -/
theorem dst_row (hdst : ∀ e, m ((c : Thread nD τ).loc main_arg17) (ix2 1 e) = BitVec.ofNat 32 (dst e).val) (e : Fin 640000) :
    (V5 m c main_v6 : S1x640000.Idx → BitVec 32) (ix2 0 e) = BitVec.ofNat 32 (dst e).val := by
  rw [v6_eq, asRow, ← V5_of m c main_v5 (by decide)]
  exact dst_word m c dst hdst e

/-- The encoder's bias row at (0, d) is the bias argument at d. -/
theorem bias_row (d : Fin 128) :
    (V5 m c main_v7 : S1x128.Idx → EReal) (ix2 0 d) = m ((c : Thread nD τ).loc main_arg3) (ix1 d) := by
  have a3 : V4 m c main_arg3 = m ((c : Thread nD τ).loc main_arg3) :=
    (V4_of m c main_arg3 (by decide)).trans <| (V3_of m c main_arg3 (by decide)).trans <|
      (V2_of m c main_arg3 (by decide)).trans (V1_of m c main_arg3 (by decide))
  rw [v7_eq, asRow, a3]

/-- The network's parameters, read off the launch contents of the seventeen float arguments. -/
def kerParams : Cert.Spec.Params :=
  Cert.Spec.paramsOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    (m ((c : Thread nD τ).loc main_arg15)) (m ((c : Thread nD τ).loc main_arg16))

/-- The encoder launch leaves the specification's encoded node table. -/
theorem enc_out
    (h6 : outs 6 main_v8 c = Cert.RegionFns.EncF (V5 m c main_arg0) (V5 m c main_arg2) (V5 m c main_v7))
    (n : Fin 40000) (d : Fin 128) :
    (outs 6 main_v8 c : S40000x128.Idx → EReal) (ix2 n d) = Cert.Spec.enc (kerParams m c) n d := by
  refine (congrFun h6 (ix2 n d)).trans ?_
  refine enc_eq (kerParams m c).x (kerParams m c).nW (kerParams m c).nb _ _ _ (fun n k => ?_) (fun k d => ?_) (fun d => ?_) n d
  · rw [V5_arg m c main_arg0 (by decide)]; rfl
  · rw [V5_arg m c main_arg2 (by decide)]; rfl
  · exact bias_row m c d

end Words

end Cert.KernelIdeal.HandVal

end
-- ==== Proof.KI.Lay0.lean ====
/-
  Layer 0 of the kernel program: what the host stretches before its message launch and before its update launch
  leave in those launches' windows, read at one element, and the layer's output as the specification's layer of
  the node table the layer starts from.

  The two gathers read, for edge e, the table's row at e's target node and at e's source node (the kept index
  rows hold those nodes' words). The parameter windows are slab 0 of the stacked arguments. The aggregation
  launch's window of targets is the kept target row, its messages the message launch's output; the update launch
  reads the first 40000 rows of the padded aggregate.
-/
import proofs.«417300_j83468394430632_3_alg».proof.Proof.KI.Glue

set_option maxRecDepth 4000

noncomputable section

namespace Cert.KernelIdeal.HandVal

open Idealize.ShloMosaic Idealize.ShloMosaic.ValueIdx Idealize.ShloMosaic.StableHlo Idealize.ShloMosaic.TcCoe
open Cert.KernelIdeal Cert.KernelIdeal.Gen

section Layer
variable (m : (ℓ : Loc nD τ sig) → Buf (Elt Ideal) ℓ) (outs : Gen.Outs (F := Ideal)) (c : Dev nD)
variable (src dst : Fin 640000 → Fin 40000)

/-- The node table the layer starts from, as the message stretch finds it. -/
theorem l0_in : V6 m outs c main_v8 = outs 6 main_v8 c := by
  dsimp only [Gen.V6]
  exact Function.update_self _ _ _

/-! ### The message launch's windows -/

theorem l0_xj_eq : (V7 m outs c main_v15 : S640000x128.Idx → EReal) =
    Host.gather gather_S40000x128_S640000x1_S640000x128_1_0_n_n_0_1_1128 (V6 m outs c main_v8 : S40000x128.Idx → EReal)
      (normCol (V6 m outs c main_v2)) := by
  dsimp only [Gen.V7, Gen.hostOps1]
  after_results_simp

theorem l0_xi_eq : (V7 m outs c main_v22 : S640000x128.Idx → EReal) =
    Host.gather gather_S40000x128_S640000x1_S640000x128_1_0_n_n_0_1_1128 (V6 m outs c main_v8 : S40000x128.Idx → EReal)
      (normCol (V6 m outs c main_v5)) := by
  dsimp only [Gen.V7, Gen.hostOps1]
  after_results_simp

/-- The window of source rows at (e, k): the table's row at e's source node. -/
theorem l0_xj (hsrc : ∀ e, m ((c : Thread nD τ).loc main_arg17) (ix2 0 e) = BitVec.ofNat 32 (src e).val)
    (e : Fin 640000) (k : Fin 128) :
    (V7 m outs c main_v15 : S640000x128.Idx → EReal) (ix2 e k) = (outs 6 main_v8 c : S40000x128.Idx → EReal) (ix2 (src e) k) := by
  rw [l0_xj_eq]
  refine (gatherRow _ _ e k (src e) (normCol_apply _ e _ (src e).isLt ?_)).trans ?_
  · rw [V6_eq5 m outs c main_v2 (by decide)]
    exact src_word m c src hsrc e
  · exact congrFun (l0_in m outs c) (ix2 (src e) k)

/-- The window of target rows at (e, k): the table's row at e's target node. -/
theorem l0_xi (hdst : ∀ e, m ((c : Thread nD τ).loc main_arg17) (ix2 1 e) = BitVec.ofNat 32 (dst e).val)
    (e : Fin 640000) (k : Fin 128) :
    (V7 m outs c main_v22 : S640000x128.Idx → EReal) (ix2 e k) = (outs 6 main_v8 c : S40000x128.Idx → EReal) (ix2 (dst e) k) := by
  rw [l0_xi_eq]
  refine (gatherRow _ _ e k (dst e) (normCol_apply _ e _ (dst e).isLt ?_)).trans ?_
  · rw [V6_eq5 m outs c main_v5 (by decide)]
    exact dst_word m c dst hdst e
  · exact congrFun (l0_in m outs c) (ix2 (dst e) k)

theorem l0_ea (e : Fin 640000) (k : Fin 16) :
    (V7 m outs c main_arg1 : S640000x16.Idx → EReal) (ix2 e k) = (kerParams m c).ea e k := by
  rw [V7_eq5 m outs c main_arg1 (by decide), V5_arg m c main_arg1 (by decide)]
  rfl

theorem l0_eW (k : Fin 16) (d : Fin 128) :
    (V7 m outs c main_v24 : S16x128.Idx → EReal) (ix2 k d) = (kerParams m c).eW (0 : Fin 3) k d := by
  have e : (V7 m outs c main_v24 : S16x128.Idx → EReal) =
      shapeCast S16x128 (extractStridedSlice S1x16x128 ![0, 0, 0] (V6 m outs c main_arg4) slices_S3x16x128_S1x16x128_0_0_0)
        shapeCasts_S1x16x128_S16x128 := by
    dsimp only [Gen.V7, Gen.hostOps1]
    after_results_simp
    rfl
  rw [e]
  refine (slab3 (0 : Fin 3) (0 : ℕ) rfl _ _ _ k d).trans ?_
  rw [V6_eq5 m outs c main_arg4 (by decide), V5_arg m c main_arg4 (by decide)]
  rfl

theorem l0_eb (d : Fin 128) :
    (V7 m outs c main_v27 : S1x128.Idx → EReal) (ix2 0 d) = (kerParams m c).eb (0 : Fin 3) d := by
  have e : (V7 m outs c main_v27 : S1x128.Idx → EReal) =
      shapeCast S1x128 (shapeCast S128 (extractStridedSlice S1x128 ![0, 0] (V6 m outs c main_arg5) slices_S3x128_S1x128_0_0)
        shapeCasts_S1x128_S128) shapeCasts_S128_S1x128 := by
    dsimp only [Gen.V7, Gen.hostOps1]
    after_results_simp
    rfl
  rw [e]
  refine (row2 (0 : Fin 3) (0 : ℕ) rfl _ _ _ _ d).trans ?_
  rw [V6_eq5 m outs c main_arg5 (by decide), V5_arg m c main_arg5 (by decide)]
  rfl

theorem l0_a1 (k : Fin 128) :
    (V7 m outs c main_v30 : S1x128.Idx → EReal) (ix2 0 k) = (kerParams m c).aw (0 : Fin 3) (Fin.castAdd 128 k) := by
  have e : (V7 m outs c main_v30 : S1x128.Idx → EReal) =
      shapeCast S1x128 (shapeCast S128x1 (extractStridedSlice S1x128x1 ![0, 0, 0] (V6 m outs c main_arg6) slices_S3x256x1_S1x128x1_0_0_0)
        shapeCasts_S1x128x1_S128x1) shapeCasts_S128x1_S1x128 := by
    dsimp only [Gen.V7, Gen.hostOps1]
    after_results_simp
    rfl
  rw [e]
  refine (attRow (0 : Fin 3) (0 : ℕ) 0 rfl _ _ _ _ k (Fin.castAdd 128 k) (Nat.zero_add _).symm).trans ?_
  rw [V6_eq5 m outs c main_arg6 (by decide), V5_arg m c main_arg6 (by decide)]
  rfl

theorem l0_a2 (k : Fin 128) :
    (V7 m outs c main_v33 : S1x128.Idx → EReal) (ix2 0 k) = (kerParams m c).aw (0 : Fin 3) (Fin.natAdd 128 k) := by
  have e : (V7 m outs c main_v33 : S1x128.Idx → EReal) =
      shapeCast S1x128 (shapeCast S128x1 (extractStridedSlice S1x128x1 ![0, 128, 0] (V6 m outs c main_arg6) slices_S3x256x1_S1x128x1_0_128_0)
        shapeCasts_S1x128x1_S128x1) shapeCasts_S128x1_S1x128 := by
    dsimp only [Gen.V7, Gen.hostOps1]
    after_results_simp
    rfl
  rw [e]
  refine (attRow (0 : Fin 3) (0 : ℕ) 128 rfl _ _ _ _ k (Fin.natAdd 128 k) rfl).trans ?_
  rw [V6_eq5 m outs c main_arg6 (by decide), V5_arg m c main_arg6 (by decide)]
  rfl

theorem l0_ab : (V7 m outs c main_v36 : S1x1.Idx → EReal) (ix2 0 0) = (kerParams m c).ab (0 : Fin 3) := by
  have e : (V7 m outs c main_v36 : S1x1.Idx → EReal) =
      shapeCast S1x1 (shapeCast S1 (extractStridedSlice S1x1 ![0, 0] (V6 m outs c main_arg7) slices_S3x1_S1x1_0_0)
        shapeCasts_S1x1_S1) shapeCasts_S1_S1x1 := by
    dsimp only [Gen.V7, Gen.hostOps1]
    after_results_simp
    rfl
  rw [e]
  refine (row2 (0 : Fin 3) (0 : ℕ) rfl _ _ _ _ 0).trans ?_
  rw [V6_eq5 m outs c main_arg7 (by decide), V5_arg m c main_arg7 (by decide)]
  rfl

/-- The message launch's output is the specification's message of the table the layer starts from. -/
theorem l0_msg (hsrc : ∀ e, m ((c : Thread nD τ).loc main_arg17) (ix2 0 e) = BitVec.ofNat 32 (src e).val)
    (hdst : ∀ e, m ((c : Thread nD τ).loc main_arg17) (ix2 1 e) = BitVec.ofNat 32 (dst e).val)
    (hmsg : outs 8 main_v37 c = Cert.RegionFns.MsgF (V7 m outs c main_v22) (V7 m outs c main_v15) (V7 m outs c main_arg1)
      (V7 m outs c main_v24) (V7 m outs c main_v27) (V7 m outs c main_v30) (V7 m outs c main_v33) (V7 m outs c main_v36))
    (e : Fin 640000) (d : Fin 128) :
    (outs 8 main_v37 c : S640000x128.Idx → EReal) (ix2 e d) =
      Cert.Spec.msg (fun n d => outs 6 main_v8 c (ix2 n d)) src dst (kerParams m c).ea ((kerParams m c).eW (0 : Fin 3))
        ((kerParams m c).eb (0 : Fin 3)) ((kerParams m c).aw (0 : Fin 3)) ((kerParams m c).ab (0 : Fin 3)) e d := by
  refine (congrFun hmsg (ix2 e d)).trans ?_
  exact msg_eq (fun n d => outs 6 main_v8 c (ix2 n d)) src dst _ _ _ _ _ _ _ _ _ _ _ _ _
    (fun e k => l0_xi m outs c dst hdst e k) (fun e k => l0_xj m outs c src hsrc e k) (l0_ea m outs c) (l0_eW m outs c)
    (l0_eb m outs c) (l0_a1 m outs c) (l0_a2 m outs c) (l0_ab m outs c) e d

/-! ### The update launch's windows -/

theorem l0_h (n : Fin 40000) (k : Fin 128) :
    (V10 m outs c main_v8 : S40000x128.Idx → EReal) (ix2 n k) = (outs 6 main_v8 c : S40000x128.Idx → EReal) (ix2 n k) := by
  have e : V10 m outs c main_v8 = outs 6 main_v8 c :=
    (V10_of m outs c main_v8 (by decide)).trans <| (V9_of m outs c main_v8 (by decide)).trans <|
      (V8_of m outs c main_v8 (by decide)).trans <| (V7_of m outs c main_v8 (by decide)).trans (l0_in m outs c)
  rw [e]

/-- The aggregate window at (n, d): the specification's aggregate of the messages. -/
theorem l0_agg (hsrc : ∀ e, m ((c : Thread nD τ).loc main_arg17) (ix2 0 e) = BitVec.ofNat 32 (src e).val)
    (hdst : ∀ e, m ((c : Thread nD τ).loc main_arg17) (ix2 1 e) = BitVec.ofNat 32 (dst e).val)
    (hmsg : outs 8 main_v37 c = Cert.RegionFns.MsgF (V7 m outs c main_v22) (V7 m outs c main_v15) (V7 m outs c main_arg1)
      (V7 m outs c main_v24) (V7 m outs c main_v27) (V7 m outs c main_v30) (V7 m outs c main_v33) (V7 m outs c main_v36))
    (hagg : outs 9 main_v38 c = Cert.RegionFns.AggF (V8 m outs c main_v6) (V8 m outs c main_v37))
    (n : Fin 40000) (d : Fin 128) :
    (V10 m outs c main_v39 : S40000x128.Idx → EReal) (ix2 n d) =
      Cert.Spec.agg (Cert.Spec.msg (fun n d => outs 6 main_v8 c (ix2 n d)) src dst (kerParams m c).ea ((kerParams m c).eW (0 : Fin 3))
        ((kerParams m c).eb (0 : Fin 3)) ((kerParams m c).aw (0 : Fin 3)) ((kerParams m c).ab (0 : Fin 3))) dst n d := by
  have e : (V10 m outs c main_v39 : S40000x128.Idx → EReal) =
      extractStridedSlice S40000x128 ![0, 0] (V9 m outs c main_v38) slices_S40960x128_S40000x128_0_0 := by
    dsimp only [Gen.V10, Gen.hostOps3]
    after_results_simp
  have e9 : V9 m outs c main_v38 = outs 9 main_v38 c := by
    dsimp only [Gen.V9]
    exact Function.update_self _ _ _
  have e8 : V8 m outs c main_v37 = outs 8 main_v37 c := by
    dsimp only [Gen.V8]
    exact Function.update_self _ _ _
  have hn : n.val < 40960 := Nat.lt_trans n.isLt (by decide)
  rw [e, headRows _ _ n d ⟨n.val, hn⟩ rfl, e9, hagg]
  refine agg_eq _ dst _ _ (fun e => ?_) (fun e d => ?_) n ⟨n.val, hn⟩ rfl d
  · rw [V8_eq5 m outs c main_v6 (by decide)]
    exact dst_row m c dst hdst e
  · rw [e8]
    exact l0_msg m outs c src dst hsrc hdst hmsg e d

theorem l0_eps : (V10 m outs c main_v42 : S1x1.Idx → EReal) (ix2 0 0) = (kerParams m c).eps (0 : Fin 3) := by
  have e : (V10 m outs c main_v42 : S1x1.Idx → EReal) =
      shapeCast S1x1 (shapeCast S_ (extractStridedSlice S1 ![0] (V9 m outs c main_arg8) slices_S3_S1_0) shapeCasts_S1_S_)
        shapeCasts_S_S1x1 := by
    dsimp only [Gen.V10, Gen.hostOps3]
    after_results_simp
    rfl
  rw [e]
  refine (scal1 (0 : Fin 3) (0 : ℕ) rfl _ _ _ _).trans ?_
  rw [V9_eq5 m outs c main_arg8 (by decide), V5_arg m c main_arg8 (by decide)]
  rfl

theorem l0_W1 (k : Fin 128) (j : Fin 256) :
    (V10 m outs c main_v44 : S128x256.Idx → EReal) (ix2 k j) = (kerParams m c).W1 (0 : Fin 3) k j := by
  have e : (V10 m outs c main_v44 : S128x256.Idx → EReal) =
      shapeCast S128x256 (extractStridedSlice S1x128x256 ![0, 0, 0] (V9 m outs c main_arg9) slices_S3x128x256_S1x128x256_0_0_0)
        shapeCasts_S1x128x256_S128x256 := by
    dsimp only [Gen.V10, Gen.hostOps3]
    after_results_simp
    rfl
  rw [e]
  refine (slab3 (0 : Fin 3) (0 : ℕ) rfl _ _ _ k j).trans ?_
  rw [V9_eq5 m outs c main_arg9 (by decide), V5_arg m c main_arg9 (by decide)]
  rfl

theorem l0_b1 (j : Fin 256) :
    (V10 m outs c main_v47 : S1x256.Idx → EReal) (ix2 0 j) = (kerParams m c).b1 (0 : Fin 3) j := by
  have e : (V10 m outs c main_v47 : S1x256.Idx → EReal) =
      shapeCast S1x256 (shapeCast S256 (extractStridedSlice S1x256 ![0, 0] (V9 m outs c main_arg10) slices_S3x256_S1x256_0_0)
        shapeCasts_S1x256_S256) shapeCasts_S256_S1x256 := by
    dsimp only [Gen.V10, Gen.hostOps3]
    after_results_simp
    rfl
  rw [e]
  refine (row2 (0 : Fin 3) (0 : ℕ) rfl _ _ _ _ j).trans ?_
  rw [V9_eq5 m outs c main_arg10 (by decide), V5_arg m c main_arg10 (by decide)]
  rfl

theorem l0_g1 (j : Fin 256) :
    (V10 m outs c main_v50 : S1x256.Idx → EReal) (ix2 0 j) = (kerParams m c).g1 (0 : Fin 3) j := by
  have e : (V10 m outs c main_v50 : S1x256.Idx → EReal) =
      shapeCast S1x256 (shapeCast S256 (extractStridedSlice S1x256 ![0, 0] (V9 m outs c main_arg11) slices_S3x256_S1x256_0_0)
        shapeCasts_S1x256_S256) shapeCasts_S256_S1x256 := by
    dsimp only [Gen.V10, Gen.hostOps3]
    after_results_simp
    rfl
  rw [e]
  refine (row2 (0 : Fin 3) (0 : ℕ) rfl _ _ _ _ j).trans ?_
  rw [V9_eq5 m outs c main_arg11 (by decide), V5_arg m c main_arg11 (by decide)]
  rfl

theorem l0_s1 (j : Fin 256) :
    (V10 m outs c main_v53 : S1x256.Idx → EReal) (ix2 0 j) = (kerParams m c).s1 (0 : Fin 3) j := by
  have e : (V10 m outs c main_v53 : S1x256.Idx → EReal) =
      shapeCast S1x256 (shapeCast S256 (extractStridedSlice S1x256 ![0, 0] (V9 m outs c main_arg12) slices_S3x256_S1x256_0_0)
        shapeCasts_S1x256_S256) shapeCasts_S256_S1x256 := by
    dsimp only [Gen.V10, Gen.hostOps3]
    after_results_simp
    rfl
  rw [e]
  refine (row2 (0 : Fin 3) (0 : ℕ) rfl _ _ _ _ j).trans ?_
  rw [V9_eq5 m outs c main_arg12 (by decide), V5_arg m c main_arg12 (by decide)]
  rfl

theorem l0_W2 (j : Fin 256) (d : Fin 128) :
    (V10 m outs c main_v55 : S256x128.Idx → EReal) (ix2 j d) = (kerParams m c).W2 (0 : Fin 3) j d := by
  have e : (V10 m outs c main_v55 : S256x128.Idx → EReal) =
      shapeCast S256x128 (extractStridedSlice S1x256x128 ![0, 0, 0] (V9 m outs c main_arg13) slices_S3x256x128_S1x256x128_0_0_0)
        shapeCasts_S1x256x128_S256x128 := by
    dsimp only [Gen.V10, Gen.hostOps3]
    after_results_simp
    rfl
  rw [e]
  refine (slab3 (0 : Fin 3) (0 : ℕ) rfl _ _ _ j d).trans ?_
  rw [V9_eq5 m outs c main_arg13 (by decide), V5_arg m c main_arg13 (by decide)]
  rfl

theorem l0_b2 (j : Fin 128) :
    (V10 m outs c main_v58 : S1x128.Idx → EReal) (ix2 0 j) = (kerParams m c).b2 (0 : Fin 3) j := by
  have e : (V10 m outs c main_v58 : S1x128.Idx → EReal) =
      shapeCast S1x128 (shapeCast S128 (extractStridedSlice S1x128 ![0, 0] (V9 m outs c main_arg14) slices_S3x128_S1x128_0_0)
        shapeCasts_S1x128_S128) shapeCasts_S128_S1x128 := by
    dsimp only [Gen.V10, Gen.hostOps3]
    after_results_simp
    rfl
  rw [e]
  refine (row2 (0 : Fin 3) (0 : ℕ) rfl _ _ _ _ j).trans ?_
  rw [V9_eq5 m outs c main_arg14 (by decide), V5_arg m c main_arg14 (by decide)]
  rfl

theorem l0_g (j : Fin 128) :
    (V10 m outs c main_v61 : S1x128.Idx → EReal) (ix2 0 j) = (kerParams m c).g (0 : Fin 3) j := by
  have e : (V10 m outs c main_v61 : S1x128.Idx → EReal) =
      shapeCast S1x128 (shapeCast S128 (extractStridedSlice S1x128 ![0, 0] (V9 m outs c main_arg15) slices_S3x128_S1x128_0_0)
        shapeCasts_S1x128_S128) shapeCasts_S128_S1x128 := by
    dsimp only [Gen.V10, Gen.hostOps3]
    after_results_simp
    rfl
  rw [e]
  refine (row2 (0 : Fin 3) (0 : ℕ) rfl _ _ _ _ j).trans ?_
  rw [V9_eq5 m outs c main_arg15 (by decide), V5_arg m c main_arg15 (by decide)]
  rfl

theorem l0_s (j : Fin 128) :
    (V10 m outs c main_v64 : S1x128.Idx → EReal) (ix2 0 j) = (kerParams m c).s (0 : Fin 3) j := by
  have e : (V10 m outs c main_v64 : S1x128.Idx → EReal) =
      shapeCast S1x128 (shapeCast S128 (extractStridedSlice S1x128 ![0, 0] (V9 m outs c main_arg16) slices_S3x128_S1x128_0_0)
        shapeCasts_S1x128_S128) shapeCasts_S128_S1x128 := by
    dsimp only [Gen.V10, Gen.hostOps3]
    after_results_simp
    rfl
  rw [e]
  refine (row2 (0 : Fin 3) (0 : ℕ) rfl _ _ _ _ j).trans ?_
  rw [V9_eq5 m outs c main_arg16 (by decide), V5_arg m c main_arg16 (by decide)]
  rfl

/-- The layer's update launch leaves the specification's layer of the node table the layer starts from. -/
theorem lay0_out (hsrc : ∀ e, m ((c : Thread nD τ).loc main_arg17) (ix2 0 e) = BitVec.ofNat 32 (src e).val)
    (hdst : ∀ e, m ((c : Thread nD τ).loc main_arg17) (ix2 1 e) = BitVec.ofNat 32 (dst e).val)
    (hmsg : outs 8 main_v37 c = Cert.RegionFns.MsgF (V7 m outs c main_v22) (V7 m outs c main_v15) (V7 m outs c main_arg1)
      (V7 m outs c main_v24) (V7 m outs c main_v27) (V7 m outs c main_v30) (V7 m outs c main_v33) (V7 m outs c main_v36))
    (hagg : outs 9 main_v38 c = Cert.RegionFns.AggF (V8 m outs c main_v6) (V8 m outs c main_v37))
    (hupd : outs 11 main_v65 c = Cert.RegionFns.UpdF true (V10 m outs c main_v8) (V10 m outs c main_v39) (V10 m outs c main_v42)
      (V10 m outs c main_v44) (V10 m outs c main_v47) (V10 m outs c main_v50) (V10 m outs c main_v53) (V10 m outs c main_v55)
      (V10 m outs c main_v58) (V10 m outs c main_v61) (V10 m outs c main_v64))
    (n : Fin 40000) (d : Fin 128) :
    (outs 11 main_v65 c : S40000x128.Idx → EReal) (ix2 n d) =
      Cert.Spec.layerP (kerParams m c) src dst (0 : Fin 3) true (fun n d => outs 6 main_v8 c (ix2 n d)) n d := by
  refine (congrFun hupd (ix2 n d)).trans ?_
  unfold Cert.Spec.layerP Cert.Spec.layer
  exact upd_eq true (fun n d => outs 6 main_v8 c (ix2 n d)) _ _ _ _ _ _ _ _ _ _ _ _ _ _ _ _ _ _ _ _ _
    (l0_h m outs c) (l0_agg m outs c src dst hsrc hdst hmsg hagg) (l0_eps m outs c) (l0_W1 m outs c) (l0_b1 m outs c)
    (l0_g1 m outs c) (l0_s1 m outs c) (l0_W2 m outs c) (l0_b2 m outs c) (l0_g m outs c) (l0_s m outs c) n d

end Layer

end Cert.KernelIdeal.HandVal

end
-- ==== Proof.KI.Lay1.lean ====
/-
  Layer 1 of the kernel program: what the host stretches before its message launch and before its update launch
  leave in those launches' windows, read at one element, and the layer's output as the specification's layer of
  the node table the layer starts from.

  The two gathers read, for edge e, the table's row at e's target node and at e's source node (the kept index
  rows hold those nodes' words). The parameter windows are slab 1 of the stacked arguments. The aggregation
  launch's window of targets is the kept target row, its messages the message launch's output; the update launch
  reads the first 40000 rows of the padded aggregate.
-/
import proofs.«417300_j83468394430632_3_alg».proof.Proof.KI.Glue

set_option maxRecDepth 4000

noncomputable section

namespace Cert.KernelIdeal.HandVal

open Idealize.ShloMosaic Idealize.ShloMosaic.ValueIdx Idealize.ShloMosaic.StableHlo Idealize.ShloMosaic.TcCoe
open Cert.KernelIdeal Cert.KernelIdeal.Gen

section Layer
variable (m : (ℓ : Loc nD τ sig) → Buf (Elt Ideal) ℓ) (outs : Gen.Outs (F := Ideal)) (c : Dev nD)
variable (src dst : Fin 640000 → Fin 40000)

/-- The node table the layer starts from, as the message stretch finds it. -/
theorem l1_in : V11 m outs c main_v65 = outs 11 main_v65 c := by
  dsimp only [Gen.V11]
  exact Function.update_self _ _ _

/-! ### The message launch's windows -/

theorem l1_xj_eq : (V12 m outs c main_v72 : S640000x128.Idx → EReal) =
    Host.gather gather_S40000x128_S640000x1_S640000x128_1_0_n_n_0_1_1128 (V11 m outs c main_v65 : S40000x128.Idx → EReal)
      (normCol (V11 m outs c main_v2)) := by
  dsimp only [Gen.V12, Gen.hostOps4]
  after_results_simp

theorem l1_xi_eq : (V12 m outs c main_v79 : S640000x128.Idx → EReal) =
    Host.gather gather_S40000x128_S640000x1_S640000x128_1_0_n_n_0_1_1128 (V11 m outs c main_v65 : S40000x128.Idx → EReal)
      (normCol (V11 m outs c main_v5)) := by
  dsimp only [Gen.V12, Gen.hostOps4]
  after_results_simp

/-- The window of source rows at (e, k): the table's row at e's source node. -/
theorem l1_xj (hsrc : ∀ e, m ((c : Thread nD τ).loc main_arg17) (ix2 0 e) = BitVec.ofNat 32 (src e).val)
    (e : Fin 640000) (k : Fin 128) :
    (V12 m outs c main_v72 : S640000x128.Idx → EReal) (ix2 e k) = (outs 11 main_v65 c : S40000x128.Idx → EReal) (ix2 (src e) k) := by
  rw [l1_xj_eq]
  refine (gatherRow _ _ e k (src e) (normCol_apply _ e _ (src e).isLt ?_)).trans ?_
  · rw [V11_eq5 m outs c main_v2 (by decide)]
    exact src_word m c src hsrc e
  · exact congrFun (l1_in m outs c) (ix2 (src e) k)

/-- The window of target rows at (e, k): the table's row at e's target node. -/
theorem l1_xi (hdst : ∀ e, m ((c : Thread nD τ).loc main_arg17) (ix2 1 e) = BitVec.ofNat 32 (dst e).val)
    (e : Fin 640000) (k : Fin 128) :
    (V12 m outs c main_v79 : S640000x128.Idx → EReal) (ix2 e k) = (outs 11 main_v65 c : S40000x128.Idx → EReal) (ix2 (dst e) k) := by
  rw [l1_xi_eq]
  refine (gatherRow _ _ e k (dst e) (normCol_apply _ e _ (dst e).isLt ?_)).trans ?_
  · rw [V11_eq5 m outs c main_v5 (by decide)]
    exact dst_word m c dst hdst e
  · exact congrFun (l1_in m outs c) (ix2 (dst e) k)

theorem l1_ea (e : Fin 640000) (k : Fin 16) :
    (V12 m outs c main_arg1 : S640000x16.Idx → EReal) (ix2 e k) = (kerParams m c).ea e k := by
  rw [V12_eq5 m outs c main_arg1 (by decide), V5_arg m c main_arg1 (by decide)]
  rfl

theorem l1_eW (k : Fin 16) (d : Fin 128) :
    (V12 m outs c main_v81 : S16x128.Idx → EReal) (ix2 k d) = (kerParams m c).eW (1 : Fin 3) k d := by
  have e : (V12 m outs c main_v81 : S16x128.Idx → EReal) =
      shapeCast S16x128 (extractStridedSlice S1x16x128 ![1, 0, 0] (V11 m outs c main_arg4) slices_S3x16x128_S1x16x128_1_0_0)
        shapeCasts_S1x16x128_S16x128 := by
    dsimp only [Gen.V12, Gen.hostOps4]
    after_results_simp
    rfl
  rw [e]
  refine (slab3 (1 : Fin 3) (1 : ℕ) rfl _ _ _ k d).trans ?_
  rw [V11_eq5 m outs c main_arg4 (by decide), V5_arg m c main_arg4 (by decide)]
  rfl

theorem l1_eb (d : Fin 128) :
    (V12 m outs c main_v84 : S1x128.Idx → EReal) (ix2 0 d) = (kerParams m c).eb (1 : Fin 3) d := by
  have e : (V12 m outs c main_v84 : S1x128.Idx → EReal) =
      shapeCast S1x128 (shapeCast S128 (extractStridedSlice S1x128 ![1, 0] (V11 m outs c main_arg5) slices_S3x128_S1x128_1_0)
        shapeCasts_S1x128_S128) shapeCasts_S128_S1x128 := by
    dsimp only [Gen.V12, Gen.hostOps4]
    after_results_simp
    rfl
  rw [e]
  refine (row2 (1 : Fin 3) (1 : ℕ) rfl _ _ _ _ d).trans ?_
  rw [V11_eq5 m outs c main_arg5 (by decide), V5_arg m c main_arg5 (by decide)]
  rfl

theorem l1_a1 (k : Fin 128) :
    (V12 m outs c main_v87 : S1x128.Idx → EReal) (ix2 0 k) = (kerParams m c).aw (1 : Fin 3) (Fin.castAdd 128 k) := by
  have e : (V12 m outs c main_v87 : S1x128.Idx → EReal) =
      shapeCast S1x128 (shapeCast S128x1 (extractStridedSlice S1x128x1 ![1, 0, 0] (V11 m outs c main_arg6) slices_S3x256x1_S1x128x1_1_0_0)
        shapeCasts_S1x128x1_S128x1) shapeCasts_S128x1_S1x128 := by
    dsimp only [Gen.V12, Gen.hostOps4]
    after_results_simp
    rfl
  rw [e]
  refine (attRow (1 : Fin 3) (1 : ℕ) 0 rfl _ _ _ _ k (Fin.castAdd 128 k) (Nat.zero_add _).symm).trans ?_
  rw [V11_eq5 m outs c main_arg6 (by decide), V5_arg m c main_arg6 (by decide)]
  rfl

theorem l1_a2 (k : Fin 128) :
    (V12 m outs c main_v90 : S1x128.Idx → EReal) (ix2 0 k) = (kerParams m c).aw (1 : Fin 3) (Fin.natAdd 128 k) := by
  have e : (V12 m outs c main_v90 : S1x128.Idx → EReal) =
      shapeCast S1x128 (shapeCast S128x1 (extractStridedSlice S1x128x1 ![1, 128, 0] (V11 m outs c main_arg6) slices_S3x256x1_S1x128x1_1_128_0)
        shapeCasts_S1x128x1_S128x1) shapeCasts_S128x1_S1x128 := by
    dsimp only [Gen.V12, Gen.hostOps4]
    after_results_simp
    rfl
  rw [e]
  refine (attRow (1 : Fin 3) (1 : ℕ) 128 rfl _ _ _ _ k (Fin.natAdd 128 k) rfl).trans ?_
  rw [V11_eq5 m outs c main_arg6 (by decide), V5_arg m c main_arg6 (by decide)]
  rfl

theorem l1_ab : (V12 m outs c main_v93 : S1x1.Idx → EReal) (ix2 0 0) = (kerParams m c).ab (1 : Fin 3) := by
  have e : (V12 m outs c main_v93 : S1x1.Idx → EReal) =
      shapeCast S1x1 (shapeCast S1 (extractStridedSlice S1x1 ![1, 0] (V11 m outs c main_arg7) slices_S3x1_S1x1_1_0)
        shapeCasts_S1x1_S1) shapeCasts_S1_S1x1 := by
    dsimp only [Gen.V12, Gen.hostOps4]
    after_results_simp
    rfl
  rw [e]
  refine (row2 (1 : Fin 3) (1 : ℕ) rfl _ _ _ _ 0).trans ?_
  rw [V11_eq5 m outs c main_arg7 (by decide), V5_arg m c main_arg7 (by decide)]
  rfl

/-- The message launch's output is the specification's message of the table the layer starts from. -/
theorem l1_msg (hsrc : ∀ e, m ((c : Thread nD τ).loc main_arg17) (ix2 0 e) = BitVec.ofNat 32 (src e).val)
    (hdst : ∀ e, m ((c : Thread nD τ).loc main_arg17) (ix2 1 e) = BitVec.ofNat 32 (dst e).val)
    (hmsg : outs 13 main_v94 c = Cert.RegionFns.MsgF (V12 m outs c main_v79) (V12 m outs c main_v72) (V12 m outs c main_arg1)
      (V12 m outs c main_v81) (V12 m outs c main_v84) (V12 m outs c main_v87) (V12 m outs c main_v90) (V12 m outs c main_v93))
    (e : Fin 640000) (d : Fin 128) :
    (outs 13 main_v94 c : S640000x128.Idx → EReal) (ix2 e d) =
      Cert.Spec.msg (fun n d => outs 11 main_v65 c (ix2 n d)) src dst (kerParams m c).ea ((kerParams m c).eW (1 : Fin 3))
        ((kerParams m c).eb (1 : Fin 3)) ((kerParams m c).aw (1 : Fin 3)) ((kerParams m c).ab (1 : Fin 3)) e d := by
  refine (congrFun hmsg (ix2 e d)).trans ?_
  exact msg_eq (fun n d => outs 11 main_v65 c (ix2 n d)) src dst _ _ _ _ _ _ _ _ _ _ _ _ _
    (fun e k => l1_xi m outs c dst hdst e k) (fun e k => l1_xj m outs c src hsrc e k) (l1_ea m outs c) (l1_eW m outs c)
    (l1_eb m outs c) (l1_a1 m outs c) (l1_a2 m outs c) (l1_ab m outs c) e d

/-! ### The update launch's windows -/

theorem l1_h (n : Fin 40000) (k : Fin 128) :
    (V15 m outs c main_v65 : S40000x128.Idx → EReal) (ix2 n k) = (outs 11 main_v65 c : S40000x128.Idx → EReal) (ix2 n k) := by
  have e : V15 m outs c main_v65 = outs 11 main_v65 c :=
    (V15_of m outs c main_v65 (by decide)).trans <| (V14_of m outs c main_v65 (by decide)).trans <|
      (V13_of m outs c main_v65 (by decide)).trans <| (V12_of m outs c main_v65 (by decide)).trans (l1_in m outs c)
  rw [e]

/-- The aggregate window at (n, d): the specification's aggregate of the messages. -/
theorem l1_agg (hsrc : ∀ e, m ((c : Thread nD τ).loc main_arg17) (ix2 0 e) = BitVec.ofNat 32 (src e).val)
    (hdst : ∀ e, m ((c : Thread nD τ).loc main_arg17) (ix2 1 e) = BitVec.ofNat 32 (dst e).val)
    (hmsg : outs 13 main_v94 c = Cert.RegionFns.MsgF (V12 m outs c main_v79) (V12 m outs c main_v72) (V12 m outs c main_arg1)
      (V12 m outs c main_v81) (V12 m outs c main_v84) (V12 m outs c main_v87) (V12 m outs c main_v90) (V12 m outs c main_v93))
    (hagg : outs 14 main_v95 c = Cert.RegionFns.AggF (V13 m outs c main_v6) (V13 m outs c main_v94))
    (n : Fin 40000) (d : Fin 128) :
    (V15 m outs c main_v96 : S40000x128.Idx → EReal) (ix2 n d) =
      Cert.Spec.agg (Cert.Spec.msg (fun n d => outs 11 main_v65 c (ix2 n d)) src dst (kerParams m c).ea ((kerParams m c).eW (1 : Fin 3))
        ((kerParams m c).eb (1 : Fin 3)) ((kerParams m c).aw (1 : Fin 3)) ((kerParams m c).ab (1 : Fin 3))) dst n d := by
  have e : (V15 m outs c main_v96 : S40000x128.Idx → EReal) =
      extractStridedSlice S40000x128 ![0, 0] (V14 m outs c main_v95) slices_S40960x128_S40000x128_0_0 := by
    dsimp only [Gen.V15, Gen.hostOps6]
    after_results_simp
  have e9 : V14 m outs c main_v95 = outs 14 main_v95 c := by
    dsimp only [Gen.V14]
    exact Function.update_self _ _ _
  have e8 : V13 m outs c main_v94 = outs 13 main_v94 c := by
    dsimp only [Gen.V13]
    exact Function.update_self _ _ _
  have hn : n.val < 40960 := Nat.lt_trans n.isLt (by decide)
  rw [e, headRows _ _ n d ⟨n.val, hn⟩ rfl, e9, hagg]
  refine agg_eq _ dst _ _ (fun e => ?_) (fun e d => ?_) n ⟨n.val, hn⟩ rfl d
  · rw [V13_eq5 m outs c main_v6 (by decide)]
    exact dst_row m c dst hdst e
  · rw [e8]
    exact l1_msg m outs c src dst hsrc hdst hmsg e d

theorem l1_eps : (V15 m outs c main_v99 : S1x1.Idx → EReal) (ix2 0 0) = (kerParams m c).eps (1 : Fin 3) := by
  have e : (V15 m outs c main_v99 : S1x1.Idx → EReal) =
      shapeCast S1x1 (shapeCast S_ (extractStridedSlice S1 ![1] (V14 m outs c main_arg8) slices_S3_S1_1) shapeCasts_S1_S_)
        shapeCasts_S_S1x1 := by
    dsimp only [Gen.V15, Gen.hostOps6]
    after_results_simp
    rfl
  rw [e]
  refine (scal1 (1 : Fin 3) (1 : ℕ) rfl _ _ _ _).trans ?_
  rw [V14_eq5 m outs c main_arg8 (by decide), V5_arg m c main_arg8 (by decide)]
  rfl

theorem l1_W1 (k : Fin 128) (j : Fin 256) :
    (V15 m outs c main_v101 : S128x256.Idx → EReal) (ix2 k j) = (kerParams m c).W1 (1 : Fin 3) k j := by
  have e : (V15 m outs c main_v101 : S128x256.Idx → EReal) =
      shapeCast S128x256 (extractStridedSlice S1x128x256 ![1, 0, 0] (V14 m outs c main_arg9) slices_S3x128x256_S1x128x256_1_0_0)
        shapeCasts_S1x128x256_S128x256 := by
    dsimp only [Gen.V15, Gen.hostOps6]
    after_results_simp
    rfl
  rw [e]
  refine (slab3 (1 : Fin 3) (1 : ℕ) rfl _ _ _ k j).trans ?_
  rw [V14_eq5 m outs c main_arg9 (by decide), V5_arg m c main_arg9 (by decide)]
  rfl

theorem l1_b1 (j : Fin 256) :
    (V15 m outs c main_v104 : S1x256.Idx → EReal) (ix2 0 j) = (kerParams m c).b1 (1 : Fin 3) j := by
  have e : (V15 m outs c main_v104 : S1x256.Idx → EReal) =
      shapeCast S1x256 (shapeCast S256 (extractStridedSlice S1x256 ![1, 0] (V14 m outs c main_arg10) slices_S3x256_S1x256_1_0)
        shapeCasts_S1x256_S256) shapeCasts_S256_S1x256 := by
    dsimp only [Gen.V15, Gen.hostOps6]
    after_results_simp
    rfl
  rw [e]
  refine (row2 (1 : Fin 3) (1 : ℕ) rfl _ _ _ _ j).trans ?_
  rw [V14_eq5 m outs c main_arg10 (by decide), V5_arg m c main_arg10 (by decide)]
  rfl

theorem l1_g1 (j : Fin 256) :
    (V15 m outs c main_v107 : S1x256.Idx → EReal) (ix2 0 j) = (kerParams m c).g1 (1 : Fin 3) j := by
  have e : (V15 m outs c main_v107 : S1x256.Idx → EReal) =
      shapeCast S1x256 (shapeCast S256 (extractStridedSlice S1x256 ![1, 0] (V14 m outs c main_arg11) slices_S3x256_S1x256_1_0)
        shapeCasts_S1x256_S256) shapeCasts_S256_S1x256 := by
    dsimp only [Gen.V15, Gen.hostOps6]
    after_results_simp
    rfl
  rw [e]
  refine (row2 (1 : Fin 3) (1 : ℕ) rfl _ _ _ _ j).trans ?_
  rw [V14_eq5 m outs c main_arg11 (by decide), V5_arg m c main_arg11 (by decide)]
  rfl

theorem l1_s1 (j : Fin 256) :
    (V15 m outs c main_v110 : S1x256.Idx → EReal) (ix2 0 j) = (kerParams m c).s1 (1 : Fin 3) j := by
  have e : (V15 m outs c main_v110 : S1x256.Idx → EReal) =
      shapeCast S1x256 (shapeCast S256 (extractStridedSlice S1x256 ![1, 0] (V14 m outs c main_arg12) slices_S3x256_S1x256_1_0)
        shapeCasts_S1x256_S256) shapeCasts_S256_S1x256 := by
    dsimp only [Gen.V15, Gen.hostOps6]
    after_results_simp
    rfl
  rw [e]
  refine (row2 (1 : Fin 3) (1 : ℕ) rfl _ _ _ _ j).trans ?_
  rw [V14_eq5 m outs c main_arg12 (by decide), V5_arg m c main_arg12 (by decide)]
  rfl

theorem l1_W2 (j : Fin 256) (d : Fin 128) :
    (V15 m outs c main_v112 : S256x128.Idx → EReal) (ix2 j d) = (kerParams m c).W2 (1 : Fin 3) j d := by
  have e : (V15 m outs c main_v112 : S256x128.Idx → EReal) =
      shapeCast S256x128 (extractStridedSlice S1x256x128 ![1, 0, 0] (V14 m outs c main_arg13) slices_S3x256x128_S1x256x128_1_0_0)
        shapeCasts_S1x256x128_S256x128 := by
    dsimp only [Gen.V15, Gen.hostOps6]
    after_results_simp
    rfl
  rw [e]
  refine (slab3 (1 : Fin 3) (1 : ℕ) rfl _ _ _ j d).trans ?_
  rw [V14_eq5 m outs c main_arg13 (by decide), V5_arg m c main_arg13 (by decide)]
  rfl

theorem l1_b2 (j : Fin 128) :
    (V15 m outs c main_v115 : S1x128.Idx → EReal) (ix2 0 j) = (kerParams m c).b2 (1 : Fin 3) j := by
  have e : (V15 m outs c main_v115 : S1x128.Idx → EReal) =
      shapeCast S1x128 (shapeCast S128 (extractStridedSlice S1x128 ![1, 0] (V14 m outs c main_arg14) slices_S3x128_S1x128_1_0)
        shapeCasts_S1x128_S128) shapeCasts_S128_S1x128 := by
    dsimp only [Gen.V15, Gen.hostOps6]
    after_results_simp
    rfl
  rw [e]
  refine (row2 (1 : Fin 3) (1 : ℕ) rfl _ _ _ _ j).trans ?_
  rw [V14_eq5 m outs c main_arg14 (by decide), V5_arg m c main_arg14 (by decide)]
  rfl

theorem l1_g (j : Fin 128) :
    (V15 m outs c main_v118 : S1x128.Idx → EReal) (ix2 0 j) = (kerParams m c).g (1 : Fin 3) j := by
  have e : (V15 m outs c main_v118 : S1x128.Idx → EReal) =
      shapeCast S1x128 (shapeCast S128 (extractStridedSlice S1x128 ![1, 0] (V14 m outs c main_arg15) slices_S3x128_S1x128_1_0)
        shapeCasts_S1x128_S128) shapeCasts_S128_S1x128 := by
    dsimp only [Gen.V15, Gen.hostOps6]
    after_results_simp
    rfl
  rw [e]
  refine (row2 (1 : Fin 3) (1 : ℕ) rfl _ _ _ _ j).trans ?_
  rw [V14_eq5 m outs c main_arg15 (by decide), V5_arg m c main_arg15 (by decide)]
  rfl

theorem l1_s (j : Fin 128) :
    (V15 m outs c main_v121 : S1x128.Idx → EReal) (ix2 0 j) = (kerParams m c).s (1 : Fin 3) j := by
  have e : (V15 m outs c main_v121 : S1x128.Idx → EReal) =
      shapeCast S1x128 (shapeCast S128 (extractStridedSlice S1x128 ![1, 0] (V14 m outs c main_arg16) slices_S3x128_S1x128_1_0)
        shapeCasts_S1x128_S128) shapeCasts_S128_S1x128 := by
    dsimp only [Gen.V15, Gen.hostOps6]
    after_results_simp
    rfl
  rw [e]
  refine (row2 (1 : Fin 3) (1 : ℕ) rfl _ _ _ _ j).trans ?_
  rw [V14_eq5 m outs c main_arg16 (by decide), V5_arg m c main_arg16 (by decide)]
  rfl

/-- The layer's update launch leaves the specification's layer of the node table the layer starts from. -/
theorem lay1_out (hsrc : ∀ e, m ((c : Thread nD τ).loc main_arg17) (ix2 0 e) = BitVec.ofNat 32 (src e).val)
    (hdst : ∀ e, m ((c : Thread nD τ).loc main_arg17) (ix2 1 e) = BitVec.ofNat 32 (dst e).val)
    (hmsg : outs 13 main_v94 c = Cert.RegionFns.MsgF (V12 m outs c main_v79) (V12 m outs c main_v72) (V12 m outs c main_arg1)
      (V12 m outs c main_v81) (V12 m outs c main_v84) (V12 m outs c main_v87) (V12 m outs c main_v90) (V12 m outs c main_v93))
    (hagg : outs 14 main_v95 c = Cert.RegionFns.AggF (V13 m outs c main_v6) (V13 m outs c main_v94))
    (hupd : outs 16 main_v122 c = Cert.RegionFns.UpdF true (V15 m outs c main_v65) (V15 m outs c main_v96) (V15 m outs c main_v99)
      (V15 m outs c main_v101) (V15 m outs c main_v104) (V15 m outs c main_v107) (V15 m outs c main_v110) (V15 m outs c main_v112)
      (V15 m outs c main_v115) (V15 m outs c main_v118) (V15 m outs c main_v121))
    (n : Fin 40000) (d : Fin 128) :
    (outs 16 main_v122 c : S40000x128.Idx → EReal) (ix2 n d) =
      Cert.Spec.layerP (kerParams m c) src dst (1 : Fin 3) true (fun n d => outs 11 main_v65 c (ix2 n d)) n d := by
  refine (congrFun hupd (ix2 n d)).trans ?_
  unfold Cert.Spec.layerP Cert.Spec.layer
  exact upd_eq true (fun n d => outs 11 main_v65 c (ix2 n d)) _ _ _ _ _ _ _ _ _ _ _ _ _ _ _ _ _ _ _ _ _
    (l1_h m outs c) (l1_agg m outs c src dst hsrc hdst hmsg hagg) (l1_eps m outs c) (l1_W1 m outs c) (l1_b1 m outs c)
    (l1_g1 m outs c) (l1_s1 m outs c) (l1_W2 m outs c) (l1_b2 m outs c) (l1_g m outs c) (l1_s m outs c) n d

end Layer

end Cert.KernelIdeal.HandVal

end
-- ==== Proof.KI.Lay2.lean ====
/-
  Layer 2 of the kernel program: what the host stretches before its message launch and before its update launch
  leave in those launches' windows, read at one element, and the layer's output as the specification's layer of
  the node table the layer starts from.

  The two gathers read, for edge e, the table's row at e's target node and at e's source node (the kept index
  rows hold those nodes' words). The parameter windows are slab 2 of the stacked arguments. The aggregation
  launch's window of targets is the kept target row, its messages the message launch's output; the update launch
  reads the first 40000 rows of the padded aggregate.
-/
import proofs.«417300_j83468394430632_3_alg».proof.Proof.KI.Glue

set_option maxRecDepth 4000

noncomputable section

namespace Cert.KernelIdeal.HandVal

open Idealize.ShloMosaic Idealize.ShloMosaic.ValueIdx Idealize.ShloMosaic.StableHlo Idealize.ShloMosaic.TcCoe
open Cert.KernelIdeal Cert.KernelIdeal.Gen

section Layer
variable (m : (ℓ : Loc nD τ sig) → Buf (Elt Ideal) ℓ) (outs : Gen.Outs (F := Ideal)) (c : Dev nD)
variable (src dst : Fin 640000 → Fin 40000)

/-- The node table the layer starts from, as the message stretch finds it. -/
theorem l2_in : V16 m outs c main_v122 = outs 16 main_v122 c := by
  dsimp only [Gen.V16]
  exact Function.update_self _ _ _

/-! ### The message launch's windows -/

theorem l2_xj_eq : (V17 m outs c main_v129 : S640000x128.Idx → EReal) =
    Host.gather gather_S40000x128_S640000x1_S640000x128_1_0_n_n_0_1_1128 (V16 m outs c main_v122 : S40000x128.Idx → EReal)
      (normCol (V16 m outs c main_v2)) := by
  dsimp only [Gen.V17, Gen.hostOps7]
  after_results_simp

theorem l2_xi_eq : (V17 m outs c main_v136 : S640000x128.Idx → EReal) =
    Host.gather gather_S40000x128_S640000x1_S640000x128_1_0_n_n_0_1_1128 (V16 m outs c main_v122 : S40000x128.Idx → EReal)
      (normCol (V16 m outs c main_v5)) := by
  dsimp only [Gen.V17, Gen.hostOps7]
  after_results_simp

/-- The window of source rows at (e, k): the table's row at e's source node. -/
theorem l2_xj (hsrc : ∀ e, m ((c : Thread nD τ).loc main_arg17) (ix2 0 e) = BitVec.ofNat 32 (src e).val)
    (e : Fin 640000) (k : Fin 128) :
    (V17 m outs c main_v129 : S640000x128.Idx → EReal) (ix2 e k) = (outs 16 main_v122 c : S40000x128.Idx → EReal) (ix2 (src e) k) := by
  rw [l2_xj_eq]
  refine (gatherRow _ _ e k (src e) (normCol_apply _ e _ (src e).isLt ?_)).trans ?_
  · rw [V16_eq5 m outs c main_v2 (by decide)]
    exact src_word m c src hsrc e
  · exact congrFun (l2_in m outs c) (ix2 (src e) k)

/-- The window of target rows at (e, k): the table's row at e's target node. -/
theorem l2_xi (hdst : ∀ e, m ((c : Thread nD τ).loc main_arg17) (ix2 1 e) = BitVec.ofNat 32 (dst e).val)
    (e : Fin 640000) (k : Fin 128) :
    (V17 m outs c main_v136 : S640000x128.Idx → EReal) (ix2 e k) = (outs 16 main_v122 c : S40000x128.Idx → EReal) (ix2 (dst e) k) := by
  rw [l2_xi_eq]
  refine (gatherRow _ _ e k (dst e) (normCol_apply _ e _ (dst e).isLt ?_)).trans ?_
  · rw [V16_eq5 m outs c main_v5 (by decide)]
    exact dst_word m c dst hdst e
  · exact congrFun (l2_in m outs c) (ix2 (dst e) k)

theorem l2_ea (e : Fin 640000) (k : Fin 16) :
    (V17 m outs c main_arg1 : S640000x16.Idx → EReal) (ix2 e k) = (kerParams m c).ea e k := by
  rw [V17_eq5 m outs c main_arg1 (by decide), V5_arg m c main_arg1 (by decide)]
  rfl

theorem l2_eW (k : Fin 16) (d : Fin 128) :
    (V17 m outs c main_v138 : S16x128.Idx → EReal) (ix2 k d) = (kerParams m c).eW (2 : Fin 3) k d := by
  have e : (V17 m outs c main_v138 : S16x128.Idx → EReal) =
      shapeCast S16x128 (extractStridedSlice S1x16x128 ![2, 0, 0] (V16 m outs c main_arg4) slices_S3x16x128_S1x16x128_2_0_0)
        shapeCasts_S1x16x128_S16x128 := by
    dsimp only [Gen.V17, Gen.hostOps7]
    after_results_simp
    rfl
  rw [e]
  refine (slab3 (2 : Fin 3) (2 : ℕ) rfl _ _ _ k d).trans ?_
  rw [V16_eq5 m outs c main_arg4 (by decide), V5_arg m c main_arg4 (by decide)]
  rfl

theorem l2_eb (d : Fin 128) :
    (V17 m outs c main_v141 : S1x128.Idx → EReal) (ix2 0 d) = (kerParams m c).eb (2 : Fin 3) d := by
  have e : (V17 m outs c main_v141 : S1x128.Idx → EReal) =
      shapeCast S1x128 (shapeCast S128 (extractStridedSlice S1x128 ![2, 0] (V16 m outs c main_arg5) slices_S3x128_S1x128_2_0)
        shapeCasts_S1x128_S128) shapeCasts_S128_S1x128 := by
    dsimp only [Gen.V17, Gen.hostOps7]
    after_results_simp
    rfl
  rw [e]
  refine (row2 (2 : Fin 3) (2 : ℕ) rfl _ _ _ _ d).trans ?_
  rw [V16_eq5 m outs c main_arg5 (by decide), V5_arg m c main_arg5 (by decide)]
  rfl

theorem l2_a1 (k : Fin 128) :
    (V17 m outs c main_v144 : S1x128.Idx → EReal) (ix2 0 k) = (kerParams m c).aw (2 : Fin 3) (Fin.castAdd 128 k) := by
  have e : (V17 m outs c main_v144 : S1x128.Idx → EReal) =
      shapeCast S1x128 (shapeCast S128x1 (extractStridedSlice S1x128x1 ![2, 0, 0] (V16 m outs c main_arg6) slices_S3x256x1_S1x128x1_2_0_0)
        shapeCasts_S1x128x1_S128x1) shapeCasts_S128x1_S1x128 := by
    dsimp only [Gen.V17, Gen.hostOps7]
    after_results_simp
    rfl
  rw [e]
  refine (attRow (2 : Fin 3) (2 : ℕ) 0 rfl _ _ _ _ k (Fin.castAdd 128 k) (Nat.zero_add _).symm).trans ?_
  rw [V16_eq5 m outs c main_arg6 (by decide), V5_arg m c main_arg6 (by decide)]
  rfl

theorem l2_a2 (k : Fin 128) :
    (V17 m outs c main_v147 : S1x128.Idx → EReal) (ix2 0 k) = (kerParams m c).aw (2 : Fin 3) (Fin.natAdd 128 k) := by
  have e : (V17 m outs c main_v147 : S1x128.Idx → EReal) =
      shapeCast S1x128 (shapeCast S128x1 (extractStridedSlice S1x128x1 ![2, 128, 0] (V16 m outs c main_arg6) slices_S3x256x1_S1x128x1_2_128_0)
        shapeCasts_S1x128x1_S128x1) shapeCasts_S128x1_S1x128 := by
    dsimp only [Gen.V17, Gen.hostOps7]
    after_results_simp
    rfl
  rw [e]
  refine (attRow (2 : Fin 3) (2 : ℕ) 128 rfl _ _ _ _ k (Fin.natAdd 128 k) rfl).trans ?_
  rw [V16_eq5 m outs c main_arg6 (by decide), V5_arg m c main_arg6 (by decide)]
  rfl

theorem l2_ab : (V17 m outs c main_v150 : S1x1.Idx → EReal) (ix2 0 0) = (kerParams m c).ab (2 : Fin 3) := by
  have e : (V17 m outs c main_v150 : S1x1.Idx → EReal) =
      shapeCast S1x1 (shapeCast S1 (extractStridedSlice S1x1 ![2, 0] (V16 m outs c main_arg7) slices_S3x1_S1x1_2_0)
        shapeCasts_S1x1_S1) shapeCasts_S1_S1x1 := by
    dsimp only [Gen.V17, Gen.hostOps7]
    after_results_simp
    rfl
  rw [e]
  refine (row2 (2 : Fin 3) (2 : ℕ) rfl _ _ _ _ 0).trans ?_
  rw [V16_eq5 m outs c main_arg7 (by decide), V5_arg m c main_arg7 (by decide)]
  rfl

/-- The message launch's output is the specification's message of the table the layer starts from. -/
theorem l2_msg (hsrc : ∀ e, m ((c : Thread nD τ).loc main_arg17) (ix2 0 e) = BitVec.ofNat 32 (src e).val)
    (hdst : ∀ e, m ((c : Thread nD τ).loc main_arg17) (ix2 1 e) = BitVec.ofNat 32 (dst e).val)
    (hmsg : outs 18 main_v151 c = Cert.RegionFns.MsgF (V17 m outs c main_v136) (V17 m outs c main_v129) (V17 m outs c main_arg1)
      (V17 m outs c main_v138) (V17 m outs c main_v141) (V17 m outs c main_v144) (V17 m outs c main_v147) (V17 m outs c main_v150))
    (e : Fin 640000) (d : Fin 128) :
    (outs 18 main_v151 c : S640000x128.Idx → EReal) (ix2 e d) =
      Cert.Spec.msg (fun n d => outs 16 main_v122 c (ix2 n d)) src dst (kerParams m c).ea ((kerParams m c).eW (2 : Fin 3))
        ((kerParams m c).eb (2 : Fin 3)) ((kerParams m c).aw (2 : Fin 3)) ((kerParams m c).ab (2 : Fin 3)) e d := by
  refine (congrFun hmsg (ix2 e d)).trans ?_
  exact msg_eq (fun n d => outs 16 main_v122 c (ix2 n d)) src dst _ _ _ _ _ _ _ _ _ _ _ _ _
    (fun e k => l2_xi m outs c dst hdst e k) (fun e k => l2_xj m outs c src hsrc e k) (l2_ea m outs c) (l2_eW m outs c)
    (l2_eb m outs c) (l2_a1 m outs c) (l2_a2 m outs c) (l2_ab m outs c) e d

/-! ### The update launch's windows -/

theorem l2_h (n : Fin 40000) (k : Fin 128) :
    (V20 m outs c main_v122 : S40000x128.Idx → EReal) (ix2 n k) = (outs 16 main_v122 c : S40000x128.Idx → EReal) (ix2 n k) := by
  have e : V20 m outs c main_v122 = outs 16 main_v122 c :=
    (V20_of m outs c main_v122 (by decide)).trans <| (V19_of m outs c main_v122 (by decide)).trans <|
      (V18_of m outs c main_v122 (by decide)).trans <| (V17_of m outs c main_v122 (by decide)).trans (l2_in m outs c)
  rw [e]

/-- The aggregate window at (n, d): the specification's aggregate of the messages. -/
theorem l2_agg (hsrc : ∀ e, m ((c : Thread nD τ).loc main_arg17) (ix2 0 e) = BitVec.ofNat 32 (src e).val)
    (hdst : ∀ e, m ((c : Thread nD τ).loc main_arg17) (ix2 1 e) = BitVec.ofNat 32 (dst e).val)
    (hmsg : outs 18 main_v151 c = Cert.RegionFns.MsgF (V17 m outs c main_v136) (V17 m outs c main_v129) (V17 m outs c main_arg1)
      (V17 m outs c main_v138) (V17 m outs c main_v141) (V17 m outs c main_v144) (V17 m outs c main_v147) (V17 m outs c main_v150))
    (hagg : outs 19 main_v152 c = Cert.RegionFns.AggF (V18 m outs c main_v6) (V18 m outs c main_v151))
    (n : Fin 40000) (d : Fin 128) :
    (V20 m outs c main_v153 : S40000x128.Idx → EReal) (ix2 n d) =
      Cert.Spec.agg (Cert.Spec.msg (fun n d => outs 16 main_v122 c (ix2 n d)) src dst (kerParams m c).ea ((kerParams m c).eW (2 : Fin 3))
        ((kerParams m c).eb (2 : Fin 3)) ((kerParams m c).aw (2 : Fin 3)) ((kerParams m c).ab (2 : Fin 3))) dst n d := by
  have e : (V20 m outs c main_v153 : S40000x128.Idx → EReal) =
      extractStridedSlice S40000x128 ![0, 0] (V19 m outs c main_v152) slices_S40960x128_S40000x128_0_0 := by
    dsimp only [Gen.V20, Gen.hostOps9]
    after_results_simp
  have e9 : V19 m outs c main_v152 = outs 19 main_v152 c := by
    dsimp only [Gen.V19]
    exact Function.update_self _ _ _
  have e8 : V18 m outs c main_v151 = outs 18 main_v151 c := by
    dsimp only [Gen.V18]
    exact Function.update_self _ _ _
  have hn : n.val < 40960 := Nat.lt_trans n.isLt (by decide)
  rw [e, headRows _ _ n d ⟨n.val, hn⟩ rfl, e9, hagg]
  refine agg_eq _ dst _ _ (fun e => ?_) (fun e d => ?_) n ⟨n.val, hn⟩ rfl d
  · rw [V18_eq5 m outs c main_v6 (by decide)]
    exact dst_row m c dst hdst e
  · rw [e8]
    exact l2_msg m outs c src dst hsrc hdst hmsg e d

theorem l2_eps : (V20 m outs c main_v156 : S1x1.Idx → EReal) (ix2 0 0) = (kerParams m c).eps (2 : Fin 3) := by
  have e : (V20 m outs c main_v156 : S1x1.Idx → EReal) =
      shapeCast S1x1 (shapeCast S_ (extractStridedSlice S1 ![2] (V19 m outs c main_arg8) slices_S3_S1_2) shapeCasts_S1_S_)
        shapeCasts_S_S1x1 := by
    dsimp only [Gen.V20, Gen.hostOps9]
    after_results_simp
    rfl
  rw [e]
  refine (scal1 (2 : Fin 3) (2 : ℕ) rfl _ _ _ _).trans ?_
  rw [V19_eq5 m outs c main_arg8 (by decide), V5_arg m c main_arg8 (by decide)]
  rfl

theorem l2_W1 (k : Fin 128) (j : Fin 256) :
    (V20 m outs c main_v158 : S128x256.Idx → EReal) (ix2 k j) = (kerParams m c).W1 (2 : Fin 3) k j := by
  have e : (V20 m outs c main_v158 : S128x256.Idx → EReal) =
      shapeCast S128x256 (extractStridedSlice S1x128x256 ![2, 0, 0] (V19 m outs c main_arg9) slices_S3x128x256_S1x128x256_2_0_0)
        shapeCasts_S1x128x256_S128x256 := by
    dsimp only [Gen.V20, Gen.hostOps9]
    after_results_simp
    rfl
  rw [e]
  refine (slab3 (2 : Fin 3) (2 : ℕ) rfl _ _ _ k j).trans ?_
  rw [V19_eq5 m outs c main_arg9 (by decide), V5_arg m c main_arg9 (by decide)]
  rfl

theorem l2_b1 (j : Fin 256) :
    (V20 m outs c main_v161 : S1x256.Idx → EReal) (ix2 0 j) = (kerParams m c).b1 (2 : Fin 3) j := by
  have e : (V20 m outs c main_v161 : S1x256.Idx → EReal) =
      shapeCast S1x256 (shapeCast S256 (extractStridedSlice S1x256 ![2, 0] (V19 m outs c main_arg10) slices_S3x256_S1x256_2_0)
        shapeCasts_S1x256_S256) shapeCasts_S256_S1x256 := by
    dsimp only [Gen.V20, Gen.hostOps9]
    after_results_simp
    rfl
  rw [e]
  refine (row2 (2 : Fin 3) (2 : ℕ) rfl _ _ _ _ j).trans ?_
  rw [V19_eq5 m outs c main_arg10 (by decide), V5_arg m c main_arg10 (by decide)]
  rfl

theorem l2_g1 (j : Fin 256) :
    (V20 m outs c main_v164 : S1x256.Idx → EReal) (ix2 0 j) = (kerParams m c).g1 (2 : Fin 3) j := by
  have e : (V20 m outs c main_v164 : S1x256.Idx → EReal) =
      shapeCast S1x256 (shapeCast S256 (extractStridedSlice S1x256 ![2, 0] (V19 m outs c main_arg11) slices_S3x256_S1x256_2_0)
        shapeCasts_S1x256_S256) shapeCasts_S256_S1x256 := by
    dsimp only [Gen.V20, Gen.hostOps9]
    after_results_simp
    rfl
  rw [e]
  refine (row2 (2 : Fin 3) (2 : ℕ) rfl _ _ _ _ j).trans ?_
  rw [V19_eq5 m outs c main_arg11 (by decide), V5_arg m c main_arg11 (by decide)]
  rfl

theorem l2_s1 (j : Fin 256) :
    (V20 m outs c main_v167 : S1x256.Idx → EReal) (ix2 0 j) = (kerParams m c).s1 (2 : Fin 3) j := by
  have e : (V20 m outs c main_v167 : S1x256.Idx → EReal) =
      shapeCast S1x256 (shapeCast S256 (extractStridedSlice S1x256 ![2, 0] (V19 m outs c main_arg12) slices_S3x256_S1x256_2_0)
        shapeCasts_S1x256_S256) shapeCasts_S256_S1x256 := by
    dsimp only [Gen.V20, Gen.hostOps9]
    after_results_simp
    rfl
  rw [e]
  refine (row2 (2 : Fin 3) (2 : ℕ) rfl _ _ _ _ j).trans ?_
  rw [V19_eq5 m outs c main_arg12 (by decide), V5_arg m c main_arg12 (by decide)]
  rfl

theorem l2_W2 (j : Fin 256) (d : Fin 128) :
    (V20 m outs c main_v169 : S256x128.Idx → EReal) (ix2 j d) = (kerParams m c).W2 (2 : Fin 3) j d := by
  have e : (V20 m outs c main_v169 : S256x128.Idx → EReal) =
      shapeCast S256x128 (extractStridedSlice S1x256x128 ![2, 0, 0] (V19 m outs c main_arg13) slices_S3x256x128_S1x256x128_2_0_0)
        shapeCasts_S1x256x128_S256x128 := by
    dsimp only [Gen.V20, Gen.hostOps9]
    after_results_simp
    rfl
  rw [e]
  refine (slab3 (2 : Fin 3) (2 : ℕ) rfl _ _ _ j d).trans ?_
  rw [V19_eq5 m outs c main_arg13 (by decide), V5_arg m c main_arg13 (by decide)]
  rfl

theorem l2_b2 (j : Fin 128) :
    (V20 m outs c main_v172 : S1x128.Idx → EReal) (ix2 0 j) = (kerParams m c).b2 (2 : Fin 3) j := by
  have e : (V20 m outs c main_v172 : S1x128.Idx → EReal) =
      shapeCast S1x128 (shapeCast S128 (extractStridedSlice S1x128 ![2, 0] (V19 m outs c main_arg14) slices_S3x128_S1x128_2_0)
        shapeCasts_S1x128_S128) shapeCasts_S128_S1x128 := by
    dsimp only [Gen.V20, Gen.hostOps9]
    after_results_simp
    rfl
  rw [e]
  refine (row2 (2 : Fin 3) (2 : ℕ) rfl _ _ _ _ j).trans ?_
  rw [V19_eq5 m outs c main_arg14 (by decide), V5_arg m c main_arg14 (by decide)]
  rfl

theorem l2_g (j : Fin 128) :
    (V20 m outs c main_v175 : S1x128.Idx → EReal) (ix2 0 j) = (kerParams m c).g (2 : Fin 3) j := by
  have e : (V20 m outs c main_v175 : S1x128.Idx → EReal) =
      shapeCast S1x128 (shapeCast S128 (extractStridedSlice S1x128 ![2, 0] (V19 m outs c main_arg15) slices_S3x128_S1x128_2_0)
        shapeCasts_S1x128_S128) shapeCasts_S128_S1x128 := by
    dsimp only [Gen.V20, Gen.hostOps9]
    after_results_simp
    rfl
  rw [e]
  refine (row2 (2 : Fin 3) (2 : ℕ) rfl _ _ _ _ j).trans ?_
  rw [V19_eq5 m outs c main_arg15 (by decide), V5_arg m c main_arg15 (by decide)]
  rfl

theorem l2_s (j : Fin 128) :
    (V20 m outs c main_v178 : S1x128.Idx → EReal) (ix2 0 j) = (kerParams m c).s (2 : Fin 3) j := by
  have e : (V20 m outs c main_v178 : S1x128.Idx → EReal) =
      shapeCast S1x128 (shapeCast S128 (extractStridedSlice S1x128 ![2, 0] (V19 m outs c main_arg16) slices_S3x128_S1x128_2_0)
        shapeCasts_S1x128_S128) shapeCasts_S128_S1x128 := by
    dsimp only [Gen.V20, Gen.hostOps9]
    after_results_simp
    rfl
  rw [e]
  refine (row2 (2 : Fin 3) (2 : ℕ) rfl _ _ _ _ j).trans ?_
  rw [V19_eq5 m outs c main_arg16 (by decide), V5_arg m c main_arg16 (by decide)]
  rfl

/-- The layer's update launch leaves the specification's layer of the node table the layer starts from. -/
theorem lay2_out (hsrc : ∀ e, m ((c : Thread nD τ).loc main_arg17) (ix2 0 e) = BitVec.ofNat 32 (src e).val)
    (hdst : ∀ e, m ((c : Thread nD τ).loc main_arg17) (ix2 1 e) = BitVec.ofNat 32 (dst e).val)
    (hmsg : outs 18 main_v151 c = Cert.RegionFns.MsgF (V17 m outs c main_v136) (V17 m outs c main_v129) (V17 m outs c main_arg1)
      (V17 m outs c main_v138) (V17 m outs c main_v141) (V17 m outs c main_v144) (V17 m outs c main_v147) (V17 m outs c main_v150))
    (hagg : outs 19 main_v152 c = Cert.RegionFns.AggF (V18 m outs c main_v6) (V18 m outs c main_v151))
    (hupd : outs 21 main_v179 c = Cert.RegionFns.UpdF false (V20 m outs c main_v122) (V20 m outs c main_v153) (V20 m outs c main_v156)
      (V20 m outs c main_v158) (V20 m outs c main_v161) (V20 m outs c main_v164) (V20 m outs c main_v167) (V20 m outs c main_v169)
      (V20 m outs c main_v172) (V20 m outs c main_v175) (V20 m outs c main_v178))
    (n : Fin 40000) (d : Fin 128) :
    (outs 21 main_v179 c : S40000x128.Idx → EReal) (ix2 n d) =
      Cert.Spec.layerP (kerParams m c) src dst (2 : Fin 3) false (fun n d => outs 16 main_v122 c (ix2 n d)) n d := by
  refine (congrFun hupd (ix2 n d)).trans ?_
  unfold Cert.Spec.layerP Cert.Spec.layer
  exact upd_eq false (fun n d => outs 16 main_v122 c (ix2 n d)) _ _ _ _ _ _ _ _ _ _ _ _ _ _ _ _ _ _ _ _ _
    (l2_h m outs c) (l2_agg m outs c src dst hsrc hdst hmsg hagg) (l2_eps m outs c) (l2_W1 m outs c) (l2_b1 m outs c)
    (l2_g1 m outs c) (l2_s1 m outs c) (l2_W2 m outs c) (l2_b2 m outs c) (l2_g m outs c) (l2_s m outs c) n d

end Layer

end Cert.KernelIdeal.HandVal

end
-- ==== Proof.KI.KOut.lean ====
/-
  The whole kernel program: the last update launch leaves the specification's network of the arguments.

  The encoder launch gives the encoded node table; each layer's three launches give the specification's layer of the
  table the layer starts from; the network is the encoder followed by the three layers, so the three layers' facts
  compose, each layer's starting table being the one before's output.
-/
import proofs.«417300_j83468394430632_3_alg».proof.Proof.KI.Lay0
import proofs.«417300_j83468394430632_3_alg».proof.Proof.KI.Lay1
import proofs.«417300_j83468394430632_3_alg».proof.Proof.KI.Lay2

set_option maxRecDepth 4000

noncomputable section

namespace Cert.KernelIdeal.HandVal

open Idealize.ShloMosaic Idealize.ShloMosaic.ValueIdx Idealize.ShloMosaic.StableHlo Idealize.ShloMosaic.TcCoe
open Cert.KernelIdeal Cert.KernelIdeal.Gen

/-- With every launch's output array the launch's function of its windows, the last update launch's output is the
    specification's network of the seventeen float arguments, for the source and target nodes the edge table's words name. -/
theorem ker_out (m : (ℓ : Loc nD τ sig) → Buf (Elt Ideal) ℓ) (outs : Gen.Outs (F := Ideal)) (c : Dev nD)
    (src dst : Fin 640000 → Fin 40000)
    (hsrc : ∀ e, m ((c : Thread nD τ).loc main_arg17) (ix2 0 e) = BitVec.ofNat 32 (src e).val)
    (hdst : ∀ e, m ((c : Thread nD τ).loc main_arg17) (ix2 1 e) = BitVec.ofNat 32 (dst e).val)
    (h6 : outs 6 main_v8 c = Cert.RegionFns.EncF (V5 m c main_arg0) (V5 m c main_arg2) (V5 m c main_v7))
    (h8 : outs 8 main_v37 c = Cert.RegionFns.MsgF (V7 m outs c main_v22) (V7 m outs c main_v15) (V7 m outs c main_arg1)
      (V7 m outs c main_v24) (V7 m outs c main_v27) (V7 m outs c main_v30) (V7 m outs c main_v33) (V7 m outs c main_v36))
    (h9 : outs 9 main_v38 c = Cert.RegionFns.AggF (V8 m outs c main_v6) (V8 m outs c main_v37))
    (h11 : outs 11 main_v65 c = Cert.RegionFns.UpdF true (V10 m outs c main_v8) (V10 m outs c main_v39) (V10 m outs c main_v42)
      (V10 m outs c main_v44) (V10 m outs c main_v47) (V10 m outs c main_v50) (V10 m outs c main_v53) (V10 m outs c main_v55)
      (V10 m outs c main_v58) (V10 m outs c main_v61) (V10 m outs c main_v64))
    (h13 : outs 13 main_v94 c = Cert.RegionFns.MsgF (V12 m outs c main_v79) (V12 m outs c main_v72) (V12 m outs c main_arg1)
      (V12 m outs c main_v81) (V12 m outs c main_v84) (V12 m outs c main_v87) (V12 m outs c main_v90) (V12 m outs c main_v93))
    (h14 : outs 14 main_v95 c = Cert.RegionFns.AggF (V13 m outs c main_v6) (V13 m outs c main_v94))
    (h16 : outs 16 main_v122 c = Cert.RegionFns.UpdF true (V15 m outs c main_v65) (V15 m outs c main_v96) (V15 m outs c main_v99)
      (V15 m outs c main_v101) (V15 m outs c main_v104) (V15 m outs c main_v107) (V15 m outs c main_v110) (V15 m outs c main_v112)
      (V15 m outs c main_v115) (V15 m outs c main_v118) (V15 m outs c main_v121))
    (h18 : outs 18 main_v151 c = Cert.RegionFns.MsgF (V17 m outs c main_v136) (V17 m outs c main_v129) (V17 m outs c main_arg1)
      (V17 m outs c main_v138) (V17 m outs c main_v141) (V17 m outs c main_v144) (V17 m outs c main_v147) (V17 m outs c main_v150))
    (h19 : outs 19 main_v152 c = Cert.RegionFns.AggF (V18 m outs c main_v6) (V18 m outs c main_v151))
    (h21 : outs 21 main_v179 c = Cert.RegionFns.UpdF false (V20 m outs c main_v122) (V20 m outs c main_v153) (V20 m outs c main_v156)
      (V20 m outs c main_v158) (V20 m outs c main_v161) (V20 m outs c main_v164) (V20 m outs c main_v167) (V20 m outs c main_v169)
      (V20 m outs c main_v172) (V20 m outs c main_v175) (V20 m outs c main_v178))
    (n : Fin 40000) (d : Fin 128) :
    (outs 21 main_v179 c : S40000x128.Idx → EReal) (ix2 n d) = Cert.Spec.net (kerParams m c) src dst n d := by
  have e0 : (fun (n : Fin 40000) (d : Fin 128) => (outs 6 main_v8 c : S40000x128.Idx → EReal) (ix2 n d))
      = Cert.Spec.enc (kerParams m c) :=
    funext fun n => funext fun d => enc_out m outs c h6 n d
  have e1 : (fun (n : Fin 40000) (d : Fin 128) => (outs 11 main_v65 c : S40000x128.Idx → EReal) (ix2 n d))
      = Cert.Spec.layerP (kerParams m c) src dst 0 true (Cert.Spec.enc (kerParams m c)) :=
    funext fun n => funext fun d => (lay0_out m outs c src dst hsrc hdst h8 h9 h11 n d).trans
      (congrFun (congrFun (congrArg (Cert.Spec.layerP (kerParams m c) src dst 0 true) e0) n) d)
  have e2 : (fun (n : Fin 40000) (d : Fin 128) => (outs 16 main_v122 c : S40000x128.Idx → EReal) (ix2 n d))
      = Cert.Spec.layerP (kerParams m c) src dst 1 true
          (Cert.Spec.layerP (kerParams m c) src dst 0 true (Cert.Spec.enc (kerParams m c))) :=
    funext fun n => funext fun d => (lay1_out m outs c src dst hsrc hdst h13 h14 h16 n d).trans
      (congrFun (congrFun (congrArg (Cert.Spec.layerP (kerParams m c) src dst 1 true) e1) n) d)
  unfold Cert.Spec.net
  exact (lay2_out m outs c src dst hsrc hdst h18 h19 h21 n d).trans
    (congrFun (congrFun (congrArg (Cert.Spec.layerP (kerParams m c) src dst 2 false) e2) n) d)

end Cert.KernelIdeal.HandVal

end
-- ==== Proof.KI.Val0.lean ====
/- The value half of region 0 (the node encoder) over the extended reals: the body's payload at one position of a
   block is the 128-term sum of a feature row against a weight column plus the bias entry; every grid point writes
   back the block of one whole-array function, the encoder function of the three window arrays as the region found
   them; the twenty blocks of 2000 rows tile the 40000 rows, so the output array ends as that function. -/
import proofs.«417300_j83468394430632_3_alg».proof.Proof.KI.R0
import proofs.«417300_j83468394430632_3_alg».proof.Proof.Val.RegionFns
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandVal

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open Cert.RegionFns (RArr EncF)
open scoped BigOperators

/-! ## The contraction of the encoder's product: row p of the left factor against column q of the right one -/

/-- The left factor is read at the output's row … -/
theorem lhs_enc_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- … and at the summation index as its column; -/
theorem lhs_enc_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- the right factor at the summation index as its row … -/
theorem rhs_enc_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- … and at the output's column. -/
theorem rhs_enc_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product into a zero accumulator, at row p and column q, is the 128-term sum of row p of the left factor
    against column q of the right factor. -/
theorem mm_enc_apply (a : FVec Ideal S2000x128 .bf16) (b : FVec Ideal S128x128 .bf16) (p : Fin 2000) (q : Fin 128) :
    matmul (F := Ideal) dot_S2000x128_S128x128_S2000x128_1_0_0_1_n_n none a b (constant (F := Ideal) S2000x128 .f32 0x00000000#32) (ix2 p q)
      = ∑ k : Fin 128, a (ix2 p k) * b (ix2 k q) := by
  show FloatOps.matmul dot_S2000x128_S128x128_S2000x128_1_0_0_1_n_n none a b (constant (F := Ideal) S2000x128 .f32 0x00000000#32) (ix2 p q) = _
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_enc_0 _ _
    | ⟨1, _⟩ => exact (lhs_enc_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_enc_0 _ _).trans hk
    | ⟨1, _⟩ => exact rhs_enc_1 _ _)
  rw [el, er]

/-! ## The body's payload at one position -/

/-- The payload at row p and column q of a block: the 128-term sum of row p of the feature block against column q
    of the weights, plus entry q of the bias row. The narrowing format changes are the identity on the extended
    reals, the accumulator is the zero word, the reshape of the bias row is to its own shape, and the broadcast
    repeats the one row. -/
theorem pay_enc_apply (x0 : Vec Ideal S2000x128 .f32) (x1 : Vec Ideal S128x128 .f32) (x2 : Vec Ideal S1x128 .f32) (p : Fin 2000) (q : Fin 128) :
    k0_pay1 (F := Ideal) x0 x1 x2 (ix2 p q) = (∑ k : Fin 128, x0 (ix2 p k) * x1 (ix2 k q)) + x2 (ix2 (0 : Fin 1) q) := by
  unfold k0_pay1
  rw [addf_apply, mm_enc_apply, shapeCast_self, broadcastTo_1b_ab_apply]
  rfl

/-- When row p of the feature block is row r of the feature array, and the weight and bias blocks are the whole
    weight and bias arrays, the payload at (p, q) is the encoder function of the arrays at (r, q). -/
theorem enc_point (X : RArr 40000 128) (W : RArr 128 128) (B : RArr 1 128)
    (x0 : Vec Ideal S2000x128 .f32) (x1 : Vec Ideal S128x128 .f32) (x2 : Vec Ideal S1x128 .f32)
    (p : Fin 2000) (q : Fin 128) (r : Fin 40000)
    (h0 : ∀ k : Fin 128, x0 (ix2 p k) = X (ix2 r k)) (h1 : ∀ k : Fin 128, x1 (ix2 k q) = W (ix2 k q))
    (h2 : x2 (ix2 (0 : Fin 1) q) = B (ix2 (0 : Fin 1) q)) :
    k0_pay1 (F := Ideal) x0 x1 x2 (ix2 p q) = EncF X W B (ix2 r q) := by
  rw [pay_enc_apply]
  unfold Cert.RegionFns.EncF
  show _ = (∑ k : Fin 128, X (ix2 r k) * W (ix2 k q)) + B (ix2 (0 : Fin 1) q)
  rw [h2]
  congr 1
  exact Finset.sum_congr rfl fun k _ => by rw [h0, h1]

/-- The same at a block position j and an array position i with the same column, the hypotheses at j's and i's
    coordinates. -/
theorem enc_point_idx (X : RArr 40000 128) (W : RArr 128 128) (B : RArr 1 128)
    (x0 : Vec Ideal S2000x128 .f32) (x1 : Vec Ideal S128x128 .f32) (x2 : Vec Ideal S1x128 .f32)
    (j : S2000x128.Idx) (i : S40000x128.Idx) (hi1 : (i 1).val = (j 1).val)
    (h0 : ∀ k : Fin 128, x0 (ix2 (j 0) k) = X (ix2 (i 0) k)) (h1 : ∀ k : Fin 128, x1 (ix2 k (j 1)) = W (ix2 k (j 1)))
    (h2 : x2 (ix2 (0 : Fin 1) (j 1)) = B (ix2 (0 : Fin 1) (j 1))) :
    k0_pay1 (F := Ideal) x0 x1 x2 j = EncF X W B i := by
  obtain ⟨p, q, rfl⟩ : ∃ (p : Fin 2000) (q : Fin 128), j = ix2 p q := ⟨j 0, j 1, eq_ix2 j⟩
  obtain ⟨r, s, rfl⟩ : ∃ (r : Fin 40000) (s : Fin 128), i = ix2 r s := ⟨i 0, i 1, eq_ix2 i⟩
  obtain rfl : s = q := Fin.ext hi1
  exact enc_point X W B x0 x1 x2 p s r h0 h1 h2

/-! ## From blocks to the array -/

theorem hz_enc : (![0, 0] : Fin 2 → Nat) = fun _ => 0 := funext fun a => by fin_cases a <;> rfl

/-- The printed index maps over the twenty grid points: the feature window moves with the output window along the
    rows, point t at block row t; the weight and bias windows stay at block zero; no window moves along the columns. -/
theorem idx_facts0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section AtV

variable (V : (c : Dev nD) → (b : Ref sig .tc) → Buf (Elt Ideal) ((c : Thread nD τ).loc b))

/-- What grid point t writes back is block t of the encoder function of the three window arrays as the region
    found them: a position of the output block sits at the same row of the feature block, whose row in the array
    is the output's row, and the weight and bias blocks are their whole arrays. -/
theorem flushed_enc (c : Dev nD) (t : Fin cfg0.N) :
    (dat0 (F := Ideal) V c).flushed 3 t = ((cfg0.win 3).blk t).view.read (Elt Ideal)
      (EncF (V c (Pipeline.arrRef spec0 0)) (V c (Pipeline.arrRef spec0 1)) (V c (Pipeline.arrRef spec0 2))) := by
  show (cfg0.win 3).cut (grid0.coords t) ((dat0 (F := Ideal) V c).after 3 t) = _
  rw [after0_3]
  unfold out0_3
  rw [View.canon_unit_zero hz_enc]
  simp only [View.ld_unit_zero (S := S2000x128) hz_enc, View.ld_unit_zero (S := S128x128) hz_enc, View.ld_unit_zero (S := S1x128) hz_enc]
  obtain ⟨e0, e1, e2, e3, e4, e5, e6, e7⟩ := idx_facts0 t
  funext j
  show k0_pay1 (F := Ideal) (iblk0 V c 0 t) (iblk0 V c 1 t) (iblk0 V c 2 t) j
    = EncF (V c (Pipeline.arrRef spec0 0)) (V c (Pipeline.arrRef spec0 1)) (V c (Pipeline.arrRef spec0 2)) (((cfg0.win 3).blk t).view.emb j)
  refine enc_point_idx _ _ _ _ _ _ j (((cfg0.win 3).blk t).view.emb j) ?_ (fun k => ?_) (fun k => ?_) ?_
  · show win0_3.index t (1 : Fin 2) * 128 + 1 * (j 1).val = (j 1).val
    rw [e7]; omega
  · show V c (Pipeline.arrRef spec0 0) (((cfg0.win 0).blk t).view.emb (ix2 (j 0) k)) = V c (Pipeline.arrRef spec0 0) _
    refine congrArg (V c (Pipeline.arrRef spec0 0)) (funext fun a => Fin.ext ?_)
    match a with
    | ⟨0, _⟩ => show win0_0.index t (0 : Fin 2) * 2000 + 1 * (j 0).val = win0_3.index t (0 : Fin 2) * 2000 + 1 * (j 0).val; rw [e0]
    | ⟨1, _⟩ => show win0_0.index t (1 : Fin 2) * 128 + 1 * k.val = k.val; rw [e1]; omega
  · show V c (Pipeline.arrRef spec0 1) (((cfg0.win 1).blk t).view.emb (ix2 k (j 1))) = V c (Pipeline.arrRef spec0 1) _
    refine congrArg (V c (Pipeline.arrRef spec0 1)) (funext fun a => Fin.ext ?_)
    match a with
    | ⟨0, _⟩ => show win0_1.index t (0 : Fin 2) * 128 + 1 * k.val = k.val; rw [e2]; omega
    | ⟨1, _⟩ => show win0_1.index t (1 : Fin 2) * 128 + 1 * (j 1).val = (j 1).val; rw [e3]; omega
  · show V c (Pipeline.arrRef spec0 2) (((cfg0.win 2).blk t).view.emb (ix2 (0 : Fin 1) (j 1))) = V c (Pipeline.arrRef spec0 2) _
    refine congrArg (V c (Pipeline.arrRef spec0 2)) (funext fun a => Fin.ext ?_)
    match a with
    | ⟨0, _⟩ => show win0_2.index t (0 : Fin 2) * 1 + 1 * 0 = 0; rw [e4]
    | ⟨1, _⟩ => show win0_2.index t (1 : Fin 2) * 128 + 1 * (j 1).val = (j 1).val; rw [e5]; omega

/-- A position of the output array is in point t's block iff each coordinate is in the block's range on its axis. -/
theorem mem_blk_enc (t : Fin cfg0.N) (i : S40000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole (Pipeline.arrRef spec0 3)).slice (win0_3.rect t)).set ↔ _
  rw [View.set_slice_whole, Rect.mem_set_unit]
  exact Iff.rfl

/-- Every position of the output array is in some point's block: row r is in the block of point r / 2000. -/
theorem cover_enc (i : S40000x128.Idx) :
    ∃ t : Fin cfg0.N, (cfg0.win 3).flush t = true ∧ i ∈ ((cfg0.win 3).blk t).view.set := by
  have hi0 : (i 0).val < 40000 := (i 0).isLt
  have hi1 : (i 1).val < 128 := (i 1).isLt
  have hN : cfg0.N = 20 := N_0
  obtain ⟨t, ht⟩ : ∃ t : Fin cfg0.N, t.val = (i 0).val / 2000 := ⟨⟨(i 0).val / 2000, by rw [hN]; omega⟩, rfl⟩
  obtain ⟨-, -, -, -, -, -, e6, e7⟩ := idx_facts0 t
  refine ⟨t, flush0_3 t, ?_⟩
  rw [mem_blk_enc]
  intro a
  match a with
  | ⟨0, _⟩ => show win0_3.index t (0 : Fin 2) * 2000 ≤ (i 0).val ∧ (i 0).val < win0_3.index t (0 : Fin 2) * 2000 + 2000; rw [e6, ht]; omega
  | ⟨1, _⟩ => show win0_3.index t (1 : Fin 2) * 128 ≤ (i 1).val ∧ (i 1).val < win0_3.index t (1 : Fin 2) * 128 + 128; rw [e7]; omega

/-- The output array after all twenty grid points is the encoder function of the three window arrays as the region
    found them. -/
theorem final0 (c : Dev nD) : (dat0 (F := Ideal) V c).arrAt 3 cfg0.N
    = Cert.RegionFns.EncF (V c (Pipeline.arrRef spec0 0)) (V c (Pipeline.arrRef spec0 1)) (V c (Pipeline.arrRef spec0 2)) :=
  (dat0 (F := Ideal) V c).arrAt_eq_of_cover 3 _ (fun t _ => flushed_enc V c t) (cover_enc)

end AtV

end Cert.KernelIdeal.HandVal

end
-- ==== Proof.KI.Val1.lean ====
import proofs.«417300_j83468394430632_3_alg».proof.Proof.KI.R1
import proofs.«417300_j83468394430632_3_alg».proof.Proof.Val.RegionFns
import Idealize.ShloMosaic.Lib.Pipeline.Value
import Idealize.ShloMosaic.Lib.ValueIdx
import Idealize.ShloMosaic.Lib.ValueLayout
import Idealize.ShloMosaic.PureOps.Ideal.Laws

/-!
# The message kernel's output array over the extended reals

The payload of the body's one store, read at a row and a column of the block, is the message formula over the
input blocks; each input block at a grid point is a run of rows of its array (or the whole array, for the
weights); the output's blocks tile its array, one run of 2560 rows per grid point. So after all grid points the
output array is the message function of the window arrays as the region found them.
-/

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

/-! ## Column forms of the layout operations -/

/-- An `[a]` vector cast to `[a, 1]` reads, at `(p, u)`, the operand at `p`, whatever the unit coordinate `u`. -/
theorem k1_shapeCast_col {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at row `p`. -/
theorem k1_broadcast_col {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The logistic function of a vector, lane by lane. -/
theorem k1_logistic_apply {s : Shape} {φ : FTy} (a : FVec Ideal s φ) (i : s.Idx) : logistic a i = Ideal.logistic (a i) := rfl

/-! ## The edge embedding's product: a sum over the 16 attribute columns -/

theorem k1_lhs_0 (i : S2560x128.Idx) (q : dot_S2560x16_S16x128_S2560x128_1_0_0_1_n_n.contr.Idx) :
    (dot_S2560x16_S16x128_S2560x128_1_0_0_1_n_n.lhsIdx i q 0).val = (i 0).val := by
  unfold DotDims.lhsIdx
  rw [dif_neg (show ¬(0 : Fin S2560x16.rank) ∈ dot_S2560x16_S16x128_S2560x128_1_0_0_1_n_n.lhsBatch by decide), dif_pos (show (0 : Fin S2560x16.rank) ∈ dot_S2560x16_S16x128_S2560x128_1_0_0_1_n_n.lhsNonContracting by decide)]
  rfl
theorem k1_lhs_1 (i : S2560x128.Idx) (q : dot_S2560x16_S16x128_S2560x128_1_0_0_1_n_n.contr.Idx) :
    (dot_S2560x16_S16x128_S2560x128_1_0_0_1_n_n.lhsIdx i q 1).val = (q ⟨0, by decide⟩).val :=
  dot_S2560x16_S16x128_S2560x128_1_0_0_1_n_n.lhsIdx_val_of_single rfl i q
theorem k1_rhs_0 (i : S2560x128.Idx) (q : dot_S2560x16_S16x128_S2560x128_1_0_0_1_n_n.contr.Idx) :
    (dot_S2560x16_S16x128_S2560x128_1_0_0_1_n_n.rhsIdx i q 0).val = (q ⟨0, by decide⟩).val :=
  dot_S2560x16_S16x128_S2560x128_1_0_0_1_n_n.rhsIdx_val_of_single rfl i q
theorem k1_rhs_1 (i : S2560x128.Idx) (q : dot_S2560x16_S16x128_S2560x128_1_0_0_1_n_n.contr.Idx) :
    (dot_S2560x16_S16x128_S2560x128_1_0_0_1_n_n.rhsIdx i q 1).val = (i 1).val := by
  unfold DotDims.rhsIdx
  rw [dif_neg (show ¬(1 : Fin S16x128.rank) ∈ dot_S2560x16_S16x128_S2560x128_1_0_0_1_n_n.rhsBatch by decide), dif_pos (show (1 : Fin S16x128.rank) ∈ dot_S2560x16_S16x128_S2560x128_1_0_0_1_n_n.rhsNonContracting by decide)]
  rfl

/-- The product into the zero accumulator, at row `p` and column `q`: the sum over the contracted axis of the
    left operand's row `p` against the right operand's column `q`. -/
theorem k1_matmul_apply (a : FVec Ideal S2560x16 .bf16) (b : FVec Ideal S16x128 .bf16) (p : Fin 2560) (q : Fin 128) :
    matmul dot_S2560x16_S16x128_S2560x128_1_0_0_1_n_n none a b (constant (F := Ideal) S2560x128 .f32 0x00000000#32) (ix2 p q)
      = ∑ k : Fin 16, a (ix2 p k) * b (ix2 k q) := by
  simp only [matmul]
  rw [Ideal.matmul_constant_zero_apply, ← Equiv.sum_comp (ValueIdx.contrEquiv1 dot_S2560x16_S16x128_S2560x128_1_0_0_1_n_n 16 rfl rfl).symm]
  refine Finset.sum_congr rfl fun k _ => ?_
  have hk := ValueIdx.contrEquiv1_symm_val dot_S2560x16_S16x128_S2560x128_1_0_0_1_n_n 16 rfl rfl k
  have el : dot_S2560x16_S16x128_S2560x128_1_0_0_1_n_n.lhsIdx (ix2 p q) ((ValueIdx.contrEquiv1 dot_S2560x16_S16x128_S2560x128_1_0_0_1_n_n 16 rfl rfl).symm k) = ix2 p k := funext fun ax => Fin.ext (by
    match ax with
    | ⟨0, _⟩ => exact k1_lhs_0 _ _
    | ⟨1, _⟩ => exact (k1_lhs_1 _ _).trans hk)
  have er : dot_S2560x16_S16x128_S2560x128_1_0_0_1_n_n.rhsIdx (ix2 p q) ((ValueIdx.contrEquiv1 dot_S2560x16_S16x128_S2560x128_1_0_0_1_n_n 16 rfl rfl).symm k) = ix2 k q := funext fun ax => Fin.ext (by
    match ax with
    | ⟨0, _⟩ => exact (k1_rhs_0 _ _).trans hk
    | ⟨1, _⟩ => exact k1_rhs_1 _ _)
  rw [el, er]

/-! ## A row's lane sum, kept as a column -/

/-- The sum over the 128 lanes of a `[2560, 128]` vector, cast to a column, at row `p`. -/
theorem k1_lanesum_apply (v : FVec Ideal S2560x128 .f32) (p : Fin 2560) (u : Fin 1) :
    shapeCast S2560x1 (multiReduction (F := Ideal) .add [1] S2560 v 0x00000000#32 reduces_S2560x128_S2560 (.inl rfl) rfl) shapeCasts_S2560_S2560x1 (ix2 p u)
      = ∑ k : Fin 128, v (ix2 p k) := by
  rw [k1_shapeCast_col]
  refine (Ideal.multiReduction_add_single v 0x00000000#32 reduces_S2560x128_S2560 (.inl rfl) rfl (ix1 p)).trans ?_
  refine Finset.sum_congr rfl fun k _ => congrArg v (funext fun ax => Fin.ext ?_)
  match ax with
  | ⟨0, _⟩ => rfl
  | ⟨1, _⟩ => rfl

/-! ## The payload at an index -/

/-- The body's stored value at row `p`, column `q` of the block: the source row's entry scaled by the logistic gate of
    the two 128-term scores plus the bias, plus the edge's affine embedding, cut off below at zero. Format changes are
    the identity on the extended reals. -/
theorem k1_pay1_apply (v0 : Vec Ideal S2560x16 .f32) (v2 : Vec Ideal S16x128 .f32) (v6 : Vec Ideal S1x128 .f32)
    (v10 v12 : Vec Ideal S2560x128 .f32) (v14 v20 : Vec Ideal S1x128 .f32) (v27 : Vec Ideal S1x1 .f32) (p : Fin 2560) (q : Fin 128) :
    k1_pay1 (F := Ideal) v0 v2 v6 v10 v12 v14 v20 v27 (ix2 p q)
      = max (v12 (ix2 p q) * Ideal.logistic (((∑ k : Fin 128, v10 (ix2 p k) * v14 (ix2 0 k))
          + (∑ k : Fin 128, v12 (ix2 p k) * v20 (ix2 0 k))) + v27 (ix2 0 0))
        + ((∑ k : Fin 16, v0 (ix2 p k) * v2 (ix2 k q)) + v6 (ix2 0 q))) 0 := by
  unfold k1_pay1
  simp only [shapeCast_self]
  rw [truncf_apply, maximumf_apply, addf_apply, mulf_apply, addf_apply, broadcast_apply,
    k1_broadcast_col, k1_logistic_apply, addf_apply, addf_apply, k1_lanesum_apply, k1_lanesum_apply,
    broadcastTo_1b_ab_apply, k1_matmul_apply, broadcastTo_1b_ab_apply]
  simp only [mulf_apply, truncf_apply, broadcastTo_1b_ab_apply]
  rw [show (Scalar.ofBits (F := Ideal) .f32 0x00000000#32 : EReal) = 0 from Ideal.ofBits_zero_f32]

/-! ## From blocks to the array -/

variable (V : (c : Dev nD) → (b : Ref sig .tc) → Buf (Elt Ideal) ((c : Thread nD τ).loc b))

theorem k1_hz : (![0, 0] : Fin 2 → Nat) = fun _ => 0 := funext fun a => by fin_cases a <;> rfl

/-- The message function at row `r`, column `q`. -/
theorem k1_MsgF_apply (xi xj : Cert.RegionFns.RArr 640000 128) (ea : Cert.RegionFns.RArr 640000 16) (eW : Cert.RegionFns.RArr 16 128)
    (eb w1 w2 : Cert.RegionFns.RArr 1 128) (ab : Cert.RegionFns.RArr 1 1) (r : Fin 640000) (q : Fin 128) :
    Cert.RegionFns.MsgF xi xj ea eW eb w1 w2 ab (ix2 r q)
      = max (xj (ix2 r q) * Ideal.logistic (((∑ k : Fin 128, xi (ix2 r k) * w1 (ix2 0 k))
          + (∑ k : Fin 128, xj (ix2 r k) * w2 (ix2 0 k))) + ab (ix2 0 0))
        + ((∑ k : Fin 16, ea (ix2 r k) * eW (ix2 k q)) + eb (ix2 0 q))) 0 := rfl

/-- The printed index maps, decided over the grid: the per-edge windows (target rows, source rows, attributes, output)
    are at block row `t` at point `t`; the weight windows stay at block (0, 0). -/
theorem dat1_idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = t.val ∧ win1_8.index t (1 : Fin 2) = 0) :=
  (by decide +kernel : ∀ t : Fin grid1.N, _)

/-- Input window 0's block at point `t` is rows `2560 t … 2560 t + 2559` of its array. -/
theorem iblk1_0_apply (c : Dev nD) (t : Fin cfg1.N) (x : S2560x128.Idx) (k : S640000x128.Idx)
    (hk0 : (k 0).val = 2560 * t.val + (x 0).val) (hk1 : (k 1).val = (x 1).val) :
    (iblk1 V c 0 t : Vec Ideal S2560x128 .f32) x = (V c (Pipeline.arrRef spec1 0) : S640000x128.Idx → EReal) k := by
  obtain ⟨h0, h1⟩ := (dat1_idx_facts t).1
  show V c (Pipeline.arrRef spec1 0) (((cfg1.win 0).blk t).view.emb x) = V c (Pipeline.arrRef spec1 0) k
  refine congrArg _ (funext fun a => Fin.ext ?_)
  match a with
  | ⟨0, _⟩ => show win1_0.index t (0 : Fin 2) * 2560 + 1 * (x 0).val = (k 0).val; rw [h0, hk0]; omega
  | ⟨1, _⟩ => show win1_0.index t (1 : Fin 2) * 128 + 1 * (x 1).val = (k 1).val; rw [h1, hk1]; omega

/-- Input window 1's block at point `t` is rows `2560 t … 2560 t + 2559` of its array. -/
theorem iblk1_1_apply (c : Dev nD) (t : Fin cfg1.N) (x : S2560x128.Idx) (k : S640000x128.Idx)
    (hk0 : (k 0).val = 2560 * t.val + (x 0).val) (hk1 : (k 1).val = (x 1).val) :
    (iblk1 V c 1 t : Vec Ideal S2560x128 .f32) x = (V c (Pipeline.arrRef spec1 1) : S640000x128.Idx → EReal) k := by
  obtain ⟨h0, h1⟩ := (dat1_idx_facts t).2.1
  show V c (Pipeline.arrRef spec1 1) (((cfg1.win 1).blk t).view.emb x) = V c (Pipeline.arrRef spec1 1) k
  refine congrArg _ (funext fun a => Fin.ext ?_)
  match a with
  | ⟨0, _⟩ => show win1_1.index t (0 : Fin 2) * 2560 + 1 * (x 0).val = (k 0).val; rw [h0, hk0]; omega
  | ⟨1, _⟩ => show win1_1.index t (1 : Fin 2) * 128 + 1 * (x 1).val = (k 1).val; rw [h1, hk1]; omega

/-- Input window 2's block at point `t` is rows `2560 t … 2560 t + 2559` of its array. -/
theorem iblk1_2_apply (c : Dev nD) (t : Fin cfg1.N) (x : S2560x16.Idx) (k : S640000x16.Idx)
    (hk0 : (k 0).val = 2560 * t.val + (x 0).val) (hk1 : (k 1).val = (x 1).val) :
    (iblk1 V c 2 t : Vec Ideal S2560x16 .f32) x = (V c (Pipeline.arrRef spec1 2) : S640000x16.Idx → EReal) k := by
  obtain ⟨h0, h1⟩ := (dat1_idx_facts t).2.2.1
  show V c (Pipeline.arrRef spec1 2) (((cfg1.win 2).blk t).view.emb x) = V c (Pipeline.arrRef spec1 2) k
  refine congrArg _ (funext fun a => Fin.ext ?_)
  match a with
  | ⟨0, _⟩ => show win1_2.index t (0 : Fin 2) * 2560 + 1 * (x 0).val = (k 0).val; rw [h0, hk0]; omega
  | ⟨1, _⟩ => show win1_2.index t (1 : Fin 2) * 16 + 1 * (x 1).val = (k 1).val; rw [h1, hk1]; omega

/-- Input window 3's block at every point is its whole array. -/
theorem iblk1_3_apply (c : Dev nD) (t : Fin cfg1.N) (x : S16x128.Idx) (k : S16x128.Idx)
    (hk0 : (k 0).val = (x 0).val) (hk1 : (k 1).val = (x 1).val) :
    (iblk1 V c 3 t : Vec Ideal S16x128 .f32) x = (V c (Pipeline.arrRef spec1 3) : S16x128.Idx → EReal) k := by
  obtain ⟨h0, h1⟩ := (dat1_idx_facts t).2.2.2.1
  show V c (Pipeline.arrRef spec1 3) (((cfg1.win 3).blk t).view.emb x) = V c (Pipeline.arrRef spec1 3) k
  refine congrArg _ (funext fun a => Fin.ext ?_)
  match a with
  | ⟨0, _⟩ => show win1_3.index t (0 : Fin 2) * 16 + 1 * (x 0).val = (k 0).val; rw [h0, hk0]; omega
  | ⟨1, _⟩ => show win1_3.index t (1 : Fin 2) * 128 + 1 * (x 1).val = (k 1).val; rw [h1, hk1]; omega

/-- Input window 4's block at every point is its whole array. -/
theorem iblk1_4_apply (c : Dev nD) (t : Fin cfg1.N) (x : S1x128.Idx) (k : S1x128.Idx)
    (hk0 : (k 0).val = (x 0).val) (hk1 : (k 1).val = (x 1).val) :
    (iblk1 V c 4 t : Vec Ideal S1x128 .f32) x = (V c (Pipeline.arrRef spec1 4) : S1x128.Idx → EReal) k := by
  obtain ⟨h0, h1⟩ := (dat1_idx_facts t).2.2.2.2.1
  show V c (Pipeline.arrRef spec1 4) (((cfg1.win 4).blk t).view.emb x) = V c (Pipeline.arrRef spec1 4) k
  refine congrArg _ (funext fun a => Fin.ext ?_)
  match a with
  | ⟨0, _⟩ => show win1_4.index t (0 : Fin 2) * 1 + 1 * (x 0).val = (k 0).val; rw [h0, hk0]; omega
  | ⟨1, _⟩ => show win1_4.index t (1 : Fin 2) * 128 + 1 * (x 1).val = (k 1).val; rw [h1, hk1]; omega

/-- Input window 5's block at every point is its whole array. -/
theorem iblk1_5_apply (c : Dev nD) (t : Fin cfg1.N) (x : S1x128.Idx) (k : S1x128.Idx)
    (hk0 : (k 0).val = (x 0).val) (hk1 : (k 1).val = (x 1).val) :
    (iblk1 V c 5 t : Vec Ideal S1x128 .f32) x = (V c (Pipeline.arrRef spec1 5) : S1x128.Idx → EReal) k := by
  obtain ⟨h0, h1⟩ := (dat1_idx_facts t).2.2.2.2.2.1
  show V c (Pipeline.arrRef spec1 5) (((cfg1.win 5).blk t).view.emb x) = V c (Pipeline.arrRef spec1 5) k
  refine congrArg _ (funext fun a => Fin.ext ?_)
  match a with
  | ⟨0, _⟩ => show win1_5.index t (0 : Fin 2) * 1 + 1 * (x 0).val = (k 0).val; rw [h0, hk0]; omega
  | ⟨1, _⟩ => show win1_5.index t (1 : Fin 2) * 128 + 1 * (x 1).val = (k 1).val; rw [h1, hk1]; omega

/-- Input window 6's block at every point is its whole array. -/
theorem iblk1_6_apply (c : Dev nD) (t : Fin cfg1.N) (x : S1x128.Idx) (k : S1x128.Idx)
    (hk0 : (k 0).val = (x 0).val) (hk1 : (k 1).val = (x 1).val) :
    (iblk1 V c 6 t : Vec Ideal S1x128 .f32) x = (V c (Pipeline.arrRef spec1 6) : S1x128.Idx → EReal) k := by
  obtain ⟨h0, h1⟩ := (dat1_idx_facts t).2.2.2.2.2.2.1
  show V c (Pipeline.arrRef spec1 6) (((cfg1.win 6).blk t).view.emb x) = V c (Pipeline.arrRef spec1 6) k
  refine congrArg _ (funext fun a => Fin.ext ?_)
  match a with
  | ⟨0, _⟩ => show win1_6.index t (0 : Fin 2) * 1 + 1 * (x 0).val = (k 0).val; rw [h0, hk0]; omega
  | ⟨1, _⟩ => show win1_6.index t (1 : Fin 2) * 128 + 1 * (x 1).val = (k 1).val; rw [h1, hk1]; omega

/-- Input window 7's block at every point is its whole array. -/
theorem iblk1_7_apply (c : Dev nD) (t : Fin cfg1.N) (x : S1x1.Idx) (k : S1x1.Idx)
    (hk0 : (k 0).val = (x 0).val) (hk1 : (k 1).val = (x 1).val) :
    (iblk1 V c 7 t : Vec Ideal S1x1 .f32) x = (V c (Pipeline.arrRef spec1 7) : S1x1.Idx → EReal) k := by
  obtain ⟨h0, h1⟩ := (dat1_idx_facts t).2.2.2.2.2.2.2.1
  show V c (Pipeline.arrRef spec1 7) (((cfg1.win 7).blk t).view.emb x) = V c (Pipeline.arrRef spec1 7) k
  refine congrArg _ (funext fun a => Fin.ext ?_)
  match a with
  | ⟨0, _⟩ => show win1_7.index t (0 : Fin 2) * 1 + 1 * (x 0).val = (k 0).val; rw [h0, hk0]; omega
  | ⟨1, _⟩ => show win1_7.index t (1 : Fin 2) * 1 + 1 * (x 1).val = (k 1).val; rw [h1, hk1]; omega

/-- The payload at row `p`, column `q` of a block is the message function at row `r`, column `q` of the arrays, once
    each input block's entries it reads are the arrays' entries in row `r` (for the per-edge windows) or the weights' own. -/
theorem k1_point (A0 A1 : S640000x128.Idx → EReal) (A2 : S640000x16.Idx → EReal) (A3 : S16x128.Idx → EReal)
    (A4 A5 A6 : S1x128.Idx → EReal) (A7 : S1x1.Idx → EReal)
    (B0 B1 : Vec Ideal S2560x128 .f32) (B2 : Vec Ideal S2560x16 .f32) (B3 : Vec Ideal S16x128 .f32)
    (B4 B5 B6 : Vec Ideal S1x128 .f32) (B7 : Vec Ideal S1x1 .f32)
    (p : Fin 2560) (q : Fin 128) (r : Fin 640000)
    (h0 : ∀ k : Fin 128, B0 (ix2 p k) = A0 (ix2 r k)) (h1 : ∀ k : Fin 128, B1 (ix2 p k) = A1 (ix2 r k))
    (h2 : ∀ k : Fin 16, B2 (ix2 p k) = A2 (ix2 r k)) (h3 : ∀ k : Fin 16, B3 (ix2 k q) = A3 (ix2 k q))
    (h4 : B4 (ix2 0 q) = A4 (ix2 0 q)) (h5 : ∀ k : Fin 128, B5 (ix2 0 k) = A5 (ix2 0 k))
    (h6 : ∀ k : Fin 128, B6 (ix2 0 k) = A6 (ix2 0 k)) (h7 : B7 (ix2 0 0) = A7 (ix2 0 0)) :
    k1_pay1 (F := Ideal) B2 B3 B4 B0 B1 B5 B6 B7 (ix2 p q) = Cert.RegionFns.MsgF A0 A1 A2 A3 A4 A5 A6 A7 (ix2 r q) := by
  rw [k1_pay1_apply, k1_MsgF_apply, h1 q, h4, h7]
  simp only [h0, h1, h2, h3, h5, h6]

/-- The output window's block at point `t`, read of any array contents `G`, is rows `2560 t … 2560 t + 2559` of `G`. -/
theorem dat1_read_blk (G : S640000x128.Idx → EReal) (t : Fin cfg1.N) (p : Fin 2560) (q : Fin 128) (hr : 2560 * t.val + p.val < 640000) :
    ((cfg1.win 8).blk t).view.read (Elt Ideal) G (ix2 p q) = G (ix2 (⟨2560 * t.val + p.val, hr⟩ : Fin 640000) q) := by
  obtain ⟨h0, h1⟩ := (dat1_idx_facts t).2.2.2.2.2.2.2.2
  show G (((cfg1.win 8).blk t).view.emb (ix2 p q)) = G (ix2 (⟨2560 * t.val + p.val, hr⟩ : Fin 640000) q)
  refine congrArg G (funext fun a => Fin.ext ?_)
  match a with
  | ⟨0, _⟩ => show win1_8.index t (0 : Fin 2) * 2560 + 1 * p.val = 2560 * t.val + p.val; rw [h0]; omega
  | ⟨1, _⟩ => show win1_8.index t (1 : Fin 2) * 128 + 1 * q.val = q.val; rw [h1]; omega

set_option maxHeartbeats 1000000 in
/-- What point `t` writes back is block `t` of the message function of the window arrays as the region finds them. -/
theorem dat1_flushed_eq (c : Dev nD) (t : Fin cfg1.N) :
    (dat1 (F := Ideal) V c).flushed 8 t = ((cfg1.win 8).blk t).view.read (Elt Ideal)
      (Cert.RegionFns.MsgF (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7))) := by
  show (cfg1.win 8).cut (grid1.coords t) ((dat1 V c).after 8 t) = _
  rw [after1_8]
  unfold out1_8
  rw [View.canon_unit_zero k1_hz]
  simp only [View.ld_unit_zero (S := S2560x128) k1_hz, View.ld_unit_zero (S := S2560x16) k1_hz, View.ld_unit_zero (S := S16x128) k1_hz,
    View.ld_unit_zero (S := S1x128) k1_hz, View.ld_unit_zero (S := S1x1) k1_hz]
  have ht : t.val < 250 := Nat.lt_of_lt_of_eq t.isLt (show cfg1.N = 250 from N_1)
  refine funext fun (j : S2560x128.Idx) => ?_
  obtain ⟨p, q, rfl⟩ : ∃ (p : Fin 2560) (q : Fin 128), j = ix2 p q := ⟨j 0, j 1, eq_ix2 j⟩
  have hr : 2560 * t.val + p.val < 640000 := by have := p.isLt; omega
  have hp := k1_point (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7))
    (iblk1 V c 0 t) (iblk1 V c 1 t) (iblk1 V c 2 t) (iblk1 V c 3 t) (iblk1 V c 4 t) (iblk1 V c 5 t) (iblk1 V c 6 t) (iblk1 V c 7 t)
    p q (⟨2560 * t.val + p.val, hr⟩ : Fin 640000)
    (fun k => iblk1_0_apply V c t (ix2 p k) (ix2 (⟨2560 * t.val + p.val, hr⟩ : Fin 640000) k) rfl rfl)
    (fun k => iblk1_1_apply V c t (ix2 p k) (ix2 (⟨2560 * t.val + p.val, hr⟩ : Fin 640000) k) rfl rfl)
    (fun k => iblk1_2_apply V c t (ix2 p k) (ix2 (⟨2560 * t.val + p.val, hr⟩ : Fin 640000) k) rfl rfl)
    (fun k => iblk1_3_apply V c t (ix2 k q) (ix2 k q) rfl rfl)
    (iblk1_4_apply V c t (ix2 0 q) (ix2 0 q) rfl rfl)
    (fun k => iblk1_5_apply V c t (ix2 0 k) (ix2 0 k) rfl rfl)
    (fun k => iblk1_6_apply V c t (ix2 0 k) (ix2 0 k) rfl rfl)
    (iblk1_7_apply V c t (ix2 0 0) (ix2 0 0) rfl rfl)
  refine Eq.trans ?_ (dat1_read_blk (Cert.RegionFns.MsgF (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7))) t p q hr).symm
  show k1_pay1 (F := Ideal) _ _ _ _ _ _ _ _ (ix2 p q) = _
  exact hp

/-- An index of the output array is in point `t`'s block iff each coordinate is in the block's range on its axis. -/
theorem dat1_mem_blk (t : Fin cfg1.N) (i : S640000x128.Idx) :
    i ∈ ((cfg1.win 8).blk t).view.set ↔ ∀ a : Fin 2, win1_8.index t a * S2560x128.size a ≤ (i a).val ∧ (i a).val < win1_8.index t a * S2560x128.size a + S2560x128.size a := by
  show i ∈ ((View.whole (Pipeline.arrRef spec1 8)).slice (win1_8.rect t)).set ↔ _
  rw [View.set_slice_whole, Rect.mem_set_unit]
  exact Iff.rfl

/-- Row `r` of the output array is in the block of point `r / 2560`, which is written back. -/
theorem dat1_cover (i : S640000x128.Idx) :
    ∃ t : Fin cfg1.N, (cfg1.win 8).flush t = true ∧ i ∈ ((cfg1.win 8).blk t).view.set := by
  have hi0 : (i 0).val < 640000 := (i 0).isLt
  have hi1 : (i 1).val < 128 := (i 1).isLt
  have hN : cfg1.N = 250 := N_1
  have hlt : (i 0).val / 2560 < cfg1.N := by rw [hN]; omega
  obtain ⟨h0, h1⟩ := (dat1_idx_facts ⟨(i 0).val / 2560, hlt⟩).2.2.2.2.2.2.2.2
  refine ⟨⟨(i 0).val / 2560, hlt⟩, flush1_8 _, ?_⟩
  rw [dat1_mem_blk]
  intro a
  match a with
  | ⟨0, _⟩ =>
    show win1_8.index ⟨(i 0).val / 2560, hlt⟩ (0 : Fin 2) * 2560 ≤ (i 0).val ∧ (i 0).val < win1_8.index ⟨(i 0).val / 2560, hlt⟩ (0 : Fin 2) * 2560 + 2560
    rw [h0]; show (i 0).val / 2560 * 2560 ≤ (i 0).val ∧ (i 0).val < (i 0).val / 2560 * 2560 + 2560; omega
  | ⟨1, _⟩ =>
    show win1_8.index ⟨(i 0).val / 2560, hlt⟩ (1 : Fin 2) * 128 ≤ (i 1).val ∧ (i 1).val < win1_8.index ⟨(i 0).val / 2560, hlt⟩ (1 : Fin 2) * 128 + 128
    rw [h1]; omega

/-- The output array after all grid points is the message function of the window arrays as the region found them. -/
theorem final1 (c : Dev nD) :
    (dat1 (F := Ideal) V c).arrAt 8 cfg1.N = Cert.RegionFns.MsgF (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) :=
  (dat1 V c).arrAt_eq_of_cover 8 (Cert.RegionFns.MsgF (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)))
    (fun t _ => dat1_flushed_eq V c t) dat1_cover

end Cert.KernelIdeal.HandVal

end
-- ==== Proof.KI.Pay2.lean ====
/-
  The aggregation kernel's two stored values, read at one element over the extended reals.

  The first is the zero block. The second is the running block plus a product of two blocks: the left factor is
  the indicator of "row r's node word equals column k's target word", where row r of node tile a carries the
  32-bit word of a * 2560 + r, and the right factor is the block of 2560 message rows. An indicator times x is x
  or 0 — in the extended reals 1 * x = x and 0 * x = 0 for every x, infinite ones included — so element (r, d) of
  the product is the sum over k of the message element (k, d) where the words agree and 0 elsewhere. The words
  are built with wrapping 32-bit arithmetic; the natural numbers map to the words by a ring homomorphism, so the
  word of a * 2560 + r is the product and sum of the words whatever the sizes.
-/
import proofs.«417300_j83468394430632_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.HandVal

open Cert.KernelIdeal Cert.KernelIdeal.Gen Idealize.ShloMosaic Idealize.ShloMosaic.ValueIdx Idealize.SL.Sem

/-- The zero block reads 0 everywhere. -/
theorem k2_pay1_apply (j : S2560x128.Idx) : k2_pay1 (F := Ideal) j = 0 := by
  unfold k2_pay1
  simp only [shapeCast_self]
  show Ideal.ofBits .f32 0x00000000#32 = 0
  exact Ideal.ofBits_zero_f32

/-- The indicator word, zero-extended and converted, is the extended real 1 or 0. -/
theorem onehot_elem (a b : BitVec 32) :
    (FloatOps.sitofp (F := Ideal) .f32 ((IntOp.cmpi .eq a b).setWidth 32) : EReal) = if a = b then 1 else 0 := by
  show (((((IntOp.cmpi .eq a b).setWidth 32).toInt : ℝ)) : EReal) = _
  by_cases h : a = b
  · subst h
    simp [IntOp.cmpi]
  · have hb : (a == b) = false := by simpa using h
    simp [IntOp.cmpi, hb, h]

/-- The word of a * 2560 + r is the wrapped product and sum of the words. -/
theorem node_word (a r : ℕ) :
    IntOp.addi (Scalar.muli (BitVec.ofNat 32 a) 2560#32) (BitVec.ofNat 32 r) = BitVec.ofNat 32 (a * 2560 + r) := by
  show BitVec.ofNat 32 a * 2560#32 + BitVec.ofNat 32 r = _
  rw [BitVec.ofNat_add, BitVec.ofNat_mul]

theorem lhs2_0 (j : S2560x128.Idx) (q : dot_S2560x2560_S2560x128_S2560x128_1_0_0_1_n_n.contr.Idx) :
    (dot_S2560x2560_S2560x128_S2560x128_1_0_0_1_n_n.lhsIdx j q 0).val = (j 0).val := by
  unfold DotDims.lhsIdx
  rw [dif_neg (show ¬(0 : Fin S2560x2560.rank) ∈ dot_S2560x2560_S2560x128_S2560x128_1_0_0_1_n_n.lhsBatch by decide), dif_pos (show (0 : Fin S2560x2560.rank) ∈ dot_S2560x2560_S2560x128_S2560x128_1_0_0_1_n_n.lhsNonContracting by decide)]
  rfl
theorem lhs2_1 (j : S2560x128.Idx) (q : dot_S2560x2560_S2560x128_S2560x128_1_0_0_1_n_n.contr.Idx) :
    (dot_S2560x2560_S2560x128_S2560x128_1_0_0_1_n_n.lhsIdx j q 1).val = (q ⟨0, by decide⟩).val :=
  dot_S2560x2560_S2560x128_S2560x128_1_0_0_1_n_n.lhsIdx_val_of_single rfl j q
theorem rhs2_0 (j : S2560x128.Idx) (q : dot_S2560x2560_S2560x128_S2560x128_1_0_0_1_n_n.contr.Idx) :
    (dot_S2560x2560_S2560x128_S2560x128_1_0_0_1_n_n.rhsIdx j q 0).val = (q ⟨0, by decide⟩).val :=
  dot_S2560x2560_S2560x128_S2560x128_1_0_0_1_n_n.rhsIdx_val_of_single rfl j q
theorem rhs2_1 (j : S2560x128.Idx) (q : dot_S2560x2560_S2560x128_S2560x128_1_0_0_1_n_n.contr.Idx) :
    (dot_S2560x2560_S2560x128_S2560x128_1_0_0_1_n_n.rhsIdx j q 1).val = (j 1).val := by
  unfold DotDims.rhsIdx
  rw [dif_neg (show ¬(1 : Fin S2560x128.rank) ∈ dot_S2560x2560_S2560x128_S2560x128_1_0_0_1_n_n.rhsBatch by decide), dif_pos (show (1 : Fin S2560x128.rank) ∈ dot_S2560x2560_S2560x128_S2560x128_1_0_0_1_n_n.rhsNonContracting by decide)]
  rfl

/-- The accumulated block: the running block plus, at (r, d), the sum over the 2560 edges k of the block of the
    message element (k, d) where the node word of row r equals edge k's target word. -/
theorem k2_pay2_apply (i : grid2.Coords) (v7 : Vec Ideal S1x2560 .i32) (v15 : Vec Ideal S2560x128 .f32)
    (v16 : Vec Ideal S2560x128 .bf16) (r : Fin 2560) (d : Fin 128) :
    k2_pay2 i v7 v15 v16 (ix2 r d) = v15 (ix2 r d)
      + ∑ k : Fin 2560, (if BitVec.ofNat 32 ((i 0).val * 2560 + r.val) = v7 (ix2 0 k) then (v16 (ix2 k d) : EReal) else 0) := by
  unfold k2_pay2
  simp only [shapeCast_self]
  show v15 (ix2 r d) + FloatOps.matmul (F := Ideal) dot_S2560x2560_S2560x128_S2560x128_1_0_0_1_n_n none _ v16 (constant (F := Ideal) S2560x128 .f32 0x00000000#32) (ix2 r d) = _
  rw [Ideal.matmul_constant_zero_apply, ← Equiv.sum_comp (ValueIdx.contrEquiv1 dot_S2560x2560_S2560x128_S2560x128_1_0_0_1_n_n 2560 rfl rfl).symm]
  refine congrArg (v15 (ix2 r d) + ·) (Finset.sum_congr rfl fun k _ => ?_)
  have hk := ValueIdx.contrEquiv1_symm_val dot_S2560x2560_S2560x128_S2560x128_1_0_0_1_n_n 2560 rfl rfl k
  have el : dot_S2560x2560_S2560x128_S2560x128_1_0_0_1_n_n.lhsIdx (ix2 r d) ((ValueIdx.contrEquiv1 dot_S2560x2560_S2560x128_S2560x128_1_0_0_1_n_n 2560 rfl rfl).symm k) = ix2 r k := funext fun a => Fin.ext (by
    match a with
    | ⟨0, _⟩ => exact lhs2_0 _ _
    | ⟨1, _⟩ => exact (lhs2_1 _ _).trans hk)
  have er : dot_S2560x2560_S2560x128_S2560x128_1_0_0_1_n_n.rhsIdx (ix2 r d) ((ValueIdx.contrEquiv1 dot_S2560x2560_S2560x128_S2560x128_1_0_0_1_n_n 2560 rfl rfl).symm k) = ix2 k d := funext fun a => Fin.ext (by
    match a with
    | ⟨0, _⟩ => exact (rhs2_0 _ _).trans hk
    | ⟨1, _⟩ => exact rhs2_1 _ _)
  rw [el, er]
  rw [truncf_apply, sitofp_apply, extui_apply]
  show FloatOps.sitofp (F := Ideal) .f32 ((IntOp.cmpi .eq _ _).setWidth 32) * _ = _
  rw [broadcastTo_apply _ broadcasts_S2560x1_S2560x2560 (ix2 r k) (ix2 r (0 : Fin 1)) (fun a => match a with
      | ⟨0, _⟩ => rfl
      | ⟨1, _⟩ => rfl),
    broadcastTo_1b_ab_apply]
  show FloatOps.sitofp (F := Ideal) .f32 ((IntOp.cmpi .eq (IntOp.addi (Scalar.muli (BitVec.ofNat 32 (i 0).val) 2560#32) (iota .tc S2560x1 32 [0] iota_S2560x1_d0_w32 (ix2 r (0 : Fin 1)))) (v7 (ix2 0 k))).setWidth 32) * _ = _
  rw [iota_single_apply]
  show FloatOps.sitofp (F := Ideal) .f32 ((IntOp.cmpi .eq (IntOp.addi (Scalar.muli (BitVec.ofNat 32 (i 0).val) 2560#32) (BitVec.ofNat 32 r.val)) (v7 (ix2 0 k))).setWidth 32) * _ = _
  rw [node_word, onehot_elem]
  split
  · exact one_mul _
  · exact zero_mul _

end Cert.KernelIdeal.HandVal

end
-- ==== Proof.Val.ScatMath.lean ====
/-
  The law that joins a tiled accumulation to a segment sum.

  The 640000 edges are cut into 250 tiles of 2560: edge number s * 2560 + k is edge k of tile s. A quantity that
  starts at zero and, at tile s, gains the sum over the tile's 2560 edges of a term is, after the 250 tiles, the
  sum over s below 250 of the sum over k below 2560 of the term at (s, k). The map (s, k) ↦ s * 2560 + k is a
  bijection from the pairs onto the edge numbers below 640000, and a finite sum in a commutative monoid does not
  depend on how its index set is named, so that double sum is the single sum over all edges. With the term "the
  message of the edge if the edge's target word is w, else zero" this is the aggregate of the node whose word is w.
-/
import Mathlib.Algebra.BigOperators.Fin
import Mathlib.Algebra.BigOperators.Group.Finset.Basic
import Mathlib.Data.Fintype.BigOperators
import Mathlib.Logic.Equiv.Fin.Basic
import Mathlib.Data.EReal.Basic

noncomputable section

open scoped BigOperators

namespace Cert.ScatMath

/-- Edge k of tile s (the tile number taken below 250), as an edge number below 640000. -/
def edge (s : ℕ) (k : Fin 2560) : Fin 640000 :=
  ⟨(s % 250) * 2560 + k.val, by have := k.isLt; have := Nat.mod_lt s (by decide : 0 < 250); omega⟩

/-- Its number. -/
theorem edge_val (s : ℕ) (k : Fin 2560) : (edge s k).val = (s % 250) * 2560 + k.val := rfl

/-- Below 250 the tile number is itself. -/
theorem edge_val_of_lt {s : ℕ} (hs : s < 250) (k : Fin 2560) : (edge s k).val = s * 2560 + k.val := by
  rw [edge_val, Nat.mod_eq_of_lt hs]

/-- The pairs (tile, edge of the tile) are the edge numbers: (s, k) ↦ s * 2560 + k. -/
def tileEquiv : Fin 250 × Fin 2560 ≃ Fin 640000 :=
  finProdFinEquiv.trans (finCongr (by norm_num))

theorem tileEquiv_apply (s : Fin 250) (k : Fin 2560) : tileEquiv (s, k) = edge s.val k := by
  apply Fin.ext
  show k.val + 2560 * s.val = (s.val % 250) * 2560 + k.val
  rw [Nat.mod_eq_of_lt s.isLt]
  omega

/-- The sum over the 250 tiles of the sums over each tile's 2560 edges is the sum over all 640000 edges. -/
theorem sum_tiles {M : Type*} [AddCommMonoid M] (T : Fin 640000 → M) :
    ∑ s ∈ Finset.range 250, ∑ k : Fin 2560, T (edge s k) = ∑ e : Fin 640000, T e := by
  rw [Finset.sum_range (fun s => ∑ k : Fin 2560, T (edge s k))]
  rw [← Fintype.sum_prod_type' (f := fun (s : Fin 250) (k : Fin 2560) => T (edge s.val k))]
  exact Fintype.sum_equiv tileEquiv _ _ (fun x => by rw [← tileEquiv_apply])

/-- The aggregate of the node with word w: tile by tile, the messages of the edges whose target word is w (the
    comparison written word-first, as the accumulation has it) add up to the sum over all edges of the messages of
    the edges whose target word is w. -/
theorem scatter_tiles (dst : Fin 640000 → BitVec 32) (m : Fin 640000 → EReal) (w : BitVec 32) :
    ∑ s ∈ Finset.range 250, ∑ k : Fin 2560, (if w = dst (edge s k) then m (edge s k) else 0)
      = ∑ e : Fin 640000, if dst e = w then m e else 0 := by
  rw [sum_tiles (fun e => if w = dst e then m e else 0)]
  refine Finset.sum_congr rfl fun e _ => ?_
  by_cases h : dst e = w
  · rw [if_pos h, if_pos h.symm]
  · rw [if_neg h, if_neg (fun h' => h h'.symm)]

end Cert.ScatMath

end
-- ==== Proof.KI.Val2.lean ====
/-
  The aggregation region's output array, over the extended reals.

  The region's grid is 16 node tiles by 250 edge tiles, the edge tile moving fastest: point t works on node tile
  t / 250 and edge tile t % 250. The carried block starts each node tile's run at zero and gains, at edge tile s,
  the sum over the tile's 2560 edges k of the message row of edge s * 2560 + k where row r's node word — the word of
  (t / 250) * 2560 + r — equals that edge's target word. After the run's 250 points the block is, at (r, d), the sum
  over all 640000 edges of the messages whose target word is the node's word; that point copies it to the output
  block, which is written back to rows (t / 250) * 2560 … of the output array; the sixteen such blocks tile the array.
  So the array ends holding, at (n, d), the sum over all edges of the messages in column d of the edges whose target
  word is the word of n.
-/
import proofs.«417300_j83468394430632_3_alg».proof.Proof.KI.R2
import proofs.«417300_j83468394430632_3_alg».proof.Proof.KI.Pay2
import proofs.«417300_j83468394430632_3_alg».proof.Proof.Val.ScatMath
import proofs.«417300_j83468394430632_3_alg».proof.Proof.Val.RegionFns
import Idealize.ShloMosaic.Lib.Pipeline.Value
import Idealize.ShloMosaic.Lib.ValueIdx
import Idealize.ShloMosaic.PureOps.Ideal.Laws

noncomputable section

open scoped BigOperators

namespace Cert.KernelIdeal.HandVal

open Cert.KernelIdeal Cert.KernelIdeal.Gen Cert.KernelIdeal.Hand Cert.ScatMath
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The grid's arithmetic -/

/-- Point t of the grid is node tile t / 250 and edge tile t % 250; the target-word window is at block (0, t % 250),
    the message window at block (t % 250, 0), the output window at block (t / 250, 0). -/
theorem idx_facts2 : ∀ t : Fin cfg2.N,
    (grid2.coords t 0).val = t.val / 250
    ∧ win2_0.index t (0 : Fin 2) = 0 ∧ win2_0.index t (1 : Fin 2) = t.val % 250
    ∧ win2_1.index t (0 : Fin 2) = t.val % 250 ∧ win2_1.index t (1 : Fin 2) = 0
    ∧ win2_2.index t (0 : Fin 2) = t.val / 250 ∧ win2_2.index t (1 : Fin 2) = 0 :=
  (by decide +kernel : ∀ t : Fin grid2.N, _)

/-! ## The arrays and the blocks, at their literal types -/

/-- The target words, a row of 640000. -/
abbrev E2_dst (c : Dev nD) : Cert.RegionFns.WArr 1 640000 := V c (Pipeline.arrRef spec2 0)
/-- The messages, 640000 rows of 128. -/
abbrev E2_msg (c : Dev nD) : Cert.RegionFns.RArr 640000 128 := V c (Pipeline.arrRef spec2 1)
/-- The block of 2560 target words the region reads at point t. -/
abbrev iblk2_dst (c : Dev nD) (t : Fin cfg2.N) : Vec Ideal S1x2560 .i32 := iblk2 V c 0 t
/-- The block of 2560 message rows the region reads at point t. -/
abbrev iblk2_msg (c : Dev nD) (t : Fin cfg2.N) : Vec Ideal S2560x128 .bf16 := iblk2 V c 1 t

/-- Word k of the block at point t is the target word of edge k of edge tile t % 250. -/
theorem iblk2_dst_apply (c : Dev nD) (t : Fin cfg2.N) (k : Fin 2560) :
    iblk2_dst V c t (ix2 0 k) = E2_dst V c (ix2 0 (edge t.val k)) := by
  obtain ⟨-, e00, e01, -, -, -, -⟩ := idx_facts2 t
  show iblk2 V c 0 t (ix2 0 k) = _
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 1 + 1 * 0 = 0; rw [e00]
  | ⟨1, _⟩ => show win2_0.index t (1 : Fin 2) * 2560 + 1 * k.val = (t.val % 250) * 2560 + k.val; rw [e01]; omega

/-- Row k of the block at point t is the message row of edge k of edge tile t % 250. -/
theorem iblk2_msg_apply (c : Dev nD) (t : Fin cfg2.N) (k : Fin 2560) (d : Fin 128) :
    iblk2_msg V c t (ix2 k d) = E2_msg V c (ix2 (edge t.val k) d) := by
  obtain ⟨-, -, -, e10, e11, -, -⟩ := idx_facts2 t
  show iblk2 V c 1 t (ix2 k d) = _
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 2560 + 1 * k.val = (t.val % 250) * 2560 + k.val; rw [e10]; omega
  | ⟨1, _⟩ => show win2_1.index t (1 : Fin 2) * 128 + 1 * d.val = d.val; rw [e11]; omega

/-! ## One point's step -/

/-- What point n adds to the carried block at (r, d): the messages, in column d, of the edges of edge tile n % 250
    whose target word is the word of row r of node tile n / 250. -/
def point2_term (c : Dev nD) (n : ℕ) (i : S2560x128.Idx) : EReal :=
  ∑ k : Fin 2560, if BitVec.ofNat 32 ((n / 250) * 2560 + (i 0).val) = E2_dst V c (ix2 0 (edge n k))
    then E2_msg V c (ix2 (edge n k) (i 1)) else 0

/-- The carried block after point n's step, from what it held before. -/
def point2_step (c : Dev nD) (n : ℕ) (h : n < cfg2.N) (acc : Vec Ideal S2560x128 .f32) : Vec Ideal S2560x128 .f32 :=
  k2_pay2 (grid2.coords ⟨n, h⟩) (iblk2_dst V c ⟨n, h⟩) acc (iblk2_msg V c ⟨n, h⟩)

/-- The step adds the point's term. -/
theorem point2_step_apply (c : Dev nD) (n : ℕ) (h : n < cfg2.N) (acc : Vec Ideal S2560x128 .f32) (i : S2560x128.Idx) :
    point2_step V c n h acc i = acc i + point2_term V c n i := by
  obtain ⟨r, d, rfl⟩ : ∃ (r : Fin 2560) (d : Fin 128), i = ix2 r d := ⟨i 0, i 1, eq_ix2 i⟩
  obtain ⟨e, -⟩ := idx_facts2 ⟨n, h⟩
  unfold point2_step point2_term
  rw [k2_pay2_apply, e]
  refine congrArg (acc (ix2 r d) + ·) (Finset.sum_congr rfl fun k _ => ?_)
  rw [iblk2_dst_apply, iblk2_msg_apply]

/-! ## The carried block is the fold of the steps -/

/-- After point t the carried block is the fold of the steps over its node tile's run, from the zero block at the
    run's first point 250 * (t / 250): the reset case starts it, the two other cases step it. -/
theorem out2_scratch_eq_fold (c : Dev nD) (t : Fin cfg2.N) :
    (outsAt2 V c t.val t.isLt).2 = Pipeline.accAt (fun n h => point2_step V c n h (k2_pay1 (F := Ideal))) (point2_step V c) (250 * (t.val / 250)) (t.val % 250)
      (by have h1 := t.isLt; have h2 := Nat.div_add_mod t.val 250; omega) :=
  Pipeline.eq_accAt_of_mod (fun n h => (outsAt2 V c n h).2) 250 (fun n h => point2_step V c n h (k2_pay1 (F := Ideal))) (point2_step V c)
    (fun n h hn => by
      rw [outsAt2_A V c ⟨n, h⟩ hn]
      rfl)
    (fun n h hn => by
      by_cases h1 : (n + 1) % 250 = 249
      · rw [outsAt2_C V c ⟨n + 1, h⟩ h1]
        rfl
      · rw [outsAt2_B V c ⟨n + 1, h⟩ hn h1]
        rfl)
    (by decide) t.val t.isLt _

/-- At the last point of a node tile's run the output block is the carried block: the sum of the run's 250 terms. -/
theorem out2_at_flush (c : Dev nD) (t : Fin cfg2.N) (h1 : t.val % 250 = 249) (i : S2560x128.Idx) :
    (outsAt2 V c t.val t.isLt).1 i = ∑ s ∈ Finset.range 250, point2_term V c (250 * (t.val / 250) + s) i := by
  have e1 : (outsAt2 V c t.val t.isLt).1 = (outsAt2 V c t.val t.isLt).2 := by
    rw [outsAt2_C V c t h1]
  rw [e1, out2_scratch_eq_fold]
  have hfold := Pipeline.accAt_add_apply (N := cfg2.N) (fun n h => point2_step V c n h (k2_pay1 (F := Ideal))) (point2_step V c)
    (fun _ => (0 : EReal)) (fun n i => point2_term V c n i) (250 * (t.val / 250)) 249
    (fun h i => (point2_step_apply V c _ h (k2_pay1 (F := Ideal)) i).trans (congrArg (· + point2_term V c _ i) (k2_pay1_apply i)))
    (fun n h acc i _ _ => point2_step_apply V c n h acc i)
    (t.val % 250) (by omega) (by have h1 := t.isLt; have h2 := Nat.div_add_mod t.val 250; omega) i
  rw [hfold, zero_add, h1]

/-! ## The run's sum is the aggregate -/

/-- The 250 terms of node tile a's run at (r, d) add up to the aggregate, in column d, of the node whose number is
    a * 2560 + r: the sum over all edges of the messages of the edges whose target word is that node's word. -/
theorem point2_sum_eq_agg (c : Dev nD) (a : ℕ) (i : S2560x128.Idx) (i' : (⟨2, ![40960, 128]⟩ : Shape).Idx)
    (h0 : (i' 0).val = a * 2560 + (i 0).val) (h1 : i' 1 = i 1) :
    ∑ s ∈ Finset.range 250, point2_term V c (250 * a + s) i = Cert.RegionFns.AggF (E2_dst V c) (E2_msg V c) i' := by
  show _ = ∑ e : Fin 640000, if E2_dst V c (ix2 0 e) = BitVec.ofNat 32 (i' 0).val then E2_msg V c (ix2 e (i' 1)) else 0
  rw [h0, h1, ← scatter_tiles (fun e => E2_dst V c (ix2 0 e)) (fun e => E2_msg V c (ix2 e (i 1)))
    (BitVec.ofNat 32 (a * 2560 + (i 0).val))]
  refine Finset.sum_congr rfl fun s hs => ?_
  have hs' : s < 250 := Finset.mem_range.mp hs
  have e1 : (250 * a + s) / 250 = a := by omega
  have e2 : ∀ k : Fin 2560, edge (250 * a + s) k = edge s k := fun k => Fin.ext (by
    rw [edge_val, edge_val]; omega)
  unfold point2_term
  rw [e1]
  exact Finset.sum_congr rfl fun k _ => by rw [e2 k]

/-! ## From the blocks to the array -/

/-- An array read through the output window's block at point t: element j of the block is the array's element at
    the block's position plus j. -/
theorem emb2_read (G : Cert.RegionFns.RArr 40960 128) (t : Fin cfg2.N) (j : ((cfg2.win 2).xblock (grid2.coords t)).Idx) :
    ((cfg2.win 2).blk t).view.read (Elt Ideal) G j = G (((cfg2.win 2).blk t).view.emb j) := rfl

/-- What the region writes back at a point that writes back is that point's block of the aggregate. -/
theorem flushed2_eq (c : Dev nD) (t : Fin cfg2.N) (hf : (cfg2.win 2).flush t = true) :
    (dat2 (F := Ideal) V c).flushed 2 t
      = ((cfg2.win 2).blk t).view.read (Elt Ideal) (Cert.RegionFns.AggF (E2_dst V c) (E2_msg V c)) := by
  have h1 : t.val % 250 = 249 := (flush2_2 t).mp hf
  obtain ⟨-, -, -, -, -, e20, e21⟩ := idx_facts2 t
  show (cfg2.win 2).cut (grid2.coords t) ((dat2 (F := Ideal) V c).after 2 t) = _
  rw [after2_2]
  funext j
  rw [emb2_read (Cert.RegionFns.AggF (E2_dst V c) (E2_msg V c)) t j]
  show (outsAt2 V c t.val t.isLt).1 ((cfg2.win 2).xinj (grid2.coords t) j) = _
  rw [out2_at_flush V c t h1 ((cfg2.win 2).xinj (grid2.coords t) j)]
  refine point2_sum_eq_agg V c (t.val / 250) ((cfg2.win 2).xinj (grid2.coords t) j) (((cfg2.win 2).blk t).view.emb j) ?_ ?_
  · show win2_2.index t (0 : Fin 2) * 2560 + 1 * (j 0).val = t.val / 250 * 2560 + (j 0).val
    rw [e20]; omega
  · apply Fin.ext
    show win2_2.index t (1 : Fin 2) * 128 + 1 * (j 1).val = (j 1).val
    rw [e21]; omega

/-- An index of the output array is in point t's block iff each coordinate is in the block's range on its axis. -/
theorem mem_blk2 (t : Fin cfg2.N) (i : S40960x128.Idx) :
    i ∈ ((cfg2.win 2).blk t).view.set ↔ ∀ a : Fin 2, win2_2.index t a * S2560x128.size a ≤ (i a).val ∧ (i a).val < win2_2.index t a * S2560x128.size a + S2560x128.size a := by
  show i ∈ ((View.whole (Pipeline.arrRef spec2 2)).slice (win2_2.rect t)).set ↔ _
  rw [View.set_slice_whole, Rect.mem_set_unit]
  exact Iff.rfl

/-- Every index of the output array lies in the block written back at the last point of its node tile's run. -/
theorem cover2 (i : S40960x128.Idx) :
    ∃ t : Fin cfg2.N, (cfg2.win 2).flush t = true ∧ i ∈ ((cfg2.win 2).blk t).view.set := by
  have hi0 : (i 0).val < 40960 := (i 0).isLt
  have hi1 : (i 1).val < 128 := (i 1).isLt
  have hN : cfg2.N = 4000 := N_2
  let t : Fin cfg2.N := ⟨(i 0).val / 2560 * 250 + 249, by rw [hN]; omega⟩
  have ht : t.val = (i 0).val / 2560 * 250 + 249 := rfl
  obtain ⟨-, -, -, -, -, e20, e21⟩ := idx_facts2 t
  refine ⟨t, (flush2_2 t).mpr (by rw [ht]; omega), ?_⟩
  rw [mem_blk2]
  intro a
  match a with
  | ⟨0, _⟩ => show win2_2.index t (0 : Fin 2) * 2560 ≤ (i 0).val ∧ (i 0).val < win2_2.index t (0 : Fin 2) * 2560 + 2560
              rw [e20, ht]; omega
  | ⟨1, _⟩ => show win2_2.index t (1 : Fin 2) * 128 ≤ (i 1).val ∧ (i 1).val < win2_2.index t (1 : Fin 2) * 128 + 128
              rw [e21]; omega

/-- The output array after the region: the aggregate of the target words and the messages the region found. -/
theorem final2 (c : Dev nD) :
    (dat2 (F := Ideal) V c).arrAt 2 cfg2.N
      = Cert.RegionFns.AggF (V c (Pipeline.arrRef spec2 0)) (V c (Pipeline.arrRef spec2 1)) :=
  (dat2 (F := Ideal) V c).arrAt_eq_of_cover 2 (Cert.RegionFns.AggF (E2_dst V c) (E2_msg V c))
    (fun t hf => flushed2_eq V c t hf) (fun i => cover2 i)

end Cert.KernelIdeal.HandVal

end
-- ==== Proof.KI.UpdLib.lean ====
import proofs.«417300_j83468394430632_3_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

/-! # The node-update body's non-pointwise operations, read at an index over the extended reals

The update body has two products into a zero accumulator — a `[2000,128]` block against the `[128,256]` first matrix
and the `[2000,256]` hidden block against the `[256,128]` second matrix — and one `[1,1]` array spread over a block.
Over the extended reals a product into the zero accumulator read at `(p, j)` is the plain sum over the contracted
axis of the row entry times the column entry; a spread one-entry array reads its entry everywhere. All three update
launches share these facts. -/

noncomputable section

namespace Cert.KernelIdeal.HandVal

open Cert.KernelIdeal Cert.KernelIdeal.Gen
open Idealize.ShloMosaic Idealize.ShloMosaic.ValueIdx
open scoped BigOperators

/-! ## The two products at an index -/

theorem lhs_mmA_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs_mmA_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem rhs_mmA_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem rhs_mmA_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- The first product into the zero accumulator, at row `p` and hidden column `j`: the sum over the 128 input columns. -/
theorem mmA_apply (a : FVec Ideal S2000x128 .bf16) (b : FVec Ideal S128x256 .bf16) (p : Fin 2000) (j : Fin 256) :
    matmul dot_S2000x128_S128x256_S2000x256_1_0_0_1_n_n none a b (constant (F := Ideal) S2000x256 .f32 0x00000000#32) (ix2 p j)
      = ∑ k : Fin 128, a (ix2 p k) * b (ix2 k j) := by
  simp only [matmul]
  rw [Ideal.matmul_constant_zero_apply, ← Equiv.sum_comp (ValueIdx.contrEquiv1 dot_S2000x128_S128x256_S2000x256_1_0_0_1_n_n 128 rfl rfl).symm]
  refine Finset.sum_congr rfl fun k _ => ?_
  have hk := ValueIdx.contrEquiv1_symm_val dot_S2000x128_S128x256_S2000x256_1_0_0_1_n_n 128 rfl rfl k
  have el : dot_S2000x128_S128x256_S2000x256_1_0_0_1_n_n.lhsIdx (ix2 p j) ((ValueIdx.contrEquiv1 dot_S2000x128_S128x256_S2000x256_1_0_0_1_n_n 128 rfl rfl).symm k) = ix2 p k := funext fun ax => Fin.ext (by
    match ax with
    | ⟨0, _⟩ => exact lhs_mmA_0 _ _
    | ⟨1, _⟩ => exact (lhs_mmA_1 _ _).trans hk)
  have er : dot_S2000x128_S128x256_S2000x256_1_0_0_1_n_n.rhsIdx (ix2 p j) ((ValueIdx.contrEquiv1 dot_S2000x128_S128x256_S2000x256_1_0_0_1_n_n 128 rfl rfl).symm k) = ix2 k j := funext fun ax => Fin.ext (by
    match ax with
    | ⟨0, _⟩ => exact (rhs_mmA_0 _ _).trans hk
    | ⟨1, _⟩ => exact rhs_mmA_1 _ _)
  rw [el, er]

theorem lhs_mmB_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs_mmB_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem rhs_mmB_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem rhs_mmB_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The second product into the zero accumulator, at row `p` and output column `q`: the sum over the 256 hidden columns. -/
theorem mmB_apply (a : FVec Ideal S2000x256 .bf16) (b : FVec Ideal S256x128 .bf16) (p : Fin 2000) (j : Fin 128) :
    matmul dot_S2000x256_S256x128_S2000x128_1_0_0_1_n_n none a b (constant (F := Ideal) S2000x128 .f32 0x00000000#32) (ix2 p j)
      = ∑ k : Fin 256, a (ix2 p k) * b (ix2 k j) := by
  simp only [matmul]
  rw [Ideal.matmul_constant_zero_apply, ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx (ix2 p j) ((ValueIdx.contrEquiv1 dot_S2000x256_S256x128_S2000x128_1_0_0_1_n_n 256 rfl rfl).symm k) = ix2 p k := funext fun ax => Fin.ext (by
    match ax with
    | ⟨0, _⟩ => exact lhs_mmB_0 _ _
    | ⟨1, _⟩ => exact (lhs_mmB_1 _ _).trans hk)
  have er : dot_S2000x256_S256x128_S2000x128_1_0_0_1_n_n.rhsIdx (ix2 p j) ((ValueIdx.contrEquiv1 dot_S2000x256_S256x128_S2000x128_1_0_0_1_n_n 256 rfl rfl).symm k) = ix2 k j := funext fun ax => Fin.ext (by
    match ax with
    | ⟨0, _⟩ => exact (rhs_mmB_0 _ _).trans hk
    | ⟨1, _⟩ => exact rhs_mmB_1 _ _)
  rw [el, er]

/-! ## The one-entry array spread over a block -/

/-- A `[1, 1]` array broadcast to `[2000, 128]` reads its one entry everywhere. -/
theorem bcast_one_apply {α : Type} (x : S1x1.Idx → α) (p : Fin 2000) (q : Fin 128) :
    broadcastTo S2000x128 x broadcasts_S1x1_S2000x128 (ix2 p q) = x (ix2 (0 : Fin 1) (0 : Fin 1)) := by
  refine broadcastTo_apply x broadcasts_S1x1_S2000x128 (ix2 p q) (ix2 (0 : Fin 1) (0 : Fin 1)) fun ax => ?_
  match ax with
  | ⟨0, _⟩ => rfl
  | ⟨1, _⟩ => rfl

/-- A binary32 word read as a scalar constant is the extended real it names. -/
theorem scalar_ofBits (b : BitVec 32) : Scalar.ofBits (F := Ideal) .f32 b = Ideal.ofBits .f32 b := rfl

/-- The zero offsets of a whole-buffer access, as the constant function. -/
theorem hz : (![0, 0] : Fin 2 → Nat) = fun _ => 0 := funext fun a => by fin_cases a <;> rfl

/-- Row `p` of block `n` (of twenty blocks of 2000 rows) is row `2000 n + p` of the array. -/
def rowOf (n : ℕ) (hn : n < 20) (p : Fin 2000) : Fin 40000 := ⟨2000 * n + p.val, by have := p.isLt; omega⟩

end Cert.KernelIdeal.HandVal

end
-- ==== Proof.KI.Val3.lean ====
import proofs.«417300_j83468394430632_3_alg».proof.Proof.KI.R3
import proofs.«417300_j83468394430632_3_alg».proof.Proof.KI.UpdLib
import proofs.«417300_j83468394430632_3_alg».proof.Proof.Val.RegionFns
import Idealize.ShloMosaic.Lib.Pipeline.Value
import Idealize.ShloMosaic.Lib.ValueIdx
import Idealize.ShloMosaic.Lib.ValueLayout
import Idealize.ShloMosaic.PureOps.Ideal.Laws

/-! # What the node-update launch leaves in its output array, over the extended reals

At a grid point the body reads a block of 2000 node rows `h`, the matching block of aggregates `a`, and the
parameters whole. Row `p` of the block goes through two affine maps. The hidden row has 256 entries: entry `j` is
the scaled and shifted image of `∑ k, ((1 + eps) h p k + a p k) W1 k j + b1 j`, cut off at zero. The output row has
128 entries: entry `q` is the scaled and shifted image of `∑ j, hidden p j * W2 j q + b2 q`, cut off at zero. Format changes are
the identity and a product into the zero accumulator is the plain sum, so the payload at `(p, q)` is exactly that
expression of the loaded blocks. Block `t` of either row window is rows `2000 t … 2000 t + 1999` of its array and the
parameter windows' one block is their whole array, so what point `t` writes back is block `t` of one function of the
eleven arrays; the twenty blocks tile the 40000 rows, hence the output array ends as that function. -/

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Cert.RegionFns (RArr)
open scoped BigOperators

/-! ## The body's payload at an index -/

/-- The stored value at row `p` and column `q` of the block, from the loaded blocks: the second affine map, scaled
    and shifted, cut off at zero, of the hidden row, which is the first affine map of `(1 + eps) h + a`, scaled, shifted and
    cut off at zero. Every operation of the payload is pointwise or a row broadcast except the two products. -/
theorem pay3_apply (v0 : Vec Ideal S1x1 .f32) (v4 v8 : Vec Ideal S2000x128 .f32) (v12 : Vec Ideal S128x256 .f32)
    (v16 v20 v26 : Vec Ideal S1x256 .f32) (v33 : Vec Ideal S256x128 .f32) (v37 v41 v47 : Vec Ideal S1x128 .f32)
    (p : Fin 2000) (q : Fin 128) :
    k3_pay1 (k3_pay2 v0 v4 v8 v12 v16 v20 v26 v33) v37 v41 v47 (ix2 p q)
      = max (v41 (ix2 0 q) * ((∑ j : Fin 256, max (v20 (ix2 0 j) * ((∑ k : Fin 128, ((Cert.Spec.one + v0 (ix2 0 0)) * v4 (ix2 p k) + v8 (ix2 p k)) * v12 (ix2 k j)) + v16 (ix2 0 j)) * Cert.Spec.c + v26 (ix2 0 j)) 0 * v33 (ix2 j q)) + v37 (ix2 0 q)) * Cert.Spec.c + v47 (ix2 0 q)) 0 := by
  unfold k3_pay1 k3_pay2
  simp only [maximumf_apply, addf_apply, mulf_apply, broadcast_apply, truncf_apply, shapeCast_self,
    broadcastTo_1b_ab_apply, bcast_one_apply, mmA_apply, mmB_apply, scalar_ofBits, Ideal.ofBits_zero_f32,
    Cert.Spec.one, Cert.Spec.c]

/-! ## One grid point -/

/-- What the body leaves in the output buffer at point `n`, entry by entry, is the update function of the eleven
    arrays at the matching entry of the array: given that the two row blocks are rows `2000 n …` of their arrays and
    the nine parameter blocks are their arrays. -/
theorem point3_eq (n : ℕ) (hn : n < 20)
    (A0 : RArr 40000 128) (A1 : RArr 40000 128) (A2 : RArr 1 1) (A3 : RArr 128 256) (A4 : RArr 1 256) (A5 : RArr 1 256) (A6 : RArr 1 256) (A7 : RArr 256 128) (A8 : RArr 1 128) (A9 : RArr 1 128) (A10 : RArr 1 128)
    (x0 : Vec Ideal S2000x128 .f32) (x1 : Vec Ideal S2000x128 .f32) (x2 : Vec Ideal S1x1 .f32) (x3 : Vec Ideal S128x256 .f32) (x4 : Vec Ideal S1x256 .f32) (x5 : Vec Ideal S1x256 .f32) (x6 : Vec Ideal S1x256 .f32) (x7 : Vec Ideal S256x128 .f32) (x8 : Vec Ideal S1x128 .f32) (x9 : Vec Ideal S1x128 .f32) (x10 : Vec Ideal S1x128 .f32)
    (h0 : ∀ (p : Fin 2000) (k : Fin 128), x0 (ix2 p k) = A0 (ix2 (rowOf n hn p) k))
    (h1 : ∀ (p : Fin 2000) (k : Fin 128), x1 (ix2 p k) = A1 (ix2 (rowOf n hn p) k))
    (h2 : x2 = A2) (h3 : x3 = A3) (h4 : x4 = A4) (h5 : x5 = A5) (h6 : x6 = A6) (h7 : x7 = A7) (h8 : x8 = A8) (h9 : x9 = A9) (h10 : x10 = A10)
    (j : S2000x128.Idx) :
    out3_11 x0 x1 x2 x3 x4 x5 x6 x7 x8 x9 x10 j
      = Cert.RegionFns.UpdF true A0 A1 A2 A3 A4 A5 A6 A7 A8 A9 A10 (ix2 (rowOf n hn (j 0)) (j 1)) := by
  subst h2 h3 h4 h5 h6 h7 h8 h9 h10
  obtain ⟨p, q, rfl⟩ : ∃ (p : Fin 2000) (q : Fin 128), j = ix2 p q := ⟨j 0, j 1, eq_ix2 j⟩
  unfold out3_11
  rw [View.canon_unit_zero hz]
  simp only [View.ld_unit_zero (S := S2000x128) hz, View.ld_unit_zero (S := S1x1) hz, View.ld_unit_zero (S := S128x256) hz,
    View.ld_unit_zero (S := S1x256) hz, View.ld_unit_zero (S := S256x128) hz, View.ld_unit_zero (S := S1x128) hz]
  rw [pay3_apply]
  simp only [h0, h1]
  rfl

/-! ## The windows' blocks as parts of their arrays -/

/-- The printed block indices over the grid: the two row windows and the output walk the rows block by block, every
    parameter window stays at its one block. -/
theorem idx3_0 : ∀ t : Fin cfg3.N, win3_0.index t (0 : Fin 2) = t.val ∧ win3_0.index t (1 : Fin 2) = 0 :=
  (by decide +kernel : ∀ t : Fin grid3.N, _)
theorem idx3_1 : ∀ t : Fin cfg3.N, win3_1.index t (0 : Fin 2) = t.val ∧ win3_1.index t (1 : Fin 2) = 0 :=
  (by decide +kernel : ∀ t : Fin grid3.N, _)
theorem idx3_2 : ∀ t : Fin cfg3.N, win3_2.index t (0 : Fin 2) = 0 ∧ win3_2.index t (1 : Fin 2) = 0 :=
  (by decide +kernel : ∀ t : Fin grid3.N, _)
theorem idx3_3 : ∀ t : Fin cfg3.N, win3_3.index t (0 : Fin 2) = 0 ∧ win3_3.index t (1 : Fin 2) = 0 :=
  (by decide +kernel : ∀ t : Fin grid3.N, _)
theorem idx3_4 : ∀ t : Fin cfg3.N, win3_4.index t (0 : Fin 2) = 0 ∧ win3_4.index t (1 : Fin 2) = 0 :=
  (by decide +kernel : ∀ t : Fin grid3.N, _)
theorem idx3_5 : ∀ t : Fin cfg3.N, win3_5.index t (0 : Fin 2) = 0 ∧ win3_5.index t (1 : Fin 2) = 0 :=
  (by decide +kernel : ∀ t : Fin grid3.N, _)
theorem idx3_6 : ∀ t : Fin cfg3.N, win3_6.index t (0 : Fin 2) = 0 ∧ win3_6.index t (1 : Fin 2) = 0 :=
  (by decide +kernel : ∀ t : Fin grid3.N, _)
theorem idx3_7 : ∀ t : Fin cfg3.N, win3_7.index t (0 : Fin 2) = 0 ∧ win3_7.index t (1 : Fin 2) = 0 :=
  (by decide +kernel : ∀ t : Fin grid3.N, _)
theorem idx3_8 : ∀ t : Fin cfg3.N, win3_8.index t (0 : Fin 2) = 0 ∧ win3_8.index t (1 : Fin 2) = 0 :=
  (by decide +kernel : ∀ t : Fin grid3.N, _)
theorem idx3_9 : ∀ t : Fin cfg3.N, win3_9.index t (0 : Fin 2) = 0 ∧ win3_9.index t (1 : Fin 2) = 0 :=
  (by decide +kernel : ∀ t : Fin grid3.N, _)
theorem idx3_10 : ∀ t : Fin cfg3.N, win3_10.index t (0 : Fin 2) = 0 ∧ win3_10.index t (1 : Fin 2) = 0 :=
  (by decide +kernel : ∀ t : Fin grid3.N, _)
theorem idx3_11 : ∀ t : Fin cfg3.N, win3_11.index t (0 : Fin 2) = t.val ∧ win3_11.index t (1 : Fin 2) = 0 :=
  (by decide +kernel : ∀ t : Fin grid3.N, _)

/-- The grid has twenty points. -/
theorem lt_N3 (t : Fin cfg3.N) : t.val < 20 := by have h : cfg3.N = 20 := N_3; have := t.isLt; omega

variable (V : (c : Dev nD) → (b : Ref sig .tc) → Buf (Elt Ideal) ((c : Thread nD τ).loc b))

/-- Input window 0's block at point `t` is rows `2000 t …` of its array. -/
theorem iblk3_rows0 (c : Dev nD) (t : Fin cfg3.N) (p : Fin 2000) (k : Fin 128) :
    (iblk3 V c 0 t : Vec Ideal S2000x128 .f32) (ix2 p k)
      = (V c (Pipeline.arrRef spec3 0) : S40000x128.Idx → Elt Ideal .f32) (ix2 (rowOf t.val (lt_N3 t) p) k) := by
  obtain ⟨e0, e1⟩ := idx3_0 t
  show (V c (Pipeline.arrRef spec3 0) : S40000x128.Idx → Elt Ideal .f32) (((cfg3.win 0).blk t).view.emb (ix2 p k)) = _
  refine congrArg _ (funext fun a => Fin.ext ?_)
  match a with
  | ⟨0, _⟩ => show win3_0.index t (0 : Fin 2) * 2000 + 1 * p.val = 2000 * t.val + p.val; omega
  | ⟨1, _⟩ => show win3_0.index t (1 : Fin 2) * 128 + 1 * k.val = k.val; omega

/-- Input window 1's block at point `t` is rows `2000 t …` of its array. -/
theorem iblk3_rows1 (c : Dev nD) (t : Fin cfg3.N) (p : Fin 2000) (k : Fin 128) :
    (iblk3 V c 1 t : Vec Ideal S2000x128 .f32) (ix2 p k)
      = (V c (Pipeline.arrRef spec3 1) : S40000x128.Idx → Elt Ideal .f32) (ix2 (rowOf t.val (lt_N3 t) p) k) := by
  obtain ⟨e0, e1⟩ := idx3_1 t
  show (V c (Pipeline.arrRef spec3 1) : S40000x128.Idx → Elt Ideal .f32) (((cfg3.win 1).blk t).view.emb (ix2 p k)) = _
  refine congrArg _ (funext fun a => Fin.ext ?_)
  match a with
  | ⟨0, _⟩ => show win3_1.index t (0 : Fin 2) * 2000 + 1 * p.val = 2000 * t.val + p.val; omega
  | ⟨1, _⟩ => show win3_1.index t (1 : Fin 2) * 128 + 1 * k.val = k.val; omega

/-- Input window 2's one block is its whole array. -/
theorem iblk3_whole2 (c : Dev nD) (t : Fin cfg3.N) :
    (iblk3 V c 2 t : Vec Ideal S1x1 .f32) = (V c (Pipeline.arrRef spec3 2) : S1x1.Idx → Elt Ideal .f32) := by
  obtain ⟨e0, e1⟩ := idx3_2 t
  funext y
  show (V c (Pipeline.arrRef spec3 2) : S1x1.Idx → Elt Ideal .f32) (((cfg3.win 2).blk t).view.emb y) = _
  refine congrArg _ (funext fun a => Fin.ext ?_)
  match a with
  | ⟨0, _⟩ => show win3_2.index t (0 : Fin 2) * 1 + 1 * (y 0).val = (y 0).val; omega
  | ⟨1, _⟩ => show win3_2.index t (1 : Fin 2) * 1 + 1 * (y 1).val = (y 1).val; omega

/-- Input window 3's one block is its whole array. -/
theorem iblk3_whole3 (c : Dev nD) (t : Fin cfg3.N) :
    (iblk3 V c 3 t : Vec Ideal S128x256 .f32) = (V c (Pipeline.arrRef spec3 3) : S128x256.Idx → Elt Ideal .f32) := by
  obtain ⟨e0, e1⟩ := idx3_3 t
  funext y
  show (V c (Pipeline.arrRef spec3 3) : S128x256.Idx → Elt Ideal .f32) (((cfg3.win 3).blk t).view.emb y) = _
  refine congrArg _ (funext fun a => Fin.ext ?_)
  match a with
  | ⟨0, _⟩ => show win3_3.index t (0 : Fin 2) * 128 + 1 * (y 0).val = (y 0).val; omega
  | ⟨1, _⟩ => show win3_3.index t (1 : Fin 2) * 256 + 1 * (y 1).val = (y 1).val; omega

/-- Input window 4's one block is its whole array. -/
theorem iblk3_whole4 (c : Dev nD) (t : Fin cfg3.N) :
    (iblk3 V c 4 t : Vec Ideal S1x256 .f32) = (V c (Pipeline.arrRef spec3 4) : S1x256.Idx → Elt Ideal .f32) := by
  obtain ⟨e0, e1⟩ := idx3_4 t
  funext y
  show (V c (Pipeline.arrRef spec3 4) : S1x256.Idx → Elt Ideal .f32) (((cfg3.win 4).blk t).view.emb y) = _
  refine congrArg _ (funext fun a => Fin.ext ?_)
  match a with
  | ⟨0, _⟩ => show win3_4.index t (0 : Fin 2) * 1 + 1 * (y 0).val = (y 0).val; omega
  | ⟨1, _⟩ => show win3_4.index t (1 : Fin 2) * 256 + 1 * (y 1).val = (y 1).val; omega

/-- Input window 5's one block is its whole array. -/
theorem iblk3_whole5 (c : Dev nD) (t : Fin cfg3.N) :
    (iblk3 V c 5 t : Vec Ideal S1x256 .f32) = (V c (Pipeline.arrRef spec3 5) : S1x256.Idx → Elt Ideal .f32) := by
  obtain ⟨e0, e1⟩ := idx3_5 t
  funext y
  show (V c (Pipeline.arrRef spec3 5) : S1x256.Idx → Elt Ideal .f32) (((cfg3.win 5).blk t).view.emb y) = _
  refine congrArg _ (funext fun a => Fin.ext ?_)
  match a with
  | ⟨0, _⟩ => show win3_5.index t (0 : Fin 2) * 1 + 1 * (y 0).val = (y 0).val; omega
  | ⟨1, _⟩ => show win3_5.index t (1 : Fin 2) * 256 + 1 * (y 1).val = (y 1).val; omega

/-- Input window 6's one block is its whole array. -/
theorem iblk3_whole6 (c : Dev nD) (t : Fin cfg3.N) :
    (iblk3 V c 6 t : Vec Ideal S1x256 .f32) = (V c (Pipeline.arrRef spec3 6) : S1x256.Idx → Elt Ideal .f32) := by
  obtain ⟨e0, e1⟩ := idx3_6 t
  funext y
  show (V c (Pipeline.arrRef spec3 6) : S1x256.Idx → Elt Ideal .f32) (((cfg3.win 6).blk t).view.emb y) = _
  refine congrArg _ (funext fun a => Fin.ext ?_)
  match a with
  | ⟨0, _⟩ => show win3_6.index t (0 : Fin 2) * 1 + 1 * (y 0).val = (y 0).val; omega
  | ⟨1, _⟩ => show win3_6.index t (1 : Fin 2) * 256 + 1 * (y 1).val = (y 1).val; omega

/-- Input window 7's one block is its whole array. -/
theorem iblk3_whole7 (c : Dev nD) (t : Fin cfg3.N) :
    (iblk3 V c 7 t : Vec Ideal S256x128 .f32) = (V c (Pipeline.arrRef spec3 7) : S256x128.Idx → Elt Ideal .f32) := by
  obtain ⟨e0, e1⟩ := idx3_7 t
  funext y
  show (V c (Pipeline.arrRef spec3 7) : S256x128.Idx → Elt Ideal .f32) (((cfg3.win 7).blk t).view.emb y) = _
  refine congrArg _ (funext fun a => Fin.ext ?_)
  match a with
  | ⟨0, _⟩ => show win3_7.index t (0 : Fin 2) * 256 + 1 * (y 0).val = (y 0).val; omega
  | ⟨1, _⟩ => show win3_7.index t (1 : Fin 2) * 128 + 1 * (y 1).val = (y 1).val; omega

/-- Input window 8's one block is its whole array. -/
theorem iblk3_whole8 (c : Dev nD) (t : Fin cfg3.N) :
    (iblk3 V c 8 t : Vec Ideal S1x128 .f32) = (V c (Pipeline.arrRef spec3 8) : S1x128.Idx → Elt Ideal .f32) := by
  obtain ⟨e0, e1⟩ := idx3_8 t
  funext y
  show (V c (Pipeline.arrRef spec3 8) : S1x128.Idx → Elt Ideal .f32) (((cfg3.win 8).blk t).view.emb y) = _
  refine congrArg _ (funext fun a => Fin.ext ?_)
  match a with
  | ⟨0, _⟩ => show win3_8.index t (0 : Fin 2) * 1 + 1 * (y 0).val = (y 0).val; omega
  | ⟨1, _⟩ => show win3_8.index t (1 : Fin 2) * 128 + 1 * (y 1).val = (y 1).val; omega

/-- Input window 9's one block is its whole array. -/
theorem iblk3_whole9 (c : Dev nD) (t : Fin cfg3.N) :
    (iblk3 V c 9 t : Vec Ideal S1x128 .f32) = (V c (Pipeline.arrRef spec3 9) : S1x128.Idx → Elt Ideal .f32) := by
  obtain ⟨e0, e1⟩ := idx3_9 t
  funext y
  show (V c (Pipeline.arrRef spec3 9) : S1x128.Idx → Elt Ideal .f32) (((cfg3.win 9).blk t).view.emb y) = _
  refine congrArg _ (funext fun a => Fin.ext ?_)
  match a with
  | ⟨0, _⟩ => show win3_9.index t (0 : Fin 2) * 1 + 1 * (y 0).val = (y 0).val; omega
  | ⟨1, _⟩ => show win3_9.index t (1 : Fin 2) * 128 + 1 * (y 1).val = (y 1).val; omega

/-- Input window 10's one block is its whole array. -/
theorem iblk3_whole10 (c : Dev nD) (t : Fin cfg3.N) :
    (iblk3 V c 10 t : Vec Ideal S1x128 .f32) = (V c (Pipeline.arrRef spec3 10) : S1x128.Idx → Elt Ideal .f32) := by
  obtain ⟨e0, e1⟩ := idx3_10 t
  funext y
  show (V c (Pipeline.arrRef spec3 10) : S1x128.Idx → Elt Ideal .f32) (((cfg3.win 10).blk t).view.emb y) = _
  refine congrArg _ (funext fun a => Fin.ext ?_)
  match a with
  | ⟨0, _⟩ => show win3_10.index t (0 : Fin 2) * 1 + 1 * (y 0).val = (y 0).val; omega
  | ⟨1, _⟩ => show win3_10.index t (1 : Fin 2) * 128 + 1 * (y 1).val = (y 1).val; omega

/-! ## From the blocks to the array -/

/-- An entry of the output's block at point `t` sits in the array at row `2000 t +` its row, same column. -/
theorem emb3_out (t : Fin cfg3.N) (j : S2000x128.Idx) :
    (((cfg3.win 11).blk t).view.emb j : S40000x128.Idx) = ix2 (rowOf t.val (lt_N3 t) (j 0)) (j 1) := by
  obtain ⟨e0, e1⟩ := idx3_11 t
  funext a; apply Fin.ext
  match a with
  | ⟨0, _⟩ => show win3_11.index t (0 : Fin 2) * 2000 + 1 * (j 0).val = 2000 * t.val + (j 0).val; omega
  | ⟨1, _⟩ => show win3_11.index t (1 : Fin 2) * 128 + 1 * (j 1).val = (j 1).val; omega

set_option maxHeartbeats 1000000 in
/-- What point `t` writes back is block `t` of the update function of the arrays as the region finds them: entry by
    entry, the one-point lemma at the blocks read off the arrays, moved to the entry's place in the array. -/
theorem flushed3_eq (c : Dev nD) (t : Fin cfg3.N) :
    (dat3 (F := Ideal) V c).flushed 11 t = ((cfg3.win 11).blk t).view.read (Elt Ideal) (Cert.RegionFns.UpdF true (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) (V c (Pipeline.arrRef spec3 10))) := by
  show (cfg3.win 11).cut (grid3.coords t) ((dat3 (F := Ideal) V c).after 11 t) = _
  rw [after3_11]
  funext j
  have hp := point3_eq t.val (lt_N3 t) (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) (V c (Pipeline.arrRef spec3 10))
      (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t)
      (iblk3_rows0 V c t) (iblk3_rows1 V c t) (iblk3_whole2 V c t) (iblk3_whole3 V c t) (iblk3_whole4 V c t) (iblk3_whole5 V c t) (iblk3_whole6 V c t) (iblk3_whole7 V c t) (iblk3_whole8 V c t) (iblk3_whole9 V c t) (iblk3_whole10 V c t) j
  have he := emb3_out t j
  show out3_11 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) j = (Cert.RegionFns.UpdF true (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) (V c (Pipeline.arrRef spec3 10))) (((cfg3.win 11).blk t).view.emb j)
  rw [he]
  exact hp

/-- An index of the array is in point `t`'s block iff each coordinate is in the block's range on its axis. -/
theorem mem3_blk (t : Fin cfg3.N) (i : S40000x128.Idx) :
    i ∈ ((cfg3.win 11).blk t).view.set ↔ ∀ a : Fin 2, win3_11.index t a * S2000x128.size a ≤ (i a).val ∧ (i a).val < win3_11.index t a * S2000x128.size a + S2000x128.size a := by
  show i ∈ ((View.whole (Pipeline.arrRef spec3 11)).slice (win3_11.rect t)).set ↔ _
  rw [View.set_slice_whole, Rect.mem_set_unit]
  exact Iff.rfl

/-- Every index of the array is in some point's block: row `r` is in the block of point `r / 2000`. -/
theorem cover3 (i : S40000x128.Idx) : ∃ t : Fin cfg3.N, (cfg3.win 11).flush t = true ∧ i ∈ ((cfg3.win 11).blk t).view.set := by
  have hi0 : (i 0).val < 40000 := (i 0).isLt
  have hi1 : (i 1).val < 128 := (i 1).isLt
  have hN : cfg3.N = 20 := N_3
  let t : Fin cfg3.N := ⟨(i 0).val / 2000, by omega⟩
  have htv : t.val = (i 0).val / 2000 := rfl
  obtain ⟨e0, e1⟩ := idx3_11 t
  refine ⟨t, flush3_11 t, ?_⟩
  rw [mem3_blk]
  intro a
  match a with
  | ⟨0, _⟩ => show win3_11.index t (0 : Fin 2) * 2000 ≤ (i 0).val ∧ (i 0).val < win3_11.index t (0 : Fin 2) * 2000 + 2000; omega
  | ⟨1, _⟩ => show win3_11.index t (1 : Fin 2) * 128 ≤ (i 1).val ∧ (i 1).val < win3_11.index t (1 : Fin 2) * 128 + 128; omega

/-- THE OUTPUT ARRAY after all twenty points is the update function of the eleven arrays as the region found them. -/
theorem final3 (c : Dev nD) :
    (dat3 (F := Ideal) V c).arrAt 11 cfg3.N = Cert.RegionFns.UpdF true (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) (V c (Pipeline.arrRef spec3 10)) :=
  (dat3 (F := Ideal) V c).arrAt_eq_of_cover 11 (Cert.RegionFns.UpdF true (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) (V c (Pipeline.arrRef spec3 10))) (fun t _ => flushed3_eq V c t) cover3

end Cert.KernelIdeal.HandVal

end
-- ==== Proof.KI.Val9.lean ====
import proofs.«417300_j83468394430632_3_alg».proof.Proof.KI.R9
import proofs.«417300_j83468394430632_3_alg».proof.Proof.KI.UpdLib
import proofs.«417300_j83468394430632_3_alg».proof.Proof.Val.RegionFns
import Idealize.ShloMosaic.Lib.Pipeline.Value
import Idealize.ShloMosaic.Lib.ValueIdx
import Idealize.ShloMosaic.Lib.ValueLayout
import Idealize.ShloMosaic.PureOps.Ideal.Laws

/-! # What the node-update launch leaves in its output array, over the extended reals

At a grid point the body reads a block of 2000 node rows `h`, the matching block of aggregates `a`, and the
parameters whole. Row `p` of the block goes through two affine maps. The hidden row has 256 entries: entry `j` is
the scaled and shifted image of `∑ k, ((1 + eps) h p k + a p k) W1 k j + b1 j`, cut off at zero. The output row has
128 entries: entry `q` is the scaled and shifted image of `∑ j, hidden p j * W2 j q + b2 q`. Format changes are
the identity and a product into the zero accumulator is the plain sum, so the payload at `(p, q)` is exactly that
expression of the loaded blocks. Block `t` of either row window is rows `2000 t … 2000 t + 1999` of its array and the
parameter windows' one block is their whole array, so what point `t` writes back is block `t` of one function of the
eleven arrays; the twenty blocks tile the 40000 rows, hence the output array ends as that function. -/

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Cert.RegionFns (RArr)
open scoped BigOperators

/-! ## The body's payload at an index -/

/-- The stored value at row `p` and column `q` of the block, from the loaded blocks: the second affine map, scaled
    and shifted, of the hidden row, which is the first affine map of `(1 + eps) h + a`, scaled, shifted and
    cut off at zero. Every operation of the payload is pointwise or a row broadcast except the two products. -/
theorem pay9_apply (v0 : Vec Ideal S1x1 .f32) (v4 v8 : Vec Ideal S2000x128 .f32) (v12 : Vec Ideal S128x256 .f32)
    (v16 v20 v26 : Vec Ideal S1x256 .f32) (v33 : Vec Ideal S256x128 .f32) (v37 v41 v47 : Vec Ideal S1x128 .f32)
    (p : Fin 2000) (q : Fin 128) :
    k9_pay1 (k9_pay2 v0 v4 v8 v12 v16 v20 v26 v33) v37 v41 v47 (ix2 p q)
      = v41 (ix2 0 q) * ((∑ j : Fin 256, max (v20 (ix2 0 j) * ((∑ k : Fin 128, ((Cert.Spec.one + v0 (ix2 0 0)) * v4 (ix2 p k) + v8 (ix2 p k)) * v12 (ix2 k j)) + v16 (ix2 0 j)) * Cert.Spec.c + v26 (ix2 0 j)) 0 * v33 (ix2 j q)) + v37 (ix2 0 q)) * Cert.Spec.c + v47 (ix2 0 q) := by
  unfold k9_pay1 k9_pay2
  simp only [maximumf_apply, addf_apply, mulf_apply, broadcast_apply, truncf_apply, shapeCast_self,
    broadcastTo_1b_ab_apply, bcast_one_apply, mmA_apply, mmB_apply, scalar_ofBits, Ideal.ofBits_zero_f32,
    Cert.Spec.one, Cert.Spec.c]

/-! ## One grid point -/

/-- What the body leaves in the output buffer at point `n`, entry by entry, is the update function of the eleven
    arrays at the matching entry of the array: given that the two row blocks are rows `2000 n …` of their arrays and
    the nine parameter blocks are their arrays. -/
theorem point9_eq (n : ℕ) (hn : n < 20)
    (A0 : RArr 40000 128) (A1 : RArr 40000 128) (A2 : RArr 1 1) (A3 : RArr 128 256) (A4 : RArr 1 256) (A5 : RArr 1 256) (A6 : RArr 1 256) (A7 : RArr 256 128) (A8 : RArr 1 128) (A9 : RArr 1 128) (A10 : RArr 1 128)
    (x0 : Vec Ideal S2000x128 .f32) (x1 : Vec Ideal S2000x128 .f32) (x2 : Vec Ideal S1x1 .f32) (x3 : Vec Ideal S128x256 .f32) (x4 : Vec Ideal S1x256 .f32) (x5 : Vec Ideal S1x256 .f32) (x6 : Vec Ideal S1x256 .f32) (x7 : Vec Ideal S256x128 .f32) (x8 : Vec Ideal S1x128 .f32) (x9 : Vec Ideal S1x128 .f32) (x10 : Vec Ideal S1x128 .f32)
    (h0 : ∀ (p : Fin 2000) (k : Fin 128), x0 (ix2 p k) = A0 (ix2 (rowOf n hn p) k))
    (h1 : ∀ (p : Fin 2000) (k : Fin 128), x1 (ix2 p k) = A1 (ix2 (rowOf n hn p) k))
    (h2 : x2 = A2) (h3 : x3 = A3) (h4 : x4 = A4) (h5 : x5 = A5) (h6 : x6 = A6) (h7 : x7 = A7) (h8 : x8 = A8) (h9 : x9 = A9) (h10 : x10 = A10)
    (j : S2000x128.Idx) :
    out9_11 x0 x1 x2 x3 x4 x5 x6 x7 x8 x9 x10 j
      = Cert.RegionFns.UpdF false A0 A1 A2 A3 A4 A5 A6 A7 A8 A9 A10 (ix2 (rowOf n hn (j 0)) (j 1)) := by
  subst h2 h3 h4 h5 h6 h7 h8 h9 h10
  obtain ⟨p, q, rfl⟩ : ∃ (p : Fin 2000) (q : Fin 128), j = ix2 p q := ⟨j 0, j 1, eq_ix2 j⟩
  unfold out9_11
  rw [View.canon_unit_zero hz]
  simp only [View.ld_unit_zero (S := S2000x128) hz, View.ld_unit_zero (S := S1x1) hz, View.ld_unit_zero (S := S128x256) hz,
    View.ld_unit_zero (S := S1x256) hz, View.ld_unit_zero (S := S256x128) hz, View.ld_unit_zero (S := S1x128) hz]
  rw [pay9_apply]
  simp only [h0, h1]
  rfl

/-! ## The windows' blocks as parts of their arrays -/

/-- The printed block indices over the grid: the two row windows and the output walk the rows block by block, every
    parameter window stays at its one block. -/
theorem idx9_0 : ∀ t : Fin cfg9.N, win9_0.index t (0 : Fin 2) = t.val ∧ win9_0.index t (1 : Fin 2) = 0 :=
  (by decide +kernel : ∀ t : Fin grid9.N, _)
theorem idx9_1 : ∀ t : Fin cfg9.N, win9_1.index t (0 : Fin 2) = t.val ∧ win9_1.index t (1 : Fin 2) = 0 :=
  (by decide +kernel : ∀ t : Fin grid9.N, _)
theorem idx9_2 : ∀ t : Fin cfg9.N, win9_2.index t (0 : Fin 2) = 0 ∧ win9_2.index t (1 : Fin 2) = 0 :=
  (by decide +kernel : ∀ t : Fin grid9.N, _)
theorem idx9_3 : ∀ t : Fin cfg9.N, win9_3.index t (0 : Fin 2) = 0 ∧ win9_3.index t (1 : Fin 2) = 0 :=
  (by decide +kernel : ∀ t : Fin grid9.N, _)
theorem idx9_4 : ∀ t : Fin cfg9.N, win9_4.index t (0 : Fin 2) = 0 ∧ win9_4.index t (1 : Fin 2) = 0 :=
  (by decide +kernel : ∀ t : Fin grid9.N, _)
theorem idx9_5 : ∀ t : Fin cfg9.N, win9_5.index t (0 : Fin 2) = 0 ∧ win9_5.index t (1 : Fin 2) = 0 :=
  (by decide +kernel : ∀ t : Fin grid9.N, _)
theorem idx9_6 : ∀ t : Fin cfg9.N, win9_6.index t (0 : Fin 2) = 0 ∧ win9_6.index t (1 : Fin 2) = 0 :=
  (by decide +kernel : ∀ t : Fin grid9.N, _)
theorem idx9_7 : ∀ t : Fin cfg9.N, win9_7.index t (0 : Fin 2) = 0 ∧ win9_7.index t (1 : Fin 2) = 0 :=
  (by decide +kernel : ∀ t : Fin grid9.N, _)
theorem idx9_8 : ∀ t : Fin cfg9.N, win9_8.index t (0 : Fin 2) = 0 ∧ win9_8.index t (1 : Fin 2) = 0 :=
  (by decide +kernel : ∀ t : Fin grid9.N, _)
theorem idx9_9 : ∀ t : Fin cfg9.N, win9_9.index t (0 : Fin 2) = 0 ∧ win9_9.index t (1 : Fin 2) = 0 :=
  (by decide +kernel : ∀ t : Fin grid9.N, _)
theorem idx9_10 : ∀ t : Fin cfg9.N, win9_10.index t (0 : Fin 2) = 0 ∧ win9_10.index t (1 : Fin 2) = 0 :=
  (by decide +kernel : ∀ t : Fin grid9.N, _)
theorem idx9_11 : ∀ t : Fin cfg9.N, win9_11.index t (0 : Fin 2) = t.val ∧ win9_11.index t (1 : Fin 2) = 0 :=
  (by decide +kernel : ∀ t : Fin grid9.N, _)

/-- The grid has twenty points. -/
theorem lt_N9 (t : Fin cfg9.N) : t.val < 20 := by have h : cfg9.N = 20 := N_9; have := t.isLt; omega

variable (V : (c : Dev nD) → (b : Ref sig .tc) → Buf (Elt Ideal) ((c : Thread nD τ).loc b))

/-- Input window 0's block at point `t` is rows `2000 t …` of its array. -/
theorem iblk9_rows0 (c : Dev nD) (t : Fin cfg9.N) (p : Fin 2000) (k : Fin 128) :
    (iblk9 V c 0 t : Vec Ideal S2000x128 .f32) (ix2 p k)
      = (V c (Pipeline.arrRef spec9 0) : S40000x128.Idx → Elt Ideal .f32) (ix2 (rowOf t.val (lt_N9 t) p) k) := by
  obtain ⟨e0, e1⟩ := idx9_0 t
  show (V c (Pipeline.arrRef spec9 0) : S40000x128.Idx → Elt Ideal .f32) (((cfg9.win 0).blk t).view.emb (ix2 p k)) = _
  refine congrArg _ (funext fun a => Fin.ext ?_)
  match a with
  | ⟨0, _⟩ => show win9_0.index t (0 : Fin 2) * 2000 + 1 * p.val = 2000 * t.val + p.val; omega
  | ⟨1, _⟩ => show win9_0.index t (1 : Fin 2) * 128 + 1 * k.val = k.val; omega

/-- Input window 1's block at point `t` is rows `2000 t …` of its array. -/
theorem iblk9_rows1 (c : Dev nD) (t : Fin cfg9.N) (p : Fin 2000) (k : Fin 128) :
    (iblk9 V c 1 t : Vec Ideal S2000x128 .f32) (ix2 p k)
      = (V c (Pipeline.arrRef spec9 1) : S40000x128.Idx → Elt Ideal .f32) (ix2 (rowOf t.val (lt_N9 t) p) k) := by
  obtain ⟨e0, e1⟩ := idx9_1 t
  show (V c (Pipeline.arrRef spec9 1) : S40000x128.Idx → Elt Ideal .f32) (((cfg9.win 1).blk t).view.emb (ix2 p k)) = _
  refine congrArg _ (funext fun a => Fin.ext ?_)
  match a with
  | ⟨0, _⟩ => show win9_1.index t (0 : Fin 2) * 2000 + 1 * p.val = 2000 * t.val + p.val; omega
  | ⟨1, _⟩ => show win9_1.index t (1 : Fin 2) * 128 + 1 * k.val = k.val; omega

/-- Input window 2's one block is its whole array. -/
theorem iblk9_whole2 (c : Dev nD) (t : Fin cfg9.N) :
    (iblk9 V c 2 t : Vec Ideal S1x1 .f32) = (V c (Pipeline.arrRef spec9 2) : S1x1.Idx → Elt Ideal .f32) := by
  obtain ⟨e0, e1⟩ := idx9_2 t
  funext y
  show (V c (Pipeline.arrRef spec9 2) : S1x1.Idx → Elt Ideal .f32) (((cfg9.win 2).blk t).view.emb y) = _
  refine congrArg _ (funext fun a => Fin.ext ?_)
  match a with
  | ⟨0, _⟩ => show win9_2.index t (0 : Fin 2) * 1 + 1 * (y 0).val = (y 0).val; omega
  | ⟨1, _⟩ => show win9_2.index t (1 : Fin 2) * 1 + 1 * (y 1).val = (y 1).val; omega

/-- Input window 3's one block is its whole array. -/
theorem iblk9_whole3 (c : Dev nD) (t : Fin cfg9.N) :
    (iblk9 V c 3 t : Vec Ideal S128x256 .f32) = (V c (Pipeline.arrRef spec9 3) : S128x256.Idx → Elt Ideal .f32) := by
  obtain ⟨e0, e1⟩ := idx9_3 t
  funext y
  show (V c (Pipeline.arrRef spec9 3) : S128x256.Idx → Elt Ideal .f32) (((cfg9.win 3).blk t).view.emb y) = _
  refine congrArg _ (funext fun a => Fin.ext ?_)
  match a with
  | ⟨0, _⟩ => show win9_3.index t (0 : Fin 2) * 128 + 1 * (y 0).val = (y 0).val; omega
  | ⟨1, _⟩ => show win9_3.index t (1 : Fin 2) * 256 + 1 * (y 1).val = (y 1).val; omega

/-- Input window 4's one block is its whole array. -/
theorem iblk9_whole4 (c : Dev nD) (t : Fin cfg9.N) :
    (iblk9 V c 4 t : Vec Ideal S1x256 .f32) = (V c (Pipeline.arrRef spec9 4) : S1x256.Idx → Elt Ideal .f32) := by
  obtain ⟨e0, e1⟩ := idx9_4 t
  funext y
  show (V c (Pipeline.arrRef spec9 4) : S1x256.Idx → Elt Ideal .f32) (((cfg9.win 4).blk t).view.emb y) = _
  refine congrArg _ (funext fun a => Fin.ext ?_)
  match a with
  | ⟨0, _⟩ => show win9_4.index t (0 : Fin 2) * 1 + 1 * (y 0).val = (y 0).val; omega
  | ⟨1, _⟩ => show win9_4.index t (1 : Fin 2) * 256 + 1 * (y 1).val = (y 1).val; omega

/-- Input window 5's one block is its whole array. -/
theorem iblk9_whole5 (c : Dev nD) (t : Fin cfg9.N) :
    (iblk9 V c 5 t : Vec Ideal S1x256 .f32) = (V c (Pipeline.arrRef spec9 5) : S1x256.Idx → Elt Ideal .f32) := by
  obtain ⟨e0, e1⟩ := idx9_5 t
  funext y
  show (V c (Pipeline.arrRef spec9 5) : S1x256.Idx → Elt Ideal .f32) (((cfg9.win 5).blk t).view.emb y) = _
  refine congrArg _ (funext fun a => Fin.ext ?_)
  match a with
  | ⟨0, _⟩ => show win9_5.index t (0 : Fin 2) * 1 + 1 * (y 0).val = (y 0).val; omega
  | ⟨1, _⟩ => show win9_5.index t (1 : Fin 2) * 256 + 1 * (y 1).val = (y 1).val; omega

/-- Input window 6's one block is its whole array. -/
theorem iblk9_whole6 (c : Dev nD) (t : Fin cfg9.N) :
    (iblk9 V c 6 t : Vec Ideal S1x256 .f32) = (V c (Pipeline.arrRef spec9 6) : S1x256.Idx → Elt Ideal .f32) := by
  obtain ⟨e0, e1⟩ := idx9_6 t
  funext y
  show (V c (Pipeline.arrRef spec9 6) : S1x256.Idx → Elt Ideal .f32) (((cfg9.win 6).blk t).view.emb y) = _
  refine congrArg _ (funext fun a => Fin.ext ?_)
  match a with
  | ⟨0, _⟩ => show win9_6.index t (0 : Fin 2) * 1 + 1 * (y 0).val = (y 0).val; omega
  | ⟨1, _⟩ => show win9_6.index t (1 : Fin 2) * 256 + 1 * (y 1).val = (y 1).val; omega

/-- Input window 7's one block is its whole array. -/
theorem iblk9_whole7 (c : Dev nD) (t : Fin cfg9.N) :
    (iblk9 V c 7 t : Vec Ideal S256x128 .f32) = (V c (Pipeline.arrRef spec9 7) : S256x128.Idx → Elt Ideal .f32) := by
  obtain ⟨e0, e1⟩ := idx9_7 t
  funext y
  show (V c (Pipeline.arrRef spec9 7) : S256x128.Idx → Elt Ideal .f32) (((cfg9.win 7).blk t).view.emb y) = _
  refine congrArg _ (funext fun a => Fin.ext ?_)
  match a with
  | ⟨0, _⟩ => show win9_7.index t (0 : Fin 2) * 256 + 1 * (y 0).val = (y 0).val; omega
  | ⟨1, _⟩ => show win9_7.index t (1 : Fin 2) * 128 + 1 * (y 1).val = (y 1).val; omega

/-- Input window 8's one block is its whole array. -/
theorem iblk9_whole8 (c : Dev nD) (t : Fin cfg9.N) :
    (iblk9 V c 8 t : Vec Ideal S1x128 .f32) = (V c (Pipeline.arrRef spec9 8) : S1x128.Idx → Elt Ideal .f32) := by
  obtain ⟨e0, e1⟩ := idx9_8 t
  funext y
  show (V c (Pipeline.arrRef spec9 8) : S1x128.Idx → Elt Ideal .f32) (((cfg9.win 8).blk t).view.emb y) = _
  refine congrArg _ (funext fun a => Fin.ext ?_)
  match a with
  | ⟨0, _⟩ => show win9_8.index t (0 : Fin 2) * 1 + 1 * (y 0).val = (y 0).val; omega
  | ⟨1, _⟩ => show win9_8.index t (1 : Fin 2) * 128 + 1 * (y 1).val = (y 1).val; omega

/-- Input window 9's one block is its whole array. -/
theorem iblk9_whole9 (c : Dev nD) (t : Fin cfg9.N) :
    (iblk9 V c 9 t : Vec Ideal S1x128 .f32) = (V c (Pipeline.arrRef spec9 9) : S1x128.Idx → Elt Ideal .f32) := by
  obtain ⟨e0, e1⟩ := idx9_9 t
  funext y
  show (V c (Pipeline.arrRef spec9 9) : S1x128.Idx → Elt Ideal .f32) (((cfg9.win 9).blk t).view.emb y) = _
  refine congrArg _ (funext fun a => Fin.ext ?_)
  match a with
  | ⟨0, _⟩ => show win9_9.index t (0 : Fin 2) * 1 + 1 * (y 0).val = (y 0).val; omega
  | ⟨1, _⟩ => show win9_9.index t (1 : Fin 2) * 128 + 1 * (y 1).val = (y 1).val; omega

/-- Input window 10's one block is its whole array. -/
theorem iblk9_whole10 (c : Dev nD) (t : Fin cfg9.N) :
    (iblk9 V c 10 t : Vec Ideal S1x128 .f32) = (V c (Pipeline.arrRef spec9 10) : S1x128.Idx → Elt Ideal .f32) := by
  obtain ⟨e0, e1⟩ := idx9_10 t
  funext y
  show (V c (Pipeline.arrRef spec9 10) : S1x128.Idx → Elt Ideal .f32) (((cfg9.win 10).blk t).view.emb y) = _
  refine congrArg _ (funext fun a => Fin.ext ?_)
  match a with
  | ⟨0, _⟩ => show win9_10.index t (0 : Fin 2) * 1 + 1 * (y 0).val = (y 0).val; omega
  | ⟨1, _⟩ => show win9_10.index t (1 : Fin 2) * 128 + 1 * (y 1).val = (y 1).val; omega

/-! ## From the blocks to the array -/

/-- An entry of the output's block at point `t` sits in the array at row `2000 t +` its row, same column. -/
theorem emb9_out (t : Fin cfg9.N) (j : S2000x128.Idx) :
    (((cfg9.win 11).blk t).view.emb j : S40000x128.Idx) = ix2 (rowOf t.val (lt_N9 t) (j 0)) (j 1) := by
  obtain ⟨e0, e1⟩ := idx9_11 t
  funext a; apply Fin.ext
  match a with
  | ⟨0, _⟩ => show win9_11.index t (0 : Fin 2) * 2000 + 1 * (j 0).val = 2000 * t.val + (j 0).val; omega
  | ⟨1, _⟩ => show win9_11.index t (1 : Fin 2) * 128 + 1 * (j 1).val = (j 1).val; omega

set_option maxHeartbeats 1000000 in
/-- What point `t` writes back is block `t` of the update function of the arrays as the region finds them: entry by
    entry, the one-point lemma at the blocks read off the arrays, moved to the entry's place in the array. -/
theorem flushed9_eq (c : Dev nD) (t : Fin cfg9.N) :
    (dat9 (F := Ideal) V c).flushed 11 t = ((cfg9.win 11).blk t).view.read (Elt Ideal) (Cert.RegionFns.UpdF false (V c (Pipeline.arrRef spec9 0)) (V c (Pipeline.arrRef spec9 1)) (V c (Pipeline.arrRef spec9 2)) (V c (Pipeline.arrRef spec9 3)) (V c (Pipeline.arrRef spec9 4)) (V c (Pipeline.arrRef spec9 5)) (V c (Pipeline.arrRef spec9 6)) (V c (Pipeline.arrRef spec9 7)) (V c (Pipeline.arrRef spec9 8)) (V c (Pipeline.arrRef spec9 9)) (V c (Pipeline.arrRef spec9 10))) := by
  show (cfg9.win 11).cut (grid9.coords t) ((dat9 (F := Ideal) V c).after 11 t) = _
  rw [after9_11]
  funext j
  have hp := point9_eq t.val (lt_N9 t) (V c (Pipeline.arrRef spec9 0)) (V c (Pipeline.arrRef spec9 1)) (V c (Pipeline.arrRef spec9 2)) (V c (Pipeline.arrRef spec9 3)) (V c (Pipeline.arrRef spec9 4)) (V c (Pipeline.arrRef spec9 5)) (V c (Pipeline.arrRef spec9 6)) (V c (Pipeline.arrRef spec9 7)) (V c (Pipeline.arrRef spec9 8)) (V c (Pipeline.arrRef spec9 9)) (V c (Pipeline.arrRef spec9 10))
      (iblk9 V c 0 t) (iblk9 V c 1 t) (iblk9 V c 2 t) (iblk9 V c 3 t) (iblk9 V c 4 t) (iblk9 V c 5 t) (iblk9 V c 6 t) (iblk9 V c 7 t) (iblk9 V c 8 t) (iblk9 V c 9 t) (iblk9 V c 10 t)
      (iblk9_rows0 V c t) (iblk9_rows1 V c t) (iblk9_whole2 V c t) (iblk9_whole3 V c t) (iblk9_whole4 V c t) (iblk9_whole5 V c t) (iblk9_whole6 V c t) (iblk9_whole7 V c t) (iblk9_whole8 V c t) (iblk9_whole9 V c t) (iblk9_whole10 V c t) j
  have he := emb9_out t j
  show out9_11 (iblk9 V c 0 t) (iblk9 V c 1 t) (iblk9 V c 2 t) (iblk9 V c 3 t) (iblk9 V c 4 t) (iblk9 V c 5 t) (iblk9 V c 6 t) (iblk9 V c 7 t) (iblk9 V c 8 t) (iblk9 V c 9 t) (iblk9 V c 10 t) j = (Cert.RegionFns.UpdF false (V c (Pipeline.arrRef spec9 0)) (V c (Pipeline.arrRef spec9 1)) (V c (Pipeline.arrRef spec9 2)) (V c (Pipeline.arrRef spec9 3)) (V c (Pipeline.arrRef spec9 4)) (V c (Pipeline.arrRef spec9 5)) (V c (Pipeline.arrRef spec9 6)) (V c (Pipeline.arrRef spec9 7)) (V c (Pipeline.arrRef spec9 8)) (V c (Pipeline.arrRef spec9 9)) (V c (Pipeline.arrRef spec9 10))) (((cfg9.win 11).blk t).view.emb j)
  rw [he]
  exact hp

/-- An index of the array is in point `t`'s block iff each coordinate is in the block's range on its axis. -/
theorem mem9_blk (t : Fin cfg9.N) (i : S40000x128.Idx) :
    i ∈ ((cfg9.win 11).blk t).view.set ↔ ∀ a : Fin 2, win9_11.index t a * S2000x128.size a ≤ (i a).val ∧ (i a).val < win9_11.index t a * S2000x128.size a + S2000x128.size a := by
  show i ∈ ((View.whole (Pipeline.arrRef spec9 11)).slice (win9_11.rect t)).set ↔ _
  rw [View.set_slice_whole, Rect.mem_set_unit]
  exact Iff.rfl

/-- Every index of the array is in some point's block: row `r` is in the block of point `r / 2000`. -/
theorem cover9 (i : S40000x128.Idx) : ∃ t : Fin cfg9.N, (cfg9.win 11).flush t = true ∧ i ∈ ((cfg9.win 11).blk t).view.set := by
  have hi0 : (i 0).val < 40000 := (i 0).isLt
  have hi1 : (i 1).val < 128 := (i 1).isLt
  have hN : cfg9.N = 20 := N_9
  let t : Fin cfg9.N := ⟨(i 0).val / 2000, by omega⟩
  have htv : t.val = (i 0).val / 2000 := rfl
  obtain ⟨e0, e1⟩ := idx9_11 t
  refine ⟨t, flush9_11 t, ?_⟩
  rw [mem9_blk]
  intro a
  match a with
  | ⟨0, _⟩ => show win9_11.index t (0 : Fin 2) * 2000 ≤ (i 0).val ∧ (i 0).val < win9_11.index t (0 : Fin 2) * 2000 + 2000; omega
  | ⟨1, _⟩ => show win9_11.index t (1 : Fin 2) * 128 ≤ (i 1).val ∧ (i 1).val < win9_11.index t (1 : Fin 2) * 128 + 128; omega

/-- THE OUTPUT ARRAY after all twenty points is the update function of the eleven arrays as the region found them. -/
theorem final9 (c : Dev nD) :
    (dat9 (F := Ideal) V c).arrAt 11 cfg9.N = Cert.RegionFns.UpdF false (V c (Pipeline.arrRef spec9 0)) (V c (Pipeline.arrRef spec9 1)) (V c (Pipeline.arrRef spec9 2)) (V c (Pipeline.arrRef spec9 3)) (V c (Pipeline.arrRef spec9 4)) (V c (Pipeline.arrRef spec9 5)) (V c (Pipeline.arrRef spec9 6)) (V c (Pipeline.arrRef spec9 7)) (V c (Pipeline.arrRef spec9 8)) (V c (Pipeline.arrRef spec9 9)) (V c (Pipeline.arrRef spec9 10)) :=
  (dat9 (F := Ideal) V c).arrAt_eq_of_cover 11 (Cert.RegionFns.UpdF false (V c (Pipeline.arrRef spec9 0)) (V c (Pipeline.arrRef spec9 1)) (V c (Pipeline.arrRef spec9 2)) (V c (Pipeline.arrRef spec9 3)) (V c (Pipeline.arrRef spec9 4)) (V c (Pipeline.arrRef spec9 5)) (V c (Pipeline.arrRef spec9 6)) (V c (Pipeline.arrRef spec9 7)) (V c (Pipeline.arrRef spec9 8)) (V c (Pipeline.arrRef spec9 9)) (V c (Pipeline.arrRef spec9 10))) (fun t _ => flushed9_eq V c t) cover9

end Cert.KernelIdeal.HandVal

end
-- ==== Proof.Ref.RefEnc.lean ====
/-
  The encoder of the reference program: the first node table is the affine image of the node features.

  Element (n, d) of the product of x and the encoder matrix is the sum over k of x (n, k) times W (k, d); the bias row,
  broadcast down the rows, adds b d.
-/
import proofs.«417300_j83468394430632_3_alg».proof.Proof.Ref.ReadP
import proofs.«417300_j83468394430632_3_alg».proof.Proof.Val.Spec

noncomputable section

open scoped BigOperators

namespace Cert.ReferenceIdeal.RefValue

open Cert.ReferenceIdeal Cert.ReferenceIdeal.Gen Idealize.ShloMosaic Idealize.ShloMosaic.ValueIdx

/-- The encoder's table at (n, d) is row n of x times the encoder matrix, plus the bias. -/
theorem ref_enc (x0 : (⟨S40000x128, .f32⟩ : BufTy).Contents (Elt Ideal)) (x2 : (⟨S128x128, .f32⟩ : BufTy).Contents (Elt Ideal))
    (x3 : (⟨S128, .f32⟩ : BufTy).Contents (Elt Ideal)) (n : Fin 40000) (d : Fin 128) :
    ReadP.val_main_v7 (F := Ideal) x0 x2 x3 (ix2 n d)
      = Cert.Spec.lin (fun n k => x0 (ix2 n k)) (fun k d => x2 (ix2 k d)) (fun d => x3 (ix1 d)) n d := by
  have e1 : ∀ k : Fin 128, ReadP.lidx_main_v4 (ix2 n d) k = ix2 n k := fun k => by
    funext a; refine Fin.ext ?_
    match a with
    | ⟨0, _⟩ => rfl
    | ⟨1, _⟩ => rfl
  have e2 : ∀ k : Fin 128, ReadP.ridx_main_v4 (ix2 n d) k = ix2 k d := fun k => by
    funext a; refine Fin.ext ?_
    match a with
    | ⟨0, _⟩ => rfl
    | ⟨1, _⟩ => rfl
  have e3 : ReadP.idx_main_v5 (ReadP.idx_main_v6 (ix2 n d)) = ix1 d := by
    funext a; refine Fin.ext ?_
    match a with
    | ⟨0, _⟩ => rfl
  simp only [ReadP.val_main_v7_apply, ReadP.val_main_v4_apply, ReadP.val_main_v6_apply, ReadP.val_main_v5_apply, e1, e2, e3,
    Ideal.addf_def]
  rfl

end Cert.ReferenceIdeal.RefValue

end
-- ==== Proof.Ref.RefLib.lean ====
/-
  The host operations of the reference program that are read by hand, each at one element.

  A gather of table rows by a column of ids reads, for an edge whose id is the word of a node number, that node's row.
  The normalisation of an id (the id plus the number of nodes when it is negative read signed) leaves the word of a
  node number as it is. The concatenation of two tables of 128 columns along the columns reads the first table in
  the first 128 columns and the second table in the last 128, so a sum over the 256 columns is the sum over the first
  table's columns plus the sum over the second's. The accumulating scatter of the edges' rows into a table of zeros
  by the target ids is the sum, over the edges whose target is the node, of the edge's row. A one-element vector
  reshaped to a scalar is its element.
-/
import proofs.«417300_j83468394430632_3_alg».proof.Proof.Gen.ReferenceIdeal
import proofs.«417300_j83468394430632_3_alg».proof.Proof.LibSeg
import proofs.«417300_j83468394430632_3_alg».proof.Proof.Val.Spec
import Idealize.ShloMosaic.Lib.Pipeline.Value
import Idealize.ShloMosaic.Lib.ValueIdx
import Mathlib.Algebra.BigOperators.Fin

noncomputable section

open scoped BigOperators

namespace Cert.ReferenceIdeal.RefValue

open Cert.ReferenceIdeal Cert.ReferenceIdeal.Gen Idealize.ShloMosaic Idealize.ShloMosaic.ValueIdx

/-- The word of a node number is below 2^31. -/
theorem node_word_lt (g : Fin 40000) : (BitVec.ofNat 32 g.val).toNat < 2 ^ 31 := by
  rw [BitVec.toNat_ofNat]
  have := g.isLt
  omega

/-- Two node numbers with the same word are equal. -/
theorem node_word_inj (a b : Fin 40000) (h : BitVec.ofNat 32 a.val = BitVec.ofNat 32 b.val) : a = b := by
  have h' := congrArg BitVec.toNat h
  rw [BitVec.toNat_ofNat, BitVec.toNat_ofNat] at h'
  have ha := a.isLt
  have hb := b.isLt
  exact Fin.ext (by omega)

/-- The normalised id of a word of a node number is the word itself. -/
theorem norm_id (w : BitVec 32) (a : BitVec 32) (g : Fin 40000) (hw : w = BitVec.ofNat 32 g.val) :
    Scalar.select (IntOp.cmpi .slt w 0#32) a w = BitVec.ofNat 32 g.val := by
  rw [Cert.LibSeg.select_slt_zero w a (by rw [hw]; exact node_word_lt g), hw]

/-- The gather of rows: the edge whose id is the word of node g reads row g of the table. -/
theorem gather_row (h : (⟨S40000x128, .f32⟩ : BufTy).Contents (Elt Ideal))
    (idx : (⟨S640000x1, .i32⟩ : BufTy).Contents (Elt Ideal)) (e : Fin 640000) (k : Fin 128) (g : Fin 40000)
    (hg : idx (ix2 e 0) = BitVec.ofNat 32 g.val) :
    Host.gather gather_S40000x128_S640000x1_S640000x128_1_0_n_n_0_1_1128 h idx (ix2 e k) = h (ix2 g k) :=
  Cert.LibSeg.row_gather_ofNat (G := 40000) (N := 640000) (C := 128) (by norm_num) _ h idx e k g hg

/-- Column k of the first 128 among 256 columns. -/
def lo (k : Fin 128) : Fin 256 := ⟨k.val, by have := k.isLt; omega⟩

/-- Column k of the last 128 among 256 columns. -/
def hi (k : Fin 128) : Fin 256 := ⟨128 + k.val, by have := k.isLt; omega⟩

/-- The concatenation along the columns, read in the first 128 columns: the first table. -/
theorem concat_left (a b : (⟨S640000x128, .f32⟩ : BufTy).Contents (Elt Ideal)) (e : Fin 640000) (k : Fin 128) :
    concatenate S640000x256 1 [⟨S640000x128, a⟩, ⟨S640000x128, b⟩] concatenates_S640000x128_S640000x128_S640000x256_d1
      (ix2 e (lo k)) = a (ix2 e k) :=
  concatenate_pair_apply_left (t := S640000x256) (s₁ := S640000x128) (s₂ := S640000x128) 1 a b
    concatenates_S640000x128_S640000x128_S640000x256_d1 (ix2 e (lo k)) rfl (ix2 e k) (fun c => by
    match c with
    | ⟨0, _⟩ => rfl
    | ⟨1, _⟩ => rfl)

/-- The concatenation along the columns, read in the last 128 columns: the second table. -/
theorem concat_right (a b : (⟨S640000x128, .f32⟩ : BufTy).Contents (Elt Ideal)) (e : Fin 640000) (k : Fin 128) :
    concatenate S640000x256 1 [⟨S640000x128, a⟩, ⟨S640000x128, b⟩] concatenates_S640000x128_S640000x128_S640000x256_d1
      (ix2 e (hi k)) = b (ix2 e k) :=
  concatenate_pair_apply_right (t := S640000x256) (s₁ := S640000x128) (s₂ := S640000x128) 1 a b
    concatenates_S640000x128_S640000x128_S640000x256_d1 (ix2 e (hi k)) rfl rfl (ix2 e k) (fun c hc => by
    match c with
    | ⟨0, _⟩ => rfl
    | ⟨1, _⟩ => exact absurd rfl hc) (by
      show k.val + 128 = 128 + k.val
      omega)

/-- A sum over 256 columns is the sum over the first 128 plus the sum over the last 128. -/
theorem sum_two_halves (f : Fin 256 → EReal) :
    ∑ k : Fin 256, f k = (∑ k : Fin 128, f (lo k)) + ∑ k : Fin 128, f (hi k) :=
  Fin.sum_univ_add (a := 128) (b := 128) f

/-- The accumulating scatter of the edges' rows by the target ids: node n's row is the table's row plus the sum of the
    rows of the edges whose target is n. -/
theorem scatter_seg (z : (⟨S40000x128, .f32⟩ : BufTy).Contents (Elt Ideal))
    (idx : (⟨S640000x1, .i32⟩ : BufTy).Contents (Elt Ideal)) (upd : (⟨S640000x128, .f32⟩ : BufTy).Contents (Elt Ideal))
    (dst : Fin 640000 → Fin 40000) (hidx : ∀ e, idx (ix2 e 0) = BitVec.ofNat 32 (dst e).val) (n : Fin 40000) (d : Fin 128) :
    Host.scatterAdd (F := Ideal) (φ := .f32) scatter_S40000x128_S640000x1_S640000x128_1_0_0_1 z idx upd (ix2 n d)
      = z (ix2 n d) + ∑ e : Fin 640000, if dst e = n then upd (ix2 e d) else 0 := by
  unfold Host.scatterAdd
  rw [Ideal.hostScatterAdd_def]
  refine (Cert.LibSeg.seg_scatterAdd (G := 40000) (N := 640000) (C := 128) _ z idx upd n d).trans ?_
  refine congrArg (fun s => z (ix2 n d) + s) ?_
  refine Finset.sum_congr rfl fun e _ => ?_
  refine if_congr ?_ rfl rfl
  rw [Cert.LibSeg.toInt_eq_natCast_iff _ _ (by have := n.isLt; omega), hidx e]
  exact ⟨fun h => node_word_inj _ _ h, fun h => by rw [h]⟩

/-- Row k, column j of a table of C columns, laid out row after row: the position's quotient by C is k. -/
theorem mat_div {A C : ℕ} (k : Fin A) (j : Fin C) : (k.val * C + j.val) / C % A = k.val := by
  have hC : 0 < C := Nat.lt_of_le_of_lt (Nat.zero_le _) j.isLt
  have h : (k.val * C + j.val) / C = k.val := by
    rw [Nat.mul_comm, Nat.mul_add_div hC, Nat.div_eq_of_lt j.isLt, Nat.add_zero]
  rw [h, Nat.mod_eq_of_lt k.isLt]

/-- Row k, column j of a table of C columns, laid out row after row: the position's remainder by C is j. -/
theorem mat_mod {A C : ℕ} (k : Fin A) (j : Fin C) : (k.val * C + j.val) % C = j.val := by
  rw [Nat.mul_comm, Nat.mul_add_mod, Nat.mod_eq_of_lt j.isLt]

/-- A one-element vector reshaped to a scalar is its element. -/
theorem reshape_scalar (y : (⟨S1, .f32⟩ : BufTy).Contents (Elt Ideal)) (i : S_.Idx) :
    shapeCast S_ y shapeCasts_S1_S_ i = y (ix1 0) := by
  refine shapeCast_apply y shapeCasts_S1_S_ i (ix1 0) ?_
  have h0 : (S_.rowMajor i).val = 0 := Shape.rowMajorPi_zero _ i
  rw [h0, Shape.rowMajor_val_one]
  rfl

end Cert.ReferenceIdeal.RefValue

end
-- ==== Proof.Ref.RefLay0.lean ====
/-
  One layer of the reference program, read element by element: the node table after the layer's second linear map,
  scale and shift (before the layer's last cut-off at zero) is the specified layer, without that cut-off, of the
  node table the layer starts from.

  The ids: the source and target id columns are the two rows of the edge index array; the normalised id (the id plus
  the number of nodes when negative) of a word of a node number is that word, so the two gathers read the source's and
  the target's rows. The edge embedding is the edge attributes times the layer's edge matrix plus its bias. The score
  is the product of the concatenated target and source rows with the 256 attention weights, plus the bias: the sum
  over 256 columns splits into the target's 128 and the source's 128. The gate is one over one plus the exponential
  of minus the score, which is the logistic function. The message is the source's row times the gate plus the edge
  embedding, cut off at zero. The aggregate is the scatter of the messages into zeros by the target ids: the sum over
  the edges whose target is the node. The hidden row and the new row are the two linear maps with their scale by the
  learnt factor and the fixed factor, and their shift.
-/
import proofs.«417300_j83468394430632_3_alg».proof.Proof.Ref.ReadP
import proofs.«417300_j83468394430632_3_alg».proof.Proof.Ref.RefLib
import proofs.«417300_j83468394430632_3_alg».proof.Proof.Val.Params

set_option maxRecDepth 4096

noncomputable section

open scoped BigOperators

namespace Cert.ReferenceIdeal.RefValue.Lay0

open Cert.ReferenceIdeal Cert.ReferenceIdeal.Gen Idealize.ShloMosaic Idealize.ShloMosaic.ValueIdx Cert.ReferenceIdeal.RefValue

variable (x0 : (⟨S40000x128, .f32⟩ : BufTy).Contents (Elt Ideal))
  (x1 : (⟨S640000x16, .f32⟩ : BufTy).Contents (Elt Ideal))
  (x2 : (⟨S128x128, .f32⟩ : BufTy).Contents (Elt Ideal))
  (x3 : (⟨S128, .f32⟩ : BufTy).Contents (Elt Ideal))
  (x4 : (⟨S3x16x128, .f32⟩ : BufTy).Contents (Elt Ideal))
  (x5 : (⟨S3x128, .f32⟩ : BufTy).Contents (Elt Ideal))
  (x6 : (⟨S3x256x1, .f32⟩ : BufTy).Contents (Elt Ideal))
  (x7 : (⟨S3x1, .f32⟩ : BufTy).Contents (Elt Ideal))
  (x8 : (⟨S3, .f32⟩ : BufTy).Contents (Elt Ideal))
  (x9 : (⟨S3x128x256, .f32⟩ : BufTy).Contents (Elt Ideal))
  (x10 : (⟨S3x256, .f32⟩ : BufTy).Contents (Elt Ideal))
  (x11 : (⟨S3x256, .f32⟩ : BufTy).Contents (Elt Ideal))
  (x12 : (⟨S3x256, .f32⟩ : BufTy).Contents (Elt Ideal))
  (x13 : (⟨S3x256x128, .f32⟩ : BufTy).Contents (Elt Ideal))
  (x14 : (⟨S3x128, .f32⟩ : BufTy).Contents (Elt Ideal))
  (x15 : (⟨S3x128, .f32⟩ : BufTy).Contents (Elt Ideal))
  (x16 : (⟨S3x128, .f32⟩ : BufTy).Contents (Elt Ideal))
  (x17 : (⟨S2x640000, .i32⟩ : BufTy).Contents (Elt Ideal))
  (src dst : Fin 640000 → Fin 40000)

include x0 x1 x2 x3 x4 x5 x6 x7 x8 x9 x10 x11 x12 x13 x14 x15 x16 x17

/-- The layer's number. -/
local notation "LL" => (0 : Fin 3)
/-- The network's parameters, read off the argument arrays. -/
local notation "PP" => (Cert.Spec.paramsOf x0 x1 x2 x3 x4 x5 x6 x7 x8 x9 x10 x11 x12 x13 x14 x15 x16)
/-- The node table the layer starts from. -/
local notation "HH" => (fun (n : Fin 40000) (d : Fin 128) => ReadP.val_main_v7 (F := Ideal) x0 x2 x3 (ix2 n d))

/-- The normalised source id of edge e is the word of its source node. -/
theorem src_id (hsrc : ∀ e, x17 (ix2 0 e) = BitVec.ofNat 32 (src e).val) (e : Fin 640000) :
    ReadP.val_main_v21 (F := Ideal) x17 (ix2 e 0) = BitVec.ofNat 32 (src e).val := by
  rw [ReadP.val_main_v21_apply, ReadP.val_main_v20_apply, ReadP.val_main_v17_apply, ReadP.val_main_v16_apply, ReadP.val_main_c_apply]
  refine norm_id _ _ (src e) ?_
  rw [ReadP.val_main_v1_apply, ReadP.val_main_v0_apply]
  refine (congrArg x17 ?_).trans (hsrc e)
  funext a; refine Fin.ext ?_
  match a with
  | ⟨0, _⟩ => rfl
  | ⟨1, _⟩ => exact Nat.mod_eq_of_lt e.isLt

/-- The normalised target id of edge e is the word of its target node. -/
theorem dst_id (hdst : ∀ e, x17 (ix2 1 e) = BitVec.ofNat 32 (dst e).val) (e : Fin 640000) :
    ReadP.val_main_v28 (F := Ideal) x17 (ix2 e 0) = BitVec.ofNat 32 (dst e).val := by
  rw [ReadP.val_main_v28_apply, ReadP.val_main_v27_apply, ReadP.val_main_v24_apply, ReadP.val_main_v23_apply, ReadP.val_main_c_1_apply]
  refine norm_id _ _ (dst e) ?_
  rw [ReadP.val_main_v3_apply, ReadP.val_main_v2_apply]
  refine (congrArg x17 ?_).trans (hdst e)
  funext a; refine Fin.ext ?_
  match a with
  | ⟨0, _⟩ => rfl
  | ⟨1, _⟩ => exact Nat.mod_eq_of_lt e.isLt

/-- The target id of edge e, as the scatter reads it, is the word of its target node. -/
theorem dst_raw (hdst : ∀ e, x17 (ix2 1 e) = BitVec.ofNat 32 (dst e).val) (e : Fin 640000) :
    ReadP.val_main_v50 (F := Ideal) x17 (ix2 e 0) = BitVec.ofNat 32 (dst e).val := by
  rw [ReadP.val_main_v50_apply, ReadP.val_main_v3_apply, ReadP.val_main_v2_apply]
  refine (congrArg x17 ?_).trans (hdst e)
  funext a; refine Fin.ext ?_
  match a with
  | ⟨0, _⟩ => rfl
  | ⟨1, _⟩ => exact Nat.mod_eq_of_lt e.isLt

/-- The gathered source rows: edge e reads its source node's row. -/
theorem xjL (hsrc : ∀ e, x17 (ix2 0 e) = BitVec.ofNat 32 (src e).val) (e : Fin 640000) (k : Fin 128) :
    ReadP.val_main_v22 (F := Ideal) x0 x2 x3 x17 (ix2 e k) = ReadP.val_main_v7 (F := Ideal) x0 x2 x3 (ix2 (src e) k) :=
  gather_row _ _ e k (src e) (src_id x0 x1 x2 x3 x4 x5 x6 x7 x8 x9 x10 x11 x12 x13 x14 x15 x16 x17 src hsrc e)

/-- The gathered target rows: edge e reads its target node's row. -/
theorem xiL (hdst : ∀ e, x17 (ix2 1 e) = BitVec.ofNat 32 (dst e).val) (e : Fin 640000) (k : Fin 128) :
    ReadP.val_main_v29 (F := Ideal) x0 x2 x3 x17 (ix2 e k) = ReadP.val_main_v7 (F := Ideal) x0 x2 x3 (ix2 (dst e) k) :=
  gather_row _ _ e k (dst e) (dst_id x0 x1 x2 x3 x4 x5 x6 x7 x8 x9 x10 x11 x12 x13 x14 x15 x16 x17 dst hdst e)

/-- The first 128 columns of the concatenated rows are the target's row. -/
theorem catL (e : Fin 640000) (k : Fin 128) :
    ReadP.val_main_v30 (F := Ideal) x0 x2 x3 x17 (ix2 e (lo k)) = ReadP.val_main_v29 (F := Ideal) x0 x2 x3 x17 (ix2 e k) :=
  concat_left _ _ e k

/-- The last 128 columns of the concatenated rows are the source's row. -/
theorem catR (e : Fin 640000) (k : Fin 128) :
    ReadP.val_main_v30 (F := Ideal) x0 x2 x3 x17 (ix2 e (hi k)) = ReadP.val_main_v22 (F := Ideal) x0 x2 x3 x17 (ix2 e k) :=
  concat_right _ _ e k

/-- The edge embedding of edge e in column d. -/
theorem edgeL (e : Fin 640000) (d : Fin 128) :
    ReadP.val_main_v15 (F := Ideal) x1 x4 x5 (ix2 e d) = Cert.Spec.lin (PP).ea ((PP).eW LL) ((PP).eb LL) e d := by
  have e1 : ∀ k : Fin 16, ReadP.lidx_main_v10 (ix2 e d) k = ix2 e k := fun k => by
    funext a; refine Fin.ext ?_
    match a with
    | ⟨0, _⟩ => rfl
    | ⟨1, _⟩ => rfl
  have e2 : ∀ k : Fin 16, ReadP.idx_main_v8 (ReadP.idx_main_v9 (ReadP.ridx_main_v10 (ix2 e d) k)) = ix3 LL k d := fun k => by
    funext a; refine Fin.ext ?_
    match a with
    | ⟨0, _⟩ => rfl
    | ⟨1, _⟩ => exact mat_div k d
    | ⟨2, _⟩ => exact mat_mod k d
  have e3 : ReadP.idx_main_v11 (ReadP.idx_main_v12 (ReadP.idx_main_v13 (ReadP.idx_main_v14 (ix2 e d)))) = ix2 LL d := by
    funext a; refine Fin.ext ?_
    match a with
    | ⟨0, _⟩ => rfl
    | ⟨1, _⟩ => exact Nat.mod_eq_of_lt d.isLt
  simp only [ReadP.val_main_v15_apply, ReadP.val_main_v10_apply, ReadP.val_main_v9_apply, ReadP.val_main_v8_apply, ReadP.val_main_v14_apply, ReadP.val_main_v13_apply, ReadP.val_main_v12_apply, ReadP.val_main_v11_apply, e1, e2, e3, Ideal.addf_def]
  rfl

/-- The score of edge e: the target's row against the first 128 weights, the source's row against the last 128. -/
theorem scoreL (hsrc : ∀ e, x17 (ix2 0 e) = BitVec.ofNat 32 (src e).val)
    (hdst : ∀ e, x17 (ix2 1 e) = BitVec.ofNat 32 (dst e).val) (e : Fin 640000) :
    ReadP.val_main_v38 (F := Ideal) x0 x2 x3 x6 x7 x17 (ix2 e 0)
      = Cert.Spec.score (HH (dst e)) (HH (src e)) ((PP).aw LL) ((PP).ab LL) := by
  have e1 : ∀ k : Fin 256, ReadP.lidx_main_v33 (ix2 e 0) k = ix2 e k := fun k => by
    funext a; refine Fin.ext ?_
    match a with
    | ⟨0, _⟩ => rfl
    | ⟨1, _⟩ => rfl
  have e2 : ∀ k : Fin 256, ReadP.idx_main_v31 (ReadP.idx_main_v32 (ReadP.ridx_main_v33 (ix2 e 0) k)) = ix3 LL k 0 := fun k => by
    funext a; refine Fin.ext ?_
    match a with
    | ⟨0, _⟩ => rfl
    | ⟨1, _⟩ => exact mat_div k (0 : Fin 1)
    | ⟨2, _⟩ => rfl
  have e3 : ReadP.idx_main_v34 (ReadP.idx_main_v35 (ReadP.idx_main_v36 (ReadP.idx_main_v37 (ix2 e 0)))) = ix2 LL 0 := by
    funext a; refine Fin.ext ?_
    match a with
    | ⟨0, _⟩ => rfl
    | ⟨1, _⟩ => rfl
  simp only [ReadP.val_main_v38_apply, ReadP.val_main_v33_apply, ReadP.val_main_v32_apply, ReadP.val_main_v31_apply, ReadP.val_main_v37_apply, ReadP.val_main_v36_apply, ReadP.val_main_v35_apply, ReadP.val_main_v34_apply, e1, e2, e3, Ideal.addf_def]
  rw [sum_two_halves]
  simp only [catL x0 x1 x2 x3 x4 x5 x6 x7 x8 x9 x10 x11 x12 x13 x14 x15 x16 x17, catR x0 x1 x2 x3 x4 x5 x6 x7 x8 x9 x10 x11 x12 x13 x14 x15 x16 x17, xiL x0 x1 x2 x3 x4 x5 x6 x7 x8 x9 x10 x11 x12 x13 x14 x15 x16 x17 dst hdst, xjL x0 x1 x2 x3 x4 x5 x6 x7 x8 x9 x10 x11 x12 x13 x14 x15 x16 x17 src hsrc]
  rfl

/-- The message of edge e in column d. -/
theorem msgL (hsrc : ∀ e, x17 (ix2 0 e) = BitVec.ofNat 32 (src e).val)
    (hdst : ∀ e, x17 (ix2 1 e) = BitVec.ofNat 32 (dst e).val) (e : Fin 640000) (d : Fin 128) :
    ReadP.val_main_v48 (F := Ideal) x0 x1 x2 x3 x4 x5 x6 x7 x17 (ix2 e d)
      = Cert.Spec.msg HH src dst (PP).ea ((PP).eW LL) ((PP).eb LL) ((PP).aw LL) ((PP).ab LL) e d := by
  have e1 : ReadP.idx_main_v45 (ix2 e d) = ix2 e 0 := by
    funext a; refine Fin.ext ?_
    match a with
    | ⟨0, _⟩ => rfl
    | ⟨1, _⟩ => rfl
  simp only [ReadP.val_main_v48_apply, ReadP.val_main_v47_apply, ReadP.val_main_v46_apply, ReadP.val_main_v45_apply, ReadP.val_main_v44_apply, ReadP.val_main_v43_apply, ReadP.val_main_cst_3_apply, ReadP.val_main_v42_apply, ReadP.val_main_v41_apply, ReadP.val_main_cst_apply, ReadP.val_main_v40_apply, ReadP.val_main_v39_apply, ReadP.val_main_call0_v0_apply, ReadP.val_main_call0_cst_apply, e1,
    scoreL x0 x1 x2 x3 x4 x5 x6 x7 x8 x9 x10 x11 x12 x13 x14 x15 x16 x17 src dst hsrc hdst, edgeL x0 x1 x2 x3 x4 x5 x6 x7 x8 x9 x10 x11 x12 x13 x14 x15 x16 x17]
  simp only [xjL x0 x1 x2 x3 x4 x5 x6 x7 x8 x9 x10 x11 x12 x13 x14 x15 x16 x17 src hsrc, Ideal.maximumf_def, Ideal.addf_def, Ideal.mulf_def, Ideal.hostDivf_def, Ideal.hostUnary_exp_def, Ideal.hostNegf_def,
    Ideal.negf_def, Ideal.ofBits_def, Cert.LibSeg.ofBits_one_f32, Ideal.ofBits_zero_f32]
  rfl

/-- The aggregate of node n in column d: the sum of the messages of the edges whose target is n. -/
theorem aggL (hsrc : ∀ e, x17 (ix2 0 e) = BitVec.ofNat 32 (src e).val)
    (hdst : ∀ e, x17 (ix2 1 e) = BitVec.ofNat 32 (dst e).val) (n : Fin 40000) (d : Fin 128) :
    ReadP.val_main_v51 (F := Ideal) x0 x1 x2 x3 x4 x5 x6 x7 x17 (ix2 n d)
      = Cert.Spec.agg (Cert.Spec.msg HH src dst (PP).ea ((PP).eW LL) ((PP).eb LL) ((PP).aw LL) ((PP).ab LL)) dst n d := by
  refine (scatter_seg _ _ _ dst (dst_raw x0 x1 x2 x3 x4 x5 x6 x7 x8 x9 x10 x11 x12 x13 x14 x15 x16 x17 dst hdst) n d).trans ?_
  rw [ReadP.val_main_v49_apply, ReadP.val_main_cst_4_apply]
  simp only [msgL x0 x1 x2 x3 x4 x5 x6 x7 x8 x9 x10 x11 x12 x13 x14 x15 x16 x17 src dst hsrc hdst, Ideal.ofBits_def, Ideal.ofBits_zero_f32, zero_add]
  rfl

/-- The layer's eps, read as a scalar. -/
theorem epsL (i : S_.Idx) : ReadP.val_main_v53 (F := Ideal) x8 i = (PP).eps LL := by
  refine (reshape_scalar _ i).trans ?_
  rw [ReadP.val_main_v52_apply]
  refine congrArg x8 ?_
  funext a; refine Fin.ext ?_
  match a with
  | ⟨0, _⟩ => rfl

/-- The hidden row of node n in column j. -/
theorem hidL (hsrc : ∀ e, x17 (ix2 0 e) = BitVec.ofNat 32 (src e).val)
    (hdst : ∀ e, x17 (ix2 1 e) = BitVec.ofNat 32 (dst e).val) (n : Fin 40000) (j : Fin 256) :
    ReadP.val_main_v78 (F := Ideal) x0 x1 x2 x3 x4 x5 x6 x7 x8 x9 x10 x11 x12 x17 (ix2 n j)
      = Cert.Spec.hid HH (Cert.Spec.agg (Cert.Spec.msg HH src dst (PP).ea ((PP).eW LL) ((PP).eb LL) ((PP).aw LL) ((PP).ab LL)) dst)
          ((PP).eps LL) ((PP).W1 LL) ((PP).b1 LL) ((PP).g1 LL) ((PP).s1 LL) n j := by
  have e1 : ∀ k : Fin 128, ReadP.lidx_main_v60 (ix2 n j) k = ix2 n k := fun k => by
    funext a; refine Fin.ext ?_
    match a with
    | ⟨0, _⟩ => rfl
    | ⟨1, _⟩ => rfl
  have e2 : ∀ k : Fin 128, ReadP.idx_main_v58 (ReadP.idx_main_v59 (ReadP.ridx_main_v60 (ix2 n j) k)) = ix3 LL k j := fun k => by
    funext a; refine Fin.ext ?_
    match a with
    | ⟨0, _⟩ => rfl
    | ⟨1, _⟩ => exact mat_div k j
    | ⟨2, _⟩ => exact mat_mod k j
  have e3 : ReadP.idx_main_v61 (ReadP.idx_main_v62 (ReadP.idx_main_v63 (ReadP.idx_main_v64 (ix2 n j)))) = ix2 LL j := by
    funext a; refine Fin.ext ?_
    match a with
    | ⟨0, _⟩ => rfl
    | ⟨1, _⟩ => exact Nat.mod_eq_of_lt j.isLt
  have e4 : ReadP.idx_main_v66 (ReadP.idx_main_v67 (ReadP.idx_main_v70 (ReadP.idx_main_v71 (ix2 n j)))) = ix2 LL j := by
    funext a; refine Fin.ext ?_
    match a with
    | ⟨0, _⟩ => rfl
    | ⟨1, _⟩ => exact Nat.mod_eq_of_lt j.isLt
  have e5 : ReadP.idx_main_v68 (ReadP.idx_main_v69 (ReadP.idx_main_v75 (ReadP.idx_main_v76 (ix2 n j)))) = ix2 LL j := by
    funext a; refine Fin.ext ?_
    match a with
    | ⟨0, _⟩ => rfl
    | ⟨1, _⟩ => exact Nat.mod_eq_of_lt j.isLt
  simp only [ReadP.val_main_v78_apply, ReadP.val_main_v77_apply, ReadP.val_main_v74_apply, ReadP.val_main_v72_apply, ReadP.val_main_v71_apply, ReadP.val_main_v70_apply, ReadP.val_main_v67_apply, ReadP.val_main_v66_apply, ReadP.val_main_v65_apply, ReadP.val_main_v60_apply, ReadP.val_main_v59_apply, ReadP.val_main_v58_apply, ReadP.val_main_v64_apply, ReadP.val_main_v63_apply, ReadP.val_main_v62_apply, ReadP.val_main_v61_apply, ReadP.val_main_v73_apply, ReadP.val_main_cst_6_apply, ReadP.val_main_v76_apply, ReadP.val_main_v75_apply, ReadP.val_main_v69_apply, ReadP.val_main_v68_apply, ReadP.val_main_call1_v0_apply, ReadP.val_main_call1_cst_apply, ReadP.val_main_v57_apply, ReadP.val_main_v56_apply, ReadP.val_main_v55_apply, ReadP.val_main_v54_apply, ReadP.val_main_cst_5_apply,
    e1, e2, e3, e4, e5, epsL x0 x1 x2 x3 x4 x5 x6 x7 x8 x9 x10 x11 x12 x13 x14 x15 x16 x17, aggL x0 x1 x2 x3 x4 x5 x6 x7 x8 x9 x10 x11 x12 x13 x14 x15 x16 x17 src dst hsrc hdst]
  simp only [Ideal.maximumf_def, Ideal.addf_def, Ideal.mulf_def, Ideal.ofBits_def, Ideal.ofBits_zero_f32]
  rfl

/-- The node's new row before the layer's last cut-off, in column d. -/
theorem preL (hsrc : ∀ e, x17 (ix2 0 e) = BitVec.ofNat 32 (src e).val)
    (hdst : ∀ e, x17 (ix2 1 e) = BitVec.ofNat 32 (dst e).val) (n : Fin 40000) (d : Fin 128) :
    ReadP.val_main_v98 (F := Ideal) x0 x1 x2 x3 x4 x5 x6 x7 x8 x9 x10 x11 x12 x13 x14 x15 x16 x17 (ix2 n d)
      = Cert.Spec.layerP PP src dst LL false HH n d := by
  have e1 : ∀ k : Fin 256, ReadP.lidx_main_v81 (ix2 n d) k = ix2 n k := fun k => by
    funext a; refine Fin.ext ?_
    match a with
    | ⟨0, _⟩ => rfl
    | ⟨1, _⟩ => rfl
  have e2 : ∀ k : Fin 256, ReadP.idx_main_v79 (ReadP.idx_main_v80 (ReadP.ridx_main_v81 (ix2 n d) k)) = ix3 LL k d := fun k => by
    funext a; refine Fin.ext ?_
    match a with
    | ⟨0, _⟩ => rfl
    | ⟨1, _⟩ => exact mat_div k d
    | ⟨2, _⟩ => exact mat_mod k d
  have e3 : ReadP.idx_main_v82 (ReadP.idx_main_v83 (ReadP.idx_main_v84 (ReadP.idx_main_v85 (ix2 n d)))) = ix2 LL d := by
    funext a; refine Fin.ext ?_
    match a with
    | ⟨0, _⟩ => rfl
    | ⟨1, _⟩ => exact Nat.mod_eq_of_lt d.isLt
  have e4 : ReadP.idx_main_v87 (ReadP.idx_main_v88 (ReadP.idx_main_v91 (ReadP.idx_main_v92 (ix2 n d)))) = ix2 LL d := by
    funext a; refine Fin.ext ?_
    match a with
    | ⟨0, _⟩ => rfl
    | ⟨1, _⟩ => exact Nat.mod_eq_of_lt d.isLt
  have e5 : ReadP.idx_main_v89 (ReadP.idx_main_v90 (ReadP.idx_main_v96 (ReadP.idx_main_v97 (ix2 n d)))) = ix2 LL d := by
    funext a; refine Fin.ext ?_
    match a with
    | ⟨0, _⟩ => rfl
    | ⟨1, _⟩ => exact Nat.mod_eq_of_lt d.isLt
  simp only [ReadP.val_main_v98_apply, ReadP.val_main_v95_apply, ReadP.val_main_v93_apply, ReadP.val_main_v92_apply, ReadP.val_main_v91_apply, ReadP.val_main_v88_apply, ReadP.val_main_v87_apply, ReadP.val_main_v86_apply, ReadP.val_main_v81_apply, ReadP.val_main_v80_apply, ReadP.val_main_v79_apply, ReadP.val_main_v85_apply, ReadP.val_main_v84_apply, ReadP.val_main_v83_apply, ReadP.val_main_v82_apply, ReadP.val_main_v94_apply, ReadP.val_main_cst_7_apply, ReadP.val_main_v97_apply, ReadP.val_main_v96_apply, ReadP.val_main_v90_apply, ReadP.val_main_v89_apply,
    e1, e2, e3, e4, e5, hidL x0 x1 x2 x3 x4 x5 x6 x7 x8 x9 x10 x11 x12 x13 x14 x15 x16 x17 src dst hsrc hdst]
  simp only [Ideal.addf_def, Ideal.mulf_def, Ideal.ofBits_def]
  rfl

end Cert.ReferenceIdeal.RefValue.Lay0

end
-- ==== Proof.Ref.RefOut.lean ====
/-
  The reference program computes the specified network.

  The encoder's table is the affine image of the node features. Each of the first two layers ends with a cut-off at
  zero of the table its second linear map, scale and shift produce; the third layer ends without one. So the table
  after a layer is the specified layer of the table before it, and the program's result, the table after the third
  layer, is the network of the parameters read off the argument arrays.
-/
import proofs.«417300_j83468394430632_3_alg».proof.Proof.Ref.RefEnc
import proofs.«417300_j83468394430632_3_alg».proof.Proof.Ref.RefLay0
import proofs.«417300_j83468394430632_3_alg».proof.Proof.Ref.RefLay1
import proofs.«417300_j83468394430632_3_alg».proof.Proof.Ref.RefLay2

noncomputable section

open scoped BigOperators

namespace Cert.ReferenceIdeal.RefValue

open Cert.ReferenceIdeal Cert.ReferenceIdeal.Gen Idealize.ShloMosaic Idealize.ShloMosaic.ValueIdx

/-- A layer with the final cut-off is the layer without it, cut off at zero. -/
theorem layerP_true (P : Cert.Spec.Params) (src dst : Fin 640000 → Fin 40000) (l : Fin 3) (h : Cert.Spec.Mat 40000 128)
    (n : Fin 40000) (d : Fin 128) :
    Cert.Spec.layerP P src dst l true h n d = max (Cert.Spec.layerP P src dst l false h n d) 0 := rfl

variable (x0 : (⟨S40000x128, .f32⟩ : BufTy).Contents (Elt Ideal))
  (x1 : (⟨S640000x16, .f32⟩ : BufTy).Contents (Elt Ideal))
  (x2 : (⟨S128x128, .f32⟩ : BufTy).Contents (Elt Ideal))
  (x3 : (⟨S128, .f32⟩ : BufTy).Contents (Elt Ideal))
  (x4 : (⟨S3x16x128, .f32⟩ : BufTy).Contents (Elt Ideal))
  (x5 : (⟨S3x128, .f32⟩ : BufTy).Contents (Elt Ideal))
  (x6 : (⟨S3x256x1, .f32⟩ : BufTy).Contents (Elt Ideal))
  (x7 : (⟨S3x1, .f32⟩ : BufTy).Contents (Elt Ideal))
  (x8 : (⟨S3, .f32⟩ : BufTy).Contents (Elt Ideal))
  (x9 : (⟨S3x128x256, .f32⟩ : BufTy).Contents (Elt Ideal))
  (x10 : (⟨S3x256, .f32⟩ : BufTy).Contents (Elt Ideal))
  (x11 : (⟨S3x256, .f32⟩ : BufTy).Contents (Elt Ideal))
  (x12 : (⟨S3x256, .f32⟩ : BufTy).Contents (Elt Ideal))
  (x13 : (⟨S3x256x128, .f32⟩ : BufTy).Contents (Elt Ideal))
  (x14 : (⟨S3x128, .f32⟩ : BufTy).Contents (Elt Ideal))
  (x15 : (⟨S3x128, .f32⟩ : BufTy).Contents (Elt Ideal))
  (x16 : (⟨S3x128, .f32⟩ : BufTy).Contents (Elt Ideal))
  (x17 : (⟨S2x640000, .i32⟩ : BufTy).Contents (Elt Ideal))
  (src dst : Fin 640000 → Fin 40000)

/-- The network's parameters, read off the argument arrays. -/
local notation "PP" => (Cert.Spec.paramsOf x0 x1 x2 x3 x4 x5 x6 x7 x8 x9 x10 x11 x12 x13 x14 x15 x16)

/-- The encoder's table is the specified encoder of the parameters. -/
theorem ref_enc_params (n : Fin 40000) (d : Fin 128) :
    ReadP.val_main_v7 (F := Ideal) x0 x2 x3 (ix2 n d) = Cert.Spec.enc PP n d :=
  ref_enc x0 x2 x3 n d

/-- The table after the first layer is the specified first layer of the encoder's table. -/
theorem ref_lay0 (hsrc : ∀ e, x17 (ix2 0 e) = BitVec.ofNat 32 (src e).val)
    (hdst : ∀ e, x17 (ix2 1 e) = BitVec.ofNat 32 (dst e).val) (n : Fin 40000) (d : Fin 128) :
    ReadP.val_main_v99 (F := Ideal) x0 x1 x2 x3 x4 x5 x6 x7 x8 x9 x10 x11 x12 x13 x14 x15 x16 x17 (ix2 n d)
      = Cert.Spec.layerP PP src dst 0 true (fun n d => ReadP.val_main_v7 (F := Ideal) x0 x2 x3 (ix2 n d)) n d := by
  rw [layerP_true, ← Lay0.preL x0 x1 x2 x3 x4 x5 x6 x7 x8 x9 x10 x11 x12 x13 x14 x15 x16 x17 src dst hsrc hdst n d, ReadP.val_main_v99_apply, ReadP.val_main_call2_v0_apply,
    ReadP.val_main_call2_cst_apply, Ideal.maximumf_def, Ideal.ofBits_def, Ideal.ofBits_zero_f32]

/-- The table after the second layer is the specified second layer of the table after the first. -/
theorem ref_lay1 (hsrc : ∀ e, x17 (ix2 0 e) = BitVec.ofNat 32 (src e).val)
    (hdst : ∀ e, x17 (ix2 1 e) = BitVec.ofNat 32 (dst e).val) (n : Fin 40000) (d : Fin 128) :
    ReadP.val_main_v191 (F := Ideal) x0 x1 x2 x3 x4 x5 x6 x7 x8 x9 x10 x11 x12 x13 x14 x15 x16 x17 (ix2 n d)
      = Cert.Spec.layerP PP src dst 1 true (fun n d => ReadP.val_main_v99 (F := Ideal) x0 x1 x2 x3 x4 x5 x6 x7 x8 x9 x10 x11 x12 x13 x14 x15 x16 x17 (ix2 n d)) n d := by
  rw [layerP_true, ← Lay1.preL x0 x1 x2 x3 x4 x5 x6 x7 x8 x9 x10 x11 x12 x13 x14 x15 x16 x17 src dst hsrc hdst n d, ReadP.val_main_v191_apply, ReadP.val_main_call5_v0_apply,
    ReadP.val_main_call5_cst_apply, Ideal.maximumf_def, Ideal.ofBits_def, Ideal.ofBits_zero_f32]

/-- The program's result is the specified third layer, without a final cut-off, of the table after the second. -/
theorem ref_lay2 (hsrc : ∀ e, x17 (ix2 0 e) = BitVec.ofNat 32 (src e).val)
    (hdst : ∀ e, x17 (ix2 1 e) = BitVec.ofNat 32 (dst e).val) (n : Fin 40000) (d : Fin 128) :
    ReadP.val_main_v282 (F := Ideal) x0 x1 x2 x3 x4 x5 x6 x7 x8 x9 x10 x11 x12 x13 x14 x15 x16 x17 (ix2 n d)
      = Cert.Spec.layerP PP src dst 2 false (fun n d => ReadP.val_main_v191 (F := Ideal) x0 x1 x2 x3 x4 x5 x6 x7 x8 x9 x10 x11 x12 x13 x14 x15 x16 x17 (ix2 n d)) n d :=
  Lay2.preL x0 x1 x2 x3 x4 x5 x6 x7 x8 x9 x10 x11 x12 x13 x14 x15 x16 x17 src dst hsrc hdst n d

/-- The reference program's result is the specified network of the parameters read off the argument arrays, under the
    hypothesis that the two rows of the edge index array are the words of the edges' source and target nodes. -/
theorem ref_out (hsrc : ∀ e, x17 (ix2 0 e) = BitVec.ofNat 32 (src e).val)
    (hdst : ∀ e, x17 (ix2 1 e) = BitVec.ofNat 32 (dst e).val) (n : Fin 40000) (d : Fin 128) :
    ReadP.val_main_v282 (F := Ideal) x0 x1 x2 x3 x4 x5 x6 x7 x8 x9 x10 x11 x12 x13 x14 x15 x16 x17 (ix2 n d) = Cert.Spec.net PP src dst n d := by
  have h0 : (fun (n : Fin 40000) (d : Fin 128) => ReadP.val_main_v7 (F := Ideal) x0 x2 x3 (ix2 n d)) = Cert.Spec.enc PP :=
    funext fun n => funext fun d => ref_enc_params x0 x1 x2 x3 x4 x5 x6 x7 x8 x9 x10 x11 x12 x13 x14 x15 x16 n d
  have h1 : (fun (n : Fin 40000) (d : Fin 128) => ReadP.val_main_v99 (F := Ideal) x0 x1 x2 x3 x4 x5 x6 x7 x8 x9 x10 x11 x12 x13 x14 x15 x16 x17 (ix2 n d))
      = Cert.Spec.layerP PP src dst 0 true (Cert.Spec.enc PP) :=
    (funext fun n => funext fun d => ref_lay0 x0 x1 x2 x3 x4 x5 x6 x7 x8 x9 x10 x11 x12 x13 x14 x15 x16 x17 src dst hsrc hdst n d).trans
      (congrArg (Cert.Spec.layerP PP src dst 0 true) h0)
  have h2 : (fun (n : Fin 40000) (d : Fin 128) => ReadP.val_main_v191 (F := Ideal) x0 x1 x2 x3 x4 x5 x6 x7 x8 x9 x10 x11 x12 x13 x14 x15 x16 x17 (ix2 n d))
      = Cert.Spec.layerP PP src dst 1 true (Cert.Spec.layerP PP src dst 0 true (Cert.Spec.enc PP)) :=
    (funext fun n => funext fun d => ref_lay1 x0 x1 x2 x3 x4 x5 x6 x7 x8 x9 x10 x11 x12 x13 x14 x15 x16 x17 src dst hsrc hdst n d).trans
      (congrArg (Cert.Spec.layerP PP src dst 1 true) h1)
  rw [ref_lay2 x0 x1 x2 x3 x4 x5 x6 x7 x8 x9 x10 x11 x12 x13 x14 x15 x16 x17 src dst hsrc hdst n d, h2]
  rfl

end Cert.ReferenceIdeal.RefValue

end
-- ==== Proof.Val.Pre.lean ====
/-
  The precondition, read back at one word of the edge table.

  The precondition is one conjunction of one-bit scalars. Its last two conjuncts say that every word of the
  [2, 640000] edge table, read as a signed 32-bit number, is at least 0, and that every such word is below 40000.
  A conjunction of bits is 1 only when each of them is 1, and a reduction by "and" over a whole array is 1 only
  when every element of the array is 1. So each word w of the table has 0 ≤ w and w < 40000, both read signed.
  A word that is not negative read signed has its top bit clear and reads the same unsigned, so w < 40000 read
  unsigned as well. Such a word is the word of its node's number. Clamping it into [0, 39999] (the larger of 0
  and w, then the smaller of 39999 and that, both signed) leaves it as it is, and so does the normalisation that
  adds 40000 to a word that is negative read signed.

  Nothing here looks at the floating-point conjuncts, so everything is stated for any float model.
-/
import proofs.«417300_j83468394430632_3_alg».proof.Pre_finite_inputs
import proofs.«417300_j83468394430632_3_alg».proof.Proof.Val.Spec
import Idealize.ShloMosaic.Lib.ReduceAll
import Idealize.ShloMosaic.Lib.ValueIdx
import Idealize.ShloMosaic.Lib.StableHlo.Predicate

noncomputable section

namespace Cert.PreDecode

open Idealize.ShloMosaic Idealize.ShloMosaic.ValueIdx Cert.Pre_finite_inputs

/-- The scalar shape has one index. -/
instance : Subsingleton S_.Idx := ⟨fun a b => funext fun d => d.elim0⟩

/-! ## Words -/

/-- A word that is at least 0 and below n, both read signed, for n below 2^31, is below n read unsigned. -/
theorem toNat_lt_of_signed (w : BitVec 32) (n : ℕ) (hn : n < 2 ^ 31)
    (h0 : IntOp.cmpi .sge w 0#32 = 1#1) (h1 : IntOp.cmpi .slt w (BitVec.ofNat 32 n) = 1#1) : w.toNat < n := by
  have hw : 2 * w.toNat < 2 ^ 32 := (Scalar.nonneg_iff w).1 h0
  have hn' : (BitVec.ofNat 32 n).toNat = n := by rw [BitVec.toNat_ofNat]; exact Nat.mod_eq_of_lt (by omega)
  have h2 := (StableHlo.Predicate.slt_iff_toNat (a := w) (b := BitVec.ofNat 32 n) (by omega) (by omega)).1 h1
  omega

/-- The larger of 0 and w, then the smaller of 39999 and that, both signed, is w when w is below 40000 unsigned. -/
theorem clip_eq (w : BitVec 32) (hw : w.toNat < 40000) : IntOp.minsi 39999#32 (IntOp.maxsi 0#32 w) = w := by
  have h0 : (0#32 : BitVec 32).toNat = 0 := rfl
  have h9 : (39999#32 : BitVec 32).toNat = 39999 := rfl
  have hmax : IntOp.maxsi 0#32 w = w := by
    unfold IntOp.maxsi
    rw [if_neg]
    intro h
    have h1 := (StableHlo.Predicate.slt_bool_iff_toNat (a := w) (b := 0#32) (by omega) (by omega)).1 (by rw [h]; rfl)
    omega
  rw [hmax]
  unfold IntOp.minsi
  rw [if_neg]
  intro h
  have h1 := (StableHlo.Predicate.slt_bool_iff_toNat (a := 39999#32) (b := w) (by omega) (by omega)).1 (by rw [h]; rfl)
  omega

/-- The normalisation of an index, the index plus the extent when it is negative read signed, leaves a word below
    40000 unsigned as it is. -/
theorem norm_eq (w a : BitVec 32) (hw : w.toNat < 40000) : Scalar.select (IntOp.cmpi .slt w 0#32) a w = w := by
  unfold Scalar.select
  rw [if_neg]
  intro h
  have h1 := (StableHlo.Predicate.slt_iff_toNat (a := w) (b := 0#32) (by omega) (by decide)).1 h
  have h0 : (0#32 : BitVec 32).toNat = 0 := rfl
  omega

/-! ## The last two conjuncts -/

variable {F : FTy → Type} [FloatOps F] [Facts]

/-- The last part of the conjunction is all ones only when every word of the table is at least the word beside it
    and below 40000, both read signed. -/
theorem part5_signed (a17 : IVec S2x640000 32) (v83 : IVec S_ 1) (v84 : IVec S2x640000 32)
    (h : fn_part5 (F := F) a17 v83 v84 = fun _ => 1#1) (i : S2x640000.Idx) :
    IntOp.cmpi .sge (a17 i) (v84 i) = 1#1 ∧ IntOp.cmpi .slt (a17 i) 40000#32 = 1#1 := by
  have e := congrFun h ix0
  dsimp only [fn_part5, andi] at e
  obtain ⟨e1, h90⟩ := IntOp.andi_eq_one.1 e
  obtain ⟨-, h86⟩ := IntOp.andi_eq_one.1 e1
  exact ⟨Host.reduce_andi_all _ _ _ _ _ h86 i, Host.reduce_andi_all _ _ _ _ _ h90 i⟩

variable (a0 : FVec F S40000x128 .f32) (a1 : FVec F S640000x16 .f32) (a2 : FVec F S128x128 .f32)
  (a3 : FVec F S128 .f32) (a4 : FVec F S3x16x128 .f32) (a5 : FVec F S3x128 .f32) (a6 : FVec F S3x256x1 .f32)
  (a7 : FVec F S3x1 .f32) (a8 : FVec F S3 .f32) (a9 : FVec F S3x128x256 .f32) (a10 : FVec F S3x256 .f32)
  (a11 : FVec F S3x256 .f32) (a12 : FVec F S3x256 .f32) (a13 : FVec F S3x256x128 .f32) (a14 : FVec F S3x128 .f32)
  (a15 : FVec F S3x128 .f32) (a16 : FVec F S3x128 .f32) (a17 : IVec S2x640000 32)

/-- Under the precondition every word of the edge table is at least 0 and below 40000, both read signed. -/
theorem edge_index_signed
    (h : fn (F := F) a0 a1 a2 a3 a4 a5 a6 a7 a8 a9 a10 a11 a12 a13 a14 a15 a16 a17 = fun _ => 1#1)
    (i : S2x640000.Idx) :
    IntOp.cmpi .sge (a17 i) 0#32 = 1#1 ∧ IntOp.cmpi .slt (a17 i) 40000#32 = 1#1 :=
  part5_signed (F := F) a17 _
    (broadcastInDim S2x640000 ![] Facts.bcast_S_S2x640000 (constantI S_ 32 0#32)) h i

/-- THE PRECONDITION DECODED: every word of the edge table is below 40000 read unsigned. -/
theorem edge_index_lt
    (h : fn (F := F) a0 a1 a2 a3 a4 a5 a6 a7 a8 a9 a10 a11 a12 a13 a14 a15 a16 a17 = fun _ => 1#1)
    (i : S2x640000.Idx) : (a17 i).toNat < 40000 :=
  toNat_lt_of_signed (a17 i) 40000 (by decide)
    (edge_index_signed a0 a1 a2 a3 a4 a5 a6 a7 a8 a9 a10 a11 a12 a13 a14 a15 a16 a17 h i).1
    (edge_index_signed a0 a1 a2 a3 a4 a5 a6 a7 a8 a9 a10 a11 a12 a13 a14 a15 a16 a17 h i).2

/-- The source word of edge e is the word of its node's number. -/
theorem src_word
    (h : fn (F := F) a0 a1 a2 a3 a4 a5 a6 a7 a8 a9 a10 a11 a12 a13 a14 a15 a16 a17 = fun _ => 1#1)
    (e : Fin 640000) : a17 (ix2 0 e) = BitVec.ofNat 32 (Cert.Spec.nodeOf (a17 (ix2 0 e))).val :=
  Cert.Spec.word_nodeOf _ (edge_index_lt a0 a1 a2 a3 a4 a5 a6 a7 a8 a9 a10 a11 a12 a13 a14 a15 a16 a17 h _)

/-- The target word of edge e is the word of its node's number. -/
theorem dst_word
    (h : fn (F := F) a0 a1 a2 a3 a4 a5 a6 a7 a8 a9 a10 a11 a12 a13 a14 a15 a16 a17 = fun _ => 1#1)
    (e : Fin 640000) : a17 (ix2 1 e) = BitVec.ofNat 32 (Cert.Spec.nodeOf (a17 (ix2 1 e))).val :=
  Cert.Spec.word_nodeOf _ (edge_index_lt a0 a1 a2 a3 a4 a5 a6 a7 a8 a9 a10 a11 a12 a13 a14 a15 a16 a17 h _)

end Cert.PreDecode

end
-- ==== Proof.Alg.lean ====
/-
  The three frame claims and the value claim, assembled.

  Frames. Each of the two kernel programs runs to its end from any memory, faults nowhere and leaves its eighteen
  argument arrays as launched: the conditional frame of the ten launches, with every launch's record supplied.
  The reference program is a straight line of host operations; its run ends with the result buffer at the last
  stage function of the launch arguments and the arguments untouched, and the frame claim forgets the result.

  Value. Under the precondition every word of edge_index is the word of a node number below 40000, so the
  source and target of every edge are nodes. Read at the ideal instance, each launch's output array is the
  launch's function of the arrays it reads (the encoder's affine map; the gated messages; their sums per target
  node; the two-layer update), so the kernel program's result array is, element by element, the specified
  network of the argument arrays, and so is the reference program's result. The two memories agree on the
  arguments, hence the two results are equal.
-/
import proofs.«417300_j83468394430632_3_alg».proof.Defs
import proofs.«417300_j83468394430632_3_alg».proof.Proof.Gen.Pre_finite_inputs
import proofs.«417300_j83468394430632_3_alg».proof.Proof.KI.RunVal
import proofs.«417300_j83468394430632_3_alg».proof.Proof.KI.Frame
import proofs.«417300_j83468394430632_3_alg».proof.Proof.K.Frame
import proofs.«417300_j83468394430632_3_alg».proof.Proof.KI.KOut
import proofs.«417300_j83468394430632_3_alg».proof.Proof.KI.Val0
import proofs.«417300_j83468394430632_3_alg».proof.Proof.KI.Val1
import proofs.«417300_j83468394430632_3_alg».proof.Proof.KI.Val2
import proofs.«417300_j83468394430632_3_alg».proof.Proof.KI.Val3
import proofs.«417300_j83468394430632_3_alg».proof.Proof.KI.Val4
import proofs.«417300_j83468394430632_3_alg».proof.Proof.KI.Val5
import proofs.«417300_j83468394430632_3_alg».proof.Proof.KI.Val6
import proofs.«417300_j83468394430632_3_alg».proof.Proof.KI.Val7
import proofs.«417300_j83468394430632_3_alg».proof.Proof.KI.Val8
import proofs.«417300_j83468394430632_3_alg».proof.Proof.KI.Val9
import proofs.«417300_j83468394430632_3_alg».proof.Proof.Ref.RefOut
import proofs.«417300_j83468394430632_3_alg».proof.Proof.Ref.Run
import proofs.«417300_j83468394430632_3_alg».proof.Proof.Val.Pre

set_option maxRecDepth 16384

noncomputable section

namespace Cert.Proof.Alg

open Idealize.ShloMosaic Idealize.ShloMosaic.TcCoe Idealize.SL.Sem Idealize.ShloMosaic.ValueIdx

/-! ## Each launch's output array in the chain of valuations is the launch's function of what it reads -/

section KernelSide

open Cert.KernelIdeal Cert.KernelIdeal.Gen Cert.KernelIdeal.Hand Cert.KernelIdeal.HandVal

-- the launches' functions are compared by their arguments only, never opened (a sum over 640000 edges)
attribute [local irreducible] Cert.RegionFns.EncF Cert.RegionFns.MsgF Cert.RegionFns.AggF Cert.RegionFns.UpdF

variable (m : (ℓ : Loc nD τ sig) → Buf (Elt Ideal) ℓ) (c : Dev nD)

theorem h6 : outs m 6 main_v8 c = Cert.RegionFns.EncF (V5 m c main_arg0) (V5 m c main_arg2) (V5 m c main_v7) :=
  (outs_6 m c).trans (final0 (Vi0 m) c)
theorem h8 : outs m 8 main_v37 c = Cert.RegionFns.MsgF (V7 m (outs m) c main_v22) (V7 m (outs m) c main_v15) (V7 m (outs m) c main_arg1) (V7 m (outs m) c main_v24) (V7 m (outs m) c main_v27) (V7 m (outs m) c main_v30) (V7 m (outs m) c main_v33) (V7 m (outs m) c main_v36) := by
  rw [V7_eq m c]
  exact (outs_8 m c).trans (final1 (Vi1 m) c)
theorem h9 : outs m 9 main_v38 c = Cert.RegionFns.AggF (V8 m (outs m) c main_v6) (V8 m (outs m) c main_v37) := by
  rw [V8_eq m c]
  exact (outs_9 m c).trans (final2 (Vi2 m) c)
theorem h11 : outs m 11 main_v65 c = Cert.RegionFns.UpdF true (V10 m (outs m) c main_v8) (V10 m (outs m) c main_v39) (V10 m (outs m) c main_v42) (V10 m (outs m) c main_v44) (V10 m (outs m) c main_v47) (V10 m (outs m) c main_v50) (V10 m (outs m) c main_v53) (V10 m (outs m) c main_v55) (V10 m (outs m) c main_v58) (V10 m (outs m) c main_v61) (V10 m (outs m) c main_v64) := by
  rw [V10_eq m c]
  exact (outs_11 m c).trans (final3 (Vi3 m) c)
theorem h13 : outs m 13 main_v94 c = Cert.RegionFns.MsgF (V12 m (outs m) c main_v79) (V12 m (outs m) c main_v72) (V12 m (outs m) c main_arg1) (V12 m (outs m) c main_v81) (V12 m (outs m) c main_v84) (V12 m (outs m) c main_v87) (V12 m (outs m) c main_v90) (V12 m (outs m) c main_v93) := by
  rw [V12_eq m c]
  exact (outs_13 m c).trans (final4 (Vi4 m) c)
theorem h14 : outs m 14 main_v95 c = Cert.RegionFns.AggF (V13 m (outs m) c main_v6) (V13 m (outs m) c main_v94) := by
  rw [V13_eq m c]
  exact (outs_14 m c).trans (final5 (Vi5 m) c)
theorem h16 : outs m 16 main_v122 c = Cert.RegionFns.UpdF true (V15 m (outs m) c main_v65) (V15 m (outs m) c main_v96) (V15 m (outs m) c main_v99) (V15 m (outs m) c main_v101) (V15 m (outs m) c main_v104) (V15 m (outs m) c main_v107) (V15 m (outs m) c main_v110) (V15 m (outs m) c main_v112) (V15 m (outs m) c main_v115) (V15 m (outs m) c main_v118) (V15 m (outs m) c main_v121) := by
  rw [V15_eq m c]
  exact (outs_16 m c).trans (final6 (Vi6 m) c)
theorem h18 : outs m 18 main_v151 c = Cert.RegionFns.MsgF (V17 m (outs m) c main_v136) (V17 m (outs m) c main_v129) (V17 m (outs m) c main_arg1) (V17 m (outs m) c main_v138) (V17 m (outs m) c main_v141) (V17 m (outs m) c main_v144) (V17 m (outs m) c main_v147) (V17 m (outs m) c main_v150) := by
  rw [V17_eq m c]
  exact (outs_18 m c).trans (final7 (Vi7 m) c)
theorem h19 : outs m 19 main_v152 c = Cert.RegionFns.AggF (V18 m (outs m) c main_v6) (V18 m (outs m) c main_v151) := by
  rw [V18_eq m c]
  exact (outs_19 m c).trans (final8 (Vi8 m) c)
theorem h21 : outs m 21 main_v179 c = Cert.RegionFns.UpdF false (V20 m (outs m) c main_v122) (V20 m (outs m) c main_v153) (V20 m (outs m) c main_v156) (V20 m (outs m) c main_v158) (V20 m (outs m) c main_v161) (V20 m (outs m) c main_v164) (V20 m (outs m) c main_v167) (V20 m (outs m) c main_v169) (V20 m (outs m) c main_v172) (V20 m (outs m) c main_v175) (V20 m (outs m) c main_v178) := by
  rw [V20_eq m c]
  exact (outs_21 m c).trans (final9 (Vi9 m) c)

end KernelSide

/-! ## The claims -/

/-- The word-level kernel program runs and keeps its arguments. -/
theorem frame_K : Cert.frame_Kernel :=
  fun m ρ _ => Cert.Kernel.Hand.frame (F := Bits) m ρ

/-- The idealized kernel program runs and keeps its arguments. -/
theorem frame_KI : Cert.frame_KernelIdeal :=
  fun m ρ _ => Cert.KernelIdeal.Hand.frame (F := Ideal) m ρ

/-- The reference program runs and keeps its arguments: its run with the result forgotten. -/
theorem frame_R : Cert.frame_ReferenceIdeal :=
  fun m ρ _ => (θ_run Cert.ReferenceIdeal.defs _ _).mono (fun _ h c => (h c).2) (Cert.ReferenceIdeal.RunH.ref_run (F := Ideal) m ρ)

/-- From memories that agree on the arguments, of which the precondition holds, both idealized programs run and end
    with the same result array: each is the specified network of the arguments at the edges' source and target nodes. -/
theorem algebraic : Cert.algebraic_KernelIdeal_ReferenceIdeal := by
  intro m ρ m' ρ' hpre hagree
  refine ⟨fun c => Cert.KernelIdeal.Hand.outs m 21 Cert.KernelIdeal.main_v179 c, Cert.KernelIdeal.Hand.run_val (F := Ideal) m ρ, ?_⟩
  refine (θ_run Cert.ReferenceIdeal.defs _ _).mono (fun _ h c => ⟨(h c).1.trans ?_, (h c).2⟩)
    (Cert.ReferenceIdeal.RunH.ref_run (F := Ideal) m' ρ')
  -- the edges' source and target nodes, from the words of edge_index
  let src : Fin 640000 → Fin 40000 := fun e =>
    Cert.Spec.nodeOf (m ((c.tc : Thread Cert.KernelIdeal.nD Cert.KernelIdeal.τ).loc Cert.KernelIdeal.main_arg17) (ix2 0 e))
  let dst : Fin 640000 → Fin 40000 := fun e =>
    Cert.Spec.nodeOf (m ((c.tc : Thread Cert.KernelIdeal.nD Cert.KernelIdeal.τ).loc Cert.KernelIdeal.main_arg17) (ix2 1 e))
  have hs : ∀ e, m ((c.tc : Thread Cert.KernelIdeal.nD Cert.KernelIdeal.τ).loc Cert.KernelIdeal.main_arg17) (ix2 0 e) = BitVec.ofNat 32 (src e).val :=
    fun e => Cert.PreDecode.src_word (F := Ideal) _ _ _ _ _ _ _ _ _ _ _ _ _ _ _ _ _ _ (hpre c) e
  have hd : ∀ e, m ((c.tc : Thread Cert.KernelIdeal.nD Cert.KernelIdeal.τ).loc Cert.KernelIdeal.main_arg17) (ix2 1 e) = BitVec.ofNat 32 (dst e).val :=
    fun e => Cert.PreDecode.dst_word (F := Ideal) _ _ _ _ _ _ _ _ _ _ _ _ _ _ _ _ _ _ (hpre c) e
  obtain ⟨a0, a1, a2, a3, a4, a5, a6, a7, a8, a9, a10, a11, a12, a13, a14, a15, a16, a17⟩ := hagree c
  funext i
  obtain ⟨n, d, rfl⟩ : ∃ (n : Fin 40000) (d : Fin 128), i = ix2 n d := ⟨i 0, i 1, eq_ix2 i⟩
  have hk := Cert.KernelIdeal.HandVal.ker_out m (Cert.KernelIdeal.Hand.outs m) c src dst hs hd (h6 m c) (h8 m c) (h9 m c) (h11 m c)
    (h13 m c) (h14 m c) (h16 m c) (h18 m c) (h19 m c) (h21 m c) n d
  have hr := Cert.ReferenceIdeal.RefValue.ref_out
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))
    (m' ((c.tc : Thread Cert.ReferenceIdeal.nD Cert.ReferenceIdeal.τ).loc Cert.ReferenceIdeal.main_arg7))
    (m' ((c.tc : Thread Cert.ReferenceIdeal.nD Cert.ReferenceIdeal.τ).loc Cert.ReferenceIdeal.main_arg8))
    (m' ((c.tc : Thread Cert.ReferenceIdeal.nD Cert.ReferenceIdeal.τ).loc Cert.ReferenceIdeal.main_arg9))
    (m' ((c.tc : Thread Cert.ReferenceIdeal.nD Cert.ReferenceIdeal.τ).loc Cert.ReferenceIdeal.main_arg10))
    (m' ((c.tc : Thread Cert.ReferenceIdeal.nD Cert.ReferenceIdeal.τ).loc Cert.ReferenceIdeal.main_arg11))
    (m' ((c.tc : Thread Cert.ReferenceIdeal.nD Cert.ReferenceIdeal.τ).loc Cert.ReferenceIdeal.main_arg12))
    (m' ((c.tc : Thread Cert.ReferenceIdeal.nD Cert.ReferenceIdeal.τ).loc Cert.ReferenceIdeal.main_arg13))
    (m' ((c.tc : Thread Cert.ReferenceIdeal.nD Cert.ReferenceIdeal.τ).loc Cert.ReferenceIdeal.main_arg14))
    (m' ((c.tc : Thread Cert.ReferenceIdeal.nD Cert.ReferenceIdeal.τ).loc Cert.ReferenceIdeal.main_arg15))
    (m' ((c.tc : Thread Cert.ReferenceIdeal.nD Cert.ReferenceIdeal.τ).loc Cert.ReferenceIdeal.main_arg16))
    (m' ((c.tc : Thread Cert.ReferenceIdeal.nD Cert.ReferenceIdeal.τ).loc Cert.ReferenceIdeal.main_arg17))
    src dst (fun e => by rw [a17]; exact hs e) (fun e => by rw [a17]; exact hd e) n d
  refine hr.trans (Eq.trans ?_ hk.symm)
  unfold Cert.KernelIdeal.HandVal.kerParams
  rw [a0, a1, a2, a3, a4, a5, a6, a7, a8, a9, a10, a11, a12, a13, a14, a15, a16]

end Cert.Proof.Alg

end
-- ==== Proof.lean ====
/-
  The certificate's claim: the two kernel programs and the reference program run and keep their arguments
  (three frames), the idealized kernel program is the word-level one's idealization (no rewrite was applied, so
  there is nothing to preserve), and at the ideal instance the idealized kernel program and the reference
  program, run from memories that agree on the arguments and satisfy the precondition (finite float inputs, every
  word of edge_index a node number below 40000), end with equal result arrays. The parts are in Proof/Alg.lean.
-/
import proofs.«417300_j83468394430632_3_alg».proof.Defs
import proofs.«417300_j83468394430632_3_alg».proof.Proof.Gen.Kernel
import proofs.«417300_j83468394430632_3_alg».proof.Proof.Gen.KernelIdeal
import proofs.«417300_j83468394430632_3_alg».proof.Proof.Gen.ReferenceIdeal
import proofs.«417300_j83468394430632_3_alg».proof.Proof.Gen.Pre_finite_inputs
import proofs.«417300_j83468394430632_3_alg».proof.Proof.Alg

noncomputable section

namespace Cert.Proof

theorem claim : Cert.Claim := ⟨Cert.Kernel.Gen.facts, Cert.KernelIdeal.Gen.facts, Cert.ReferenceIdeal.Gen.facts, Cert.Pre_finite_inputs.Gen.facts,
  Cert.Proof.Alg.frame_K, Cert.Proof.Alg.frame_KI, Cert.Proof.Alg.frame_R, trivial, Cert.Proof.Alg.algebraic⟩

end Cert.Proof

end
